-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S128x10000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x24 : Shape := ⟨2, ![16384, 24]⟩
abbrev S24x10000x24x16 : Shape := ⟨4, ![24, 10000, 24, 16]⟩
abbrev S24x10000 : Shape := ⟨2, ![24, 10000]⟩
abbrev S1 : Shape := ⟨1, ![1]⟩
abbrev S276x128 : Shape := ⟨2, ![276, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S_ : Shape := ⟨0, ![]⟩

class Facts : Prop where
  bcast_S_S24x10000x24x16 : S_.BroadcastsInDim S24x10000x24x16 (![] : Fin 0 → Fin S24x10000x24x16.rank)
  reducesTo_S24x10000x24x16_S_d0_1_2_3 : S24x10000x24x16.ReducesTo [0, 1, 2, 3] S_
  h_S_ : 0 < S_.numel
  bcast_S_S24x10000 : S_.BroadcastsInDim S24x10000 (![] : Fin 0 → Fin S24x10000.rank)
  reducesTo_S24x10000_S_d0_1 : S24x10000.ReducesTo [0, 1] S_
  bcast_S_S1 : S_.BroadcastsInDim S1 (![] : Fin 0 → Fin S1.rank)
  reducesTo_S1_S_d0 : S1.ReducesTo [0] S_
  bcast_S_S276x128 : S_.BroadcastsInDim S276x128 (![] : Fin 0 → Fin S276x128.rank)
  reducesTo_S276x128_S_d0_1 : S276x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S16384x24 : S_.BroadcastsInDim S16384x24 (![] : Fin 0 → Fin S16384x24.rank)
  reducesTo_S16384x24_S_d0_1 : S16384x24.ReducesTo [0, 1] S_

variable [Facts]

def fn_part2 {F : FTy → Type} [FloatOps F] (main_arg0 : IVec S16384x24 32) (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S16384x24 32 := broadcastInDim S16384x24 ![] bcast_S_S16384x24 main_c_16
  let main_v45 : IVec S16384x24 1 := cmpi .sge main_arg0 main_v44
  let main_c_17 : IVec S_ 32 := constantI S_ 32 10000#32
  let main_v46 : IVec S16384x24 32 := broadcastInDim S16384x24 ![] bcast_S_S16384x24 main_c_17
  let main_v47 : IVec S16384x24 1 := cmpi .slt main_arg0 main_v46
  let main_v48 : IVec S16384x24 1 := andi main_v45 main_v47
  let main_c_18 : IVec S_ 1 := constantI S_ 1 1#1
  let main_v49 : IVec S_ 1 := (fun x v => Host.reduce IntOp.andi x v reducesTo_S16384x24_S_d0_1 h_S_) main_v48 main_c_18
  let main_v50 : IVec S_ 1 := andi main_v43 main_v49
  main_v50

def fn_part1 {F : FTy → Type} [FloatOps F] (main_arg0 : IVec S16384x24 32) (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S276x128 1) : IVec S_ 1 :=
  let main_c_5 : IVec S_ 1 := constantI S_ 1 1#1
  let main_v17 : IVec S_ 1 := (fun x v => Host.reduce IntOp.andi x v reducesTo_S276x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg8 main_arg9 main_v33

def fn {F : FTy → Type} [FloatOps F] (main_arg0 : IVec S16384x24 32) (main_arg1 : FVec F S24x10000x24x16 .f32) (main_arg2 : FVec F S24x10000 .f32) (main_arg3 : FVec F S1 .f32) (main_arg4 : FVec F S276x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S24x10000x24x16 .f32 := Host.absf main_arg1
  let main_cst : FVec F S_ .f32 := constant S_ .f32 0x7F800000#32
  let main_v1 : FVec F S24x10000x24x16 .f32 := broadcastInDim S24x10000x24x16 ![] bcast_S_S24x10000x24x16 main_cst
  let main_v2 : IVec S24x10000x24x16 1 := cmpf .olt main_v0 main_v1
  let main_c : IVec S_ 1 := constantI S_ 1 1#1
  let main_v3 : IVec S_ 1 := (fun x v => Host.reduce IntOp.andi x v reducesTo_S24x10000x24x16_S_d0_1_2_3 h_S_) main_v2 main_c
  let main_v4 : FVec F S24x10000 .f32 := Host.absf main_arg2
  let main_cst_0 : FVec F S_ .f32 := constant S_ .f32 0x7F800000#32
  let main_v5 : FVec F S24x10000 .f32 := broadcastInDim S24x10000 ![] bcast_S_S24x10000 main_cst_0
  let main_v6 : IVec S24x10000 1 := cmpf .olt main_v4 main_v5
  let main_c_1 : IVec S_ 1 := constantI S_ 1 1#1
  let main_v7 : IVec S_ 1 := (fun x v => Host.reduce IntOp.andi x v reducesTo_S24x10000_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S276x128 .f32 := Host.absf main_arg4
  let main_cst_4 : FVec F S_ .f32 := constant S_ .f32 0x7F800000#32
  let main_v15 : FVec F S276x128 .f32 := broadcastInDim S276x128 ![] bcast_S_S276x128 main_cst_4
  let main_v16 : IVec S276x128 1 := cmpf .olt main_v14 main_v15
  fn_part1 (F := F) main_arg0 main_arg5 main_arg6 main_arg7 main_arg8 main_arg9 main_v13 main_v16
-- ==== Kernel.lean ====
abbrev S16384x24 : Shape := ⟨2, ![16384, 24]⟩
abbrev S24x10000x24x16 : Shape := ⟨4, ![24, 10000, 24, 16]⟩
abbrev S24x10000 : Shape := ⟨2, ![24, 10000]⟩
abbrev S1 : Shape := ⟨1, ![1]⟩
abbrev S276x128 : Shape := ⟨2, ![276, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S24x16384 : Shape := ⟨2, ![24, 16384]⟩
abbrev S24x1x16384 : Shape := ⟨3, ![24, 1, 16384]⟩
abbrev S24x10000x384 : Shape := ⟨3, ![24, 10000, 384]⟩
abbrev S24x1x10000 : Shape := ⟨3, ![24, 1, 10000]⟩
abbrev S16384x1 : Shape := ⟨2, ![16384, 1]⟩
abbrev S1x1x128 : Shape := ⟨3, ![1, 1, 128]⟩
abbrev S1x10000x384 : Shape := ⟨3, ![1, 10000, 384]⟩
abbrev S1x1x10000 : Shape := ⟨3, ![1, 1, 10000]⟩
abbrev S128x1 : Shape := ⟨2, ![128, 1]⟩
abbrev S24x128x384 : Shape := ⟨3, ![24, 128, 384]⟩
abbrev S128x10000 : Shape := ⟨2, ![128, 10000]⟩
abbrev S10000x384 : Shape := ⟨2, ![10000, 384]⟩
abbrev S128x384 : Shape := ⟨2, ![128, 384]⟩
abbrev S1x128x384 : Shape := ⟨3, ![1, 128, 384]⟩
abbrev S10000 : Shape := ⟨1, ![10000]⟩
abbrev S1x10000 : Shape := ⟨2, ![1, 10000]⟩
abbrev S1x128x16 : Shape := ⟨3, ![1, 128, 16]⟩
abbrev S128x16 : Shape := ⟨2, ![128, 16]⟩
abbrev S128x276 : Shape := ⟨2, ![128, 276]⟩
abbrev S128x128 : Shape := ⟨2, ![128, 128]⟩
abbrev S1x128 : Shape := ⟨2, ![1, 128]⟩
abbrev S1x64 : Shape := ⟨2, ![1, 64]⟩
abbrev S1x1 : Shape := ⟨2, ![1, 1]⟩

abbrev nBuf : Space → Nat
  | .hbm => 16
  | .vmem => 17
  | .smem => 0
  | _ => 0

abbrev bufTy : (tb : Table) → Fin (tcTables nBuf tb) → BufTy
  | .hbm, ⟨0, _⟩ => ⟨S16384x24, .i32⟩
  | .hbm, ⟨1, _⟩ => ⟨S24x10000x24x16, .f32⟩
  | .hbm, ⟨2, _⟩ => ⟨S24x10000, .f32⟩
  | .hbm, ⟨3, _⟩ => ⟨S1, .f32⟩
  | .hbm, ⟨4, _⟩ => ⟨S276x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S24x16384, .i32⟩
  | .hbm, ⟨11, _⟩ => ⟨S24x1x16384, .i32⟩
  | .hbm, ⟨12, _⟩ => ⟨S24x10000x384, .f32⟩
  | .hbm, ⟨13, _⟩ => ⟨S24x10000x384, .bf16⟩
  | .hbm, ⟨14, _⟩ => ⟨S24x1x10000, .f32⟩
  | .hbm, ⟨15, _⟩ => ⟨S16384x1, .f32⟩
  | .local _ .vmem, ⟨0, _⟩ => ⟨S1x1x128, .i32⟩
  | .local _ .vmem, ⟨1, _⟩ => ⟨S1x1x128, .i32⟩
  | .local _ .vmem, ⟨2, _⟩ => ⟨S1x10000x384, .bf16⟩
  | .local _ .vmem, ⟨3, _⟩ => ⟨S1x10000x384, .bf16⟩
  | .local _ .vmem, ⟨4, _⟩ => ⟨S1x1x10000, .f32⟩
  | .local _ .vmem, ⟨5, _⟩ => ⟨S1x1x10000, .f32⟩
  | .local _ .vmem, ⟨6, _⟩ => ⟨S1, .f32⟩
  | .local _ .vmem, ⟨7, _⟩ => ⟨S276x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S64x1, .f32⟩
  | .local _ .vmem, ⟨12, _⟩ => ⟨S1, .f32⟩
  | .local _ .vmem, ⟨13, _⟩ => ⟨S128x1, .f32⟩
  | .local _ .vmem, ⟨14, _⟩ => ⟨S128x1, .f32⟩
  | .local _ .vmem, ⟨15, _⟩ => ⟨S24x128x384, .bf16⟩
  | .local _ .vmem, ⟨16, _⟩ => ⟨S128x1, .f32⟩
  | _, _ => ⟨S16384x24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![128, 24], ![false, false]⟩

def k0_off1 (i : grid0.Coords) : Fin 3 → Nat :=
  let arg1 : BitVec 32 := BitVec.ofNat 32 (i 1).val
  let v16 : Index := Scalar.indexCast arg1
  let c0_6 : Index := 0#32
  let c0_7 : Index := 0#32
  ![v16.toNat, 0, 0]
def k0_cond2 (i : grid0.Coords) : BitVec 1 :=
  let arg1 : BitVec 32 := BitVec.ofNat 32 (i 1).val
  let c23_i32 : BitVec 32 := 23#32
  let v33 : BitVec 1 := Scalar.cmpi .eq arg1 c23_i32
  let v34 : BitVec 32 := Scalar.extui v33
  let c0_i32_16 : BitVec 32 := 0#32
  let v35 : BitVec 1 := Scalar.cmpi .ne v34 c0_i32_16
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10000x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S276x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  transposes_S16384x24_S24x16384_1_0 : S16384x24.Transposes [1, 0] S24x16384
  shapeCasts_S24x16384_S24x1x16384 : S24x16384.ShapeCasts S24x1x16384
  shapeCasts_S24x10000x24x16_S24x10000x384 : S24x10000x24x16.ShapeCasts S24x10000x384
  bitsLt_bf16_f32 : FTy.bits .bf16 < FTy.bits .f32
  shapeCasts_S24x10000_S24x1x10000 : S24x10000.ShapeCasts S24x1x10000
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  iota_S128x10000_d1_w32 : S128x10000.Iotas .tc 32 [1]
  shapeCasts_S128_S128x1 : S128.ShapeCasts S128x1
  broadcasts_S128x1_S128x10000 : S128x1.Broadcasts S128x10000
  natLt_1_32 : 1 < 32
  inb_S1x10000x384_S1x10000x384_0_0_0 : ∀ a, (![0, 0, 0] : Fin 3 → Nat) a + S1x10000x384.size a ≤ S1x10000x384.size a
  h_S1x10000x384 : 0 < S1x10000x384.numel
  shapeCasts_S1x10000x384_S10000x384 : S1x10000x384.ShapeCasts S10000x384
  h_S1x128x384 : 0 < S1x128x384.numel
  shapeCasts_S1x128x384_S128x384 : S1x128x384.ShapeCasts S128x384
  shapeCasts_S128x384_S1x128x384 : S128x384.ShapeCasts S1x128x384
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S10000 : S1x1x10000.ShapeCasts S10000
  shapeCasts_S10000_S1x10000 : S10000.ShapeCasts S1x10000
  broadcasts_S1x10000_S128x10000 : S1x10000.Broadcasts S128x10000
  reduces_S128x10000_S128 : S128x10000.Reduces [1] S128
  inb_S24x128x384_S1x128x16_0_0_16 : ∀ a, (![0, 0, 16] : Fin 3 → Nat) a + S1x128x16.size a ≤ S24x128x384.size a
  h_S1x128x16 : 0 < S1x128x16.numel
  shapeCasts_S1x128x16_S128x16 : S1x128x16.ShapeCasts S128x16
  inb_S24x128x384_S1x128x16_1_0_0 : ∀ a, (![1, 0, 0] : Fin 3 → Nat) a + S1x128x16.size a ≤ S24x128x384.size a
  reduces_S128x16_S128 : S128x16.Reduces [1] S128
  inb_S24x128x384_S1x128x16_0_0_32 : ∀ a, (![0, 0, 32] : Fin 3 → Nat) a + S1x128x16.size a ≤ S24x128x384.size a
  inb_S24x128x384_S1x128x16_2_0_0 : ∀ a, (![2, 0, 0] : Fin 3 → Nat) a + S1x128x16.size a ≤ S24x128x384.size a
  inb_S24x128x384_S1x128x16_0_0_48 : ∀ a, (![0, 0, 48] : Fin 3 → Nat) a + S1x128x16.size a ≤ S24x128x384.size a
  inb_S24x128x384_S1x128x16_3_0_0 : ∀ a, (![3, 0, 0] : Fin 3 → Nat) a + S1x128x16.size a ≤ S24x128x384.size a
  inb_S24x128x384_S1x128x16_0_0_64 : ∀ a, (![0, 0, 64] : Fin 3 → Nat) a + S1x128x16.size a ≤ S24x128x384.size a
  inb_S24x128x384_S1x128x16_4_0_0 : ∀ a, (![4, 0, 0] : Fin 3 → Nat) a + S1x128x16.size a ≤ S24x128x384.size a
  inb_S24x128x384_S1x128x16_0_0_80 : ∀ a, (![0, 0, 80] : Fin 3 → Nat) a + S1x128x16.size a ≤ S24x128x384.size a
  inb_S24x128x384_S1x128x16_5_0_0 : ∀ a, (![5, 0, 0] : Fin 3 → Nat) a + S1x128x16.size a ≤ S24x128x384.size a
  inb_S24x128x384_S1x128x16_0_0_96 : ∀ a, (![0, 0, 96] : Fin 3 → Nat) a + S1x128x16.size a ≤ S24x128x384.size a
  inb_S24x128x384_S1x128x16_6_0_0 : ∀ a, (![6, 0, 0] : Fin 3 → Nat) a + S1x128x16.size a ≤ S24x128x384.size a
  inb_S24x128x384_S1x128x16_0_0_112 : ∀ a, (![0, 0, 112] : Fin 3 → Nat) a + S1x128x16.size a ≤ S24x128x384.size a
  inb_S24x128x384_S1x128x16_7_0_0 : ∀ a, (![7, 0, 0] : Fin 3 → Nat) a + S1x128x16.size a ≤ S24x128x384.size a
  inb_S24x128x384_S1x128x16_0_0_128 : ∀ a, (![0, 0, 128] : Fin 3 → Nat) a + S1x128x16.size a ≤ S24x128x384.size a
  inb_S24x128x384_S1x128x16_8_0_0 : ∀ a, (![8, 0, 0] : Fin 3 → Nat) a + S1x128x16.size a ≤ S24x128x384.size a
  inb_S24x128x384_S1x128x16_0_0_144 : ∀ a, (![0, 0, 144] : Fin 3 → Nat) a + S1x128x16.size a ≤ S24x128x384.size a
  inb_S24x128x384_S1x128x16_9_0_0 : ∀ a, (![9, 0, 0] : Fin 3 → Nat) a + S1x128x16.size a ≤ S24x128x384.size a
  inb_S24x128x384_S1x128x16_0_0_160 : ∀ a, (![0, 0, 160] : Fin 3 → Nat) a + S1x128x16.size a ≤ S24x128x384.size a
  inb_S24x128x384_S1x128x16_10_0_0 : ∀ a, (![10, 0, 0] : Fin 3 → Nat) a + S1x128x16.size a ≤ S24x128x384.size a
  inb_S24x128x384_S1x128x16_0_0_176 : ∀ a, (![0, 0, 176] : Fin 3 → Nat) a + S1x128x16.size a ≤ S24x128x384.size a
  inb_S24x128x384_S1x128x16_11_0_0 : ∀ a, (![11, 0, 0] : Fin 3 → Nat) a + S1x128x16.size a ≤ S24x128x384.size a
  inb_S24x128x384_S1x128x16_0_0_192 : ∀ a, (![0, 0, 192] : Fin 3 → Nat) a + S1x128x16.size a ≤ S24x128x384.size a
  inb_S24x128x384_S1x128x16_12_0_0 : ∀ a, (![12, 0, 0] : Fin 3 → Nat) a + S1x128x16.size a ≤ S24x128x384.size a
  inb_S24x128x384_S1x128x16_0_0_208 : ∀ a, (![0, 0, 208] : Fin 3 → Nat) a + S1x128x16.size a ≤ S24x128x384.size a
  inb_S24x128x384_S1x128x16_13_0_0 : ∀ a, (![13, 0, 0] : Fin 3 → Nat) a + S1x128x16.size a ≤ S24x128x384.size a
  inb_S24x128x384_S1x128x16_0_0_224 : ∀ a, (![0, 0, 224] : Fin 3 → Nat) a + S1x128x16.size a ≤ S24x128x384.size a
  inb_S24x128x384_S1x128x16_14_0_0 : ∀ a, (![14, 0, 0] : Fin 3 → Nat) a + S1x128x16.size a ≤ S24x128x384.size a
  inb_S24x128x384_S1x128x16_0_0_240 : ∀ a, (![0, 0, 240] : Fin 3 → Nat) a + S1x128x16.size a ≤ S24x128x384.size a
  inb_S24x128x384_S1x128x16_15_0_0 : ∀ a, (![15, 0, 0] : Fin 3 → Nat) a + S1x128x16.size a ≤ S24x128x384.size a
  inb_S24x128x384_S1x128x16_0_0_256 : ∀ a, (![0, 0, 256] : Fin 3 → Nat) a + S1x128x16.size a ≤ S24x128x384.size a
  inb_S24x128x384_S1x128x16_16_0_0 : ∀ a, (![16, 0, 0] : Fin 3 → Nat) a + S1x128x16.size a ≤ S24x128x384.size a
  inb_S24x128x384_S1x128x16_0_0_272 : ∀ a, (![0, 0, 272] : Fin 3 → Nat) a + S1x128x16.size a ≤ S24x128x384.size a
  inb_S24x128x384_S1x128x16_17_0_0 : ∀ a, (![17, 0, 0] : Fin 3 → Nat) a + S1x128x16.size a ≤ S24x128x384.size a
  inb_S24x128x384_S1x128x16_0_0_288 : ∀ a, (![0, 0, 288] : Fin 3 → Nat) a + S1x128x16.size a ≤ S24x128x384.size a
  inb_S24x128x384_S1x128x16_18_0_0 : ∀ a, (![18, 0, 0] : Fin 3 → Nat) a + S1x128x16.size a ≤ S24x128x384.size a
  inb_S24x128x384_S1x128x16_0_0_304 : ∀ a, (![0, 0, 304] : Fin 3 → Nat) a + S1x128x16.size a ≤ S24x128x384.size a
  inb_S24x128x384_S1x128x16_19_0_0 : ∀ a, (![19, 0, 0] : Fin 3 → Nat) a + S1x128x16.size a ≤ S24x128x384.size a
  inb_S24x128x384_S1x128x16_0_0_320 : ∀ a, (![0, 0, 320] : Fin 3 → Nat) a + S1x128x16.size a ≤ S24x128x384.size a
  inb_S24x128x384_S1x128x16_20_0_0 : ∀ a, (![20, 0, 0] : Fin 3 → Nat) a + S1x128x16.size a ≤ S24x128x384.size a
  inb_S24x128x384_S1x128x16_0_0_336 : ∀ a, (![0, 0, 336] : Fin 3 → Nat) a + S1x128x16.size a ≤ S24x128x384.size a
  inb_S24x128x384_S1x128x16_21_0_0 : ∀ a, (![21, 0, 0] : Fin 3 → Nat) a + S1x128x16.size a ≤ S24x128x384.size a
  inb_S24x128x384_S1x128x16_0_0_352 : ∀ a, (![0, 0, 352] : Fin 3 → Nat) a + S1x128x16.size a ≤ S24x128x384.size a
  inb_S24x128x384_S1x128x16_22_0_0 : ∀ a, (![22, 0, 0] : Fin 3 → Nat) a + S1x128x16.size a ≤ S24x128x384.size a
  inb_S24x128x384_S1x128x16_0_0_368 : ∀ a, (![0, 0, 368] : Fin 3 → Nat) a + S1x128x16.size a ≤ S24x128x384.size a
  inb_S24x128x384_S1x128x16_23_0_0 : ∀ a, (![23, 0, 0] : Fin 3 → Nat) a + S1x128x16.size a ≤ S24x128x384.size a
  inb_S24x128x384_S1x128x16_1_0_32 : ∀ a, (![1, 0, 32] : Fin 3 → Nat) a + S1x128x16.size a ≤ S24x128x384.size a
  inb_S24x128x384_S1x128x16_2_0_16 : ∀ a, (![2, 0, 16] : Fin 3 → Nat) a + S1x128x16.size a ≤ S24x128x384.size a
  inb_S24x128x384_S1x128x16_1_0_48 : ∀ a, (![1, 0, 48] : Fin 3 → Nat) a + S1x128x16.size a ≤ S24x128x384.size a
  inb_S24x128x384_S1x128x16_3_0_16 : ∀ a, (![3, 0, 16] : Fin 3 → Nat) a + S1x128x16.size a ≤ S24x128x384.size a
  inb_S24x128x384_S1x128x16_1_0_64 : ∀ a, (![1, 0, 64] : Fin 3 → Nat) a + S1x128x16.size a ≤ S24x128x384.size a
  inb_S24x128x384_S1x128x16_4_0_16 : ∀ a, (![4, 0, 16] : Fin 3 → Nat) a + S1x128x16.size a ≤ S24x128x384.size a
  inb_S24x128x384_S1x128x16_1_0_80 : ∀ a, (![1, 0, 80] : Fin 3 → Nat) a + S1x128x16.size a ≤ S24x128x384.size a
  inb_S24x128x384_S1x128x16_5_0_16 : ∀ a, (![5, 0, 16] : Fin 3 → Nat) a + S1x128x16.size a ≤ S24x128x384.size a
  inb_S24x128x384_S1x128x16_1_0_96 : ∀ a, (![1, 0, 96] : Fin 3 → Nat) a + S1x128x16.size a ≤ S24x128x384.size a
  inb_S24x128x384_S1x128x16_6_0_16 : ∀ a, (![6, 0, 16] : Fin 3 → Nat) a + S1x128x16.size a ≤ S24x128x384.size a
  inb_S24x128x384_S1x128x16_1_0_112 : ∀ a, (![1, 0, 112] : Fin 3 → Nat) a + S1x128x16.size a ≤ S24x128x384.size a
  inb_S24x128x384_S1x128x16_7_0_16 : ∀ a, (![7, 0, 16] : Fin 3 → Nat) a + S1x128x16.size a ≤ S24x128x384.size a
  inb_S24x128x384_S1x128x16_1_0_128 : ∀ a, (![1, 0, 128] : Fin 3 → Nat) a + S1x128x16.size a ≤ S24x128x384.size a
  inb_S24x128x384_S1x128x16_8_0_16 : ∀ a, (![8, 0, 16] : Fin 3 → Nat) a + S1x128x16.size a ≤ S24x128x384.size a
  inb_S24x128x384_S1x128x16_1_0_144 : ∀ a, (![1, 0, 144] : Fin 3 → Nat) a + S1x128x16.size a ≤ S24x128x384.size a
  inb_S24x128x384_S1x128x16_9_0_16 : ∀ a, (![9, 0, 16] : Fin 3 → Nat) a + S1x128x16.size a ≤ S24x128x384.size a
  inb_S24x128x384_S1x128x16_1_0_160 : ∀ a, (![1, 0, 160] : Fin 3 → Nat) a + S1x128x16.size a ≤ S24x128x384.size a
  inb_S24x128x384_S1x128x16_10_0_16 : ∀ a, (![10, 0, 16] : Fin 3 → Nat) a + S1x128x16.size a ≤ S24x128x384.size a
  inb_S24x128x384_S1x128x16_1_0_176 : ∀ a, (![1, 0, 176] : Fin 3 → Nat) a + S1x128x16.size a ≤ S24x128x384.size a
  inb_S24x128x384_S1x128x16_11_0_16 : ∀ a, (![11, 0, 16] : Fin 3 → Nat) a + S1x128x16.size a ≤ S24x128x384.size a
  inb_S24x128x384_S1x128x16_1_0_192 : ∀ a, (![1, 0, 192] : Fin 3 → Nat) a + S1x128x16.size a ≤ S24x128x384.size a
  inb_S24x128x384_S1x128x16_12_0_16 : ∀ a, (![12, 0, 16] : Fin 3 → Nat) a + S1x128x16.size a ≤ S24x128x384.size a
  inb_S24x128x384_S1x128x16_1_0_208 : ∀ a, (![1, 0, 208] : Fin 3 → Nat) a + S1x128x16.size a ≤ S24x128x384.size a
  inb_S24x128x384_S1x128x16_13_0_16 : ∀ a, (![13, 0, 16] : Fin 3 → Nat) a + S1x128x16.size a ≤ S24x128x384.size a
  inb_S24x128x384_S1x128x16_1_0_224 : ∀ a, (![1, 0, 224] : Fin 3 → Nat) a + S1x128x16.size a ≤ S24x128x384.size a
  inb_S24x128x384_S1x128x16_14_0_16 : ∀ a, (![14, 0, 16] : Fin 3 → Nat) a + S1x128x16.size a ≤ S24x128x384.size a
  inb_S24x128x384_S1x128x16_1_0_240 : ∀ a, (![1, 0, 240] : Fin 3 → Nat) a + S1x128x16.size a ≤ S24x128x384.size a
  inb_S24x128x384_S1x128x16_15_0_16 : ∀ a, (![15, 0, 16] : Fin 3 → Nat) a + S1x128x16.size a ≤ S24x128x384.size a
  inb_S24x128x384_S1x128x16_1_0_256 : ∀ a, (![1, 0, 256] : Fin 3 → Nat) a + S1x128x16.size a ≤ S24x128x384.size a
  inb_S24x128x384_S1x128x16_16_0_16 : ∀ a, (![16, 0, 16] : Fin 3 → Nat) a + S1x128x16.size a ≤ S24x128x384.size a
  inb_S24x128x384_S1x128x16_1_0_272 : ∀ a, (![1, 0, 272] : Fin 3 → Nat) a + S1x128x16.size a ≤ S24x128x384.size a
  inb_S24x128x384_S1x128x16_17_0_16 : ∀ a, (![17, 0, 16] : Fin 3 → Nat) a + S1x128x16.size a ≤ S24x128x384.size a
  inb_S24x128x384_S1x128x16_1_0_288 : ∀ a, (![1, 0, 288] : Fin 3 → Nat) a + S1x128x16.size a ≤ S24x128x384.size a
  inb_S24x128x384_S1x128x16_18_0_16 : ∀ a, (![18, 0, 16] : Fin 3 → Nat) a + S1x128x16.size a ≤ S24x128x384.size a
  inb_S24x128x384_S1x128x16_1_0_304 : ∀ a, (![1, 0, 304] : Fin 3 → Nat) a + S1x128x16.size a ≤ S24x128x384.size a
  inb_S24x128x384_S1x128x16_19_0_16 : ∀ a, (![19, 0, 16] : Fin 3 → Nat) a + S1x128x16.size a ≤ S24x128x384.size a
  inb_S24x128x384_S1x128x16_1_0_320 : ∀ a, (![1, 0, 320] : Fin 3 → Nat) a + S1x128x16.size a ≤ S24x128x384.size a
  inb_S24x128x384_S1x128x16_20_0_16 : ∀ a, (![20, 0, 16] : Fin 3 → Nat) a + S1x128x16.size a ≤ S24x128x384.size a
  inb_S24x128x384_S1x128x16_1_0_336 : ∀ a, (![1, 0, 336] : Fin 3 → Nat) a + S1x128x16.size a ≤ S24x128x384.size a
  inb_S24x128x384_S1x128x16_21_0_16 : ∀ a, (![21, 0, 16] : Fin 3 → Nat) a + S1x128x16.size a ≤ S24x128x384.size a
  inb_S24x128x384_S1x128x16_1_0_352 : ∀ a, (![1, 0, 352] : Fin 3 → Nat) a + S1x128x16.size a ≤ S24x128x384.size a
  inb_S24x128x384_S1x128x16_22_0_16 : ∀ a, (![22, 0, 16] : Fin 3 → Nat) a + S1x128x16.size a ≤ S24x128x384.size a
  inb_S24x128x384_S1x128x16_1_0_368 : ∀ a, (![1, 0, 368] : Fin 3 → Nat) a + S1x128x16.size a ≤ S24x128x384.size a
  inb_S24x128x384_S1x128x16_23_0_16 : ∀ a, (![23, 0, 16] : Fin 3 → Nat) a + S1x128x16.size a ≤ S24x128x384.size a
  inb_S24x128x384_S1x128x16_2_0_48 : ∀ a, (![2, 0, 48] : Fin 3 → Nat) a + S1x128x16.size a ≤ S24x128x384.size a
  inb_S24x128x384_S1x128x16_3_0_32 : ∀ a, (![3, 0, 32] : Fin 3 → Nat) a + S1x128x16.size a ≤ S24x128x384.size a
  inb_S24x128x384_S1x128x16_2_0_64 : ∀ a, (![2, 0, 64] : Fin 3 → Nat) a + S1x128x16.size a ≤ S24x128x384.size a
  inb_S24x128x384_S1x128x16_4_0_32 : ∀ a, (![4, 0, 32] : Fin 3 → Nat) a + S1x128x16.size a ≤ S24x128x384.size a
  inb_S24x128x384_S1x128x16_2_0_80 : ∀ a, (![2, 0, 80] : Fin 3 → Nat) a + S1x128x16.size a ≤ S24x128x384.size a
  inb_S24x128x384_S1x128x16_5_0_32 : ∀ a, (![5, 0, 32] : Fin 3 → Nat) a + S1x128x16.size a ≤ S24x128x384.size a
  inb_S24x128x384_S1x128x16_2_0_96 : ∀ a, (![2, 0, 96] : Fin 3 → Nat) a + S1x128x16.size a ≤ S24x128x384.size a
  inb_S24x128x384_S1x128x16_6_0_32 : ∀ a, (![6, 0, 32] : Fin 3 → Nat) a + S1x128x16.size a ≤ S24x128x384.size a
  inb_S24x128x384_S1x128x16_2_0_112 : ∀ a, (![2, 0, 112] : Fin 3 → Nat) a + S1x128x16.size a ≤ S24x128x384.size a
  inb_S24x128x384_S1x128x16_7_0_32 : ∀ a, (![7, 0, 32] : Fin 3 → Nat) a + S1x128x16.size a ≤ S24x128x384.size a
  inb_S24x128x384_S1x128x16_2_0_128 : ∀ a, (![2, 0, 128] : Fin 3 → Nat) a + S1x128x16.size a ≤ S24x128x384.size a
  inb_S24x128x384_S1x128x16_8_0_32 : ∀ a, (![8, 0, 32] : Fin 3 → Nat) a + S1x128x16.size a ≤ S24x128x384.size a
  inb_S24x128x384_S1x128x16_2_0_144 : ∀ a, (![2, 0, 144] : Fin 3 → Nat) a + S1x128x16.size a ≤ S24x128x384.size a
  inb_S24x128x384_S1x128x16_9_0_32 : ∀ a, (![9, 0, 32] : Fin 3 → Nat) a + S1x128x16.size a ≤ S24x128x384.size a
  inb_S24x128x384_S1x128x16_2_0_160 : ∀ a, (![2, 0, 160] : Fin 3 → Nat) a + S1x128x16.size a ≤ S24x128x384.size a
  inb_S24x128x384_S1x128x16_10_0_32 : ∀ a, (![10, 0, 32] : Fin 3 → Nat) a + S1x128x16.size a ≤ S24x128x384.size a
  inb_S24x128x384_S1x128x16_2_0_176 : ∀ a, (![2, 0, 176] : Fin 3 → Nat) a + S1x128x16.size a ≤ S24x128x384.size a
  inb_S24x128x384_S1x128x16_11_0_32 : ∀ a, (![11, 0, 32] : Fin 3 → Nat) a + S1x128x16.size a ≤ S24x128x384.size a
  inb_S24x128x384_S1x128x16_2_0_192 : ∀ a, (![2, 0, 192] : Fin 3 → Nat) a + S1x128x16.size a ≤ S24x128x384.size a
  inb_S24x128x384_S1x128x16_12_0_32 : ∀ a, (![12, 0, 32] : Fin 3 → Nat) a + S1x128x16.size a ≤ S24x128x384.size a
  inb_S24x128x384_S1x128x16_2_0_208 : ∀ a, (![2, 0, 208] : Fin 3 → Nat) a + S1x128x16.size a ≤ S24x128x384.size a
  inb_S24x128x384_S1x128x16_13_0_32 : ∀ a, (![13, 0, 32] : Fin 3 → Nat) a + S1x128x16.size a ≤ S24x128x384.size a
  inb_S24x128x384_S1x128x16_2_0_224 : ∀ a, (![2, 0, 224] : Fin 3 → Nat) a + S1x128x16.size a ≤ S24x128x384.size a
  inb_S24x128x384_S1x128x16_14_0_32 : ∀ a, (![14, 0, 32] : Fin 3 → Nat) a + S1x128x16.size a ≤ S24x128x384.size a
  inb_S24x128x384_S1x128x16_2_0_240 : ∀ a, (![2, 0, 240] : Fin 3 → Nat) a + S1x128x16.size a ≤ S24x128x384.size a
  inb_S24x128x384_S1x128x16_15_0_32 : ∀ a, (![15, 0, 32] : Fin 3 → Nat) a + S1x128x16.size a ≤ S24x128x384.size a
  inb_S24x128x384_S1x128x16_2_0_256 : ∀ a, (![2, 0, 256] : Fin 3 → Nat) a + S1x128x16.size a ≤ S24x128x384.size a
  inb_S24x128x384_S1x128x16_16_0_32 : ∀ a, (![16, 0, 32] : Fin 3 → Nat) a + S1x128x16.size a ≤ S24x128x384.size a
  inb_S24x128x384_S1x128x16_2_0_272 : ∀ a, (![2, 0, 272] : Fin 3 → Nat) a + S1x128x16.size a ≤ S24x128x384.size a
  inb_S24x128x384_S1x128x16_17_0_32 : ∀ a, (![17, 0, 32] : Fin 3 → Nat) a + S1x128x16.size a ≤ S24x128x384.size a
  inb_S24x128x384_S1x128x16_2_0_288 : ∀ a, (![2, 0, 288] : Fin 3 → Nat) a + S1x128x16.size a ≤ S24x128x384.size a
  inb_S24x128x384_S1x128x16_18_0_32 : ∀ a, (![18, 0, 32] : Fin 3 → Nat) a + S1x128x16.size a ≤ S24x128x384.size a
  inb_S24x128x384_S1x128x16_2_0_304 : ∀ a, (![2, 0, 304] : Fin 3 → Nat) a + S1x128x16.size a ≤ S24x128x384.size a
  inb_S24x128x384_S1x128x16_19_0_32 : ∀ a, (![19, 0, 32] : Fin 3 → Nat) a + S1x128x16.size a ≤ S24x128x384.size a
  inb_S24x128x384_S1x128x16_2_0_320 : ∀ a, (![2, 0, 320] : Fin 3 → Nat) a + S1x128x16.size a ≤ S24x128x384.size a
  inb_S24x128x384_S1x128x16_20_0_32 : ∀ a, (![20, 0, 32] : Fin 3 → Nat) a + S1x128x16.size a ≤ S24x128x384.size a
  inb_S24x128x384_S1x128x16_2_0_336 : ∀ a, (![2, 0, 336] : Fin 3 → Nat) a + S1x128x16.size a ≤ S24x128x384.size a
  inb_S24x128x384_S1x128x16_21_0_32 : ∀ a, (![21, 0, 32] : Fin 3 → Nat) a + S1x128x16.size a ≤ S24x128x384.size a
  inb_S24x128x384_S1x128x16_2_0_352 : ∀ a, (![2, 0, 352] : Fin 3 → Nat) a + S1x128x16.size a ≤ S24x128x384.size a
  inb_S24x128x384_S1x128x16_22_0_32 : ∀ a, (![22, 0, 32] : Fin 3 → Nat) a + S1x128x16.size a ≤ S24x128x384.size a
  inb_S24x128x384_S1x128x16_2_0_368 : ∀ a, (![2, 0, 368] : Fin 3 → Nat) a + S1x128x16.size a ≤ S24x128x384.size a
  inb_S24x128x384_S1x128x16_23_0_32 : ∀ a, (![23, 0, 32] : Fin 3 → Nat) a + S1x128x16.size a ≤ S24x128x384.size a
  inb_S24x128x384_S1x128x16_3_0_64 : ∀ a, (![3, 0, 64] : Fin 3 → Nat) a + S1x128x16.size a ≤ S24x128x384.size a
  inb_S24x128x384_S1x128x16_4_0_48 : ∀ a, (![4, 0, 48] : Fin 3 → Nat) a + S1x128x16.size a ≤ S24x128x384.size a
  inb_S24x128x384_S1x128x16_3_0_80 : ∀ a, (![3, 0, 80] : Fin 3 → Nat) a + S1x128x16.size a ≤ S24x128x384.size a
  inb_S24x128x384_S1x128x16_5_0_48 : ∀ a, (![5, 0, 48] : Fin 3 → Nat) a + S1x128x16.size a ≤ S24x128x384.size a
  inb_S24x128x384_S1x128x16_3_0_96 : ∀ a, (![3, 0, 96] : Fin 3 → Nat) a + S1x128x16.size a ≤ S24x128x384.size a
  inb_S24x128x384_S1x128x16_6_0_48 : ∀ a, (![6, 0, 48] : Fin 3 → Nat) a + S1x128x16.size a ≤ S24x128x384.size a
  inb_S24x128x384_S1x128x16_3_0_112 : ∀ a, (![3, 0, 112] : Fin 3 → Nat) a + S1x128x16.size a ≤ S24x128x384.size a
  inb_S24x128x384_S1x128x16_7_0_48 : ∀ a, (![7, 0, 48] : Fin 3 → Nat) a + S1x128x16.size a ≤ S24x128x384.size a
  inb_S24x128x384_S1x128x16_3_0_128 : ∀ a, (![3, 0, 128] : Fin 3 → Nat) a + S1x128x16.size a ≤ S24x128x384.size a
  inb_S24x128x384_S1x128x16_8_0_48 : ∀ a, (![8, 0, 48] : Fin 3 → Nat) a + S1x128x16.size a ≤ S24x128x384.size a
  inb_S24x128x384_S1x128x16_3_0_144 : ∀ a, (![3, 0, 144] : Fin 3 → Nat) a + S1x128x16.size a ≤ S24x128x384.size a
  inb_S24x128x384_S1x128x16_9_0_48 : ∀ a, (![9, 0, 48] : Fin 3 → Nat) a + S1x128x16.size a ≤ S24x128x384.size a
  inb_S24x128x384_S1x128x16_3_0_160 : ∀ a, (![3, 0, 160] : Fin 3 → Nat) a + S1x128x16.size a ≤ S24x128x384.size a
  inb_S24x128x384_S1x128x16_10_0_48 : ∀ a, (![10, 0, 48] : Fin 3 → Nat) a + S1x128x16.size a ≤ S24x128x384.size a
  inb_S24x128x384_S1x128x16_3_0_176 : ∀ a, (![3, 0, 176] : Fin 3 → Nat) a + S1x128x16.size a ≤ S24x128x384.size a
  inb_S24x128x384_S1x128x16_11_0_48 : ∀ a, (![11, 0, 48] : Fin 3 → Nat) a + S1x128x16.size a ≤ S24x128x384.size a
  inb_S24x128x384_S1x128x16_3_0_192 : ∀ a, (![3, 0, 192] : Fin 3 → Nat) a + S1x128x16.size a ≤ S24x128x384.size a
  inb_S24x128x384_S1x128x16_12_0_48 : ∀ a, (![12, 0, 48] : Fin 3 → Nat) a + S1x128x16.size a ≤ S24x128x384.size a
  inb_S24x128x384_S1x128x16_3_0_208 : ∀ a, (![3, 0, 208] : Fin 3 → Nat) a + S1x128x16.size a ≤ S24x128x384.size a
  inb_S24x128x384_S1x128x16_13_0_48 : ∀ a, (![13, 0, 48] : Fin 3 → Nat) a + S1x128x16.size a ≤ S24x128x384.size a
  inb_S24x128x384_S1x128x16_3_0_224 : ∀ a, (![3, 0, 224] : Fin 3 → Nat) a + S1x128x16.size a ≤ S24x128x384.size a
  inb_S24x128x384_S1x128x16_14_0_48 : ∀ a, (![14, 0, 48] : Fin 3 → Nat) a + S1x128x16.size a ≤ S24x128x384.size a
  inb_S24x128x384_S1x128x16_3_0_240 : ∀ a, (![3, 0, 240] : Fin 3 → Nat) a + S1x128x16.size a ≤ S24x128x384.size a
  inb_S24x128x384_S1x128x16_15_0_48 : ∀ a, (![15, 0, 48] : Fin 3 → Nat) a + S1x128x16.size a ≤ S24x128x384.size a
  inb_S24x128x384_S1x128x16_3_0_256 : ∀ a, (![3, 0, 256] : Fin 3 → Nat) a + S1x128x16.size a ≤ S24x128x384.size a
  inb_S24x128x384_S1x128x16_16_0_48 : ∀ a, (![16, 0, 48] : Fin 3 → Nat) a + S1x128x16.size a ≤ S24x128x384.size a
  inb_S24x128x384_S1x128x16_3_0_272 : ∀ a, (![3, 0, 272] : Fin 3 → Nat) a + S1x128x16.size a ≤ S24x128x384.size a
  inb_S24x128x384_S1x128x16_17_0_48 : ∀ a, (![17, 0, 48] : Fin 3 → Nat) a + S1x128x16.size a ≤ S24x128x384.size a
  inb_S24x128x384_S1x128x16_3_0_288 : ∀ a, (![3, 0, 288] : Fin 3 → Nat) a + S1x128x16.size a ≤ S24x128x384.size a
  inb_S24x128x384_S1x128x16_18_0_48 : ∀ a, (![18, 0, 48] : Fin 3 → Nat) a + S1x128x16.size a ≤ S24x128x384.size a
  inb_S24x128x384_S1x128x16_3_0_304 : ∀ a, (![3, 0, 304] : Fin 3 → Nat) a + S1x128x16.size a ≤ S24x128x384.size a
  inb_S24x128x384_S1x128x16_19_0_48 : ∀ a, (![19, 0, 48] : Fin 3 → Nat) a + S1x128x16.size a ≤ S24x128x384.size a
  inb_S24x128x384_S1x128x16_3_0_320 : ∀ a, (![3, 0, 320] : Fin 3 → Nat) a + S1x128x16.size a ≤ S24x128x384.size a
  inb_S24x128x384_S1x128x16_20_0_48 : ∀ a, (![20, 0, 48] : Fin 3 → Nat) a + S1x128x16.size a ≤ S24x128x384.size a
  inb_S24x128x384_S1x128x16_3_0_336 : ∀ a, (![3, 0, 336] : Fin 3 → Nat) a + S1x128x16.size a ≤ S24x128x384.size a
  inb_S24x128x384_S1x128x16_21_0_48 : ∀ a, (![21, 0, 48] : Fin 3 → Nat) a + S1x128x16.size a ≤ S24x128x384.size a
  inb_S24x128x384_S1x128x16_3_0_352 : ∀ a, (![3, 0, 352] : Fin 3 → Nat) a + S1x128x16.size a ≤ S24x128x384.size a
  inb_S24x128x384_S1x128x16_22_0_48 : ∀ a, (![22, 0, 48] : Fin 3 → Nat) a + S1x128x16.size a ≤ S24x128x384.size a
  inb_S24x128x384_S1x128x16_3_0_368 : ∀ a, (![3, 0, 368] : Fin 3 → Nat) a + S1x128x16.size a ≤ S24x128x384.size a
  inb_S24x128x384_S1x128x16_23_0_48 : ∀ a, (![23, 0, 48] : Fin 3 → Nat) a + S1x128x16.size a ≤ S24x128x384.size a
  inb_S24x128x384_S1x128x16_4_0_80 : ∀ a, (![4, 0, 80] : Fin 3 → Nat) a + S1x128x16.size a ≤ S24x128x384.size a
  inb_S24x128x384_S1x128x16_5_0_64 : ∀ a, (![5, 0, 64] : Fin 3 → Nat) a + S1x128x16.size a ≤ S24x128x384.size a
  inb_S24x128x384_S1x128x16_4_0_96 : ∀ a, (![4, 0, 96] : Fin 3 → Nat) a + S1x128x16.size a ≤ S24x128x384.size a
  inb_S24x128x384_S1x128x16_6_0_64 : ∀ a, (![6, 0, 64] : Fin 3 → Nat) a + S1x128x16.size a ≤ S24x128x384.size a
  inb_S24x128x384_S1x128x16_4_0_112 : ∀ a, (![4, 0, 112] : Fin 3 → Nat) a + S1x128x16.size a ≤ S24x128x384.size a
  inb_S24x128x384_S1x128x16_7_0_64 : ∀ a, (![7, 0, 64] : Fin 3 → Nat) a + S1x128x16.size a ≤ S24x128x384.size a
  inb_S24x128x384_S1x128x16_4_0_128 : ∀ a, (![4, 0, 128] : Fin 3 → Nat) a + S1x128x16.size a ≤ S24x128x384.size a
  inb_S24x128x384_S1x128x16_8_0_64 : ∀ a, (![8, 0, 64] : Fin 3 → Nat) a + S1x128x16.size a ≤ S24x128x384.size a
  inb_S24x128x384_S1x128x16_4_0_144 : ∀ a, (![4, 0, 144] : Fin 3 → Nat) a + S1x128x16.size a ≤ S24x128x384.size a
  inb_S24x128x384_S1x128x16_9_0_64 : ∀ a, (![9, 0, 64] : Fin 3 → Nat) a + S1x128x16.size a ≤ S24x128x384.size a
  inb_S24x128x384_S1x128x16_4_0_160 : ∀ a, (![4, 0, 160] : Fin 3 → Nat) a + S1x128x16.size a ≤ S24x128x384.size a
  inb_S24x128x384_S1x128x16_10_0_64 : ∀ a, (![10, 0, 64] : Fin 3 → Nat) a + S1x128x16.size a ≤ S24x128x384.size a
  inb_S24x128x384_S1x128x16_4_0_176 : ∀ a, (![4, 0, 176] : Fin 3 → Nat) a + S1x128x16.size a ≤ S24x128x384.size a
  inb_S24x128x384_S1x128x16_11_0_64 : ∀ a, (![11, 0, 64] : Fin 3 → Nat) a + S1x128x16.size a ≤ S24x128x384.size a
  inb_S24x128x384_S1x128x16_4_0_192 : ∀ a, (![4, 0, 192] : Fin 3 → Nat) a + S1x128x16.size a ≤ S24x128x384.size a
  inb_S24x128x384_S1x128x16_12_0_64 : ∀ a, (![12, 0, 64] : Fin 3 → Nat) a + S1x128x16.size a ≤ S24x128x384.size a
  inb_S24x128x384_S1x128x16_4_0_208 : ∀ a, (![4, 0, 208] : Fin 3 → Nat) a + S1x128x16.size a ≤ S24x128x384.size a
  inb_S24x128x384_S1x128x16_13_0_64 : ∀ a, (![13, 0, 64] : Fin 3 → Nat) a + S1x128x16.size a ≤ S24x128x384.size a
  inb_S24x128x384_S1x128x16_4_0_224 : ∀ a, (![4, 0, 224] : Fin 3 → Nat) a + S1x128x16.size a ≤ S24x128x384.size a
  inb_S24x128x384_S1x128x16_14_0_64 : ∀ a, (![14, 0, 64] : Fin 3 → Nat) a + S1x128x16.size a ≤ S24x128x384.size a
  inb_S24x128x384_S1x128x16_4_0_240 : ∀ a, (![4, 0, 240] : Fin 3 → Nat) a + S1x128x16.size a ≤ S24x128x384.size a
  inb_S24x128x384_S1x128x16_15_0_64 : ∀ a, (![15, 0, 64] : Fin 3 → Nat) a + S1x128x16.size a ≤ S24x128x384.size a
  inb_S24x128x384_S1x128x16_4_0_256 : ∀ a, (![4, 0, 256] : Fin 3 → Nat) a + S1x128x16.size a ≤ S24x128x384.size a
  inb_S24x128x384_S1x128x16_16_0_64 : ∀ a, (![16, 0, 64] : Fin 3 → Nat) a + S1x128x16.size a ≤ S24x128x384.size a
  inb_S24x128x384_S1x128x16_4_0_272 : ∀ a, (![4, 0, 272] : Fin 3 → Nat) a + S1x128x16.size a ≤ S24x128x384.size a
  inb_S24x128x384_S1x128x16_17_0_64 : ∀ a, (![17, 0, 64] : Fin 3 → Nat) a + S1x128x16.size a ≤ S24x128x384.size a
  inb_S24x128x384_S1x128x16_4_0_288 : ∀ a, (![4, 0, 288] : Fin 3 → Nat) a + S1x128x16.size a ≤ S24x128x384.size a
  inb_S24x128x384_S1x128x16_18_0_64 : ∀ a, (![18, 0, 64] : Fin 3 → Nat) a + S1x128x16.size a ≤ S24x128x384.size a
  inb_S24x128x384_S1x128x16_4_0_304 : ∀ a, (![4, 0, 304] : Fin 3 → Nat) a + S1x128x16.size a ≤ S24x128x384.size a
  inb_S24x128x384_S1x128x16_19_0_64 : ∀ a, (![19, 0, 64] : Fin 3 → Nat) a + S1x128x16.size a ≤ S24x128x384.size a
  inb_S24x128x384_S1x128x16_4_0_320 : ∀ a, (![4, 0, 320] : Fin 3 → Nat) a + S1x128x16.size a ≤ S24x128x384.size a
  inb_S24x128x384_S1x128x16_20_0_64 : ∀ a, (![20, 0, 64] : Fin 3 → Nat) a + S1x128x16.size a ≤ S24x128x384.size a
  inb_S24x128x384_S1x128x16_4_0_336 : ∀ a, (![4, 0, 336] : Fin 3 → Nat) a + S1x128x16.size a ≤ S24x128x384.size a
  inb_S24x128x384_S1x128x16_21_0_64 : ∀ a, (![21, 0, 64] : Fin 3 → Nat) a + S1x128x16.size a ≤ S24x128x384.size a
  inb_S24x128x384_S1x128x16_4_0_352 : ∀ a, (![4, 0, 352] : Fin 3 → Nat) a + S1x128x16.size a ≤ S24x128x384.size a
  inb_S24x128x384_S1x128x16_22_0_64 : ∀ a, (![22, 0, 64] : Fin 3 → Nat) a + S1x128x16.size a ≤ S24x128x384.size a
  inb_S24x128x384_S1x128x16_4_0_368 : ∀ a, (![4, 0, 368] : Fin 3 → Nat) a + S1x128x16.size a ≤ S24x128x384.size a
  inb_S24x128x384_S1x128x16_23_0_64 : ∀ a, (![23, 0, 64] : Fin 3 → Nat) a + S1x128x16.size a ≤ S24x128x384.size a
  inb_S24x128x384_S1x128x16_5_0_96 : ∀ a, (![5, 0, 96] : Fin 3 → Nat) a + S1x128x16.size a ≤ S24x128x384.size a
  inb_S24x128x384_S1x128x16_6_0_80 : ∀ a, (![6, 0, 80] : Fin 3 → Nat) a + S1x128x16.size a ≤ S24x128x384.size a
  inb_S24x128x384_S1x128x16_5_0_112 : ∀ a, (![5, 0, 112] : Fin 3 → Nat) a + S1x128x16.size a ≤ S24x128x384.size a
  inb_S24x128x384_S1x128x16_7_0_80 : ∀ a, (![7, 0, 80] : Fin 3 → Nat) a + S1x128x16.size a ≤ S24x128x384.size a
  inb_S24x128x384_S1x128x16_5_0_128 : ∀ a, (![5, 0, 128] : Fin 3 → Nat) a + S1x128x16.size a ≤ S24x128x384.size a
  inb_S24x128x384_S1x128x16_8_0_80 : ∀ a, (![8, 0, 80] : Fin 3 → Nat) a + S1x128x16.size a ≤ S24x128x384.size a
  inb_S24x128x384_S1x128x16_5_0_144 : ∀ a, (![5, 0, 144] : Fin 3 → Nat) a + S1x128x16.size a ≤ S24x128x384.size a
  inb_S24x128x384_S1x128x16_9_0_80 : ∀ a, (![9, 0, 80] : Fin 3 → Nat) a + S1x128x16.size a ≤ S24x128x384.size a
  inb_S24x128x384_S1x128x16_5_0_160 : ∀ a, (![5, 0, 160] : Fin 3 → Nat) a + S1x128x16.size a ≤ S24x128x384.size a
  inb_S24x128x384_S1x128x16_10_0_80 : ∀ a, (![10, 0, 80] : Fin 3 → Nat) a + S1x128x16.size a ≤ S24x128x384.size a
  inb_S24x128x384_S1x128x16_5_0_176 : ∀ a, (![5, 0, 176] : Fin 3 → Nat) a + S1x128x16.size a ≤ S24x128x384.size a
  inb_S24x128x384_S1x128x16_11_0_80 : ∀ a, (![11, 0, 80] : Fin 3 → Nat) a + S1x128x16.size a ≤ S24x128x384.size a
  inb_S24x128x384_S1x128x16_5_0_192 : ∀ a, (![5, 0, 192] : Fin 3 → Nat) a + S1x128x16.size a ≤ S24x128x384.size a
  inb_S24x128x384_S1x128x16_12_0_80 : ∀ a, (![12, 0, 80] : Fin 3 → Nat) a + S1x128x16.size a ≤ S24x128x384.size a
  inb_S24x128x384_S1x128x16_5_0_208 : ∀ a, (![5, 0, 208] : Fin 3 → Nat) a + S1x128x16.size a ≤ S24x128x384.size a
  inb_S24x128x384_S1x128x16_13_0_80 : ∀ a, (![13, 0, 80] : Fin 3 → Nat) a + S1x128x16.size a ≤ S24x128x384.size a
  inb_S24x128x384_S1x128x16_5_0_224 : ∀ a, (![5, 0, 224] : Fin 3 → Nat) a + S1x128x16.size a ≤ S24x128x384.size a
  inb_S24x128x384_S1x128x16_14_0_80 : ∀ a, (![14, 0, 80] : Fin 3 → Nat) a + S1x128x16.size a ≤ S24x128x384.size a
  inb_S24x128x384_S1x128x16_5_0_240 : ∀ a, (![5, 0, 240] : Fin 3 → Nat) a + S1x128x16.size a ≤ S24x128x384.size a
  inb_S24x128x384_S1x128x16_15_0_80 : ∀ a, (![15, 0, 80] : Fin 3 → Nat) a + S1x128x16.size a ≤ S24x128x384.size a
  inb_S24x128x384_S1x128x16_5_0_256 : ∀ a, (![5, 0, 256] : Fin 3 → Nat) a + S1x128x16.size a ≤ S24x128x384.size a
  inb_S24x128x384_S1x128x16_16_0_80 : ∀ a, (![16, 0, 80] : Fin 3 → Nat) a + S1x128x16.size a ≤ S24x128x384.size a
  inb_S24x128x384_S1x128x16_5_0_272 : ∀ a, (![5, 0, 272] : Fin 3 → Nat) a + S1x128x16.size a ≤ S24x128x384.size a
  inb_S24x128x384_S1x128x16_17_0_80 : ∀ a, (![17, 0, 80] : Fin 3 → Nat) a + S1x128x16.size a ≤ S24x128x384.size a
  inb_S24x128x384_S1x128x16_5_0_288 : ∀ a, (![5, 0, 288] : Fin 3 → Nat) a + S1x128x16.size a ≤ S24x128x384.size a
  inb_S24x128x384_S1x128x16_18_0_80 : ∀ a, (![18, 0, 80] : Fin 3 → Nat) a + S1x128x16.size a ≤ S24x128x384.size a
  inb_S24x128x384_S1x128x16_5_0_304 : ∀ a, (![5, 0, 304] : Fin 3 → Nat) a + S1x128x16.size a ≤ S24x128x384.size a
  inb_S24x128x384_S1x128x16_19_0_80 : ∀ a, (![19, 0, 80] : Fin 3 → Nat) a + S1x128x16.size a ≤ S24x128x384.size a
  inb_S24x128x384_S1x128x16_5_0_320 : ∀ a, (![5, 0, 320] : Fin 3 → Nat) a + S1x128x16.size a ≤ S24x128x384.size a
  inb_S24x128x384_S1x128x16_20_0_80 : ∀ a, (![20, 0, 80] : Fin 3 → Nat) a + S1x128x16.size a ≤ S24x128x384.size a
  inb_S24x128x384_S1x128x16_5_0_336 : ∀ a, (![5, 0, 336] : Fin 3 → Nat) a + S1x128x16.size a ≤ S24x128x384.size a
  inb_S24x128x384_S1x128x16_21_0_80 : ∀ a, (![21, 0, 80] : Fin 3 → Nat) a + S1x128x16.size a ≤ S24x128x384.size a
  inb_S24x128x384_S1x128x16_5_0_352 : ∀ a, (![5, 0, 352] : Fin 3 → Nat) a + S1x128x16.size a ≤ S24x128x384.size a
  inb_S24x128x384_S1x128x16_22_0_80 : ∀ a, (![22, 0, 80] : Fin 3 → Nat) a + S1x128x16.size a ≤ S24x128x384.size a
  inb_S24x128x384_S1x128x16_5_0_368 : ∀ a, (![5, 0, 368] : Fin 3 → Nat) a + S1x128x16.size a ≤ S24x128x384.size a
  inb_S24x128x384_S1x128x16_23_0_80 : ∀ a, (![23, 0, 80] : Fin 3 → Nat) a + S1x128x16.size a ≤ S24x128x384.size a
  inb_S24x128x384_S1x128x16_6_0_112 : ∀ a, (![6, 0, 112] : Fin 3 → Nat) a + S1x128x16.size a ≤ S24x128x384.size a
  inb_S24x128x384_S1x128x16_7_0_96 : ∀ a, (![7, 0, 96] : Fin 3 → Nat) a + S1x128x16.size a ≤ S24x128x384.size a
  inb_S24x128x384_S1x128x16_6_0_128 : ∀ a, (![6, 0, 128] : Fin 3 → Nat) a + S1x128x16.size a ≤ S24x128x384.size a
  inb_S24x128x384_S1x128x16_8_0_96 : ∀ a, (![8, 0, 96] : Fin 3 → Nat) a + S1x128x16.size a ≤ S24x128x384.size a
  inb_S24x128x384_S1x128x16_6_0_144 : ∀ a, (![6, 0, 144] : Fin 3 → Nat) a + S1x128x16.size a ≤ S24x128x384.size a
  inb_S24x128x384_S1x128x16_9_0_96 : ∀ a, (![9, 0, 96] : Fin 3 → Nat) a + S1x128x16.size a ≤ S24x128x384.size a
  inb_S24x128x384_S1x128x16_6_0_160 : ∀ a, (![6, 0, 160] : Fin 3 → Nat) a + S1x128x16.size a ≤ S24x128x384.size a
  inb_S24x128x384_S1x128x16_10_0_96 : ∀ a, (![10, 0, 96] : Fin 3 → Nat) a + S1x128x16.size a ≤ S24x128x384.size a
  inb_S24x128x384_S1x128x16_6_0_176 : ∀ a, (![6, 0, 176] : Fin 3 → Nat) a + S1x128x16.size a ≤ S24x128x384.size a
  inb_S24x128x384_S1x128x16_11_0_96 : ∀ a, (![11, 0, 96] : Fin 3 → Nat) a + S1x128x16.size a ≤ S24x128x384.size a
  inb_S24x128x384_S1x128x16_6_0_192 : ∀ a, (![6, 0, 192] : Fin 3 → Nat) a + S1x128x16.size a ≤ S24x128x384.size a
  inb_S24x128x384_S1x128x16_12_0_96 : ∀ a, (![12, 0, 96] : Fin 3 → Nat) a + S1x128x16.size a ≤ S24x128x384.size a
  inb_S24x128x384_S1x128x16_6_0_208 : ∀ a, (![6, 0, 208] : Fin 3 → Nat) a + S1x128x16.size a ≤ S24x128x384.size a
  inb_S24x128x384_S1x128x16_13_0_96 : ∀ a, (![13, 0, 96] : Fin 3 → Nat) a + S1x128x16.size a ≤ S24x128x384.size a
  inb_S24x128x384_S1x128x16_6_0_224 : ∀ a, (![6, 0, 224] : Fin 3 → Nat) a + S1x128x16.size a ≤ S24x128x384.size a
  inb_S24x128x384_S1x128x16_14_0_96 : ∀ a, (![14, 0, 96] : Fin 3 → Nat) a + S1x128x16.size a ≤ S24x128x384.size a
  inb_S24x128x384_S1x128x16_6_0_240 : ∀ a, (![6, 0, 240] : Fin 3 → Nat) a + S1x128x16.size a ≤ S24x128x384.size a
  inb_S24x128x384_S1x128x16_15_0_96 : ∀ a, (![15, 0, 96] : Fin 3 → Nat) a + S1x128x16.size a ≤ S24x128x384.size a
  inb_S24x128x384_S1x128x16_6_0_256 : ∀ a, (![6, 0, 256] : Fin 3 → Nat) a + S1x128x16.size a ≤ S24x128x384.size a
  inb_S24x128x384_S1x128x16_16_0_96 : ∀ a, (![16, 0, 96] : Fin 3 → Nat) a + S1x128x16.size a ≤ S24x128x384.size a
  inb_S24x128x384_S1x128x16_6_0_272 : ∀ a, (![6, 0, 272] : Fin 3 → Nat) a + S1x128x16.size a ≤ S24x128x384.size a
  inb_S24x128x384_S1x128x16_17_0_96 : ∀ a, (![17, 0, 96] : Fin 3 → Nat) a + S1x128x16.size a ≤ S24x128x384.size a
  inb_S24x128x384_S1x128x16_6_0_288 : ∀ a, (![6, 0, 288] : Fin 3 → Nat) a + S1x128x16.size a ≤ S24x128x384.size a
  inb_S24x128x384_S1x128x16_18_0_96 : ∀ a, (![18, 0, 96] : Fin 3 → Nat) a + S1x128x16.size a ≤ S24x128x384.size a
  inb_S24x128x384_S1x128x16_6_0_304 : ∀ a, (![6, 0, 304] : Fin 3 → Nat) a + S1x128x16.size a ≤ S24x128x384.size a
  inb_S24x128x384_S1x128x16_19_0_96 : ∀ a, (![19, 0, 96] : Fin 3 → Nat) a + S1x128x16.size a ≤ S24x128x384.size a
  inb_S24x128x384_S1x128x16_6_0_320 : ∀ a, (![6, 0, 320] : Fin 3 → Nat) a + S1x128x16.size a ≤ S24x128x384.size a
  inb_S24x128x384_S1x128x16_20_0_96 : ∀ a, (![20, 0, 96] : Fin 3 → Nat) a + S1x128x16.size a ≤ S24x128x384.size a
  inb_S24x128x384_S1x128x16_6_0_336 : ∀ a, (![6, 0, 336] : Fin 3 → Nat) a + S1x128x16.size a ≤ S24x128x384.size a
  inb_S24x128x384_S1x128x16_21_0_96 : ∀ a, (![21, 0, 96] : Fin 3 → Nat) a + S1x128x16.size a ≤ S24x128x384.size a
  inb_S24x128x384_S1x128x16_6_0_352 : ∀ a, (![6, 0, 352] : Fin 3 → Nat) a + S1x128x16.size a ≤ S24x128x384.size a
  inb_S24x128x384_S1x128x16_22_0_96 : ∀ a, (![22, 0, 96] : Fin 3 → Nat) a + S1x128x16.size a ≤ S24x128x384.size a
  inb_S24x128x384_S1x128x16_6_0_368 : ∀ a, (![6, 0, 368] : Fin 3 → Nat) a + S1x128x16.size a ≤ S24x128x384.size a
  inb_S24x128x384_S1x128x16_23_0_96 : ∀ a, (![23, 0, 96] : Fin 3 → Nat) a + S1x128x16.size a ≤ S24x128x384.size a
  inb_S24x128x384_S1x128x16_7_0_128 : ∀ a, (![7, 0, 128] : Fin 3 → Nat) a + S1x128x16.size a ≤ S24x128x384.size a
  inb_S24x128x384_S1x128x16_8_0_112 : ∀ a, (![8, 0, 112] : Fin 3 → Nat) a + S1x128x16.size a ≤ S24x128x384.size a
  inb_S24x128x384_S1x128x16_7_0_144 : ∀ a, (![7, 0, 144] : Fin 3 → Nat) a + S1x128x16.size a ≤ S24x128x384.size a
  inb_S24x128x384_S1x128x16_9_0_112 : ∀ a, (![9, 0, 112] : Fin 3 → Nat) a + S1x128x16.size a ≤ S24x128x384.size a
  inb_S24x128x384_S1x128x16_7_0_160 : ∀ a, (![7, 0, 160] : Fin 3 → Nat) a + S1x128x16.size a ≤ S24x128x384.size a
  inb_S24x128x384_S1x128x16_10_0_112 : ∀ a, (![10, 0, 112] : Fin 3 → Nat) a + S1x128x16.size a ≤ S24x128x384.size a
  inb_S24x128x384_S1x128x16_7_0_176 : ∀ a, (![7, 0, 176] : Fin 3 → Nat) a + S1x128x16.size a ≤ S24x128x384.size a
  inb_S24x128x384_S1x128x16_11_0_112 : ∀ a, (![11, 0, 112] : Fin 3 → Nat) a + S1x128x16.size a ≤ S24x128x384.size a
  inb_S24x128x384_S1x128x16_7_0_192 : ∀ a, (![7, 0, 192] : Fin 3 → Nat) a + S1x128x16.size a ≤ S24x128x384.size a
  inb_S24x128x384_S1x128x16_12_0_112 : ∀ a, (![12, 0, 112] : Fin 3 → Nat) a + S1x128x16.size a ≤ S24x128x384.size a
  inb_S24x128x384_S1x128x16_7_0_208 : ∀ a, (![7, 0, 208] : Fin 3 → Nat) a + S1x128x16.size a ≤ S24x128x384.size a
  inb_S24x128x384_S1x128x16_13_0_112 : ∀ a, (![13, 0, 112] : Fin 3 → Nat) a + S1x128x16.size a ≤ S24x128x384.size a
  inb_S24x128x384_S1x128x16_7_0_224 : ∀ a, (![7, 0, 224] : Fin 3 → Nat) a + S1x128x16.size a ≤ S24x128x384.size a
  inb_S24x128x384_S1x128x16_14_0_112 : ∀ a, (![14, 0, 112] : Fin 3 → Nat) a + S1x128x16.size a ≤ S24x128x384.size a
  inb_S24x128x384_S1x128x16_7_0_240 : ∀ a, (![7, 0, 240] : Fin 3 → Nat) a + S1x128x16.size a ≤ S24x128x384.size a
  inb_S24x128x384_S1x128x16_15_0_112 : ∀ a, (![15, 0, 112] : Fin 3 → Nat) a + S1x128x16.size a ≤ S24x128x384.size a
  inb_S24x128x384_S1x128x16_7_0_256 : ∀ a, (![7, 0, 256] : Fin 3 → Nat) a + S1x128x16.size a ≤ S24x128x384.size a
  inb_S24x128x384_S1x128x16_16_0_112 : ∀ a, (![16, 0, 112] : Fin 3 → Nat) a + S1x128x16.size a ≤ S24x128x384.size a
  inb_S24x128x384_S1x128x16_7_0_272 : ∀ a, (![7, 0, 272] : Fin 3 → Nat) a + S1x128x16.size a ≤ S24x128x384.size a
  inb_S24x128x384_S1x128x16_17_0_112 : ∀ a, (![17, 0, 112] : Fin 3 → Nat) a + S1x128x16.size a ≤ S24x128x384.size a
  inb_S24x128x384_S1x128x16_7_0_288 : ∀ a, (![7, 0, 288] : Fin 3 → Nat) a + S1x128x16.size a ≤ S24x128x384.size a
  inb_S24x128x384_S1x128x16_18_0_112 : ∀ a, (![18, 0, 112] : Fin 3 → Nat) a + S1x128x16.size a ≤ S24x128x384.size a
  inb_S24x128x384_S1x128x16_7_0_304 : ∀ a, (![7, 0, 304] : Fin 3 → Nat) a + S1x128x16.size a ≤ S24x128x384.size a
  inb_S24x128x384_S1x128x16_19_0_112 : ∀ a, (![19, 0, 112] : Fin 3 → Nat) a + S1x128x16.size a ≤ S24x128x384.size a
  inb_S24x128x384_S1x128x16_7_0_320 : ∀ a, (![7, 0, 320] : Fin 3 → Nat) a + S1x128x16.size a ≤ S24x128x384.size a
  inb_S24x128x384_S1x128x16_20_0_112 : ∀ a, (![20, 0, 112] : Fin 3 → Nat) a + S1x128x16.size a ≤ S24x128x384.size a
  inb_S24x128x384_S1x128x16_7_0_336 : ∀ a, (![7, 0, 336] : Fin 3 → Nat) a + S1x128x16.size a ≤ S24x128x384.size a
  inb_S24x128x384_S1x128x16_21_0_112 : ∀ a, (![21, 0, 112] : Fin 3 → Nat) a + S1x128x16.size a ≤ S24x128x384.size a
  inb_S24x128x384_S1x128x16_7_0_352 : ∀ a, (![7, 0, 352] : Fin 3 → Nat) a + S1x128x16.size a ≤ S24x128x384.size a
  inb_S24x128x384_S1x128x16_22_0_112 : ∀ a, (![22, 0, 112] : Fin 3 → Nat) a + S1x128x16.size a ≤ S24x128x384.size a
  inb_S24x128x384_S1x128x16_7_0_368 : ∀ a, (![7, 0, 368] : Fin 3 → Nat) a + S1x128x16.size a ≤ S24x128x384.size a
  inb_S24x128x384_S1x128x16_23_0_112 : ∀ a, (![23, 0, 112] : Fin 3 → Nat) a + S1x128x16.size a ≤ S24x128x384.size a
  inb_S24x128x384_S1x128x16_8_0_144 : ∀ a, (![8, 0, 144] : Fin 3 → Nat) a + S1x128x16.size a ≤ S24x128x384.size a
  inb_S24x128x384_S1x128x16_9_0_128 : ∀ a, (![9, 0, 128] : Fin 3 → Nat) a + S1x128x16.size a ≤ S24x128x384.size a
  inb_S24x128x384_S1x128x16_8_0_160 : ∀ a, (![8, 0, 160] : Fin 3 → Nat) a + S1x128x16.size a ≤ S24x128x384.size a
  inb_S24x128x384_S1x128x16_10_0_128 : ∀ a, (![10, 0, 128] : Fin 3 → Nat) a + S1x128x16.size a ≤ S24x128x384.size a
  inb_S24x128x384_S1x128x16_8_0_176 : ∀ a, (![8, 0, 176] : Fin 3 → Nat) a + S1x128x16.size a ≤ S24x128x384.size a
  inb_S24x128x384_S1x128x16_11_0_128 : ∀ a, (![11, 0, 128] : Fin 3 → Nat) a + S1x128x16.size a ≤ S24x128x384.size a
  inb_S24x128x384_S1x128x16_8_0_192 : ∀ a, (![8, 0, 192] : Fin 3 → Nat) a + S1x128x16.size a ≤ S24x128x384.size a
  inb_S24x128x384_S1x128x16_12_0_128 : ∀ a, (![12, 0, 128] : Fin 3 → Nat) a + S1x128x16.size a ≤ S24x128x384.size a
  inb_S24x128x384_S1x128x16_8_0_208 : ∀ a, (![8, 0, 208] : Fin 3 → Nat) a + S1x128x16.size a ≤ S24x128x384.size a
  inb_S24x128x384_S1x128x16_13_0_128 : ∀ a, (![13, 0, 128] : Fin 3 → Nat) a + S1x128x16.size a ≤ S24x128x384.size a
  inb_S24x128x384_S1x128x16_8_0_224 : ∀ a, (![8, 0, 224] : Fin 3 → Nat) a + S1x128x16.size a ≤ S24x128x384.size a
  inb_S24x128x384_S1x128x16_14_0_128 : ∀ a, (![14, 0, 128] : Fin 3 → Nat) a + S1x128x16.size a ≤ S24x128x384.size a
  inb_S24x128x384_S1x128x16_8_0_240 : ∀ a, (![8, 0, 240] : Fin 3 → Nat) a + S1x128x16.size a ≤ S24x128x384.size a
  inb_S24x128x384_S1x128x16_15_0_128 : ∀ a, (![15, 0, 128] : Fin 3 → Nat) a + S1x128x16.size a ≤ S24x128x384.size a
  inb_S24x128x384_S1x128x16_8_0_256 : ∀ a, (![8, 0, 256] : Fin 3 → Nat) a + S1x128x16.size a ≤ S24x128x384.size a
  inb_S24x128x384_S1x128x16_16_0_128 : ∀ a, (![16, 0, 128] : Fin 3 → Nat) a + S1x128x16.size a ≤ S24x128x384.size a
  inb_S24x128x384_S1x128x16_8_0_272 : ∀ a, (![8, 0, 272] : Fin 3 → Nat) a + S1x128x16.size a ≤ S24x128x384.size a
  inb_S24x128x384_S1x128x16_17_0_128 : ∀ a, (![17, 0, 128] : Fin 3 → Nat) a + S1x128x16.size a ≤ S24x128x384.size a
  inb_S24x128x384_S1x128x16_8_0_288 : ∀ a, (![8, 0, 288] : Fin 3 → Nat) a + S1x128x16.size a ≤ S24x128x384.size a
  inb_S24x128x384_S1x128x16_18_0_128 : ∀ a, (![18, 0, 128] : Fin 3 → Nat) a + S1x128x16.size a ≤ S24x128x384.size a
  inb_S24x128x384_S1x128x16_8_0_304 : ∀ a, (![8, 0, 304] : Fin 3 → Nat) a + S1x128x16.size a ≤ S24x128x384.size a
  inb_S24x128x384_S1x128x16_19_0_128 : ∀ a, (![19, 0, 128] : Fin 3 → Nat) a + S1x128x16.size a ≤ S24x128x384.size a
  inb_S24x128x384_S1x128x16_8_0_320 : ∀ a, (![8, 0, 320] : Fin 3 → Nat) a + S1x128x16.size a ≤ S24x128x384.size a
  inb_S24x128x384_S1x128x16_20_0_128 : ∀ a, (![20, 0, 128] : Fin 3 → Nat) a + S1x128x16.size a ≤ S24x128x384.size a
  inb_S24x128x384_S1x128x16_8_0_336 : ∀ a, (![8, 0, 336] : Fin 3 → Nat) a + S1x128x16.size a ≤ S24x128x384.size a
  inb_S24x128x384_S1x128x16_21_0_128 : ∀ a, (![21, 0, 128] : Fin 3 → Nat) a + S1x128x16.size a ≤ S24x128x384.size a
  inb_S24x128x384_S1x128x16_8_0_352 : ∀ a, (![8, 0, 352] : Fin 3 → Nat) a + S1x128x16.size a ≤ S24x128x384.size a
  inb_S24x128x384_S1x128x16_22_0_128 : ∀ a, (![22, 0, 128] : Fin 3 → Nat) a + S1x128x16.size a ≤ S24x128x384.size a
  inb_S24x128x384_S1x128x16_8_0_368 : ∀ a, (![8, 0, 368] : Fin 3 → Nat) a + S1x128x16.size a ≤ S24x128x384.size a
  inb_S24x128x384_S1x128x16_23_0_128 : ∀ a, (![23, 0, 128] : Fin 3 → Nat) a + S1x128x16.size a ≤ S24x128x384.size a
  inb_S24x128x384_S1x128x16_9_0_160 : ∀ a, (![9, 0, 160] : Fin 3 → Nat) a + S1x128x16.size a ≤ S24x128x384.size a
  inb_S24x128x384_S1x128x16_10_0_144 : ∀ a, (![10, 0, 144] : Fin 3 → Nat) a + S1x128x16.size a ≤ S24x128x384.size a
  inb_S24x128x384_S1x128x16_9_0_176 : ∀ a, (![9, 0, 176] : Fin 3 → Nat) a + S1x128x16.size a ≤ S24x128x384.size a
  inb_S24x128x384_S1x128x16_11_0_144 : ∀ a, (![11, 0, 144] : Fin 3 → Nat) a + S1x128x16.size a ≤ S24x128x384.size a
  inb_S24x128x384_S1x128x16_9_0_192 : ∀ a, (![9, 0, 192] : Fin 3 → Nat) a + S1x128x16.size a ≤ S24x128x384.size a
  inb_S24x128x384_S1x128x16_12_0_144 : ∀ a, (![12, 0, 144] : Fin 3 → Nat) a + S1x128x16.size a ≤ S24x128x384.size a
  inb_S24x128x384_S1x128x16_9_0_208 : ∀ a, (![9, 0, 208] : Fin 3 → Nat) a + S1x128x16.size a ≤ S24x128x384.size a
  inb_S24x128x384_S1x128x16_13_0_144 : ∀ a, (![13, 0, 144] : Fin 3 → Nat) a + S1x128x16.size a ≤ S24x128x384.size a
  inb_S24x128x384_S1x128x16_9_0_224 : ∀ a, (![9, 0, 224] : Fin 3 → Nat) a + S1x128x16.size a ≤ S24x128x384.size a
  inb_S24x128x384_S1x128x16_14_0_144 : ∀ a, (![14, 0, 144] : Fin 3 → Nat) a + S1x128x16.size a ≤ S24x128x384.size a
  inb_S24x128x384_S1x128x16_9_0_240 : ∀ a, (![9, 0, 240] : Fin 3 → Nat) a + S1x128x16.size a ≤ S24x128x384.size a
  inb_S24x128x384_S1x128x16_15_0_144 : ∀ a, (![15, 0, 144] : Fin 3 → Nat) a + S1x128x16.size a ≤ S24x128x384.size a
  inb_S24x128x384_S1x128x16_9_0_256 : ∀ a, (![9, 0, 256] : Fin 3 → Nat) a + S1x128x16.size a ≤ S24x128x384.size a
  inb_S24x128x384_S1x128x16_16_0_144 : ∀ a, (![16, 0, 144] : Fin 3 → Nat) a + S1x128x16.size a ≤ S24x128x384.size a
  inb_S24x128x384_S1x128x16_9_0_272 : ∀ a, (![9, 0, 272] : Fin 3 → Nat) a + S1x128x16.size a ≤ S24x128x384.size a
  inb_S24x128x384_S1x128x16_17_0_144 : ∀ a, (![17, 0, 144] : Fin 3 → Nat) a + S1x128x16.size a ≤ S24x128x384.size a
  inb_S24x128x384_S1x128x16_9_0_288 : ∀ a, (![9, 0, 288] : Fin 3 → Nat) a + S1x128x16.size a ≤ S24x128x384.size a
  inb_S24x128x384_S1x128x16_18_0_144 : ∀ a, (![18, 0, 144] : Fin 3 → Nat) a + S1x128x16.size a ≤ S24x128x384.size a
  inb_S24x128x384_S1x128x16_9_0_304 : ∀ a, (![9, 0, 304] : Fin 3 → Nat) a + S1x128x16.size a ≤ S24x128x384.size a
  inb_S24x128x384_S1x128x16_19_0_144 : ∀ a, (![19, 0, 144] : Fin 3 → Nat) a + S1x128x16.size a ≤ S24x128x384.size a
  inb_S24x128x384_S1x128x16_9_0_320 : ∀ a, (![9, 0, 320] : Fin 3 → Nat) a + S1x128x16.size a ≤ S24x128x384.size a
  inb_S24x128x384_S1x128x16_20_0_144 : ∀ a, (![20, 0, 144] : Fin 3 → Nat) a + S1x128x16.size a ≤ S24x128x384.size a
  inb_S24x128x384_S1x128x16_9_0_336 : ∀ a, (![9, 0, 336] : Fin 3 → Nat) a + S1x128x16.size a ≤ S24x128x384.size a
  inb_S24x128x384_S1x128x16_21_0_144 : ∀ a, (![21, 0, 144] : Fin 3 → Nat) a + S1x128x16.size a ≤ S24x128x384.size a
  inb_S24x128x384_S1x128x16_9_0_352 : ∀ a, (![9, 0, 352] : Fin 3 → Nat) a + S1x128x16.size a ≤ S24x128x384.size a
  inb_S24x128x384_S1x128x16_22_0_144 : ∀ a, (![22, 0, 144] : Fin 3 → Nat) a + S1x128x16.size a ≤ S24x128x384.size a
  inb_S24x128x384_S1x128x16_9_0_368 : ∀ a, (![9, 0, 368] : Fin 3 → Nat) a + S1x128x16.size a ≤ S24x128x384.size a
  inb_S24x128x384_S1x128x16_23_0_144 : ∀ a, (![23, 0, 144] : Fin 3 → Nat) a + S1x128x16.size a ≤ S24x128x384.size a
  inb_S24x128x384_S1x128x16_10_0_176 : ∀ a, (![10, 0, 176] : Fin 3 → Nat) a + S1x128x16.size a ≤ S24x128x384.size a
  inb_S24x128x384_S1x128x16_11_0_160 : ∀ a, (![11, 0, 160] : Fin 3 → Nat) a + S1x128x16.size a ≤ S24x128x384.size a
  inb_S24x128x384_S1x128x16_10_0_192 : ∀ a, (![10, 0, 192] : Fin 3 → Nat) a + S1x128x16.size a ≤ S24x128x384.size a
  inb_S24x128x384_S1x128x16_12_0_160 : ∀ a, (![12, 0, 160] : Fin 3 → Nat) a + S1x128x16.size a ≤ S24x128x384.size a
  inb_S24x128x384_S1x128x16_10_0_208 : ∀ a, (![10, 0, 208] : Fin 3 → Nat) a + S1x128x16.size a ≤ S24x128x384.size a
  inb_S24x128x384_S1x128x16_13_0_160 : ∀ a, (![13, 0, 160] : Fin 3 → Nat) a + S1x128x16.size a ≤ S24x128x384.size a
  inb_S24x128x384_S1x128x16_10_0_224 : ∀ a, (![10, 0, 224] : Fin 3 → Nat) a + S1x128x16.size a ≤ S24x128x384.size a
  inb_S24x128x384_S1x128x16_14_0_160 : ∀ a, (![14, 0, 160] : Fin 3 → Nat) a + S1x128x16.size a ≤ S24x128x384.size a
  inb_S24x128x384_S1x128x16_10_0_240 : ∀ a, (![10, 0, 240] : Fin 3 → Nat) a + S1x128x16.size a ≤ S24x128x384.size a
  inb_S24x128x384_S1x128x16_15_0_160 : ∀ a, (![15, 0, 160] : Fin 3 → Nat) a + S1x128x16.size a ≤ S24x128x384.size a
  inb_S24x128x384_S1x128x16_10_0_256 : ∀ a, (![10, 0, 256] : Fin 3 → Nat) a + S1x128x16.size a ≤ S24x128x384.size a
  inb_S24x128x384_S1x128x16_16_0_160 : ∀ a, (![16, 0, 160] : Fin 3 → Nat) a + S1x128x16.size a ≤ S24x128x384.size a
  inb_S24x128x384_S1x128x16_10_0_272 : ∀ a, (![10, 0, 272] : Fin 3 → Nat) a + S1x128x16.size a ≤ S24x128x384.size a
  inb_S24x128x384_S1x128x16_17_0_160 : ∀ a, (![17, 0, 160] : Fin 3 → Nat) a + S1x128x16.size a ≤ S24x128x384.size a
  inb_S24x128x384_S1x128x16_10_0_288 : ∀ a, (![10, 0, 288] : Fin 3 → Nat) a + S1x128x16.size a ≤ S24x128x384.size a
  inb_S24x128x384_S1x128x16_18_0_160 : ∀ a, (![18, 0, 160] : Fin 3 → Nat) a + S1x128x16.size a ≤ S24x128x384.size a
  inb_S24x128x384_S1x128x16_10_0_304 : ∀ a, (![10, 0, 304] : Fin 3 → Nat) a + S1x128x16.size a ≤ S24x128x384.size a
  inb_S24x128x384_S1x128x16_19_0_160 : ∀ a, (![19, 0, 160] : Fin 3 → Nat) a + S1x128x16.size a ≤ S24x128x384.size a
  inb_S24x128x384_S1x128x16_10_0_320 : ∀ a, (![10, 0, 320] : Fin 3 → Nat) a + S1x128x16.size a ≤ S24x128x384.size a
  inb_S24x128x384_S1x128x16_20_0_160 : ∀ a, (![20, 0, 160] : Fin 3 → Nat) a + S1x128x16.size a ≤ S24x128x384.size a
  inb_S24x128x384_S1x128x16_10_0_336 : ∀ a, (![10, 0, 336] : Fin 3 → Nat) a + S1x128x16.size a ≤ S24x128x384.size a
  inb_S24x128x384_S1x128x16_21_0_160 : ∀ a, (![21, 0, 160] : Fin 3 → Nat) a + S1x128x16.size a ≤ S24x128x384.size a
  inb_S24x128x384_S1x128x16_10_0_352 : ∀ a, (![10, 0, 352] : Fin 3 → Nat) a + S1x128x16.size a ≤ S24x128x384.size a
  inb_S24x128x384_S1x128x16_22_0_160 : ∀ a, (![22, 0, 160] : Fin 3 → Nat) a + S1x128x16.size a ≤ S24x128x384.size a
  inb_S24x128x384_S1x128x16_10_0_368 : ∀ a, (![10, 0, 368] : Fin 3 → Nat) a + S1x128x16.size a ≤ S24x128x384.size a
  inb_S24x128x384_S1x128x16_23_0_160 : ∀ a, (![23, 0, 160] : Fin 3 → Nat) a + S1x128x16.size a ≤ S24x128x384.size a
  inb_S24x128x384_S1x128x16_11_0_192 : ∀ a, (![11, 0, 192] : Fin 3 → Nat) a + S1x128x16.size a ≤ S24x128x384.size a
  inb_S24x128x384_S1x128x16_12_0_176 : ∀ a, (![12, 0, 176] : Fin 3 → Nat) a + S1x128x16.size a ≤ S24x128x384.size a
  inb_S24x128x384_S1x128x16_11_0_208 : ∀ a, (![11, 0, 208] : Fin 3 → Nat) a + S1x128x16.size a ≤ S24x128x384.size a
  inb_S24x128x384_S1x128x16_13_0_176 : ∀ a, (![13, 0, 176] : Fin 3 → Nat) a + S1x128x16.size a ≤ S24x128x384.size a
  inb_S24x128x384_S1x128x16_11_0_224 : ∀ a, (![11, 0, 224] : Fin 3 → Nat) a + S1x128x16.size a ≤ S24x128x384.size a
  inb_S24x128x384_S1x128x16_14_0_176 : ∀ a, (![14, 0, 176] : Fin 3 → Nat) a + S1x128x16.size a ≤ S24x128x384.size a
  inb_S24x128x384_S1x128x16_11_0_240 : ∀ a, (![11, 0, 240] : Fin 3 → Nat) a + S1x128x16.size a ≤ S24x128x384.size a
  inb_S24x128x384_S1x128x16_15_0_176 : ∀ a, (![15, 0, 176] : Fin 3 → Nat) a + S1x128x16.size a ≤ S24x128x384.size a
  inb_S24x128x384_S1x128x16_11_0_256 : ∀ a, (![11, 0, 256] : Fin 3 → Nat) a + S1x128x16.size a ≤ S24x128x384.size a
  inb_S24x128x384_S1x128x16_16_0_176 : ∀ a, (![16, 0, 176] : Fin 3 → Nat) a + S1x128x16.size a ≤ S24x128x384.size a
  inb_S24x128x384_S1x128x16_11_0_272 : ∀ a, (![11, 0, 272] : Fin 3 → Nat) a + S1x128x16.size a ≤ S24x128x384.size a
  inb_S24x128x384_S1x128x16_17_0_176 : ∀ a, (![17, 0, 176] : Fin 3 → Nat) a + S1x128x16.size a ≤ S24x128x384.size a
  inb_S24x128x384_S1x128x16_11_0_288 : ∀ a, (![11, 0, 288] : Fin 3 → Nat) a + S1x128x16.size a ≤ S24x128x384.size a
  inb_S24x128x384_S1x128x16_18_0_176 : ∀ a, (![18, 0, 176] : Fin 3 → Nat) a + S1x128x16.size a ≤ S24x128x384.size a
  inb_S24x128x384_S1x128x16_11_0_304 : ∀ a, (![11, 0, 304] : Fin 3 → Nat) a + S1x128x16.size a ≤ S24x128x384.size a
  inb_S24x128x384_S1x128x16_19_0_176 : ∀ a, (![19, 0, 176] : Fin 3 → Nat) a + S1x128x16.size a ≤ S24x128x384.size a
  inb_S24x128x384_S1x128x16_11_0_320 : ∀ a, (![11, 0, 320] : Fin 3 → Nat) a + S1x128x16.size a ≤ S24x128x384.size a
  inb_S24x128x384_S1x128x16_20_0_176 : ∀ a, (![20, 0, 176] : Fin 3 → Nat) a + S1x128x16.size a ≤ S24x128x384.size a
  inb_S24x128x384_S1x128x16_11_0_336 : ∀ a, (![11, 0, 336] : Fin 3 → Nat) a + S1x128x16.size a ≤ S24x128x384.size a
  inb_S24x128x384_S1x128x16_21_0_176 : ∀ a, (![21, 0, 176] : Fin 3 → Nat) a + S1x128x16.size a ≤ S24x128x384.size a
  inb_S24x128x384_S1x128x16_11_0_352 : ∀ a, (![11, 0, 352] : Fin 3 → Nat) a + S1x128x16.size a ≤ S24x128x384.size a
  inb_S24x128x384_S1x128x16_22_0_176 : ∀ a, (![22, 0, 176] : Fin 3 → Nat) a + S1x128x16.size a ≤ S24x128x384.size a
  inb_S24x128x384_S1x128x16_11_0_368 : ∀ a, (![11, 0, 368] : Fin 3 → Nat) a + S1x128x16.size a ≤ S24x128x384.size a
  inb_S24x128x384_S1x128x16_23_0_176 : ∀ a, (![23, 0, 176] : Fin 3 → Nat) a + S1x128x16.size a ≤ S24x128x384.size a
  inb_S24x128x384_S1x128x16_12_0_208 : ∀ a, (![12, 0, 208] : Fin 3 → Nat) a + S1x128x16.size a ≤ S24x128x384.size a
  inb_S24x128x384_S1x128x16_13_0_192 : ∀ a, (![13, 0, 192] : Fin 3 → Nat) a + S1x128x16.size a ≤ S24x128x384.size a
  inb_S24x128x384_S1x128x16_12_0_224 : ∀ a, (![12, 0, 224] : Fin 3 → Nat) a + S1x128x16.size a ≤ S24x128x384.size a
  inb_S24x128x384_S1x128x16_14_0_192 : ∀ a, (![14, 0, 192] : Fin 3 → Nat) a + S1x128x16.size a ≤ S24x128x384.size a
  inb_S24x128x384_S1x128x16_12_0_240 : ∀ a, (![12, 0, 240] : Fin 3 → Nat) a + S1x128x16.size a ≤ S24x128x384.size a
  inb_S24x128x384_S1x128x16_15_0_192 : ∀ a, (![15, 0, 192] : Fin 3 → Nat) a + S1x128x16.size a ≤ S24x128x384.size a
  inb_S24x128x384_S1x128x16_12_0_256 : ∀ a, (![12, 0, 256] : Fin 3 → Nat) a + S1x128x16.size a ≤ S24x128x384.size a
  inb_S24x128x384_S1x128x16_16_0_192 : ∀ a, (![16, 0, 192] : Fin 3 → Nat) a + S1x128x16.size a ≤ S24x128x384.size a
  inb_S24x128x384_S1x128x16_12_0_272 : ∀ a, (![12, 0, 272] : Fin 3 → Nat) a + S1x128x16.size a ≤ S24x128x384.size a
  inb_S24x128x384_S1x128x16_17_0_192 : ∀ a, (![17, 0, 192] : Fin 3 → Nat) a + S1x128x16.size a ≤ S24x128x384.size a
  inb_S24x128x384_S1x128x16_12_0_288 : ∀ a, (![12, 0, 288] : Fin 3 → Nat) a + S1x128x16.size a ≤ S24x128x384.size a
  inb_S24x128x384_S1x128x16_18_0_192 : ∀ a, (![18, 0, 192] : Fin 3 → Nat) a + S1x128x16.size a ≤ S24x128x384.size a
  inb_S24x128x384_S1x128x16_12_0_304 : ∀ a, (![12, 0, 304] : Fin 3 → Nat) a + S1x128x16.size a ≤ S24x128x384.size a
  inb_S24x128x384_S1x128x16_19_0_192 : ∀ a, (![19, 0, 192] : Fin 3 → Nat) a + S1x128x16.size a ≤ S24x128x384.size a
  inb_S24x128x384_S1x128x16_12_0_320 : ∀ a, (![12, 0, 320] : Fin 3 → Nat) a + S1x128x16.size a ≤ S24x128x384.size a
  inb_S24x128x384_S1x128x16_20_0_192 : ∀ a, (![20, 0, 192] : Fin 3 → Nat) a + S1x128x16.size a ≤ S24x128x384.size a
  inb_S24x128x384_S1x128x16_12_0_336 : ∀ a, (![12, 0, 336] : Fin 3 → Nat) a + S1x128x16.size a ≤ S24x128x384.size a
  inb_S24x128x384_S1x128x16_21_0_192 : ∀ a, (![21, 0, 192] : Fin 3 → Nat) a + S1x128x16.size a ≤ S24x128x384.size a
  inb_S24x128x384_S1x128x16_12_0_352 : ∀ a, (![12, 0, 352] : Fin 3 → Nat) a + S1x128x16.size a ≤ S24x128x384.size a
  inb_S24x128x384_S1x128x16_22_0_192 : ∀ a, (![22, 0, 192] : Fin 3 → Nat) a + S1x128x16.size a ≤ S24x128x384.size a
  inb_S24x128x384_S1x128x16_12_0_368 : ∀ a, (![12, 0, 368] : Fin 3 → Nat) a + S1x128x16.size a ≤ S24x128x384.size a
  inb_S24x128x384_S1x128x16_23_0_192 : ∀ a, (![23, 0, 192] : Fin 3 → Nat) a + S1x128x16.size a ≤ S24x128x384.size a
  inb_S24x128x384_S1x128x16_13_0_224 : ∀ a, (![13, 0, 224] : Fin 3 → Nat) a + S1x128x16.size a ≤ S24x128x384.size a
  inb_S24x128x384_S1x128x16_14_0_208 : ∀ a, (![14, 0, 208] : Fin 3 → Nat) a + S1x128x16.size a ≤ S24x128x384.size a
  inb_S24x128x384_S1x128x16_13_0_240 : ∀ a, (![13, 0, 240] : Fin 3 → Nat) a + S1x128x16.size a ≤ S24x128x384.size a
  inb_S24x128x384_S1x128x16_15_0_208 : ∀ a, (![15, 0, 208] : Fin 3 → Nat) a + S1x128x16.size a ≤ S24x128x384.size a
  inb_S24x128x384_S1x128x16_13_0_256 : ∀ a, (![13, 0, 256] : Fin 3 → Nat) a + S1x128x16.size a ≤ S24x128x384.size a
  inb_S24x128x384_S1x128x16_16_0_208 : ∀ a, (![16, 0, 208] : Fin 3 → Nat) a + S1x128x16.size a ≤ S24x128x384.size a
  inb_S24x128x384_S1x128x16_13_0_272 : ∀ a, (![13, 0, 272] : Fin 3 → Nat) a + S1x128x16.size a ≤ S24x128x384.size a
  inb_S24x128x384_S1x128x16_17_0_208 : ∀ a, (![17, 0, 208] : Fin 3 → Nat) a + S1x128x16.size a ≤ S24x128x384.size a
  inb_S24x128x384_S1x128x16_13_0_288 : ∀ a, (![13, 0, 288] : Fin 3 → Nat) a + S1x128x16.size a ≤ S24x128x384.size a
  inb_S24x128x384_S1x128x16_18_0_208 : ∀ a, (![18, 0, 208] : Fin 3 → Nat) a + S1x128x16.size a ≤ S24x128x384.size a
  inb_S24x128x384_S1x128x16_13_0_304 : ∀ a, (![13, 0, 304] : Fin 3 → Nat) a + S1x128x16.size a ≤ S24x128x384.size a
  inb_S24x128x384_S1x128x16_19_0_208 : ∀ a, (![19, 0, 208] : Fin 3 → Nat) a + S1x128x16.size a ≤ S24x128x384.size a
  inb_S24x128x384_S1x128x16_13_0_320 : ∀ a, (![13, 0, 320] : Fin 3 → Nat) a + S1x128x16.size a ≤ S24x128x384.size a
  inb_S24x128x384_S1x128x16_20_0_208 : ∀ a, (![20, 0, 208] : Fin 3 → Nat) a + S1x128x16.size a ≤ S24x128x384.size a
  inb_S24x128x384_S1x128x16_13_0_336 : ∀ a, (![13, 0, 336] : Fin 3 → Nat) a + S1x128x16.size a ≤ S24x128x384.size a
  inb_S24x128x384_S1x128x16_21_0_208 : ∀ a, (![21, 0, 208] : Fin 3 → Nat) a + S1x128x16.size a ≤ S24x128x384.size a
  inb_S24x128x384_S1x128x16_13_0_352 : ∀ a, (![13, 0, 352] : Fin 3 → Nat) a + S1x128x16.size a ≤ S24x128x384.size a
  inb_S24x128x384_S1x128x16_22_0_208 : ∀ a, (![22, 0, 208] : Fin 3 → Nat) a + S1x128x16.size a ≤ S24x128x384.size a
  inb_S24x128x384_S1x128x16_13_0_368 : ∀ a, (![13, 0, 368] : Fin 3 → Nat) a + S1x128x16.size a ≤ S24x128x384.size a
  inb_S24x128x384_S1x128x16_23_0_208 : ∀ a, (![23, 0, 208] : Fin 3 → Nat) a + S1x128x16.size a ≤ S24x128x384.size a
  inb_S24x128x384_S1x128x16_14_0_240 : ∀ a, (![14, 0, 240] : Fin 3 → Nat) a + S1x128x16.size a ≤ S24x128x384.size a
  inb_S24x128x384_S1x128x16_15_0_224 : ∀ a, (![15, 0, 224] : Fin 3 → Nat) a + S1x128x16.size a ≤ S24x128x384.size a
  inb_S24x128x384_S1x128x16_14_0_256 : ∀ a, (![14, 0, 256] : Fin 3 → Nat) a + S1x128x16.size a ≤ S24x128x384.size a
  inb_S24x128x384_S1x128x16_16_0_224 : ∀ a, (![16, 0, 224] : Fin 3 → Nat) a + S1x128x16.size a ≤ S24x128x384.size a
  inb_S24x128x384_S1x128x16_14_0_272 : ∀ a, (![14, 0, 272] : Fin 3 → Nat) a + S1x128x16.size a ≤ S24x128x384.size a
  inb_S24x128x384_S1x128x16_17_0_224 : ∀ a, (![17, 0, 224] : Fin 3 → Nat) a + S1x128x16.size a ≤ S24x128x384.size a
  inb_S24x128x384_S1x128x16_14_0_288 : ∀ a, (![14, 0, 288] : Fin 3 → Nat) a + S1x128x16.size a ≤ S24x128x384.size a
  inb_S24x128x384_S1x128x16_18_0_224 : ∀ a, (![18, 0, 224] : Fin 3 → Nat) a + S1x128x16.size a ≤ S24x128x384.size a
  inb_S24x128x384_S1x128x16_14_0_304 : ∀ a, (![14, 0, 304] : Fin 3 → Nat) a + S1x128x16.size a ≤ S24x128x384.size a
  inb_S24x128x384_S1x128x16_19_0_224 : ∀ a, (![19, 0, 224] : Fin 3 → Nat) a + S1x128x16.size a ≤ S24x128x384.size a
  inb_S24x128x384_S1x128x16_14_0_320 : ∀ a, (![14, 0, 320] : Fin 3 → Nat) a + S1x128x16.size a ≤ S24x128x384.size a
  inb_S24x128x384_S1x128x16_20_0_224 : ∀ a, (![20, 0, 224] : Fin 3 → Nat) a + S1x128x16.size a ≤ S24x128x384.size a
  inb_S24x128x384_S1x128x16_14_0_336 : ∀ a, (![14, 0, 336] : Fin 3 → Nat) a + S1x128x16.size a ≤ S24x128x384.size a
  inb_S24x128x384_S1x128x16_21_0_224 : ∀ a, (![21, 0, 224] : Fin 3 → Nat) a + S1x128x16.size a ≤ S24x128x384.size a
  inb_S24x128x384_S1x128x16_14_0_352 : ∀ a, (![14, 0, 352] : Fin 3 → Nat) a + S1x128x16.size a ≤ S24x128x384.size a
  inb_S24x128x384_S1x128x16_22_0_224 : ∀ a, (![22, 0, 224] : Fin 3 → Nat) a + S1x128x16.size a ≤ S24x128x384.size a
  inb_S24x128x384_S1x128x16_14_0_368 : ∀ a, (![14, 0, 368] : Fin 3 → Nat) a + S1x128x16.size a ≤ S24x128x384.size a
  inb_S24x128x384_S1x128x16_23_0_224 : ∀ a, (![23, 0, 224] : Fin 3 → Nat) a + S1x128x16.size a ≤ S24x128x384.size a
  inb_S24x128x384_S1x128x16_15_0_256 : ∀ a, (![15, 0, 256] : Fin 3 → Nat) a + S1x128x16.size a ≤ S24x128x384.size a
  inb_S24x128x384_S1x128x16_16_0_240 : ∀ a, (![16, 0, 240] : Fin 3 → Nat) a + S1x128x16.size a ≤ S24x128x384.size a
  inb_S24x128x384_S1x128x16_15_0_272 : ∀ a, (![15, 0, 272] : Fin 3 → Nat) a + S1x128x16.size a ≤ S24x128x384.size a
  inb_S24x128x384_S1x128x16_17_0_240 : ∀ a, (![17, 0, 240] : Fin 3 → Nat) a + S1x128x16.size a ≤ S24x128x384.size a
  inb_S24x128x384_S1x128x16_15_0_288 : ∀ a, (![15, 0, 288] : Fin 3 → Nat) a + S1x128x16.size a ≤ S24x128x384.size a
  inb_S24x128x384_S1x128x16_18_0_240 : ∀ a, (![18, 0, 240] : Fin 3 → Nat) a + S1x128x16.size a ≤ S24x128x384.size a
  inb_S24x128x384_S1x128x16_15_0_304 : ∀ a, (![15, 0, 304] : Fin 3 → Nat) a + S1x128x16.size a ≤ S24x128x384.size a
  inb_S24x128x384_S1x128x16_19_0_240 : ∀ a, (![19, 0, 240] : Fin 3 → Nat) a + S1x128x16.size a ≤ S24x128x384.size a
  inb_S24x128x384_S1x128x16_15_0_320 : ∀ a, (![15, 0, 320] : Fin 3 → Nat) a + S1x128x16.size a ≤ S24x128x384.size a
  inb_S24x128x384_S1x128x16_20_0_240 : ∀ a, (![20, 0, 240] : Fin 3 → Nat) a + S1x128x16.size a ≤ S24x128x384.size a
  inb_S24x128x384_S1x128x16_15_0_336 : ∀ a, (![15, 0, 336] : Fin 3 → Nat) a + S1x128x16.size a ≤ S24x128x384.size a
  inb_S24x128x384_S1x128x16_21_0_240 : ∀ a, (![21, 0, 240] : Fin 3 → Nat) a + S1x128x16.size a ≤ S24x128x384.size a
  inb_S24x128x384_S1x128x16_15_0_352 : ∀ a, (![15, 0, 352] : Fin 3 → Nat) a + S1x128x16.size a ≤ S24x128x384.size a
  inb_S24x128x384_S1x128x16_22_0_240 : ∀ a, (![22, 0, 240] : Fin 3 → Nat) a + S1x128x16.size a ≤ S24x128x384.size a
  inb_S24x128x384_S1x128x16_15_0_368 : ∀ a, (![15, 0, 368] : Fin 3 → Nat) a + S1x128x16.size a ≤ S24x128x384.size a
  inb_S24x128x384_S1x128x16_23_0_240 : ∀ a, (![23, 0, 240] : Fin 3 → Nat) a + S1x128x16.size a ≤ S24x128x384.size a
  inb_S24x128x384_S1x128x16_16_0_272 : ∀ a, (![16, 0, 272] : Fin 3 → Nat) a + S1x128x16.size a ≤ S24x128x384.size a
  inb_S24x128x384_S1x128x16_17_0_256 : ∀ a, (![17, 0, 256] : Fin 3 → Nat) a + S1x128x16.size a ≤ S24x128x384.size a
  inb_S24x128x384_S1x128x16_16_0_288 : ∀ a, (![16, 0, 288] : Fin 3 → Nat) a + S1x128x16.size a ≤ S24x128x384.size a
  inb_S24x128x384_S1x128x16_18_0_256 : ∀ a, (![18, 0, 256] : Fin 3 → Nat) a + S1x128x16.size a ≤ S24x128x384.size a
  inb_S24x128x384_S1x128x16_16_0_304 : ∀ a, (![16, 0, 304] : Fin 3 → Nat) a + S1x128x16.size a ≤ S24x128x384.size a
  inb_S24x128x384_S1x128x16_19_0_256 : ∀ a, (![19, 0, 256] : Fin 3 → Nat) a + S1x128x16.size a ≤ S24x128x384.size a
  inb_S24x128x384_S1x128x16_16_0_320 : ∀ a, (![16, 0, 320] : Fin 3 → Nat) a + S1x128x16.size a ≤ S24x128x384.size a
  inb_S24x128x384_S1x128x16_20_0_256 : ∀ a, (![20, 0, 256] : Fin 3 → Nat) a + S1x128x16.size a ≤ S24x128x384.size a
  inb_S24x128x384_S1x128x16_16_0_336 : ∀ a, (![16, 0, 336] : Fin 3 → Nat) a + S1x128x16.size a ≤ S24x128x384.size a
  inb_S24x128x384_S1x128x16_21_0_256 : ∀ a, (![21, 0, 256] : Fin 3 → Nat) a + S1x128x16.size a ≤ S24x128x384.size a
  inb_S24x128x384_S1x128x16_16_0_352 : ∀ a, (![16, 0, 352] : Fin 3 → Nat) a + S1x128x16.size a ≤ S24x128x384.size a
  inb_S24x128x384_S1x128x16_22_0_256 : ∀ a, (![22, 0, 256] : Fin 3 → Nat) a + S1x128x16.size a ≤ S24x128x384.size a
  inb_S24x128x384_S1x128x16_16_0_368 : ∀ a, (![16, 0, 368] : Fin 3 → Nat) a + S1x128x16.size a ≤ S24x128x384.size a
  inb_S24x128x384_S1x128x16_23_0_256 : ∀ a, (![23, 0, 256] : Fin 3 → Nat) a + S1x128x16.size a ≤ S24x128x384.size a
  inb_S24x128x384_S1x128x16_17_0_288 : ∀ a, (![17, 0, 288] : Fin 3 → Nat) a + S1x128x16.size a ≤ S24x128x384.size a
  inb_S24x128x384_S1x128x16_18_0_272 : ∀ a, (![18, 0, 272] : Fin 3 → Nat) a + S1x128x16.size a ≤ S24x128x384.size a
  inb_S24x128x384_S1x128x16_17_0_304 : ∀ a, (![17, 0, 304] : Fin 3 → Nat) a + S1x128x16.size a ≤ S24x128x384.size a
  inb_S24x128x384_S1x128x16_19_0_272 : ∀ a, (![19, 0, 272] : Fin 3 → Nat) a + S1x128x16.size a ≤ S24x128x384.size a
  inb_S24x128x384_S1x128x16_17_0_320 : ∀ a, (![17, 0, 320] : Fin 3 → Nat) a + S1x128x16.size a ≤ S24x128x384.size a
  inb_S24x128x384_S1x128x16_20_0_272 : ∀ a, (![20, 0, 272] : Fin 3 → Nat) a + S1x128x16.size a ≤ S24x128x384.size a
  inb_S24x128x384_S1x128x16_17_0_336 : ∀ a, (![17, 0, 336] : Fin 3 → Nat) a + S1x128x16.size a ≤ S24x128x384.size a
  inb_S24x128x384_S1x128x16_21_0_272 : ∀ a, (![21, 0, 272] : Fin 3 → Nat) a + S1x128x16.size a ≤ S24x128x384.size a
  inb_S24x128x384_S1x128x16_17_0_352 : ∀ a, (![17, 0, 352] : Fin 3 → Nat) a + S1x128x16.size a ≤ S24x128x384.size a
  inb_S24x128x384_S1x128x16_22_0_272 : ∀ a, (![22, 0, 272] : Fin 3 → Nat) a + S1x128x16.size a ≤ S24x128x384.size a
  inb_S24x128x384_S1x128x16_17_0_368 : ∀ a, (![17, 0, 368] : Fin 3 → Nat) a + S1x128x16.size a ≤ S24x128x384.size a
  inb_S24x128x384_S1x128x16_23_0_272 : ∀ a, (![23, 0, 272] : Fin 3 → Nat) a + S1x128x16.size a ≤ S24x128x384.size a
  inb_S24x128x384_S1x128x16_18_0_304 : ∀ a, (![18, 0, 304] : Fin 3 → Nat) a + S1x128x16.size a ≤ S24x128x384.size a
  inb_S24x128x384_S1x128x16_19_0_288 : ∀ a, (![19, 0, 288] : Fin 3 → Nat) a + S1x128x16.size a ≤ S24x128x384.size a
  inb_S24x128x384_S1x128x16_18_0_320 : ∀ a, (![18, 0, 320] : Fin 3 → Nat) a + S1x128x16.size a ≤ S24x128x384.size a
  inb_S24x128x384_S1x128x16_20_0_288 : ∀ a, (![20, 0, 288] : Fin 3 → Nat) a + S1x128x16.size a ≤ S24x128x384.size a
  inb_S24x128x384_S1x128x16_18_0_336 : ∀ a, (![18, 0, 336] : Fin 3 → Nat) a + S1x128x16.size a ≤ S24x128x384.size a
  inb_S24x128x384_S1x128x16_21_0_288 : ∀ a, (![21, 0, 288] : Fin 3 → Nat) a + S1x128x16.size a ≤ S24x128x384.size a
  inb_S24x128x384_S1x128x16_18_0_352 : ∀ a, (![18, 0, 352] : Fin 3 → Nat) a + S1x128x16.size a ≤ S24x128x384.size a
  inb_S24x128x384_S1x128x16_22_0_288 : ∀ a, (![22, 0, 288] : Fin 3 → Nat) a + S1x128x16.size a ≤ S24x128x384.size a
  inb_S24x128x384_S1x128x16_18_0_368 : ∀ a, (![18, 0, 368] : Fin 3 → Nat) a + S1x128x16.size a ≤ S24x128x384.size a
  inb_S24x128x384_S1x128x16_23_0_288 : ∀ a, (![23, 0, 288] : Fin 3 → Nat) a + S1x128x16.size a ≤ S24x128x384.size a
  inb_S24x128x384_S1x128x16_19_0_320 : ∀ a, (![19, 0, 320] : Fin 3 → Nat) a + S1x128x16.size a ≤ S24x128x384.size a
  inb_S24x128x384_S1x128x16_20_0_304 : ∀ a, (![20, 0, 304] : Fin 3 → Nat) a + S1x128x16.size a ≤ S24x128x384.size a
  inb_S24x128x384_S1x128x16_19_0_336 : ∀ a, (![19, 0, 336] : Fin 3 → Nat) a + S1x128x16.size a ≤ S24x128x384.size a
  inb_S24x128x384_S1x128x16_21_0_304 : ∀ a, (![21, 0, 304] : Fin 3 → Nat) a + S1x128x16.size a ≤ S24x128x384.size a
  inb_S24x128x384_S1x128x16_19_0_352 : ∀ a, (![19, 0, 352] : Fin 3 → Nat) a + S1x128x16.size a ≤ S24x128x384.size a
  inb_S24x128x384_S1x128x16_22_0_304 : ∀ a, (![22, 0, 304] : Fin 3 → Nat) a + S1x128x16.size a ≤ S24x128x384.size a
  inb_S24x128x384_S1x128x16_19_0_368 : ∀ a, (![19, 0, 368] : Fin 3 → Nat) a + S1x128x16.size a ≤ S24x128x384.size a
  inb_S24x128x384_S1x128x16_23_0_304 : ∀ a, (![23, 0, 304] : Fin 3 → Nat) a + S1x128x16.size a ≤ S24x128x384.size a
  inb_S24x128x384_S1x128x16_20_0_336 : ∀ a, (![20, 0, 336] : Fin 3 → Nat) a + S1x128x16.size a ≤ S24x128x384.size a
  inb_S24x128x384_S1x128x16_21_0_320 : ∀ a, (![21, 0, 320] : Fin 3 → Nat) a + S1x128x16.size a ≤ S24x128x384.size a
  inb_S24x128x384_S1x128x16_20_0_352 : ∀ a, (![20, 0, 352] : Fin 3 → Nat) a + S1x128x16.size a ≤ S24x128x384.size a
  inb_S24x128x384_S1x128x16_22_0_320 : ∀ a, (![22, 0, 320] : Fin 3 → Nat) a + S1x128x16.size a ≤ S24x128x384.size a
  inb_S24x128x384_S1x128x16_20_0_368 : ∀ a, (![20, 0, 368] : Fin 3 → Nat) a + S1x128x16.size a ≤ S24x128x384.size a
  inb_S24x128x384_S1x128x16_23_0_320 : ∀ a, (![23, 0, 320] : Fin 3 → Nat) a + S1x128x16.size a ≤ S24x128x384.size a
  inb_S24x128x384_S1x128x16_21_0_352 : ∀ a, (![21, 0, 352] : Fin 3 → Nat) a + S1x128x16.size a ≤ S24x128x384.size a
  inb_S24x128x384_S1x128x16_22_0_336 : ∀ a, (![22, 0, 336] : Fin 3 → Nat) a + S1x128x16.size a ≤ S24x128x384.size a
  inb_S24x128x384_S1x128x16_21_0_368 : ∀ a, (![21, 0, 368] : Fin 3 → Nat) a + S1x128x16.size a ≤ S24x128x384.size a
  inb_S24x128x384_S1x128x16_23_0_336 : ∀ a, (![23, 0, 336] : Fin 3 → Nat) a + S1x128x16.size a ≤ S24x128x384.size a
  inb_S24x128x384_S1x128x16_22_0_368 : ∀ a, (![22, 0, 368] : Fin 3 → Nat) a + S1x128x16.size a ≤ S24x128x384.size a
  inb_S24x128x384_S1x128x16_23_0_352 : ∀ a, (![23, 0, 352] : Fin 3 → Nat) a + S1x128x16.size a ≤ S24x128x384.size a
  concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x276_d1 : Shape.Concatenates (S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: []) S128x276 1
  inb_S276x128_S276x128_0_0 : ∀ a, (![0, 0] : Fin 2 → Nat) a + S276x128.size a ≤ S276x128.size a
  h_S276x128 : 0 < S276x128.numel
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S128x64 : S1x64.Broadcasts S128x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  dot_S128x10000_S10000x384_S128x384_1_0_0_1_n_n_wf : DotDims.WF S128x10000 S10000x384 S128x384 [1] [0] [0] [1] [] []
  dot_S128x276_S276x128_S128x128_1_0_0_1_n_n_wf : DotDims.WF S128x276 S276x128 S128x128 [1] [0] [0] [1] [] []
  dot_S128x128_S128x64_S128x64_1_0_0_1_n_n_wf : DotDims.WF S128x128 S128x64 S128x64 [1] [0] [0] [1] [] []
  dot_S128x64_S64x1_S128x1_1_0_0_1_n_n_wf : DotDims.WF S128x64 S64x1 S128x1 [1] [0] [0] [1] [] []
  hrank0 : 0 < grid0.rank
  k0_off1_inb : ∀ i : grid0.Coords, ∀ a, (k0_off1 i) a + S1x128x384.size a ≤ S24x128x384.size a
  k0_off1_packedbf16 : ∀ i : grid0.Coords, (Rect.unit (s := S24x128x384) (k0_off1 i) S1x128x384.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128.size a ≤ S24x1x16384.size a
  hwx0_0 : ∀ i : grid0.Coords, EltTy.bits .i32 = 32 ∨ (Rect.block (s := S24x1x16384) S1x1x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10000x384.size a ≤ S24x10000x384.size a
  hwx0_1 : ∀ i : grid0.Coords, EltTy.bits .bf16 = 32 ∨ (Rect.block (s := S24x10000x384) S1x10000x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x10000.size a ≤ S24x1x10000.size a
  hwx0_2 : ∀ i : grid0.Coords, EltTy.bits .f32 = 32 ∨ (Rect.block (s := S24x1x10000) S1x1x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S276x128.size a ≤ S276x128.size a
  hwx0_4 : ∀ i : grid0.Coords, EltTy.bits .f32 = 32 ∨ (Rect.block (s := S276x128) S276x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S16384x1.size a
  hwx0_10 : ∀ i : grid0.Coords, EltTy.bits .f32 = 32 ∨ (Rect.block (s := S16384x1) S128x1.size (cc0_transform_10 i) (hinb0_10 i)).WholeWords (EltTy.packing .f32)

variable [Facts₀]

def dot_S128x10000_S10000x384_S128x384_1_0_0_1_n_n : DotDims S128x10000 S10000x384 S128x384 where
  lhsContracting := [1]
  rhsContracting := [0]
  lhsNonContracting := [0]
  rhsNonContracting := [1]
  lhsBatch := []
  rhsBatch := []
  wf := dot_S128x10000_S10000x384_S128x384_1_0_0_1_n_n_wf
def dot_S128x276_S276x128_S128x128_1_0_0_1_n_n : DotDims S128x276 S276x128 S128x128 where
  lhsContracting := [1]
  rhsContracting := [0]
  lhsNonContracting := [0]
  rhsNonContracting := [1]
  lhsBatch := []
  rhsBatch := []
  wf := dot_S128x276_S276x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_v1) S1x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x10000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S276x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S128x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S16384x24 : Shape := ⟨2, ![16384, 24]⟩
abbrev S24x10000x24x16 : Shape := ⟨4, ![24, 10000, 24, 16]⟩
abbrev S24x10000 : Shape := ⟨2, ![24, 10000]⟩
abbrev S1 : Shape := ⟨1, ![1]⟩
abbrev S276x128 : Shape := ⟨2, ![276, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S24 : Shape := ⟨1, ![24]⟩
abbrev S1x24 : Shape := ⟨2, ![1, 24]⟩
abbrev S_ : Shape := ⟨0, ![]⟩
abbrev S16384x24x1 : Shape := ⟨3, ![16384, 24, 1]⟩
abbrev S16384x24x2 : Shape := ⟨3, ![16384, 24, 2]⟩
abbrev S16384x24x24x16 : Shape := ⟨4, ![16384, 24, 24, 16]⟩
abbrev S16384x24x24 : Shape := ⟨3, ![16384, 24, 24]⟩
abbrev S24x24 : Shape := ⟨2, ![24, 24]⟩
abbrev S576 : Shape := ⟨1, ![576]⟩
abbrev S276 : Shape := ⟨1, ![276]⟩
abbrev S576x1 : Shape := ⟨2, ![576, 1]⟩
abbrev S276x1 : Shape := ⟨2, ![276, 1]⟩
abbrev S276x2 : Shape := ⟨2, ![276, 2]⟩
abbrev S16384x276 : Shape := ⟨2, ![16384, 276]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x1 : Shape := ⟨2, ![16384, 1]⟩
abbrev S1x1 : Shape := ⟨2, ![1, 1]⟩
abbrev S16384 : Shape := ⟨1, ![16384]⟩

abbrev nBuf : Space → Nat
  | .hbm => 214
  | .vmem => 0
  | .smem => 0
  | _ => 0

abbrev hbmTy0_0 (i : Nat) : BufTy := match i % 128 with
  | 0 => ⟨S16384x24, .i32⟩
  | 1 => ⟨S24x10000x24x16, .f32⟩
  | 2 => ⟨S24x10000, .f32⟩
  | 3 => ⟨S1, .f32⟩
  | 4 => ⟨S276x128, .f32⟩
  | 5 => ⟨S128, .f32⟩
  | 6 => ⟨S128x64, .f32⟩
  | 7 => ⟨S64, .f32⟩
  | 8 => ⟨S64x1, .f32⟩
  | 9 => ⟨S1, .f32⟩
  | 10 => ⟨S24, .i32⟩
  | 11 => ⟨S1x24, .i32⟩
  | 12 => ⟨S_, .i32⟩
  | 13 => ⟨S1x24, .i32⟩
  | 14 => ⟨S1x24, .i1⟩
  | 15 => ⟨S_, .i32⟩
  | 16 => ⟨S1x24, .i32⟩
  | 17 => ⟨S1x24, .i32⟩
  | 18 => ⟨S1x24, .i32⟩
  | 19 => ⟨S_, .i32⟩
  | 20 => ⟨S16384x24, .i32⟩
  | 21 => ⟨S16384x24, .i1⟩
  | 22 => ⟨S_, .i32⟩
  | 23 => ⟨S16384x24, .i32⟩
  | 24 => ⟨S16384x24, .i32⟩
  | 25 => ⟨S16384x24, .i32⟩
  | 26 => ⟨S16384x24, .i32⟩
  | 27 => ⟨S16384x24x1, .i32⟩
  | 28 => ⟨S16384x24x1, .i32⟩
  | 29 => ⟨S16384x24x2, .i32⟩
  | 30 => ⟨S16384x24x24x16, .f32⟩
  | 31 => ⟨S16384x24x24x16, .f32⟩
  | 32 => ⟨S16384x24x24x16, .f32⟩
  | 33 => ⟨S_, .f32⟩
  | 34 => ⟨S16384x24x24, .f32⟩
  | 35 => ⟨S_, .f32⟩
  | 36 => ⟨S24x24, .f32⟩
  | 37 => ⟨S24x24, .i32⟩
  | 38 => ⟨S_, .i32⟩
  | 39 => ⟨S24x24, .i32⟩
  | 40 => ⟨S24x24, .i32⟩
  | 41 => ⟨S24x24, .i32⟩
  | 42 => ⟨S24x24, .i1⟩
  | 43 => ⟨S_, .f32⟩
  | 44 => ⟨S24x24, .f32⟩
  | 45 => ⟨S24x24, .f32⟩
  | 46 => ⟨S_, .f32⟩
  | 47 => ⟨S24x24, .f32⟩
  | 48 => ⟨S24x24, .i1⟩
  | 49 => ⟨S576, .i1⟩
  | 50 => ⟨S576, .i32⟩
  | 51 => ⟨S_, .i32⟩
  | 52 => ⟨S_, .i32⟩
  | 53 => ⟨S576, .i32⟩
  | 54 => ⟨S_, .i32⟩
  | 55 => ⟨S276, .i32⟩
  | 56 => ⟨S_, .i32⟩
  | 57 => ⟨S_, .i32⟩
  | 58 => ⟨S576, .i32⟩
  | 59 => ⟨S576, .i32⟩
  | 60 => ⟨S_, .i32⟩
  | 61 => ⟨S576, .i32⟩
  | 62 => ⟨S576, .i1⟩
  | 63 => ⟨S_, .i32⟩
  | 64 => ⟨S576, .i32⟩
  | 65 => ⟨S576, .i32⟩
  | 66 => ⟨S576, .i32⟩
  | 67 => ⟨S576x1, .i32⟩
  | 68 => ⟨S_, .i32⟩
  | 69 => ⟨S576, .i32⟩
  | 70 => ⟨S276, .i32⟩
  | 71 => ⟨S_, .i32⟩
  | 72 => ⟨S_, .i32⟩
  | 73 => ⟨S276, .i32⟩
  | 74 => ⟨S_, .i32⟩
  | 75 => ⟨S276, .i32⟩
  | 76 => ⟨S276, .i32⟩
  | 77 => ⟨S276, .i32⟩
  | 78 => ⟨S_, .i32⟩
  | 79 => ⟨S276, .i32⟩
  | 80 => ⟨S276, .i1⟩
  | 81 => ⟨S276, .i32⟩
  | 82 => ⟨S276, .i32⟩
  | 83 => ⟨S_, .i32⟩
  | 84 => ⟨S276, .i32⟩
  | 85 => ⟨S276, .i1⟩
  | 86 => ⟨S276, .i1⟩
  | 87 => ⟨S_, .i32⟩
  | 88 => ⟨S276, .i32⟩
  | 89 => ⟨S276, .i32⟩
  | 90 => ⟨S276, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S276, .i32⟩
  | 98 => ⟨S276, .i32⟩
  | 99 => ⟨S_, .i32⟩
  | 100 => ⟨S276, .i32⟩
  | 101 => ⟨S276, .i1⟩
  | 102 => ⟨S_, .i32⟩
  | 103 => ⟨S276, .i32⟩
  | 104 => ⟨S276, .i1⟩
  | 105 => ⟨S_, .i32⟩
  | 106 => ⟨S_, .i1⟩
  | 107 => ⟨S276, .i1⟩
  | 108 => ⟨S276, .i1⟩
  | 109 => ⟨S276, .i1⟩
  | 110 => ⟨S276, .i32⟩
  | 111 => ⟨S276, .i32⟩
  | 112 => ⟨S276, .i32⟩
  | 113 => ⟨S_, .i32⟩
  | 114 => ⟨S276, .i32⟩
  | 115 => ⟨S276, .i32⟩
  | 116 => ⟨S276, .i32⟩
  | 117 => ⟨S_, .i32⟩
  | 118 => ⟨S276, .i32⟩
  | 119 => ⟨S276, .i1⟩
  | 120 => ⟨S276, .i32⟩
  | 121 => ⟨S276, .i32⟩
  | 122 => ⟨S_, .i32⟩
  | 123 => ⟨S276, .i32⟩
  | 124 => ⟨S276, .i1⟩
  | 125 => ⟨S276, .i1⟩
  | 126 => ⟨S_, .i32⟩
  | 127 => ⟨S276, .i32⟩
  | _ => ⟨S16384x24, .i32⟩

abbrev hbmTy0_1 (i : Nat) : BufTy := match i % 128 with
  | 0 => ⟨S276, .i32⟩
  | 1 => ⟨S276, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S276, .i32⟩
  | 9 => ⟨S276, .i32⟩
  | 10 => ⟨S_, .i32⟩
  | 11 => ⟨S276, .i32⟩
  | 12 => ⟨S276, .i1⟩
  | 13 => ⟨S_, .i32⟩
  | 14 => ⟨S276, .i32⟩
  | 15 => ⟨S276, .i1⟩
  | 16 => ⟨S_, .i32⟩
  | 17 => ⟨S_, .i1⟩
  | 18 => ⟨S276, .i1⟩
  | 19 => ⟨S276, .i1⟩
  | 20 => ⟨S276, .i1⟩
  | 21 => ⟨S276, .i32⟩
  | 22 => ⟨S276, .i32⟩
  | 23 => ⟨S276, .i32⟩
  | 24 => ⟨S_, .i32⟩
  | 25 => ⟨S276, .i32⟩
  | 26 => ⟨S276, .i1⟩
  | 27 => ⟨S_, .i32⟩
  | 28 => ⟨S276, .i32⟩
  | 29 => ⟨S276, .i32⟩
  | 30 => ⟨S276, .i32⟩
  | 31 => ⟨S_, .i32⟩
  | 32 => ⟨S276, .i32⟩
  | 33 => ⟨S276, .i1⟩
  | 34 => ⟨S_, .i32⟩
  | 35 => ⟨S276, .i32⟩
  | 36 => ⟨S276, .i32⟩
  | 37 => ⟨S276, .i32⟩
  | 38 => ⟨S276x1, .i32⟩
  | 39 => ⟨S276x1, .i32⟩
  | 40 => ⟨S276x2, .i32⟩
  | 41 => ⟨S16384x276, .f32⟩
  | 42 => ⟨S16384x128, .f32⟩
  | 43 => ⟨S1x128, .f32⟩
  | 44 => ⟨S16384x128, .f32⟩
  | 45 => ⟨S16384x128, .f32⟩
  | 46 => ⟨S_, .f32⟩
  | 47 => ⟨S16384x128, .f32⟩
  | 48 => ⟨S16384x128, .f32⟩
  | 49 => ⟨S16384x64, .f32⟩
  | 50 => ⟨S1x64, .f32⟩
  | 51 => ⟨S16384x64, .f32⟩
  | 52 => ⟨S16384x64, .f32⟩
  | 53 => ⟨S_, .f32⟩
  | 54 => ⟨S16384x64, .f32⟩
  | 55 => ⟨S16384x64, .f32⟩
  | 56 => ⟨S16384x1, .f32⟩
  | 57 => ⟨S1x1, .f32⟩
  | 58 => ⟨S16384x1, .f32⟩
  | 59 => ⟨S16384x1, .f32⟩
  | 60 => ⟨S_, .i32⟩
  | 61 => ⟨S1x24, .i32⟩
  | 62 => ⟨S1x24, .i1⟩
  | 63 => ⟨S_, .i32⟩
  | 64 => ⟨S1x24, .i32⟩
  | 65 => ⟨S1x24, .i32⟩
  | 66 => ⟨S1x24, .i32⟩
  | 67 => ⟨S_, .i32⟩
  | 68 => ⟨S16384x24, .i32⟩
  | 69 => ⟨S16384x24, .i1⟩
  | 70 => ⟨S_, .i32⟩
  | 71 => ⟨S16384x24, .i32⟩
  | 72 => ⟨S16384x24, .i32⟩
  | 73 => ⟨S16384x24, .i32⟩
  | 74 => ⟨S16384x24, .i32⟩
  | 75 => ⟨S16384x24x1, .i32⟩
  | 76 => ⟨S16384x24x1, .i32⟩
  | 77 => ⟨S16384x24x2, .i32⟩
  | 78 => ⟨S16384x24, .f32⟩
  | 79 => ⟨S_, .f32⟩
  | 80 => ⟨S16384, .f32⟩
  | 81 => ⟨S16384x1, .f32⟩
  | 82 => ⟨S1x1, .f32⟩
  | 83 => ⟨S16384x1, .f32⟩
  | 84 => ⟨S16384x1, .f32⟩
  | 85 => ⟨S16384x1, .f32⟩
  | _ => ⟨S16384x24, .i32⟩

abbrev hbmTy (i : Nat) : BufTy := match i / 128 with
  | 0 => hbmTy0_0 i
  | 1 => hbmTy0_1 i
  | _ => ⟨S16384x24, .i32⟩

abbrev bufTy : (tb : Table) → Fin (tcTables nBuf tb) → BufTy
  | .hbm, ⟨i, _⟩ => hbmTy i
  | _, _ => ⟨S16384x24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_cst : Ref sig .tc := ⟨.hbm, 43, rfl⟩
abbrev main_call0_v5 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_call1_v0 : Ref sig .tc := ⟨.hbm, 49, rfl⟩
abbrev main_call1_v1 : Ref sig .tc := ⟨.hbm, 50, rfl⟩
abbrev main_call1_call0_c : Ref sig .tc := ⟨.hbm, 51, rfl⟩
abbrev main_call1_call0_v0 : Ref sig .tc := ⟨.hbm, 52, rfl⟩
abbrev main_v24 : Ref sig .tc := ⟨.hbm, 53, rfl⟩
abbrev main_c_5 : Ref sig .tc := ⟨.hbm, 54, rfl⟩
abbrev main_v25 : Ref sig .tc := ⟨.hbm, 55, rfl⟩
abbrev main_c_6 : Ref sig .tc := ⟨.hbm, 56, rfl⟩
abbrev main_call2_v0 : Ref sig .tc := ⟨.hbm, 57, rfl⟩
abbrev main_call2_v1 : Ref sig .tc := ⟨.hbm, 58, rfl⟩
abbrev main_v26 : Ref sig .tc := ⟨.hbm, 59, rfl⟩
abbrev main_c_7 : Ref sig .tc := ⟨.hbm, 60, rfl⟩
abbrev main_v27 : Ref sig .tc := ⟨.hbm, 61, rfl⟩
abbrev main_v28 : Ref sig .tc := ⟨.hbm, 62, rfl⟩
abbrev main_c_8 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_9 : Ref sig .tc := ⟨.hbm, 68, rfl⟩
abbrev main_v33 : Ref sig .tc := ⟨.hbm, 69, rfl⟩
abbrev main_v34 : Ref sig .tc := ⟨.hbm, 70, rfl⟩
abbrev main_call3_call0_c : Ref sig .tc := ⟨.hbm, 71, rfl⟩
abbrev main_call3_call0_v0 : Ref sig .tc := ⟨.hbm, 72, rfl⟩
abbrev main_v35 : Ref sig .tc := ⟨.hbm, 73, rfl⟩
abbrev main_c_10 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_v6 : Ref sig .tc := ⟨.hbm, 81, rfl⟩
abbrev main_call4_v7 : Ref sig .tc := ⟨.hbm, 82, rfl⟩
abbrev main_call4_c : Ref sig .tc := ⟨.hbm, 83, rfl⟩
abbrev main_call4_v8 : Ref sig .tc := ⟨.hbm, 84, rfl⟩
abbrev main_call4_v9 : Ref sig .tc := ⟨.hbm, 85, rfl⟩
abbrev main_call4_v10 : Ref sig .tc := ⟨.hbm, 86, rfl⟩
abbrev main_call4_c_0 : Ref sig .tc := ⟨.hbm, 87, rfl⟩
abbrev main_call4_v11 : Ref sig .tc := ⟨.hbm, 88, rfl⟩
abbrev main_call4_v12 : Ref sig .tc := ⟨.hbm, 89, rfl⟩
abbrev main_v36 : Ref sig .tc := ⟨.hbm, 90, rfl⟩
abbrev main_c_11 : Ref sig .tc := ⟨.hbm, 91, rfl⟩
abbrev main_call5_v0 : Ref sig .tc := ⟨.hbm, 92, rfl⟩
abbrev main_call5_c : Ref sig .tc := ⟨.hbm, 93, rfl⟩
abbrev main_call5_v1 : Ref sig .tc := ⟨.hbm, 94, rfl⟩
abbrev main_call5_c_0 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_c_1 : Ref sig .tc := ⟨.hbm, 99, rfl⟩
abbrev main_call5_v5 : Ref sig .tc := ⟨.hbm, 100, rfl⟩
abbrev main_call5_v6 : Ref sig .tc := ⟨.hbm, 101, rfl⟩
abbrev main_call5_c_2 : Ref sig .tc := ⟨.hbm, 102, rfl⟩
abbrev main_call5_v7 : Ref sig .tc := ⟨.hbm, 103, rfl⟩
abbrev main_call5_v8 : Ref sig .tc := ⟨.hbm, 104, rfl⟩
abbrev main_call5_c_3 : Ref sig .tc := ⟨.hbm, 105, rfl⟩
abbrev main_call5_v9 : Ref sig .tc := ⟨.hbm, 106, rfl⟩
abbrev main_call5_v10 : Ref sig .tc := ⟨.hbm, 107, rfl⟩
abbrev main_call5_v11 : Ref sig .tc := ⟨.hbm, 108, rfl⟩
abbrev main_call5_v12 : Ref sig .tc := ⟨.hbm, 109, rfl⟩
abbrev main_call5_v13 : Ref sig .tc := ⟨.hbm, 110, rfl⟩
abbrev main_call5_v14 : Ref sig .tc := ⟨.hbm, 111, rfl⟩
abbrev main_v37 : Ref sig .tc := ⟨.hbm, 112, rfl⟩
abbrev main_c_12 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_v6 : Ref sig .tc := ⟨.hbm, 120, rfl⟩
abbrev main_call6_v7 : Ref sig .tc := ⟨.hbm, 121, rfl⟩
abbrev main_call6_c : Ref sig .tc := ⟨.hbm, 122, rfl⟩
abbrev main_call6_v8 : Ref sig .tc := ⟨.hbm, 123, rfl⟩
abbrev main_call6_v9 : Ref sig .tc := ⟨.hbm, 124, rfl⟩
abbrev main_call6_v10 : Ref sig .tc := ⟨.hbm, 125, rfl⟩
abbrev main_call6_c_0 : Ref sig .tc := ⟨.hbm, 126, rfl⟩
abbrev main_call6_v11 : Ref sig .tc := ⟨.hbm, 127, rfl⟩
abbrev main_call6_v12 : Ref sig .tc := ⟨.hbm, 128, rfl⟩
abbrev main_v38 : Ref sig .tc := ⟨.hbm, 129, rfl⟩
abbrev main_c_13 : Ref sig .tc := ⟨.hbm, 130, rfl⟩
abbrev main_call7_v0 : Ref sig .tc := ⟨.hbm, 131, rfl⟩
abbrev main_call7_c : Ref sig .tc := ⟨.hbm, 132, rfl⟩
abbrev main_call7_v1 : Ref sig .tc := ⟨.hbm, 133, rfl⟩
abbrev main_call7_c_0 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_call7_c_1 : Ref sig .tc := ⟨.hbm, 138, rfl⟩
abbrev main_call7_v5 : Ref sig .tc := ⟨.hbm, 139, rfl⟩
abbrev main_call7_v6 : Ref sig .tc := ⟨.hbm, 140, rfl⟩
abbrev main_call7_c_2 : Ref sig .tc := ⟨.hbm, 141, rfl⟩
abbrev main_call7_v7 : Ref sig .tc := ⟨.hbm, 142, rfl⟩
abbrev main_call7_v8 : Ref sig .tc := ⟨.hbm, 143, rfl⟩
abbrev main_call7_c_3 : Ref sig .tc := ⟨.hbm, 144, rfl⟩
abbrev main_call7_v9 : Ref sig .tc := ⟨.hbm, 145, rfl⟩
abbrev main_call7_v10 : Ref sig .tc := ⟨.hbm, 146, rfl⟩
abbrev main_call7_v11 : Ref sig .tc := ⟨.hbm, 147, rfl⟩
abbrev main_call7_v12 : Ref sig .tc := ⟨.hbm, 148, rfl⟩
abbrev main_call7_v13 : Ref sig .tc := ⟨.hbm, 149, rfl⟩
abbrev main_call7_v14 : Ref sig .tc := ⟨.hbm, 150, rfl⟩
abbrev main_v39 : Ref sig .tc := ⟨.hbm, 151, rfl⟩
abbrev main_c_14 : Ref sig .tc := ⟨.hbm, 152, rfl⟩
abbrev main_v40 : Ref sig .tc := ⟨.hbm, 153, rfl⟩
abbrev main_v41 : Ref sig .tc := ⟨.hbm, 154, rfl⟩
abbrev main_c_15 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_c_16 : Ref sig .tc := ⟨.hbm, 159, rfl⟩
abbrev main_v45 : Ref sig .tc := ⟨.hbm, 160, rfl⟩
abbrev main_v46 : Ref sig .tc := ⟨.hbm, 161, rfl⟩
abbrev main_c_17 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev main_call8_cst : Ref sig .tc := ⟨.hbm, 174, rfl⟩
abbrev main_call8_v0 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_v62 : Ref sig .tc := ⟨.hbm, 180, rfl⟩
abbrev main_call9_cst : Ref sig .tc := ⟨.hbm, 181, rfl⟩
abbrev main_call9_v0 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_c_18 : Ref sig .tc := ⟨.hbm, 188, rfl⟩
abbrev main_v68 : Ref sig .tc := ⟨.hbm, 189, rfl⟩
abbrev main_v69 : Ref sig .tc := ⟨.hbm, 190, rfl⟩
abbrev main_c_19 : Ref sig .tc := ⟨.hbm, 191, rfl⟩
abbrev main_v70 : Ref sig .tc := ⟨.hbm, 192, rfl⟩
abbrev main_v71 : Ref sig .tc := ⟨.hbm, 193, rfl⟩
abbrev main_v72 : Ref sig .tc := ⟨.hbm, 194, rfl⟩
abbrev main_c_20 : Ref sig .tc := ⟨.hbm, 195, rfl⟩
abbrev main_v73 : Ref sig .tc := ⟨.hbm, 196, rfl⟩
abbrev main_v74 : Ref sig .tc := ⟨.hbm, 197, rfl⟩
abbrev main_c_21 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_cst_22 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_v86 : Ref sig .tc := ⟨.hbm, 211, rfl⟩
abbrev main_v87 : Ref sig .tc := ⟨.hbm, 212, rfl⟩
abbrev main_v88 : Ref sig .tc := ⟨.hbm, 213, rfl⟩

abbrev nD : Nat := 1
abbrev τ : Topo := Topo.v7x

variable {F : FTy → Type} [FloatOps F]

class Facts₀ : Prop where
  bcast_S24_S1x24_1 : S24.BroadcastsInDim S1x24 (![1] : Fin 1 → Fin S1x24.rank)
  bcast_S_S1x24 : S_.BroadcastsInDim S1x24 (![] : Fin 0 → Fin S1x24.rank)
  bcast_S_S16384x24 : S_.BroadcastsInDim S16384x24 (![] : Fin 0 → Fin S16384x24.rank)
  bcast_S1x24_S16384x24_0_1 : S1x24.BroadcastsInDim S16384x24 (![0, 1] : Fin 2 → Fin S16384x24.rank)
  bcast_S16384x24_S16384x24x1_0_1 : S16384x24.BroadcastsInDim S16384x24x1 (![0, 1] : Fin 2 → Fin S16384x24x1.rank)
  concatenates_S16384x24x1_S16384x24x1_S16384x24x2_d2 : Shape.Concatenates [S16384x24x1, S16384x24x1] S16384x24x2 2
  transposes_S16384x24x24x16_S16384x24x24x16_0_2_1_3 : S16384x24x24x16.Transposes [0, 2, 1, 3] S16384x24x24x16
  reducesTo_S16384x24x24x16_S16384x24x24_d3 : S16384x24x24x16.ReducesTo [3] S16384x24x24
  h_S_ : 0 < S_.numel
  bcast_S_S24x24 : S_.BroadcastsInDim S24x24 (![] : Fin 0 → Fin S24x24.rank)
  shapeCasts_S24x24_S576 : S24x24.ShapeCasts S576
  natLt_1_32 : 1 < 32
  bcast_S_S_ : S_.BroadcastsInDim S_ (![] : Fin 0 → Fin S_.rank)
  reduceWindows_S576_S576_w576s1p575_0 : S576.ReduceWindows (![576] : Fin 1 → Nat) ![1] ![575] ![0] S576
  bcast_S_S276 : S_.BroadcastsInDim S276 (![] : Fin 0 → Fin S276.rank)
  bcast_S_S576 : S_.BroadcastsInDim S576 (![] : Fin 0 → Fin S576.rank)
  bcast_S576_S576x1_0 : S576.BroadcastsInDim S576x1 (![0] : Fin 1 → Fin S576x1.rank)
  reduceWindows_S276_S276_w276s1p275_0 : S276.ReduceWindows (![276] : Fin 1 → Nat) ![1] ![275] ![0] S276
  bcast_S276_S276x1_0 : S276.BroadcastsInDim S276x1 (![0] : Fin 1 → Fin S276x1.rank)
  concatenates_S276x1_S276x1_S276x2_d1 : Shape.Concatenates [S276x1, S276x1] S276x2 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x24_S16384_d1 : S16384x24.ReducesTo [1] S16384
  bcast_S16384_S16384x1_0 : S16384.BroadcastsInDim S16384x1 (![0] : Fin 1 → Fin S16384x1.rank)
  gather_S24x10000x24x16_S16384x24x2_S16384x24x24x16_23_01_n_n_01_2_112416_wf : GatherDims.WF S24x10000x24x16 S16384x24x2 S16384x24x24x16 [2, 3] [0, 1] [] [0, 1] [] 2 ![1, 1, 24, 16]
  scatter_S276_S576x1_S576_n_0_0_1_wf : ScatterDims.WF S276 S576x1 S576 [] [0] [0] 1
  gather_S16384x24x24_S276x2_S16384x276_0_12_n_n_12_1_1638411_wf : GatherDims.WF S16384x24x24 S276x2 S16384x276 [0] [1, 2] [] [1, 2] [] 1 ![16384, 1, 1]
  dot_S16384x276_S276x128_S16384x128_1_0_0_1_n_n_wf : DotDims.WF S16384x276 S276x128 S16384x128 [1] [0] [0] [1] [] []
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []
  gather_S24x10000_S16384x24x2_S16384x24_n_01_n_n_01_2_11_wf : GatherDims.WF S24x10000 S16384x24x2 S16384x24 [] [0, 1] [] [0, 1] [] 2 ![1, 1]

variable [Facts₀]

def gather_S24x10000x24x16_S16384x24x2_S16384x24x24x16_23_01_n_n_01_2_112416 : GatherDims S24x10000x24x16 S16384x24x2 S16384x24x24x16 where
  offsetDims := [2, 3]
  collapsedSliceDims := [0, 1]
  operandBatchingDims := []
  startIndicesBatchingDims := []
  startIndexMap := [0, 1]
  indexVectorDim := 2
  sliceSizes := ![1, 1, 24, 16]
  wf := gather_S24x10000x24x16_S16384x24x2_S16384x24x24x16_23_01_n_n_01_2_112416_wf
def scatter_S276_S576x1_S576_n_0_0_1 : ScatterDims S276 S576x1 S576 where
  updateWindowDims := []
  insertedWindowDims := [0]
  scatterDimsToOperandDims := [0]
  indexVectorDim := 1
  wf := scatter_S276_S576x1_S576_n_0_0_1_wf
def gather_S16384x24x24_S276x2_S16384x276_0_12_n_n_12_1_1638411 : GatherDims S16384x24x24 S276x2 S16384x276 where
  offsetDims := [0]
  collapsedSliceDims := [1, 2]
  operandBatchingDims := []
  startIndicesBatchingDims := []
  startIndexMap := [1, 2]
  indexVectorDim := 1
  sliceSizes := ![16384, 1, 1]
  wf := gather_S16384x24x24_S276x2_S16384x276_0_12_n_n_12_1_1638411_wf
def dot_S16384x276_S276x128_S16384x128_1_0_0_1_n_n : DotDims S16384x276 S276x128 S16384x128 where
  lhsContracting := [1]
  rhsContracting := [0]
  lhsNonContracting := [0]
  rhsNonContracting := [1]
  lhsBatch := []
  rhsBatch := []
  wf := dot_S16384x276_S276x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf
def gather_S24x10000_S16384x24x2_S16384x24_n_01_n_n_01_2_11 : GatherDims S24x10000 S16384x24x2 S16384x24 where
  offsetDims := []
  collapsedSliceDims := [0, 1]
  operandBatchingDims := []
  startIndicesBatchingDims := []
  startIndexMap := [0, 1]
  indexVectorDim := 2
  sliceSizes := ![1, 1]
  wf := gather_S24x10000_S16384x24x2_S16384x24_n_01_n_n_01_2_11_wf

class Facts : Prop extends Facts₀ where

variable [Facts]
-- ==== Proof.KB.Base.lean ====
/-
  What the three cases of the kernel body share: the two conditions the body branches on, as functions of the
  grid point, decided over the grid (the field index is the point's position modulo 24: the first branch is
  taken at field 0, the second at field 23); where each window is live; the staging buffer each window is on
  at a point; the two scratch buffers; and the region invariant spelled over them.
-/
import proofs.«405942_j90769838833781_3_alg».proof.Proof.Gen.Kernel.Frame
import proofs.«405942_j90769838833781_3_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition (the field index is 0) and the second's (the field index is 23). -/
abbrev cond0 (i : grid0.Coords) : Prop := (Scalar.cmpi .ne (Scalar.extui (Scalar.cmpi .eq (BitVec.ofNat 32 (i 1).val) 0#32)) 0#32) = 1#1
abbrev cond1 (i : grid0.Coords) : Prop := k0_cond2 i = 1#1

theorem cond0_iff : ∀ t : Fin cfg0.N, cond0 (grid0.coords t) ↔ t.val % 24 = 0 :=
  (by decide +kernel : ∀ t : Fin grid0.N, cond0 (grid0.coords t) ↔ t.val % 24 = 0)
theorem cond1_iff : ∀ t : Fin cfg0.N, cond1 (grid0.coords t) ↔ t.val % 24 = 23 :=
  (by decide +kernel : ∀ t : Fin grid0.N, cond1 (grid0.coords t) ↔ t.val % 24 = 23)

/-- The input windows are never idle; the output window is idle exactly off the last field. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem idle_out_iff : ∀ t : Fin cfg0.N, cfg0.idle 10 (grid0.coords t) = true ↔ ¬ t.val % 24 = 23 :=
  (by decide +kernel : ∀ t : Fin grid0.N, cfg0.idle 10 (grid0.coords t) = true ↔ ¬ t.val % 24 = 23)

/-- The staging buffer each window is on at point `t`, and its wholeness. -/
abbrev stg0 (t : Fin cfg0.N) : Memref sig .tc .vmem S1x1x128 .i32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x10000x384 .bf16 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1x10000 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S276x128 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S128 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S128x64 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S64 .f32 := win0_7.stage (cfg0.slots t 7)
abbrev hstg7 (t : Fin cfg0.N) : (stg7 t).IsWhole := hstage0_7 ((cfg0.slots t 7).cast nbuf0_7)
abbrev stg8 (t : Fin cfg0.N) : Memref sig .tc .vmem S64x1 .f32 := win0_8.stage (cfg0.slots t 8)
abbrev hstg8 (t : Fin cfg0.N) : (stg8 t).IsWhole := hstage0_8 ((cfg0.slots t 8).cast nbuf0_8)
abbrev stg9 (t : Fin cfg0.N) : Memref sig .tc .vmem S1 .f32 := win0_9.stage (cfg0.slots t 9)
abbrev hstg9 (t : Fin cfg0.N) : (stg9 t).IsWhole := hstage0_9 ((cfg0.slots t 9).cast nbuf0_9)
abbrev stg10 (t : Fin cfg0.N) : Memref sig .tc .vmem S128x1 .f32 := win0_10.stage (cfg0.slots t 10)
abbrev hstg10 (t : Fin cfg0.N) : (stg10 t).IsWhole := hstage0_10 ((cfg0.slots t 10).cast nbuf0_10)

/-- The gathered-rows scratch and the linear accumulator: whole scoped buffers of the kernel's own. -/
abbrev scG : Memref sig .tc .vmem S24x128x384 .bf16 := Memref.whole cc0_scratch0
abbrev scL : Memref sig .tc .vmem S128x1 .f32 := Memref.whole cc0_scratch1

/-- The region invariant with the two scratch buffers as memrefs owned at some contents. -/
theorem PhiA_eq (c : Dev nD) :
    (Pipeline.ΦA spec0 c : sProp 𝕄)
      = iprop(iprop((∃ d, owns (c : Thread nD τ) scG fullShare d) ∗ (∃ d, owns (c : Thread nD τ) scL fullShare d)) ∗ (∃ r, prngReg c r)) := by
  unfold Pipeline.ΦA; rw [scopedRest0_eq]; simp only [scG, scL, owns_whole]; try rfl

end Cert.Kernel.Hand

end
-- ==== Proof.KB.RunA.lean ====
/-
  The kernel body run whole at a grid point of case A (the first field of a batch tile: the linear accumulator is reset),
  on whole staging buffers at named contents: the inputs keep theirs; the output block, the gathered-rows scratch
  and the linear accumulator end with the body's stores written over what they held.  The stores are found by the
  symbolic run (the lists `.1`), the triple is `.2`.
-/
import proofs.«405942_j90769838833781_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_A (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : cond0 i) (hc1 : ¬cond1 i)
    (x0 : Vec F S1x1x128 .i32) (x1 : Vec F S1x10000x384 .bf16) (x2 : Vec F S1x1x10000 .f32) (x3 : Vec F S1 .f32) (x4 : Vec F S276x128 .f32) (x5 : Vec F S128 .f32) (x6 : Vec F S128x64 .f32) (x7 : Vec F S64 .f32) (x8 : Vec F S64x1 .f32) (x9 : Vec F S1 .f32) (xo : Vec F S128x1 .f32) (xs0 : Vec F S24x128x384 .bf16) (xs1 : Vec F S128x1 .f32) :
    Σ' (Lg : List (View.Piece (Elt F) S24x128x384 .bf16)) (Ll : List (View.Piece (Elt F) S128x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ d, owns (c : Thread nD τ) arg12 fullShare d)
                ∗ (arg13.view.loc (c : Thread nD τ) ↦[arg13.view.set]{fullShare} arg13.view.writes (Elt F) (harg13.unread xs0) Lg)
                ∗ (arg14.view.loc (c : Thread nD τ) ↦[arg14.view.set]{fullShare} arg14.view.writes (Elt F) (harg14.unread xs1) Ll)) -∗ K ⟨⟩))
          ⊢ wp frame (wpE (defs₀ (F := F)) Variants.none c none) E (cc0__fanfm_kernel i arg2 harg2 arg3 harg3 arg4 harg4 arg5 harg5 arg6 harg6 arg7 harg7 arg8 harg8 arg9 harg9 arg10 harg10 arg11 harg11 arg12 harg12 arg13 harg13 arg14 harg14) K := by
  refine ⟨?_, ?_, fun E K => ?run⟩
  case run =>
    simp only [cc0__fanfm_kernel_eq_skeleton]; unfold cc0__fanfm_kernel_skel
    simp only [k0_part76_eq_skeleton, k0_part75_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]; · iexact HS0
    iexact HS1

end Cert.Kernel.Hand

end
-- ==== Proof.KB.RunB.lean ====
/-
  The kernel body run whole at a grid point of case B (a middle field: one table slice gathered, the linear accumulator advanced),
  on whole staging buffers at named contents: the inputs keep theirs; the output block, the gathered-rows scratch
  and the linear accumulator end with the body's stores written over what they held.  The stores are found by the
  symbolic run (the lists `.1`), the triple is `.2`.
-/
import proofs.«405942_j90769838833781_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_B (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : ¬cond0 i) (hc1 : ¬cond1 i)
    (x0 : Vec F S1x1x128 .i32) (x1 : Vec F S1x10000x384 .bf16) (x2 : Vec F S1x1x10000 .f32) (x3 : Vec F S1 .f32) (x4 : Vec F S276x128 .f32) (x5 : Vec F S128 .f32) (x6 : Vec F S128x64 .f32) (x7 : Vec F S64 .f32) (x8 : Vec F S64x1 .f32) (x9 : Vec F S1 .f32) (xo : Vec F S128x1 .f32) (xs0 : Vec F S24x128x384 .bf16) (xs1 : Vec F S128x1 .f32) :
    Σ' (Lg : List (View.Piece (Elt F) S24x128x384 .bf16)) (Ll : List (View.Piece (Elt F) S128x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ d, owns (c : Thread nD τ) arg12 fullShare d)
                ∗ (arg13.view.loc (c : Thread nD τ) ↦[arg13.view.set]{fullShare} arg13.view.writes (Elt F) (harg13.unread xs0) Lg)
                ∗ (arg14.view.loc (c : Thread nD τ) ↦[arg14.view.set]{fullShare} arg14.view.writes (Elt F) (harg14.unread xs1) Ll)) -∗ K ⟨⟩))
          ⊢ wp frame (wpE (defs₀ (F := F)) Variants.none c none) E (cc0__fanfm_kernel i arg2 harg2 arg3 harg3 arg4 harg4 arg5 harg5 arg6 harg6 arg7 harg7 arg8 harg8 arg9 harg9 arg10 harg10 arg11 harg11 arg12 harg12 arg13 harg13 arg14 harg14) K := by
  refine ⟨?_, ?_, fun E K => ?run⟩
  case run =>
    simp only [cc0__fanfm_kernel_eq_skeleton]; unfold cc0__fanfm_kernel_skel
    simp only [k0_part76_eq_skeleton, k0_part75_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]; · iexact HS0
    iexact HS1

end Cert.Kernel.Hand

end
-- ==== Proof.KB.RunC.lean ====
/-
  The kernel body run whole at a grid point of case C (the last field: after the gather the 276 interactions and the perceptron are computed and the output block stored),
  on whole staging buffers at named contents: the inputs keep theirs; the output block, the gathered-rows scratch
  and the linear accumulator end with the body's stores written over what they held.  The stores are found by the
  symbolic run (the lists `.1`), the triple is `.2`.
-/
import proofs.«405942_j90769838833781_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_C (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : ¬cond0 i) (hc1 : cond1 i)
    (x0 : Vec F S1x1x128 .i32) (x1 : Vec F S1x10000x384 .bf16) (x2 : Vec F S1x1x10000 .f32) (x3 : Vec F S1 .f32) (x4 : Vec F S276x128 .f32) (x5 : Vec F S128 .f32) (x6 : Vec F S128x64 .f32) (x7 : Vec F S64 .f32) (x8 : Vec F S64x1 .f32) (x9 : Vec F S1 .f32) (xo : Vec F S128x1 .f32) (xs0 : Vec F S24x128x384 .bf16) (xs1 : Vec F S128x1 .f32) :
    Σ' (Lo : List (View.Piece (Elt F) S128x1 .f32)) (Lg : List (View.Piece (Elt F) S24x128x384 .bf16)) (Ll : List (View.Piece (Elt F) S128x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (arg12.view.loc (c : Thread nD τ) ↦[arg12.view.set]{fullShare} arg12.view.writes (Elt F) (harg12.unread xo) Lo)
                ∗ (arg13.view.loc (c : Thread nD τ) ↦[arg13.view.set]{fullShare} arg13.view.writes (Elt F) (harg13.unread xs0) Lg)
                ∗ (arg14.view.loc (c : Thread nD τ) ↦[arg14.view.set]{fullShare} arg14.view.writes (Elt F) (harg14.unread xs1) Ll)) -∗ K ⟨⟩))
          ⊢ wp frame (wpE (defs₀ (F := F)) Variants.none c none) E (cc0__fanfm_kernel i arg2 harg2 arg3 harg3 arg4 harg4 arg5 harg5 arg6 harg6 arg7 harg7 arg8 harg8 arg9 harg9 arg10 harg10 arg11 harg11 arg12 harg12 arg13 harg13 arg14 harg14) K := by
  refine ⟨?_, ?_, ?_, fun E K => ?run⟩
  case run =>
    simp only [cc0__fanfm_kernel_eq_skeleton]; unfold cc0__fanfm_kernel_skel
    simp only [k0_part76_eq_skeleton, k0_part75_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexact H10
    isplitl [HS0]; · iexact HS0
    iexact HS1

end Cert.Kernel.Hand

end
-- ==== Proof.KB.Frame.lean ====
/-
  The frame of the word-level program: the one pipelined region runs its body at every grid point, whatever
  the two scratch buffers and the output block hold, and leaves every input block in place; so every weakly
  fair execution terminates without a fault and the argument arrays end unchanged.  Nothing is said here of
  what the output holds.
-/
import proofs.«405942_j90769838833781_3_alg».proof.Proof.KB.RunA
import proofs.«405942_j90769838833781_3_alg».proof.Proof.KB.RunB
import proofs.«405942_j90769838833781_3_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Plain

/-- The output window: nothing here reads what the body leaves in it. -/
def forgets : Fin 11 → Bool := fun w => w.val == 10

/-- The pipeline's proof data: the arrays as the region finds them, every input block left in place, the
    output block's contents unnamed, the region invariant the class's (the scratch buffers at anything). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (stg10 t) fullShare d))

set_option maxHeartbeats 8000000 in
/-- The body at any point: the inputs' buffers hold their blocks; the point's position modulo 24 says which of the
    three cases it is in; that case's run applies to whatever the scratch buffers and the output block hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  rw [show (dats m 0 c).leavesExact 6 t = owns (c : Thread nD τ) (stg6 t) fullShare ((dats m 0 c).after 6 t) from by
    unfold Dat.leavesExact; rw [live_6 t], after_6]
  rw [show (dats m 0 c).leavesExact 7 t = owns (c : Thread nD τ) (stg7 t) fullShare ((dats m 0 c).after 7 t) from by
    unfold Dat.leavesExact; rw [live_7 t], after_7]
  rw [show (dats m 0 c).leavesExact 8 t = owns (c : Thread nD τ) (stg8 t) fullShare ((dats m 0 c).after 8 t) from by
    unfold Dat.leavesExact; rw [live_8 t], after_8]
  rw [show (dats m 0 c).leavesExact 9 t = owns (c : Thread nD τ) (stg9 t) fullShare ((dats m 0 c).after 9 t) from by
    unfold Dat.leavesExact; rw [live_9 t], after_9]
  have hN : t.val < 3072 := lt_of_lt_of_eq t.isLt (show cfg0.N = 3072 from N_0)
  by_cases h0 : t.val % 24 = 0
  · have h1 : ¬ t.val % 24 = 23 := by omega
    iintro ⟨⟨⟨⟨%dG, HG⟩, ⟨%dL, HL⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun_A c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) ((cond0_iff t).mpr h0) (fun h => h1 ((cond1_iff t).mp h)) (iblk m c 0 t) (iblk m c 1 t) (iblk m c 2 t) (iblk m c 3 t) (iblk m c 4 t) (iblk m c 5 t) (iblk m c 6 t) (iblk m c 7 t) (iblk m c 8 t) (iblk m c 9 t) d10 dG dL).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HG]; · iexact HG
    isplitl [HL]; · iexact HL
    iintro ⟨H0, H1, H2, H3, H4, H5, H6, H7, H8, H9, H10, HG, HL⟩
    isplitl [HG HL Hg]
    · isplitl [HG HL]
      · isplitl [HG]
        · iexists _; unfold owns; iexists _; isplitr; swap; · iexact HG
          ipureintro; rfl
        iexists _; unfold owns; iexists _; isplitr; swap; · iexact HL
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h1 : t.val % 24 = 23
    ·
      iintro ⟨⟨⟨⟨%dG, HG⟩, ⟨%dL, HL⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun_C c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (fun h => h0 ((cond0_iff t).mp h)) ((cond1_iff t).mpr h1) (iblk m c 0 t) (iblk m c 1 t) (iblk m c 2 t) (iblk m c 3 t) (iblk m c 4 t) (iblk m c 5 t) (iblk m c 6 t) (iblk m c 7 t) (iblk m c 8 t) (iblk m c 9 t) d10 dG dL).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HG]; · iexact HG
      isplitl [HL]; · iexact HL
      iintro ⟨H0, H1, H2, H3, H4, H5, H6, H7, H8, H9, H10, HG, HL⟩
      isplitl [HG HL Hg]
      · isplitl [HG HL]
        · isplitl [HG]
          · iexists _; unfold owns; iexists _; isplitr; swap; · iexact HG
            ipureintro; rfl
          iexists _; unfold owns; iexists _; isplitr; swap; · iexact HL
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; unfold owns; iexists _; isplitr; swap; · iexact H10
      ipureintro; rfl
    ·
      iintro ⟨⟨⟨⟨%dG, HG⟩, ⟨%dL, HL⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun_B c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (fun h => h0 ((cond0_iff t).mp h)) (fun h => h1 ((cond1_iff t).mp h)) (iblk m c 0 t) (iblk m c 1 t) (iblk m c 2 t) (iblk m c 3 t) (iblk m c 4 t) (iblk m c 5 t) (iblk m c 6 t) (iblk m c 7 t) (iblk m c 8 t) (iblk m c 9 t) d10 dG dL).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HG]; · iexact HG
      isplitl [HL]; · iexact HL
      iintro ⟨H0, H1, H2, H3, H4, H5, H6, H7, H8, H9, H10, HG, HL⟩
      isplitl [HG HL Hg]
      · isplitl [HG HL]
        · isplitl [HG]
          · iexists _; unfold owns; iexists _; isplitr; swap; · iexact HG
            ipureintro; rfl
          iexists _; unfold owns; iexists _; isplitr; swap; · iexact HL
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation (c : Dev nD) : BodyObligation (dats (F := F) m 0 c) (defs₀ (F := F)) Variants.none () Set.univ forgets := fun t => by
  rw [bigSep_W0, bigSep_W0]
  exact sound_body m c t

set_option backward.isDefEq.respectTransparency.types false in
/-- Every weakly fair execution of @main terminates; every input array of the pipeline ends unchanged, and every
    other unscoped buffer at its region-entry contents. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c)),
      (Pipeline.RDat.FramePost.arr_in h c 7 rfl).trans ((A_eq m c 7).trans (V_main_arg7 m c)),
      (Pipeline.RDat.FramePost.arr_in h c 8 rfl).trans ((A_eq m c 8).trans (V_main_arg8 m c)),
      (Pipeline.RDat.FramePost.arr_in h c 9 rfl).trans ((A_eq m c 9).trans (V_main_arg9 m c))⟩) (run_main m ρ)

end Plain

end Cert.Kernel.Hand

end
-- ==== Proof.KI.Base.lean ====
/-
  What the three cases of the kernel body share: the two conditions the body branches on, as functions of the
  grid point, decided over the grid (the field index is the point's position modulo 24: the first branch is
  taken at field 0, the second at field 23); where each window is live; the staging buffer each window is on
  at a point; the two scratch buffers; and the region invariant spelled over them.
-/
import proofs.«405942_j90769838833781_3_alg».proof.Proof.Gen.KernelIdeal.Frame
import proofs.«405942_j90769838833781_3_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition (the field index is 0) and the second's (the field index is 23). -/
abbrev cond0 (i : grid0.Coords) : Prop := (Scalar.cmpi .ne (Scalar.extui (Scalar.cmpi .eq (BitVec.ofNat 32 (i 1).val) 0#32)) 0#32) = 1#1
abbrev cond1 (i : grid0.Coords) : Prop := k0_cond2 i = 1#1

theorem cond0_iff : ∀ t : Fin cfg0.N, cond0 (grid0.coords t) ↔ t.val % 24 = 0 :=
  (by decide +kernel : ∀ t : Fin grid0.N, cond0 (grid0.coords t) ↔ t.val % 24 = 0)
theorem cond1_iff : ∀ t : Fin cfg0.N, cond1 (grid0.coords t) ↔ t.val % 24 = 23 :=
  (by decide +kernel : ∀ t : Fin grid0.N, cond1 (grid0.coords t) ↔ t.val % 24 = 23)

/-- The input windows are never idle; the output window is idle exactly off the last field. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem idle_out_iff : ∀ t : Fin cfg0.N, cfg0.idle 10 (grid0.coords t) = true ↔ ¬ t.val % 24 = 23 :=
  (by decide +kernel : ∀ t : Fin grid0.N, cfg0.idle 10 (grid0.coords t) = true ↔ ¬ t.val % 24 = 23)

/-- The staging buffer each window is on at point `t`, and its wholeness. -/
abbrev stg0 (t : Fin cfg0.N) : Memref sig .tc .vmem S1x1x128 .i32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x10000x384 .bf16 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1x10000 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S276x128 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S128 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S128x64 .f32 := win0_6.stage (cfg0.slots t 6)
abbrev hstg6 (t : Fin cfg0.N) : (stg6 t).IsWhole := hstage0_6 ((cfg0.slots t 6).cast nbuf0_6)
abbrev stg7 (t : Fin cfg0.N) : Memref sig .tc .vmem S64 .f32 := win0_7.stage (cfg0.slots t 7)
abbrev hstg7 (t : Fin cfg0.N) : (stg7 t).IsWhole := hstage0_7 ((cfg0.slots t 7).cast nbuf0_7)
abbrev stg8 (t : Fin cfg0.N) : Memref sig .tc .vmem S64x1 .f32 := win0_8.stage (cfg0.slots t 8)
abbrev hstg8 (t : Fin cfg0.N) : (stg8 t).IsWhole := hstage0_8 ((cfg0.slots t 8).cast nbuf0_8)
abbrev stg9 (t : Fin cfg0.N) : Memref sig .tc .vmem S1 .f32 := win0_9.stage (cfg0.slots t 9)
abbrev hstg9 (t : Fin cfg0.N) : (stg9 t).IsWhole := hstage0_9 ((cfg0.slots t 9).cast nbuf0_9)
abbrev stg10 (t : Fin cfg0.N) : Memref sig .tc .vmem S128x1 .f32 := win0_10.stage (cfg0.slots t 10)
abbrev hstg10 (t : Fin cfg0.N) : (stg10 t).IsWhole := hstage0_10 ((cfg0.slots t 10).cast nbuf0_10)

/-- The gathered-rows scratch and the linear accumulator: whole scoped buffers of the kernel's own. -/
abbrev scG : Memref sig .tc .vmem S24x128x384 .bf16 := Memref.whole cc0_scratch0
abbrev scL : Memref sig .tc .vmem S128x1 .f32 := Memref.whole cc0_scratch1

/-- The region invariant with the two scratch buffers as memrefs owned at some contents. -/
theorem PhiA_eq (c : Dev nD) :
    (Pipeline.ΦA spec0 c : sProp 𝕄)
      = iprop(iprop((∃ d, owns (c : Thread nD τ) scG fullShare d) ∗ (∃ d, owns (c : Thread nD τ) scL fullShare d)) ∗ (∃ r, prngReg c r)) := by
  unfold Pipeline.ΦA; rw [scopedRest0_eq]; simp only [scG, scL, owns_whole]; try rfl

end Cert.KernelIdeal.Hand

end
-- ==== Proof.KI.RunA.lean ====
/-
  The kernel body run whole at a grid point of case A (the first field of a batch tile: the linear accumulator is reset),
  on whole staging buffers at named contents: the inputs keep theirs; the output block, the gathered-rows scratch
  and the linear accumulator end with the body's stores written over what they held.  The stores are found by the
  symbolic run (the lists `.1`), the triple is `.2`.
-/
import proofs.«405942_j90769838833781_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_A (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : cond0 i) (hc1 : ¬cond1 i)
    (x0 : Vec F S1x1x128 .i32) (x1 : Vec F S1x10000x384 .bf16) (x2 : Vec F S1x1x10000 .f32) (x3 : Vec F S1 .f32) (x4 : Vec F S276x128 .f32) (x5 : Vec F S128 .f32) (x6 : Vec F S128x64 .f32) (x7 : Vec F S64 .f32) (x8 : Vec F S64x1 .f32) (x9 : Vec F S1 .f32) (xo : Vec F S128x1 .f32) (xs0 : Vec F S24x128x384 .bf16) (xs1 : Vec F S128x1 .f32) :
    Σ' (Lg : List (View.Piece (Elt F) S24x128x384 .bf16)) (Ll : List (View.Piece (Elt F) S128x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ d, owns (c : Thread nD τ) arg12 fullShare d)
                ∗ (arg13.view.loc (c : Thread nD τ) ↦[arg13.view.set]{fullShare} arg13.view.writes (Elt F) (harg13.unread xs0) Lg)
                ∗ (arg14.view.loc (c : Thread nD τ) ↦[arg14.view.set]{fullShare} arg14.view.writes (Elt F) (harg14.unread xs1) Ll)) -∗ K ⟨⟩))
          ⊢ wp frame (wpE (defs₀ (F := F)) Variants.none c none) E (cc0__fanfm_kernel i arg2 harg2 arg3 harg3 arg4 harg4 arg5 harg5 arg6 harg6 arg7 harg7 arg8 harg8 arg9 harg9 arg10 harg10 arg11 harg11 arg12 harg12 arg13 harg13 arg14 harg14) K := by
  refine ⟨?_, ?_, fun E K => ?run⟩
  case run =>
    simp only [cc0__fanfm_kernel_eq_skeleton]; unfold cc0__fanfm_kernel_skel
    simp only [k0_part76_eq_skeleton, k0_part75_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]; · iexact HS0
    iexact HS1

end Cert.KernelIdeal.Hand

end
-- ==== Proof.KI.RunB.lean ====
/-
  The kernel body run whole at a grid point of case B (a middle field: one table slice gathered, the linear accumulator advanced),
  on whole staging buffers at named contents: the inputs keep theirs; the output block, the gathered-rows scratch
  and the linear accumulator end with the body's stores written over what they held.  The stores are found by the
  symbolic run (the lists `.1`), the triple is `.2`.
-/
import proofs.«405942_j90769838833781_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_B (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : ¬cond0 i) (hc1 : ¬cond1 i)
    (x0 : Vec F S1x1x128 .i32) (x1 : Vec F S1x10000x384 .bf16) (x2 : Vec F S1x1x10000 .f32) (x3 : Vec F S1 .f32) (x4 : Vec F S276x128 .f32) (x5 : Vec F S128 .f32) (x6 : Vec F S128x64 .f32) (x7 : Vec F S64 .f32) (x8 : Vec F S64x1 .f32) (x9 : Vec F S1 .f32) (xo : Vec F S128x1 .f32) (xs0 : Vec F S24x128x384 .bf16) (xs1 : Vec F S128x1 .f32) :
    Σ' (Lg : List (View.Piece (Elt F) S24x128x384 .bf16)) (Ll : List (View.Piece (Elt F) S128x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ d, owns (c : Thread nD τ) arg12 fullShare d)
                ∗ (arg13.view.loc (c : Thread nD τ) ↦[arg13.view.set]{fullShare} arg13.view.writes (Elt F) (harg13.unread xs0) Lg)
                ∗ (arg14.view.loc (c : Thread nD τ) ↦[arg14.view.set]{fullShare} arg14.view.writes (Elt F) (harg14.unread xs1) Ll)) -∗ K ⟨⟩))
          ⊢ wp frame (wpE (defs₀ (F := F)) Variants.none c none) E (cc0__fanfm_kernel i arg2 harg2 arg3 harg3 arg4 harg4 arg5 harg5 arg6 harg6 arg7 harg7 arg8 harg8 arg9 harg9 arg10 harg10 arg11 harg11 arg12 harg12 arg13 harg13 arg14 harg14) K := by
  refine ⟨?_, ?_, fun E K => ?run⟩
  case run =>
    simp only [cc0__fanfm_kernel_eq_skeleton]; unfold cc0__fanfm_kernel_skel
    simp only [k0_part76_eq_skeleton, k0_part75_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [HS0]; · iexact HS0
    iexact HS1

end Cert.KernelIdeal.Hand

end
-- ==== Proof.KI.RunC.lean ====
/-
  The kernel body run whole at a grid point of case C (the last field: after the gather the 276 interactions and the perceptron are computed and the output block stored),
  on whole staging buffers at named contents: the inputs keep theirs; the output block, the gathered-rows scratch
  and the linear accumulator end with the body's stores written over what they held.  The stores are found by the
  symbolic run (the lists `.1`), the triple is `.2`.
-/
import proofs.«405942_j90769838833781_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun_C (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : ¬cond0 i) (hc1 : cond1 i)
    (x0 : Vec F S1x1x128 .i32) (x1 : Vec F S1x10000x384 .bf16) (x2 : Vec F S1x1x10000 .f32) (x3 : Vec F S1 .f32) (x4 : Vec F S276x128 .f32) (x5 : Vec F S128 .f32) (x6 : Vec F S128x64 .f32) (x7 : Vec F S64 .f32) (x8 : Vec F S64x1 .f32) (x9 : Vec F S1 .f32) (xo : Vec F S128x1 .f32) (xs0 : Vec F S24x128x384 .bf16) (xs1 : Vec F S128x1 .f32) :
    Σ' (Lo : List (View.Piece (Elt F) S128x1 .f32)) (Lg : List (View.Piece (Elt F) S24x128x384 .bf16)) (Ll : List (View.Piece (Elt F) S128x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo ∗ owns (c : Thread nD τ) arg13 fullShare xs0 ∗ owns (c : Thread nD τ) arg14 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (arg12.view.loc (c : Thread nD τ) ↦[arg12.view.set]{fullShare} arg12.view.writes (Elt F) (harg12.unread xo) Lo)
                ∗ (arg13.view.loc (c : Thread nD τ) ↦[arg13.view.set]{fullShare} arg13.view.writes (Elt F) (harg13.unread xs0) Lg)
                ∗ (arg14.view.loc (c : Thread nD τ) ↦[arg14.view.set]{fullShare} arg14.view.writes (Elt F) (harg14.unread xs1) Ll)) -∗ K ⟨⟩))
          ⊢ wp frame (wpE (defs₀ (F := F)) Variants.none c none) E (cc0__fanfm_kernel i arg2 harg2 arg3 harg3 arg4 harg4 arg5 harg5 arg6 harg6 arg7 harg7 arg8 harg8 arg9 harg9 arg10 harg10 arg11 harg11 arg12 harg12 arg13 harg13 arg14 harg14) K := by
  refine ⟨?_, ?_, ?_, fun E K => ?run⟩
  case run =>
    simp only [cc0__fanfm_kernel_eq_skeleton]; unfold cc0__fanfm_kernel_skel
    simp only [k0_part76_eq_skeleton, k0_part75_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexact H10
    isplitl [HS0]; · iexact HS0
    iexact HS1

end Cert.KernelIdeal.Hand

end
-- ==== Proof.Spec.lean ====
/-
  The field-aware factorization machine with a three-layer perceptron, as ONE function of the argument arrays,
  entry by entry, over the extended reals.

  For a batch row `b` and a field `i` the integer `x[b, i]` selects row `rowOf x b i` of field `i`'s table.
  `emb E x b i j d` is the selected row's `d`-th factor with respect to field `j`; the interaction of the
  pair `i < j` is the inner product over `d` of `emb … i j` and `emb … j i`; the 276 interactions, in the
  row-major order of the strict upper triangle, feed two rectified affine layers and a last affine layer; the
  linear term adds the selected entries of `Wlin` over the fields and the bias `blin`.
-/
import Idealize.ShloMosaic.PureOps.Ideal
import Idealize.ShloMosaic.Lib.ValueIdx

noncomputable section

namespace Cert.Spec

open Idealize.ShloMosaic Idealize.ShloMosaic.ValueIdx

abbrev SX : Shape := ⟨2, ![16384, 24]⟩
abbrev SE : Shape := ⟨4, ![24, 10000, 24, 16]⟩
abbrev SWlin : Shape := ⟨2, ![24, 10000]⟩
abbrev S1 : Shape := ⟨1, ![1]⟩
abbrev SW1 : Shape := ⟨2, ![276, 128]⟩
abbrev Sb1 : Shape := ⟨1, ![128]⟩
abbrev SW2 : Shape := ⟨2, ![128, 64]⟩
abbrev Sb2 : Shape := ⟨1, ![64]⟩
abbrev SW3 : Shape := ⟨2, ![64, 1]⟩
abbrev SOut : Shape := ⟨2, ![16384, 1]⟩

/-- The strict upper triangle of a 24 × 24 matrix in row-major order: the 276 pairs `(i, j)` with `i < j`. -/
def pairList : List (Fin 24 × Fin 24) :=
  (List.finRange 24).flatMap fun i => ((List.finRange 24).filter fun j => i < j).map fun j => (i, j)

theorem pairList_length : pairList.length = 276 := by decide

/-- The first and the second field of the `p`-th pair. -/
def pairI (p : Fin 276) : Fin 24 := (pairList.get (p.cast pairList_length.symm)).1
def pairJ (p : Fin 276) : Fin 24 := (pairList.get (p.cast pairList_length.symm)).2

/-- The table row the integer `x[b, i]` selects (for an integer in `[0, 10000)`, the integer itself). -/
def rowOf (x : IVec SX 32) (b : Fin 16384) (i : Fin 24) : Fin 10000 :=
  ⟨(x (ix2 b i)).toNat % 10000, Nat.mod_lt _ (by decide)⟩

variable (x : IVec SX 32) (E : FVec Ideal SE .f32) (Wlin : FVec Ideal SWlin .f32) (blin : FVec Ideal S1 .f32)
  (W1 : FVec Ideal SW1 .f32) (b1 : FVec Ideal Sb1 .f32) (W2 : FVec Ideal SW2 .f32) (b2 : FVec Ideal Sb2 .f32)
  (W3 : FVec Ideal SW3 .f32) (b3 : FVec Ideal S1 .f32)

/-- Field `i`'s selected row, its factor `d` with respect to field `j`. -/
def emb (b : Fin 16384) (i j : Fin 24) (d : Fin 16) : EReal := E (ix4 i (rowOf x b i) j d)

/-- The linear term before its bias: the selected entries of `Wlin`, summed over the fields. -/
def lin (b : Fin 16384) : EReal := ∑ i : Fin 24, Wlin (ix2 i (rowOf x b i))

/-- The interaction of fields `i` and `j`. -/
def inter (b : Fin 16384) (i j : Fin 24) : EReal := ∑ d : Fin 16, emb x E b i j d * emb x E b j i d

/-- The `p`-th pairwise interaction. -/
def pairs (b : Fin 16384) (p : Fin 276) : EReal := inter x E b (pairI p) (pairJ p)

/-- The first rectified layer. -/
def h1 (b : Fin 16384) (k : Fin 128) : EReal :=
  max ((∑ p : Fin 276, pairs x E b p * W1 (ix2 p k)) + b1 (ix1 k)) 0

/-- The second rectified layer. -/
def h2 (b : Fin 16384) (k : Fin 64) : EReal :=
  max ((∑ q : Fin 128, h1 x E W1 b1 b q * W2 (ix2 q k)) + b2 (ix1 k)) 0

/-- The perceptron's output. -/
def nn (b : Fin 16384) : EReal :=
  (∑ q : Fin 64, h2 x E W1 b1 W2 b2 b q * W3 (ix2 q (0 : Fin 1))) + b3 (ix1 (0 : Fin 1))

/-- The perceptron as a function of the 276 interactions alone. -/
def h1Of (pr : Fin 276 → EReal) (k : Fin 128) : EReal :=
  max ((∑ p : Fin 276, pr p * W1 (ix2 p k)) + b1 (ix1 k)) 0

def h2Of (pr : Fin 276 → EReal) (k : Fin 64) : EReal :=
  max ((∑ q : Fin 128, h1Of W1 b1 pr q * W2 (ix2 q k)) + b2 (ix1 k)) 0

def nnOf (pr : Fin 276 → EReal) : EReal :=
  (∑ q : Fin 64, h2Of W1 b1 W2 b2 pr q * W3 (ix2 q (0 : Fin 1))) + b3 (ix1 (0 : Fin 1))

theorem nn_eq_nnOf (b : Fin 16384) :
    nn x E W1 b1 W2 b2 W3 b3 b = nnOf W1 b1 W2 b2 W3 b3 (pairs x E b) := rfl

/-- The result at batch row `b`. -/
def out (b : Fin 16384) : EReal :=
  (lin x Wlin b + blin (ix1 (0 : Fin 1))) + nn x E W1 b1 W2 b2 W3 b3 b

/-- The result array. -/
def G : FVec Ideal SOut .f32 := fun j => out x E Wlin blin W1 b1 W2 b2 W3 b3 (j 0)

end Cert.Spec

end
-- ==== Proof.KI.Defs.lean ====
/-
  What the two scratch buffers and the output block hold after each grid point, as functions of the argument
  arrays.  Point `n` is field `n % 24` of batch tile `n / 24`; row `r` of the tile is batch row
  `128 * (n / 24) + r`.  After point `n` the gathered-rows scratch holds, in its slabs `0 … n % 24`, the table
  rows the tile's integers select (the other slabs hold whatever they held); the linear accumulator holds the
  partial sum over the fields `0 … n % 24`; at the last field the output block is the result's block.
-/
import proofs.«405942_j90769838833781_3_alg».proof.Proof.KI.Base
import proofs.«405942_j90769838833781_3_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The argument arrays as launched, at their literal types. -/
def aX : IVec Cert.Spec.SX 32 := m ((c : Thread nD τ).loc main_arg0)
def aE : FVec Ideal Cert.Spec.SE .f32 := m ((c : Thread nD τ).loc main_arg1)
def aWlin : FVec Ideal Cert.Spec.SWlin .f32 := m ((c : Thread nD τ).loc main_arg2)
def aBlin : FVec Ideal Cert.Spec.S1 .f32 := m ((c : Thread nD τ).loc main_arg3)
def aW1 : FVec Ideal Cert.Spec.SW1 .f32 := m ((c : Thread nD τ).loc main_arg4)
def aB1 : FVec Ideal Cert.Spec.Sb1 .f32 := m ((c : Thread nD τ).loc main_arg5)
def aW2 : FVec Ideal Cert.Spec.SW2 .f32 := m ((c : Thread nD τ).loc main_arg6)
def aB2 : FVec Ideal Cert.Spec.Sb2 .f32 := m ((c : Thread nD τ).loc main_arg7)
def aW3 : FVec Ideal Cert.Spec.SW3 .f32 := m ((c : Thread nD τ).loc main_arg8)
def aB3 : FVec Ideal Cert.Spec.S1 .f32 := m ((c : Thread nD τ).loc main_arg9)

/-- The specification's result array of the launched arguments. -/
def aG : FVec Ideal Cert.Spec.SOut .f32 :=
  Cert.Spec.G (aX m c) (aE m c) (aWlin m c) (aBlin m c) (aW1 m c) (aB1 m c) (aW2 m c) (aB2 m c) (aW3 m c) (aB3 m c)

/-- Batch row of row `r` of the tile of point `n` (for a point of the grid, `128 * (n / 24) + r` itself). -/
def rowAt (n : ℕ) (r : Fin 128) : Fin 16384 := ⟨(128 * (n / 24) + r.val) % 16384, Nat.mod_lt _ (by decide)⟩

/-- After point `n`: slabs `0 … n % 24` of the gathered-rows scratch hold the selected table rows. -/
def GInv (n : ℕ) (X : Vec Ideal S24x128x384 .bf16) : Prop :=
  ∀ (j : Fin 24) (r : Fin 128) (q : Fin 384), j.val ≤ n % 24 →
    X (ix3 j r q) = aE m c (ix4 j (Cert.Spec.rowOf (aX m c) (rowAt n r) j) ⟨q.val / 16, by omega⟩ ⟨q.val % 16, Nat.mod_lt _ (by decide)⟩)

/-- After point `n`: the linear accumulator holds the partial sum over the fields `0 … n % 24`. -/
def lAt (n : ℕ) : Vec Ideal S128x1 .f32 := fun y =>
  ∑ i : Fin 24, if i.val ≤ n % 24 then aWlin m c (ix2 i (Cert.Spec.rowOf (aX m c) (rowAt n ⟨(y 0).val, idx2_lt0 y⟩) i)) else 0

/-- At a last field: the output block is the result's block of the tile. -/
def oAt (n : ℕ) : Vec Ideal S128x1 .f32 := fun y => aG m c (ix2 (rowAt n ⟨(y 0).val, idx2_lt0 y⟩) (0 : Fin 1))

end Cert.KernelIdeal.Hand

end
-- ==== Proof.KI.Data.lean ====
/-
  The proof data of the idealized kernel's pipeline: what its body leaves at every grid point.  Every input
  block stays in place; after point `n` the gathered-rows scratch has its slabs `0 … n % 24` at the table rows
  the tile's integers select (`GInv`) and the linear accumulator holds the partial sum over those fields
  (`lAt`); at a last field the output block is the result's block (`oAt`).  The output block's staging buffer
  is handed to the body at whatever an unfilled buffer holds.
-/
import proofs.«405942_j90769838833781_3_alg».proof.Proof.KI.RunA
import proofs.«405942_j90769838833781_3_alg».proof.Proof.KI.RunB
import proofs.«405942_j90769838833781_3_alg».proof.Proof.KI.RunC
import proofs.«405942_j90769838833781_3_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The region invariant before point `n`: before the first point the class's (the scratch buffers at anything);
    afterwards the gathered-rows scratch at some contents with the slabs filled so far at the selected rows, the
    linear accumulator at the partial sum, and the generator register at some state. -/
def PhiS (c : Dev nD) : (n : ℕ) → n ≤ cfg0.N → sProp 𝕄
  | 0, _ => Pipeline.ΦA spec0 c
  | n + 1, _ => iprop(iprop((∃ X, ⌜GInv m c n X⌝ ∗ owns (c : Thread nD τ) scG fullShare X) ∗ owns (c : Thread nD τ) scL fullShare (lAt m c n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop((∃ X, ⌜GInv m c n X⌝ ∗ owns (c : Thread nD τ) scG fullShare X) ∗ owns (c : Thread nD τ) scL fullShare (lAt m c n)) ∗ (∃ r, prngReg c r)) := rfl

theorem PhiS_pos (c : Dev nD) (n : ℕ) (h : n ≤ cfg0.N) (hz : n ≠ 0) :
    PhiS m c n h = iprop(iprop((∃ X, ⌜GInv m c (n - 1) X⌝ ∗ owns (c : Thread nD τ) scG fullShare X) ∗ owns (c : Thread nD τ) scL fullShare (lAt m c (n - 1))) ∗ (∃ r, prngReg c r)) := by
  cases n with
  | zero => exact absurd rfl hz
  | succ n => rfl

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => oAt m c t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = oAt m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The output block's staging buffer holds, when the body runs, whatever an unfilled buffer holds: the block is
    written back after every last field, and at the other fields the body leaves the buffer as it found it. -/
theorem before_10 (c : Dev nD) : ∀ (n : ℕ) (t : Fin cfg0.N), t.val = n → ∀ d, (dats m 0 c).before 10 t d = d := by
  intro n
  induction n with
  | zero =>
    intro t ht d
    exact (dats m 0 c).before_out_reset 10 rfl t (Or.inl ht) d
  | succ n ih =>
    intro t ht d
    have hN : t.val < 3072 := lt_of_lt_of_eq t.isLt (show cfg0.N = 3072 from N_0)
    have htz : t.val ≠ 0 := by omega
    by_cases h0 : t.val % 24 = 0
    · exact (dats m 0 c).before_out_reset 10 rfl t (Or.inr ⟨htz, (flush0_10 _).mpr (by show (t.val - 1) % 24 = 23; omega)⟩) d
    · have hfl : (cfg0.win 10).flush ⟨t.val - 1, Nat.lt_of_le_of_lt (Nat.sub_le _ _) t.isLt⟩ = false := by
        rw [Bool.eq_false_iff]; intro h; have := (flush0_10 _).mp h; dsimp only at this; omega
      have hid : cfg0.idle 10 (grid0.coords ⟨t.val - 1, Nat.lt_of_le_of_lt (Nat.sub_le _ _) t.isLt⟩) = true :=
        (idle_out_iff _).mpr (by show ¬ (t.val - 1) % 24 = 23; omega)
      rw [(dats m 0 c).before_of_pos 10 t htz ((cfg0.win 10).fetch_out rfl t), hfl, if_neg Bool.false_ne_true]
      unfold Dat.left
      rw [show cfg0.grid.coords ⟨t.val - 1, Nat.lt_of_le_of_lt (Nat.sub_le _ _) t.isLt⟩ = grid0.coords ⟨t.val - 1, Nat.lt_of_le_of_lt (Nat.sub_le _ _) t.isLt⟩ from rfl, hid]
      exact ih ⟨t.val - 1, Nat.lt_of_le_of_lt (Nat.sub_le _ _) t.isLt⟩ (by show t.val - 1 = n; omega) d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

end Cert.KernelIdeal.Hand

end
-- ==== Proof.KI.Pay.lean ====
/-
  The per-point arithmetic of the lookup stage, read at an entry over the extended reals.

  A block of 128 integers is compared, position by position, with the column numbers 0 … 9999: the one-hot matrix has 1
  at (r, k) when k is the r-th integer and 0 elsewhere (a column number is below 2³², so it equals the word exactly when
  it equals the word's value; the one-bit answer widened and converted is the real 1 or 0). The product of the one-hot
  matrix with a [10000, 384] table, accumulated onto zero, is at (r, c) the sum over k of onehot (r, k) * table (k, c):
  every term but the one at the r-th integer is 0 * y = 0, for every extended real y, so the sum is the table's entry
  in the selected row; the format changes are the identity. Likewise the sum along the columns of the one-hot matrix
  times a broadcast row is the row's selected entry, added to the running column.
-/
import proofs.«405942_j90769838833781_3_alg».proof.Proof.Gen.KernelIdeal.Skeleton
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.Hand.Pay

open Idealize.ShloMosaic Idealize.ShloMosaic.ValueIdx Idealize.ShloMosaic.StableHlo.Predicate
open Cert.KernelIdeal Cert.KernelIdeal.Facts₀ Cert.KernelIdeal.Facts

/-! ## Layout operations read at an entry -/

section Layout
variable {α : Type}

/-- A vector recast as a column reads, at (r, u), its entry r. -/
theorem shapeCast_a_a1_apply {a : Nat} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column recast as a vector reads, at r, the column's entry (r, 0). -/
theorem shapeCast_a1_a_apply {a : Nat} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- A [1, 1, a] array recast as a vector reads, at i, the entry (0, 0, i). -/
theorem shapeCast_11a_a_apply {a : Nat} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A column repeated along the second axis reads, at (p, c), the column's entry (p, 0). -/
theorem broadcastTo_a1_ab_apply {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane sum and a plain product read at an entry -/

section Sums

/-- The sum along the second axis of an [A, B] array, at r: the sum over the columns of row r. -/
theorem laneSum_apply {A B : Nat} (src : FVec Ideal ⟨2, ![A, B]⟩ .f32) (h : (⟨2, ![A, B]⟩ : Shape).Reduces [1] ⟨1, ![A]⟩)
    (hφ : FKind.Formats .f32) (hacc : (0x00000000#32 : BitVec 32) = FKind.add.neutral .f32 hφ) (r : Fin A) :
    multiReduction .add [1] ⟨1, ![A]⟩ src 0x00000000#32 h hφ hacc (ix1 r) = ∑ k : Fin B, src (ix2 r k) := by
  refine (Ideal.multiReduction_add_single src _ h hφ hacc (ix1 r)).trans ?_
  refine Finset.sum_congr rfl fun k _ => congrArg src (funext fun c => Fin.ext ?_)
  match c with
  | ⟨0, _⟩ => rfl
  | ⟨1, _⟩ => rfl

/-- The product of an [M, K] left operand with a [K, N] right operand accumulated onto zero, at (a, j): the sum over k. -/
theorem matmul_plain_zero_apply {φ₁ φ₂ : FTy} (M K N : Nat) (d : DotDims ⟨2, ![M, K]⟩ ⟨2, ![K, N]⟩ ⟨2, ![M, N]⟩)
    (hd : d = DotDims.plain M K N) (L : FVec Ideal ⟨2, ![M, K]⟩ φ₁) (R : FVec Ideal ⟨2, ![K, N]⟩ φ₂) (a : Fin M) (j : Fin N) :
    matmul d none L R (constant (F := Ideal) ⟨2, ![M, N]⟩ .f32 0x00000000#32) (ix2 a j)
      = ∑ k : Fin K, L (ix2 a k) * R (ix2 k j) := by
  subst hd
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun c => Fin.ext (by
      match c with
      | ⟨0, _⟩ => rfl
      | ⟨1, _⟩ => exact ((DotDims.plain M K N).lhsIdx_val_of_single rfl _ _).trans hk)
  have er : (DotDims.plain M K N).rhsIdx (ix2 a j) ((contrEquiv1 (DotDims.plain M K N) K rfl rfl).symm k) = ix2 k j :=
    funext fun c => Fin.ext (by
      match c with
      | ⟨0, _⟩ => exact ((DotDims.plain M K N).rhsIdx_val_of_single rfl _ _).trans hk
      | ⟨1, _⟩ => rfl)
  rw [el, er]

/-- A sum of one-hot weights times values is the value at the hot position: 0 * y = 0 for every extended real y. -/
theorem sum_oneHot_mul {K : Nat} (t : Fin K) (y : Fin K → EReal) :
    ∑ k : Fin K, (if k.val = t.val then (1 : EReal) else 0) * y k = y t := by
  rw [Finset.sum_eq_single t]
  · rw [if_pos rfl, one_mul]
  · intro k _ hk
    rw [if_neg (fun h => hk (Fin.ext h)), zero_mul]
  · intro h; exact absurd (Finset.mem_univ t) h

end Sums

/-! ## The one-hot matrix -/

/-- The compare of a column number with a word, widened and converted: 1 when the number is the word's value, else 0. -/
theorem oneHot_word (k : Nat) (hk : k < 2 ^ 32) (w : BitVec 32) :
    FloatOps.sitofp (F := Ideal) .f32 ((IntOp.cmpi .eq (BitVec.ofNat 32 k) w).setWidth 32)
      = if k = w.toNat then (1 : EReal) else 0 := by
  by_cases h : k = w.toNat
  · have e : BitVec.ofNat 32 k = w := by
      apply BitVec.eq_of_toNat_eq
      rw [BitVec.toNat_ofNat, Nat.mod_eq_of_lt hk, h]
    rw [if_pos h, cmpi_eq_iff.2 e]
    show (((BitVec.setWidth 32 1#1).toInt : ℝ) : EReal) = 1
    rw [show (BitVec.setWidth 32 1#1).toInt = 1 from by decide]
    simp
  · have e : IntOp.cmpi .eq (BitVec.ofNat 32 k) w = 0#1 := eq_zero_of_ne_one fun h1 => h (by
      have := congrArg BitVec.toNat (cmpi_eq_iff.1 h1)
      rw [BitVec.toNat_ofNat, Nat.mod_eq_of_lt hk] at this
      exact this)
    rw [if_neg h, e]
    show (((BitVec.setWidth 32 0#1).toInt : ℝ) : EReal) = 0
    rw [show (BitVec.setWidth 32 0#1).toInt = 0 from by decide]
    simp

/-- The one-hot matrix at (r, k): 1 when k is the r-th integer of the block, else 0. -/
theorem oneHot_apply (x0 : Vec Ideal S1x1x128 .i32) (r : Fin 128) (k : Fin 10000) :
    Gen.k0_pay333 (F := Ideal) x0 (ix2 r k) = if k.val = (x0 (ix3 0 0 r)).toNat then (1 : EReal) else 0 := by
  unfold Gen.k0_pay333
  show FloatOps.sitofp (F := Ideal) .f32 ((IntOp.cmpi .eq (iota .tc S128x10000 32 [1] iota_S128x10000_d1_w32 (ix2 r k))
    (broadcastTo S128x10000 (shapeCast S128x1 (shapeCast S128 x0 shapeCasts_S1x1x128_S128) shapeCasts_S128_S128x1)
      broadcasts_S128x1_S128x10000 (ix2 r k))).setWidth 32) = _
  rw [iota_single_apply, broadcastTo_a1_ab_apply, shapeCast_a_a1_apply, shapeCast_11a_a_apply]
  exact oneHot_word k.val (by omega) _

/-! ## The three payloads -/

/-- The zero column. -/
theorem zeroPay_apply (j : S128x1.Idx) : Gen.k0_pay332 (F := Ideal) j = 0 := by
  unfold Gen.k0_pay332
  show shapeCast S128x1 (broadcast S128x1 (Scalar.ofBits (F := Ideal) .f32 0x00000000#32)) shapeCasts_S128x1_S128x1 j = 0
  rw [shapeCast_self]
  exact Ideal.ofBits_zero_f32

/-- The looked-up rows: entry (0, r, c) is the table's entry (0, ·, c) in the row the r-th integer names. -/
theorem gPay_apply (x0 : Vec Ideal S1x1x128 .i32) (x1 : Vec Ideal S1x10000x384 .bf16) (r : Fin 128) (col : Fin 384)
    (hx : (x0 (ix3 0 0 r)).toNat < 10000) :
    Gen.k0_pay334 (F := Ideal) x0 x1 (ix3 0 r col) = x1 (ix3 0 ⟨(x0 (ix3 0 0 r)).toNat, hx⟩ col) := by
  unfold Gen.k0_pay334
  refine (shapeCast_ab_1ab_apply _ shapeCasts_S128x384_S1x128x384 0 r col).trans ?_
  rw [truncf_apply]
  refine (matmul_plain_zero_apply 128 10000 384 dot_S128x10000_S10000x384_S128x384_1_0_0_1_n_n rfl _ _ r col).trans ?_
  refine Eq.trans (Finset.sum_congr rfl fun k _ => ?_)
    (sum_oneHot_mul (⟨(x0 (ix3 0 0 r)).toNat, hx⟩ : Fin 10000) fun k => x1 (ix3 0 k col))
  rw [truncf_apply, oneHot_apply, shapeCast_1ab_ab_apply]

/-- The linear term's update: the running column plus the broadcast row's entry the r-th integer names. -/
theorem linPay_apply (x0 : Vec Ideal S1x1x128 .i32) (x2 : Vec Ideal S1x1x10000 .f32) (l : Vec Ideal S128x1 .f32) (r : Fin 128)
    (hx : (x0 (ix3 0 0 r)).toNat < 10000) :
    Gen.k0_pay335 (F := Ideal) x0 x2 l (ix2 r 0) = l (ix2 r 0) + x2 (ix3 0 0 ⟨(x0 (ix3 0 0 r)).toNat, hx⟩) := by
  unfold Gen.k0_pay335
  rw [shapeCast_self, addf_apply]
  refine congrArg (l (ix2 r 0) + ·) ?_
  refine (shapeCast_a_a1_apply _ shapeCasts_S128_S128x1 r 0).trans ?_
  refine (laneSum_apply _ reduces_S128x10000_S128 _ _ r).trans ?_
  refine Eq.trans (Finset.sum_congr rfl fun k _ => ?_)
    (sum_oneHot_mul (⟨(x0 (ix3 0 0 r)).toNat, hx⟩ : Fin 10000) fun k => x2 (ix3 0 0 k))
  rw [mulf_apply, oneHot_apply, broadcastTo_1b_ab_apply, shapeCast_a_1a_apply, shapeCast_11a_a_apply]

end Cert.KernelIdeal.Hand.Pay

end
-- ==== Proof.KI.Blocks.lean ====
/-
  Each window's block at a grid point, read off the argument arrays.  The grid is 128 batch tiles by 24 fields in
  row-major order, so point t is tile t / 24 and field t % 24.  The index block of a point is the transposed index
  array's row (field) at the tile's 128 batch positions; the embedding-table block is the field's whole table with
  its two trailing axes merged (column = 16 * pair + component); the linear-weight block is the field's row; the
  dense layers' weights and biases are whole arrays; the output block is the tile's 128 rows.
-/
import proofs.«405942_j90769838833781_3_alg».proof.Proof.Gen.KernelIdeal.Frame
import Idealize.ShloMosaic.Lib.ValueIdx
import Idealize.ShloMosaic.Lib.Pipeline.Value
import Idealize.ShloMosaic.Lib.StableHlo.Run
import Idealize.ShloMosaic.Lib.ValueLayout
import Idealize.ShloMosaic.PureOps.Ideal.Laws

set_option maxRecDepth 16384

noncomputable section

namespace Cert.KernelIdeal.Hand.Blocks

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

variable (m : (ℓ : Loc nD τ sig) → Buf (Elt Ideal) ℓ)

/-- The printed index maps over the grid: the index window's block is (field, 0, tile); the table's and the linear
    weights' are (field, 0, 0); the output's is (tile, 0). -/
theorem idx_facts : ∀ t : Fin cfg0.N,
    win0_0.index t (0 : Fin 3) = t.val % 24 ∧ win0_0.index t (1 : Fin 3) = 0 ∧ win0_0.index t (2 : Fin 3) = t.val / 24
    ∧ win0_1.index t (0 : Fin 3) = t.val % 24 ∧ win0_1.index t (1 : Fin 3) = 0 ∧ win0_1.index t (2 : Fin 3) = 0
    ∧ win0_2.index t (0 : Fin 3) = t.val % 24 ∧ win0_2.index t (1 : Fin 3) = 0 ∧ win0_2.index t (2 : Fin 3) = 0
    ∧ win0_10.index t (0 : Fin 2) = t.val / 24 ∧ win0_10.index t (1 : Fin 2) = 0 :=
  (by decide +kernel : ∀ t : Fin grid0.N, _)

/-! ## The grid's arithmetic -/

theorem point_lt (t : Fin cfg0.N) : t.val < 3072 := lt_of_lt_of_eq t.isLt N_0
theorem field_lt (t : Fin cfg0.N) : t.val % 24 < 24 := Nat.mod_lt _ (by decide)
theorem tile_lt (t : Fin cfg0.N) : t.val / 24 < 128 := by have := point_lt t; omega
theorem row_lt (t : Fin cfg0.N) (r : Fin 128) : 128 * (t.val / 24) + r.val < 16384 := by
  have := tile_lt t; have := r.isLt; omega
theorem pair_lt (col : Fin 384) : col.val / 16 < 24 := by have := col.isLt; omega
theorem comp_lt (col : Fin 384) : col.val % 16 < 16 := Nat.mod_lt _ (by decide)

/-! ## The arrays the host operations wrote -/

/-- The index window's array: the index array transposed, then given a unit middle axis. -/
theorem V_v1 (c : Dev nD) : (V m c main_v1 : S24x1x16384.Idx → Elt Ideal .i32)
    = shapeCast S24x1x16384 (transpose S24x16384 [1, 0] (m ((c : Thread nD τ).loc main_arg0) : S16384x24.Idx → Elt Ideal .i32) transposes_S16384x24_S24x16384_1_0) shapeCasts_S24x16384_S24x1x16384 := by
  dsimp only [Gen.V, Gen.hostOps0]; after_results; rfl

/-- The table window's array: the table with its two trailing axes merged (the change of float format is the
    identity on the extended reals). -/
theorem V_v3 (c : Dev nD) : (V m c main_v3 : S24x10000x384.Idx → Elt Ideal .bf16)
    = truncf (F := Ideal) .bf16 (shapeCast S24x10000x384 (m ((c : Thread nD τ).loc main_arg1) : S24x10000x24x16.Idx → Elt Ideal .f32) shapeCasts_S24x10000x24x16_S24x10000x384) bitsLt_bf16_f32 := by
  dsimp only [Gen.V, Gen.hostOps0]; after_results; rfl

/-- The linear-weight window's array: the weights given a unit middle axis. -/
theorem V_v4 (c : Dev nD) : (V m c main_v4 : S24x1x10000.Idx → Elt Ideal .f32)
    = shapeCast S24x1x10000 (m ((c : Thread nD τ).loc main_arg2) : S24x10000.Idx → Elt Ideal .f32) shapeCasts_S24x10000_S24x1x10000 := by
  dsimp only [Gen.V, Gen.hostOps0]; after_results; rfl

/-! ## The blocks of the three moving inputs -/

/-- The index block of point t: the field's row of the transposed index array at the tile's batch positions. -/
theorem xblk_apply (c : Dev nD) (t : Fin cfg0.N) (r : Fin 128) :
    (Gen.iblk m c 0 t : S1x1x128.Idx → Elt Ideal .i32) (ix3 (0 : Fin 1) (0 : Fin 1) r)
      = (m ((c : Thread nD τ).loc main_arg0) : S16384x24.Idx → Elt Ideal .i32) (ix2 ⟨128 * (t.val / 24) + r.val, row_lt t r⟩ ⟨t.val % 24, field_lt t⟩) := by
  obtain ⟨e0, e1, e2, -⟩ := idx_facts t
  unfold Gen.iblk
  rw [View.read_apply]
  show V m c main_v1 (((cfg0.win 0).blk t).view.emb (ix3 (0 : Fin 1) (0 : Fin 1) r)) = _
  have hemb : ((cfg0.win 0).blk t).view.emb (ix3 (0 : Fin 1) (0 : Fin 1) r)
      = (ix3 (⟨t.val % 24, field_lt t⟩ : Fin 24) (0 : Fin 1) (⟨128 * (t.val / 24) + r.val, row_lt t r⟩ : Fin 16384) : S24x1x16384.Idx) := by
    funext a; apply Fin.ext
    match a with
    | ⟨0, _⟩ => show win0_0.index t (0 : Fin 3) * 1 + 1 * 0 = t.val % 24; omega
    | ⟨1, _⟩ => show win0_0.index t (1 : Fin 3) * 1 + 1 * 0 = 0; omega
    | ⟨2, _⟩ => show win0_0.index t (2 : Fin 3) * 128 + 1 * r.val = 128 * (t.val / 24) + r.val; omega
  rw [hemb, V_v1]
  refine (shapeCast_apply _ _ _ (ix2 (⟨t.val % 24, field_lt t⟩ : Fin 24) (⟨128 * (t.val / 24) + r.val, row_lt t r⟩ : Fin 16384) : S24x16384.Idx) ?_).trans ?_
  · rw [Shape.rowMajor_val_two, Shape.rowMajor_val_three]
    show t.val % 24 * 16384 + (128 * (t.val / 24) + r.val) = (t.val % 24 * 1 + 0) * 16384 + (128 * (t.val / 24) + r.val)
    omega
  · refine transpose_apply _ _ _ _ _ (fun b => ?_)
    match b with
    | ⟨0, _⟩ => rfl
    | ⟨1, _⟩ => rfl

/-- The table block of point t: the field's table, column 16 * pair + component. -/
theorem eblk_apply (c : Dev nD) (t : Fin cfg0.N) (k : Fin 10000) (col : Fin 384) :
    (Gen.iblk m c 1 t : S1x10000x384.Idx → Elt Ideal .bf16) (ix3 (0 : Fin 1) k col)
      = (m ((c : Thread nD τ).loc main_arg1) : S24x10000x24x16.Idx → Elt Ideal .f32) (ix4 ⟨t.val % 24, field_lt t⟩ k ⟨col.val / 16, pair_lt col⟩ ⟨col.val % 16, comp_lt col⟩) := by
  obtain ⟨-, -, -, e0, e1, e2, -⟩ := idx_facts t
  unfold Gen.iblk
  rw [View.read_apply]
  show V m c main_v3 (((cfg0.win 1).blk t).view.emb (ix3 (0 : Fin 1) k col)) = _
  have hemb : ((cfg0.win 1).blk t).view.emb (ix3 (0 : Fin 1) k col)
      = (ix3 (⟨t.val % 24, field_lt t⟩ : Fin 24) k col : S24x10000x384.Idx) := by
    funext a; apply Fin.ext
    match a with
    | ⟨0, _⟩ => show win0_1.index t (0 : Fin 3) * 1 + 1 * 0 = t.val % 24; omega
    | ⟨1, _⟩ => show win0_1.index t (1 : Fin 3) * 10000 + 1 * k.val = k.val; omega
    | ⟨2, _⟩ => show win0_1.index t (2 : Fin 3) * 384 + 1 * col.val = col.val; omega
  rw [hemb, V_v3]
  show shapeCast S24x10000x384 (m ((c : Thread nD τ).loc main_arg1) : S24x10000x24x16.Idx → Elt Ideal .f32) shapeCasts_S24x10000x24x16_S24x10000x384 _ = _
  refine shapeCast_apply _ _ _ _ ?_
  show (S24x10000x24x16.rowMajor (ix4 (⟨t.val % 24, field_lt t⟩ : Fin 24) k (⟨col.val / 16, pair_lt col⟩ : Fin 24) (⟨col.val % 16, comp_lt col⟩ : Fin 16))).val = (S24x10000x384.rowMajor _).val
  rw [Shape.rowMajor_val_four, Shape.rowMajor_val_three]
  show ((t.val % 24 * 10000 + k.val) * 24 + col.val / 16) * 16 + col.val % 16 = (t.val % 24 * 10000 + k.val) * 384 + col.val
  omega

/-- The linear-weight block of point t: the field's row. -/
theorem wblk_apply (c : Dev nD) (t : Fin cfg0.N) (k : Fin 10000) :
    (Gen.iblk m c 2 t : S1x1x10000.Idx → Elt Ideal .f32) (ix3 (0 : Fin 1) (0 : Fin 1) k)
      = (m ((c : Thread nD τ).loc main_arg2) : S24x10000.Idx → Elt Ideal .f32) (ix2 ⟨t.val % 24, field_lt t⟩ k) := by
  obtain ⟨-, -, -, -, -, -, e0, e1, e2, -⟩ := idx_facts t
  unfold Gen.iblk
  rw [View.read_apply]
  show V m c main_v4 (((cfg0.win 2).blk t).view.emb (ix3 (0 : Fin 1) (0 : Fin 1) k)) = _
  have hemb : ((cfg0.win 2).blk t).view.emb (ix3 (0 : Fin 1) (0 : Fin 1) k)
      = (ix3 (⟨t.val % 24, field_lt t⟩ : Fin 24) (0 : Fin 1) k : S24x1x10000.Idx) := by
    funext a; apply Fin.ext
    match a with
    | ⟨0, _⟩ => show win0_2.index t (0 : Fin 3) * 1 + 1 * 0 = t.val % 24; omega
    | ⟨1, _⟩ => show win0_2.index t (1 : Fin 3) * 1 + 1 * 0 = 0; omega
    | ⟨2, _⟩ => show win0_2.index t (2 : Fin 3) * 10000 + 1 * k.val = k.val; omega
  rw [hemb, V_v4]
  refine shapeCast_apply _ _ _ _ ?_
  show (S24x10000.rowMajor (ix2 (⟨t.val % 24, field_lt t⟩ : Fin 24) k)).val = (S24x1x10000.rowMajor _).val
  rw [Shape.rowMajor_val_two, Shape.rowMajor_val_three]
  show t.val % 24 * 10000 + k.val = (t.val % 24 * 1 + 0) * 10000 + k.val
  omega

/-! ## The dense layers' weights and biases: the block is the whole array -/

/-- The printed index maps of the whole-array windows are zero on every axis. -/
theorem idx_whole : ∀ t : Fin cfg0.N,
    win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

theorem blk3 (c : Dev nD) (t : Fin cfg0.N) :
    (Gen.iblk m c 3 t : S1.Idx → Elt Ideal .f32) = (m ((c : Thread nD τ).loc main_arg3) : S1.Idx → Elt Ideal .f32) := by
  obtain ⟨e0, -⟩ := idx_whole t
  funext j
  unfold Gen.iblk
  rw [View.read_apply]
  show V m c main_arg3 (((cfg0.win 3).blk t).view.emb j) = _
  rw [V_main_arg3]
  congr 1
  funext a; apply Fin.ext
  match a with
  | ⟨0, _⟩ => show win0_3.index t (0 : Fin 1) * 1 + 1 * (j 0).val = (j 0).val; omega

theorem blk4 (c : Dev nD) (t : Fin cfg0.N) :
    (Gen.iblk m c 4 t : S276x128.Idx → Elt Ideal .f32) = (m ((c : Thread nD τ).loc main_arg4) : S276x128.Idx → Elt Ideal .f32) := by
  obtain ⟨-, e0, e1, -⟩ := idx_whole t
  funext j
  unfold Gen.iblk
  rw [View.read_apply]
  show V m c main_arg4 (((cfg0.win 4).blk t).view.emb j) = _
  rw [V_main_arg4]
  congr 1
  funext a; apply Fin.ext
  match a with
  | ⟨0, _⟩ => show win0_4.index t (0 : Fin 2) * 276 + 1 * (j 0).val = (j 0).val; omega
  | ⟨1, _⟩ => show win0_4.index t (1 : Fin 2) * 128 + 1 * (j 1).val = (j 1).val; omega

theorem blk5 (c : Dev nD) (t : Fin cfg0.N) :
    (Gen.iblk m c 5 t : S128.Idx → Elt Ideal .f32) = (m ((c : Thread nD τ).loc main_arg5) : S128.Idx → Elt Ideal .f32) := by
  obtain ⟨-, -, -, e0, -⟩ := idx_whole t
  funext j
  unfold Gen.iblk
  rw [View.read_apply]
  show V m c main_arg5 (((cfg0.win 5).blk t).view.emb j) = _
  rw [V_main_arg5]
  congr 1
  funext a; apply Fin.ext
  match a with
  | ⟨0, _⟩ => show win0_5.index t (0 : Fin 1) * 128 + 1 * (j 0).val = (j 0).val; omega

theorem blk6 (c : Dev nD) (t : Fin cfg0.N) :
    (Gen.iblk m c 6 t : S128x64.Idx → Elt Ideal .f32) = (m ((c : Thread nD τ).loc main_arg6) : S128x64.Idx → Elt Ideal .f32) := by
  obtain ⟨-, -, -, -, e0, e1, -⟩ := idx_whole t
  funext j
  unfold Gen.iblk
  rw [View.read_apply]
  show V m c main_arg6 (((cfg0.win 6).blk t).view.emb j) = _
  rw [V_main_arg6]
  congr 1
  funext a; apply Fin.ext
  match a with
  | ⟨0, _⟩ => show win0_6.index t (0 : Fin 2) * 128 + 1 * (j 0).val = (j 0).val; omega
  | ⟨1, _⟩ => show win0_6.index t (1 : Fin 2) * 64 + 1 * (j 1).val = (j 1).val; omega

theorem blk7 (c : Dev nD) (t : Fin cfg0.N) :
    (Gen.iblk m c 7 t : S64.Idx → Elt Ideal .f32) = (m ((c : Thread nD τ).loc main_arg7) : S64.Idx → Elt Ideal .f32) := by
  obtain ⟨-, -, -, -, -, -, e0, -⟩ := idx_whole t
  funext j
  unfold Gen.iblk
  rw [View.read_apply]
  show V m c main_arg7 (((cfg0.win 7).blk t).view.emb j) = _
  rw [V_main_arg7]
  congr 1
  funext a; apply Fin.ext
  match a with
  | ⟨0, _⟩ => show win0_7.index t (0 : Fin 1) * 64 + 1 * (j 0).val = (j 0).val; omega

theorem blk8 (c : Dev nD) (t : Fin cfg0.N) :
    (Gen.iblk m c 8 t : S64x1.Idx → Elt Ideal .f32) = (m ((c : Thread nD τ).loc main_arg8) : S64x1.Idx → Elt Ideal .f32) := by
  obtain ⟨-, -, -, -, -, -, -, e0, e1, -⟩ := idx_whole t
  funext j
  unfold Gen.iblk
  rw [View.read_apply]
  show V m c main_arg8 (((cfg0.win 8).blk t).view.emb j) = _
  rw [V_main_arg8]
  congr 1
  funext a; apply Fin.ext
  match a with
  | ⟨0, _⟩ => show win0_8.index t (0 : Fin 2) * 64 + 1 * (j 0).val = (j 0).val; omega
  | ⟨1, _⟩ => show win0_8.index t (1 : Fin 2) * 1 + 1 * (j 1).val = (j 1).val; omega

theorem blk9 (c : Dev nD) (t : Fin cfg0.N) :
    (Gen.iblk m c 9 t : S1.Idx → Elt Ideal .f32) = (m ((c : Thread nD τ).loc main_arg9) : S1.Idx → Elt Ideal .f32) := by
  obtain ⟨-, -, -, -, -, -, -, -, -, e0⟩ := idx_whole t
  funext j
  unfold Gen.iblk
  rw [View.read_apply]
  show V m c main_arg9 (((cfg0.win 9).blk t).view.emb j) = _
  rw [V_main_arg9]
  congr 1
  funext a; apply Fin.ext
  match a with
  | ⟨0, _⟩ => show win0_9.index t (0 : Fin 1) * 1 + 1 * (j 0).val = (j 0).val; omega

/-! ## The output window: the tile's 128 rows -/

/-- A row of the output lies in point t's block iff it is one of the tile's rows. -/
theorem out_mem (t : Fin cfg0.N) (b : Fin 16384) :
    (ix2 b (0 : Fin 1) : S16384x1.Idx) ∈ ((cfg0.win 10).blk t).view.set ↔ b.val / 128 = t.val / 24 := by
  obtain ⟨-, -, -, -, -, -, -, -, -, e0, e1⟩ := idx_facts t
  show (ix2 b (0 : Fin 1) : S16384x1.Idx) ∈ ((View.whole main_v5).slice (win0_10.rect t)).set ↔ _
  rw [View.set_slice_whole, Rect.mem_set_unit]
  constructor
  · intro h
    have h0 : win0_10.index t (0 : Fin 2) * 128 ≤ b.val ∧ b.val < win0_10.index t (0 : Fin 2) * 128 + 128 := h 0
    omega
  · intro h a
    match a with
    | ⟨0, _⟩ => show win0_10.index t (0 : Fin 2) * 128 ≤ b.val ∧ b.val < win0_10.index t (0 : Fin 2) * 128 + 128; omega
    | ⟨1, _⟩ => show win0_10.index t (1 : Fin 2) * 1 ≤ 0 ∧ 0 < win0_10.index t (1 : Fin 2) * 1 + 1; omega

/-- Point t's output block read off an array: the tile's rows. -/
theorem out_read (G : S16384x1.Idx → Elt Ideal .f32) (t : Fin cfg0.N) (r : Fin 128) :
    (((cfg0.win 10).blk t).view.read (Elt Ideal) G : S128x1.Idx → Elt Ideal .f32) (ix2 r (0 : Fin 1))
      = G (ix2 ⟨128 * (t.val / 24) + r.val, row_lt t r⟩ (0 : Fin 1)) := by
  obtain ⟨-, -, -, -, -, -, -, -, -, e0, e1⟩ := idx_facts t
  rw [View.read_apply]
  show G (((cfg0.win 10).blk t).view.emb (ix2 r (0 : Fin 1))) = _
  congr 1
  funext a; apply Fin.ext
  match a with
  | ⟨0, _⟩ => show win0_10.index t (0 : Fin 2) * 128 + 1 * r.val = 128 * (t.val / 24) + r.val; omega
  | ⟨1, _⟩ => show win0_10.index t (1 : Fin 2) * 1 + 1 * 0 = 0; omega

end Cert.KernelIdeal.Hand.Blocks

end
-- ==== Proof.KI.Steps.lean ====
/-
  One grid point's effect on the two scratch buffers, read entry by entry: the body stores the looked-up table
  rows into the field's slab of the gathered-rows scratch and leaves the other slabs alone; it sets (first field)
  or adds to (later fields) the linear accumulator the selected entries of the field's row of linear weights.
-/
import proofs.«405942_j90769838833781_3_alg».proof.Proof.KI.RunA
import proofs.«405942_j90769838833781_3_alg».proof.Proof.KI.RunB
import proofs.«405942_j90769838833781_3_alg».proof.Proof.KI.RunC
import proofs.«405942_j90769838833781_3_alg».proof.Proof.KI.Defs
import proofs.«405942_j90769838833781_3_alg».proof.Proof.KI.Pay
import proofs.«405942_j90769838833781_3_alg».proof.Proof.KI.Blocks
import Idealize.ShloMosaic.Lib.Pipeline.Value
import Idealize.ShloMosaic.Lib.Writes
import Idealize.ShloMosaic.Lib.Tactic

set_option maxRecDepth 16384

noncomputable section

namespace Cert.KernelIdeal.Hand.Steps

open Cert.KernelIdeal Cert.KernelIdeal.Gen
open Idealize.ShloMosaic Idealize.ShloMosaic.TcCoe Idealize.ShloMosaic.Tactic
open Idealize.ShloMosaic.ValueIdx
open Idealize.SL Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

/-! ## A store read back at an entry -/

section Stores
variable {sig' : RefSig} {κ : Kind} {sp : Space}

/-- After one store of a [1, 128, 384] slab at offsets (o, 0, 0) into the 24-slab scratch, entry (o, r, q) is the slab's
    entry (0, r, q). -/
theorem slab_hit (v : View sig' κ sp S24x128x384 .bf16) (f : v.ty.Contents (Elt Ideal)) (off : Fin 3 → Nat)
    (inb : ∀ a, off a + (![1, 128, 384] : Fin 3 → Nat) a ≤ S24x128x384.size a)
    (w : S1x128x384.Idx → Elt Ideal .bf16) (h1 : off (1 : Fin 3) = 0) (h2 : off (2 : Fin 3) = 0) (j : Fin 24) (r : Fin 128) (q : Fin 384) (hj : j.val = off (0 : Fin 3)) :
    v.read (Elt Ideal) (v.writes (Elt Ideal) f [(⟨Rect.unit off ![1, 128, 384] inb, w⟩ : View.Piece (Elt Ideal) S24x128x384 .bf16)]) (ix3 j r q)
      = w (ix3 (0 : Fin 1) r q) := by
  have e : (ix3 j r q : S24x128x384.Idx) = (Rect.unit off ![1, 128, 384] inb).emb (ix3 (0 : Fin 1) r q : S1x128x384.Idx) := by
    funext a; apply Fin.ext
    rw [Rect.emb_apply]
    match a with
    | ⟨0, _⟩ => show j.val = off (0 : Fin 3) + 1 * 0; omega
    | ⟨1, _⟩ => show r.val = off (1 : Fin 3) + 1 * r.val; omega
    | ⟨2, _⟩ => show q.val = off (2 : Fin 3) + 1 * q.val; omega
  have key := View.read_writes_cons_emb v f (Rect.unit off ![1, 128, 384] inb) w [] (ix3 (0 : Fin 1) r q : S1x128x384.Idx)
  rw [← e] at key
  exact key

/-- An entry of another slab keeps what it held. -/
theorem slab_miss (v : View sig' κ sp S24x128x384 .bf16) (f : v.ty.Contents (Elt Ideal)) (off : Fin 3 → Nat)
    (inb : ∀ a, off a + (![1, 128, 384] : Fin 3 → Nat) a ≤ S24x128x384.size a)
    (w : S1x128x384.Idx → Elt Ideal .bf16) (j : Fin 24) (r : Fin 128) (q : Fin 384) (hj : ¬ j.val = off (0 : Fin 3)) :
    v.read (Elt Ideal) (v.writes (Elt Ideal) f [(⟨Rect.unit off ![1, 128, 384] inb, w⟩ : View.Piece (Elt Ideal) S24x128x384 .bf16)]) (ix3 j r q)
      = v.read (Elt Ideal) f (ix3 j r q) := by
  refine View.read_writes_apply_of_forall_not_mem v f (ix3 j r q) [(⟨Rect.unit off ![1, 128, 384] inb, w⟩ : View.Piece (Elt Ideal) S24x128x384 .bf16)] fun p hp => ?_
  obtain rfl := List.mem_singleton.mp hp
  show ¬ (ix3 j r q : S24x128x384.Idx) ∈ (Rect.unit off ![1, 128, 384] inb).set
  rw [Rect.mem_set_unit]
  intro h
  have h0 : off (0 : Fin 3) ≤ j.val ∧ j.val < off (0 : Fin 3) + 1 := h 0
  omega

/-- A store through the whole shape at zero offsets, made last, leaves its payload. -/
theorem whole_read {S : Shape} {e : EltTy} (v : View sig' κ sp S e) (f : v.ty.Contents (Elt Ideal)) (off : Fin S.rank → Nat)
    (hoff : off = fun _ => 0) (inb : ∀ a, off a + S.size a ≤ S.size a) (w : S.Idx → Elt Ideal e) (L : List (View.Piece (Elt Ideal) S e)) :
    v.read (Elt Ideal) (v.writes (Elt Ideal) f ((⟨Rect.unit off S.size inb, w⟩ : View.Piece (Elt Ideal) S e) :: L)) = w := by
  subst hoff
  funext y
  have key := View.read_writes_cons_emb v f (Rect.whole S) w L y
  rw [Rect.emb_whole_apply] at key
  exact key

end Stores

/-- The slab a point stores into is its field's: the printed offsets over the grid. -/
theorem off_facts : ∀ t : Fin cfg0.N, k0_off1 (grid0.coords t) (0 : Fin 3) = t.val % 24 :=
  (by decide +kernel : ∀ t : Fin grid0.N, _)

/-! ## What the body's stores leave in the two scratch buffers, over arbitrary block contents -/

theorem gRead_A (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : cond0 i) (hc1 : ¬cond1 i) (x0 : Vec Ideal S1x1x128 .i32) (x1 : Vec Ideal S1x10000x384 .bf16) (x2 : Vec Ideal S1x1x10000 .f32) (x3 : Vec Ideal S1 .f32) (x4 : Vec Ideal S276x128 .f32) (x5 : Vec Ideal S128 .f32) (x6 : Vec Ideal S128x64 .f32) (x7 : Vec Ideal S64 .f32) (x8 : Vec Ideal S64x1 .f32) (x9 : Vec Ideal S1 .f32) (xo : Vec Ideal S128x1 .f32) (X : Vec Ideal S24x128x384 .bf16) (xs1 : Vec Ideal S128x1 .f32) (j : Fin 24) (r : Fin 128) (q : Fin 384) :
    arg13.view.read (Elt Ideal) (arg13.view.writes (Elt Ideal) (harg13.unread X) (kernelRun_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo X xs1).1) (ix3 j r q)
      = if j.val = k0_off1 i (0 : Fin 3) then k0_pay334 (F := Ideal) x0 x1 (ix3 (0 : Fin 1) r q) else X (ix3 j r q) := by
  unfold kernelRun_A
  dsimp only
  split
  · next hj =>
    refine (slab_hit arg13.view (harg13.unread X) (k0_off1 i) _ _ rfl rfl j r q hj).trans ?_
    simp only [View.readAt_eq_ld, harg2.read_unread, harg3.read_unread, View.ld_unit_zero (S := S1x1x128) hz3, View.ld_unit_zero (S := S1x10000x384) hz3]
  · next hj =>
    refine (slab_miss arg13.view (harg13.unread X) (k0_off1 i) _ _ j r q hj).trans ?_
    rw [harg13.read_unread]

theorem gRead_B (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : ¬cond0 i) (hc1 : ¬cond1 i) (x0 : Vec Ideal S1x1x128 .i32) (x1 : Vec Ideal S1x10000x384 .bf16) (x2 : Vec Ideal S1x1x10000 .f32) (x3 : Vec Ideal S1 .f32) (x4 : Vec Ideal S276x128 .f32) (x5 : Vec Ideal S128 .f32) (x6 : Vec Ideal S128x64 .f32) (x7 : Vec Ideal S64 .f32) (x8 : Vec Ideal S64x1 .f32) (x9 : Vec Ideal S1 .f32) (xo : Vec Ideal S128x1 .f32) (X : Vec Ideal S24x128x384 .bf16) (xs1 : Vec Ideal S128x1 .f32) (j : Fin 24) (r : Fin 128) (q : Fin 384) :
    arg13.view.read (Elt Ideal) (arg13.view.writes (Elt Ideal) (harg13.unread X) (kernelRun_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo X xs1).1) (ix3 j r q)
      = if j.val = k0_off1 i (0 : Fin 3) then k0_pay334 (F := Ideal) x0 x1 (ix3 (0 : Fin 1) r q) else X (ix3 j r q) := by
  unfold kernelRun_B
  dsimp only
  split
  · next hj =>
    refine (slab_hit arg13.view (harg13.unread X) (k0_off1 i) _ _ rfl rfl j r q hj).trans ?_
    simp only [View.readAt_eq_ld, harg2.read_unread, harg3.read_unread, View.ld_unit_zero (S := S1x1x128) hz3, View.ld_unit_zero (S := S1x10000x384) hz3]
  · next hj =>
    refine (slab_miss arg13.view (harg13.unread X) (k0_off1 i) _ _ j r q hj).trans ?_
    rw [harg13.read_unread]

theorem gRead_C (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : ¬cond0 i) (hc1 : cond1 i) (x0 : Vec Ideal S1x1x128 .i32) (x1 : Vec Ideal S1x10000x384 .bf16) (x2 : Vec Ideal S1x1x10000 .f32) (x3 : Vec Ideal S1 .f32) (x4 : Vec Ideal S276x128 .f32) (x5 : Vec Ideal S128 .f32) (x6 : Vec Ideal S128x64 .f32) (x7 : Vec Ideal S64 .f32) (x8 : Vec Ideal S64x1 .f32) (x9 : Vec Ideal S1 .f32) (xo : Vec Ideal S128x1 .f32) (X : Vec Ideal S24x128x384 .bf16) (xs1 : Vec Ideal S128x1 .f32) (j : Fin 24) (r : Fin 128) (q : Fin 384) :
    arg13.view.read (Elt Ideal) (arg13.view.writes (Elt Ideal) (harg13.unread X) (kernelRun_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo X xs1).2.1) (ix3 j r q)
      = if j.val = k0_off1 i (0 : Fin 3) then k0_pay334 (F := Ideal) x0 x1 (ix3 (0 : Fin 1) r q) else X (ix3 j r q) := by
  unfold kernelRun_C
  dsimp only
  sl_unfold_run_names
  split
  · next hj =>
    refine (slab_hit arg13.view (harg13.unread X) (k0_off1 i) _ _ rfl rfl j r q hj).trans ?_
    simp only [View.readAt_eq_ld, harg2.read_unread, harg3.read_unread, View.ld_unit_zero (S := S1x1x128) hz3, View.ld_unit_zero (S := S1x10000x384) hz3]
  · next hj =>
    refine (slab_miss arg13.view (harg13.unread X) (k0_off1 i) _ _ j r q hj).trans ?_
    rw [harg13.read_unread]

theorem lRead_A (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : cond0 i) (hc1 : ¬cond1 i) (x0 : Vec Ideal S1x1x128 .i32) (x1 : Vec Ideal S1x10000x384 .bf16) (x2 : Vec Ideal S1x1x10000 .f32) (x3 : Vec Ideal S1 .f32) (x4 : Vec Ideal S276x128 .f32) (x5 : Vec Ideal S128 .f32) (x6 : Vec Ideal S128x64 .f32) (x7 : Vec Ideal S64 .f32) (x8 : Vec Ideal S64x1 .f32) (x9 : Vec Ideal S1 .f32) (xo : Vec Ideal S128x1 .f32) (X : Vec Ideal S24x128x384 .bf16) (xs1 : Vec Ideal S128x1 .f32) :
    arg14.view.read (Elt Ideal) (arg14.view.writes (Elt Ideal) (harg14.unread xs1) (kernelRun_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo X xs1).2.1)
      = k0_pay335 (F := Ideal) x0 x2 (k0_pay332 (F := Ideal)) := by
  unfold kernelRun_A
  dsimp only
  sl_unfold_run_names
  refine (whole_read (S := S128x1) arg14.view (harg14.unread xs1) ![0, 0] hz2 _ _ _).trans ?_
  simp only [View.readAt_eq_ld, harg2.read_unread, harg4.read_unread, View.ld_unit_zero (S := S1x1x128) hz3, View.ld_unit_zero (S := S1x1x10000) hz3, View.readCov_unit_zero (S := S128x1) _ hz2]

theorem lRead_B (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : ¬cond0 i) (hc1 : ¬cond1 i) (x0 : Vec Ideal S1x1x128 .i32) (x1 : Vec Ideal S1x10000x384 .bf16) (x2 : Vec Ideal S1x1x10000 .f32) (x3 : Vec Ideal S1 .f32) (x4 : Vec Ideal S276x128 .f32) (x5 : Vec Ideal S128 .f32) (x6 : Vec Ideal S128x64 .f32) (x7 : Vec Ideal S64 .f32) (x8 : Vec Ideal S64x1 .f32) (x9 : Vec Ideal S1 .f32) (xo : Vec Ideal S128x1 .f32) (X : Vec Ideal S24x128x384 .bf16) (xs1 : Vec Ideal S128x1 .f32) :
    arg14.view.read (Elt Ideal) (arg14.view.writes (Elt Ideal) (harg14.unread xs1) (kernelRun_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo X xs1).2.1)
      = k0_pay335 (F := Ideal) x0 x2 xs1 := by
  unfold kernelRun_B
  dsimp only
  refine (whole_read (S := S128x1) arg14.view (harg14.unread xs1) ![0, 0] hz2 _ _ _).trans ?_
  simp only [View.readAt_eq_ld, harg2.read_unread, harg4.read_unread, View.ld_unit_zero (S := S1x1x128) hz3, View.ld_unit_zero (S := S1x1x10000) hz3, harg14.read_unread, View.ld_unit_zero (S := S128x1) hz2]

theorem lRead_C (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : ¬cond0 i) (hc1 : cond1 i) (x0 : Vec Ideal S1x1x128 .i32) (x1 : Vec Ideal S1x10000x384 .bf16) (x2 : Vec Ideal S1x1x10000 .f32) (x3 : Vec Ideal S1 .f32) (x4 : Vec Ideal S276x128 .f32) (x5 : Vec Ideal S128 .f32) (x6 : Vec Ideal S128x64 .f32) (x7 : Vec Ideal S64 .f32) (x8 : Vec Ideal S64x1 .f32) (x9 : Vec Ideal S1 .f32) (xo : Vec Ideal S128x1 .f32) (X : Vec Ideal S24x128x384 .bf16) (xs1 : Vec Ideal S128x1 .f32) :
    arg14.view.read (Elt Ideal) (arg14.view.writes (Elt Ideal) (harg14.unread xs1) (kernelRun_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo X xs1).2.2.1)
      = k0_pay335 (F := Ideal) x0 x2 xs1 := by
  unfold kernelRun_C
  dsimp only
  sl_unfold_run_names
  refine (whole_read (S := S128x1) arg14.view (harg14.unread xs1) ![0, 0] hz2 _ _ _).trans ?_
  simp only [View.readAt_eq_ld, harg2.read_unread, harg4.read_unread, View.ld_unit_zero (S := S1x1x128) hz3, View.ld_unit_zero (S := S1x1x10000) hz3, harg14.read_unread, View.ld_unit_zero (S := S128x1) hz2]

/-! ## The arithmetic of a point: the gathered rows and the linear partial sum, entry by entry -/

section Arith
variable (m : (ℓ : Loc nD τ sig) → Buf (Elt Ideal) ℓ) (c : Dev nD)

/-- The three moving input blocks of a point, at their literal types. -/
abbrev xblk (t : Fin cfg0.N) : Vec Ideal S1x1x128 .i32 := Gen.iblk m c 0 t
abbrev eblk (t : Fin cfg0.N) : Vec Ideal S1x10000x384 .bf16 := Gen.iblk m c 1 t
abbrev wblk (t : Fin cfg0.N) : Vec Ideal S1x1x10000 .f32 := Gen.iblk m c 2 t

/-- The point's tile row r is batch row 128 * (t / 24) + r. -/
theorem rowAt_eq (t : Fin cfg0.N) (r : Fin 128) : rowAt t.val r = ⟨128 * (t.val / 24) + r.val, Blocks.row_lt t r⟩ :=
  Fin.ext (Nat.mod_eq_of_lt (Blocks.row_lt t r))

/-- Within a tile, the point before has the same rows. -/
theorem rowAt_pred (t : Fin cfg0.N) (h0 : ¬ t.val % 24 = 0) (r : Fin 128) : rowAt (t.val - 1) r = rowAt t.val r := by
  have e : (t.val - 1) / 24 = t.val / 24 := by omega
  apply Fin.ext
  show (128 * ((t.val - 1) / 24) + r.val) % 16384 = (128 * (t.val / 24) + r.val) % 16384
  rw [e]

/-- The index block's r-th integer is the index array's entry at the tile's row r and the point's field. -/
theorem xblk_row (t : Fin cfg0.N) (r : Fin 128) (fld : Fin 24) (hf : fld.val = t.val % 24) :
    xblk m c t (ix3 (0 : Fin 1) (0 : Fin 1) r) = aX m c (ix2 (rowAt t.val r) fld) := by
  obtain rfl : fld = ⟨t.val % 24, Blocks.field_lt t⟩ := Fin.ext hf
  rw [rowAt_eq]
  exact Blocks.xblk_apply m c t r

/-- An in-range integer selects its own row. -/
theorem rowOf_eq (hx : ∀ j : S16384x24.Idx, ((aX m c) j).toNat < 10000) (b : Fin 16384) (i : Fin 24) :
    (Cert.Spec.rowOf (aX m c) b i).val = ((aX m c) (ix2 b i)).toNat :=
  Nat.mod_eq_of_lt (hx _)

/-- The scratch after a point holds the selected rows in the slabs up to the point's field, when the point's own slab
    holds its looked-up rows and the earlier slabs hold what they held after the point before. -/
theorem ginv_step (t : Fin cfg0.N) (hx : ∀ j : S16384x24.Idx, ((aX m c) j).toNat < 10000) (Y X : Vec Ideal S24x128x384 .bf16)
    (hY : ∀ (j : Fin 24) (r : Fin 128) (q : Fin 384), Y (ix3 j r q)
      = if j.val = t.val % 24 then k0_pay334 (F := Ideal) (xblk m c t) (eblk m c t) (ix3 (0 : Fin 1) r q) else X (ix3 j r q))
    (hprev : ¬ t.val % 24 = 0 → GInv m c (t.val - 1) X) : GInv m c t.val Y := by
  intro j r q hj
  rw [hY]
  split
  · next hjt =>
    have hxv := xblk_row m c t r j hjt
    have hxr : (xblk m c t (ix3 (0 : Fin 1) (0 : Fin 1) r)).toNat < 10000 := by rw [hxv]; exact hx _
    rw [Pay.gPay_apply (xblk m c t) (eblk m c t) r q hxr]
    refine (Blocks.eblk_apply m c t ⟨(xblk m c t (ix3 (0 : Fin 1) (0 : Fin 1) r)).toNat, hxr⟩ q).trans ?_
    show aE m c _ = aE m c _
    refine congrArg (aE m c) (funext fun a => Fin.ext ?_)
    match a with
    | ⟨0, _⟩ => exact hjt.symm
    | ⟨1, _⟩ =>
      show (xblk m c t (ix3 (0 : Fin 1) (0 : Fin 1) r)).toNat = (Cert.Spec.rowOf (aX m c) (rowAt t.val r) j).val
      rw [rowOf_eq m c hx, hxv]
    | ⟨2, _⟩ => rfl
    | ⟨3, _⟩ => rfl
  · next hjt =>
    have h0 : ¬ t.val % 24 = 0 := by omega
    have hp := hprev h0 j r q (by omega)
    rw [rowAt_pred t h0] at hp
    exact hp

/-- The linear update at row r: the running entry plus the selected entry of the point's row of linear weights. -/
theorem lin_entry (t : Fin cfg0.N) (hx : ∀ j : S16384x24.Idx, ((aX m c) j).toNat < 10000) (l : Vec Ideal S128x1 .f32) (r : Fin 128)
    (fld : Fin 24) (hf : fld.val = t.val % 24) :
    k0_pay335 (F := Ideal) (xblk m c t) (wblk m c t) l (ix2 r (0 : Fin 1))
      = l (ix2 r (0 : Fin 1)) + aWlin m c (ix2 fld (Cert.Spec.rowOf (aX m c) (rowAt t.val r) fld)) := by
  have hxv := xblk_row m c t r fld hf
  have hxr : (xblk m c t (ix3 (0 : Fin 1) (0 : Fin 1) r)).toNat < 10000 := by rw [hxv]; exact hx _
  rw [Pay.linPay_apply (xblk m c t) (wblk m c t) l r hxr]
  refine congrArg (l (ix2 r (0 : Fin 1)) + ·) ?_
  refine (Blocks.wblk_apply m c t ⟨(xblk m c t (ix3 (0 : Fin 1) (0 : Fin 1) r)).toNat, hxr⟩).trans ?_
  show aWlin m c _ = aWlin m c _
  refine congrArg (aWlin m c) (funext fun a => Fin.ext ?_)
  match a with
  | ⟨0, _⟩ => exact hf.symm
  | ⟨1, _⟩ =>
    show (xblk m c t (ix3 (0 : Fin 1) (0 : Fin 1) r)).toNat = (Cert.Spec.rowOf (aX m c) (rowAt t.val r) fld).val
    rw [rowOf_eq m c hx, hxv]

/-- A sum over the fields up to field 0 is the term of field 0. -/
theorem sum_le_zero (f : Fin 24 → EReal) : (∑ i : Fin 24, if i.val ≤ 0 then f i else 0) = f 0 := by
  rw [Finset.sum_eq_single (0 : Fin 24)]
  · rw [if_pos (show (0 : Fin 24).val ≤ 0 from Nat.le_refl _)]
  · intro b _ hb
    rw [if_neg (fun h => hb (Fin.ext (show b.val = (0 : Fin 24).val from Nat.le_zero.mp h)))]
  · intro h; exact absurd (Finset.mem_univ _) h

/-- A sum over the fields up to field k + 1 is the sum up to field k plus the term of field k + 1. -/
theorem sum_le_succ (f : Fin 24 → EReal) (k : Nat) (hk : k + 1 < 24) :
    (∑ i : Fin 24, if i.val ≤ k + 1 then f i else 0) = (∑ i : Fin 24, if i.val ≤ k then f i else 0) + f ⟨k + 1, hk⟩ := by
  have hsplit : ∀ i : Fin 24, (if i.val ≤ k + 1 then f i else 0)
      = (if i.val ≤ k then f i else 0) + (if i = (⟨k + 1, hk⟩ : Fin 24) then f i else 0) := by
    intro i
    by_cases h1 : i.val ≤ k
    · have hne : i ≠ (⟨k + 1, hk⟩ : Fin 24) := fun h => by
        have hv : i.val = k + 1 := congrArg Fin.val h
        omega
      rw [if_pos h1, if_pos (Nat.le_succ_of_le h1), if_neg hne, add_zero]
    · by_cases h2 : i.val = k + 1
      · have he : i = (⟨k + 1, hk⟩ : Fin 24) := Fin.ext h2
        rw [if_neg h1, if_pos (Nat.le_of_eq h2), if_pos he, zero_add]
      · have hne : i ≠ (⟨k + 1, hk⟩ : Fin 24) := fun h => h2 (congrArg Fin.val h)
        rw [if_neg h1, if_neg (by omega), if_neg hne, add_zero]
  rw [Finset.sum_congr rfl (fun i _ => hsplit i), Finset.sum_add_distrib]
  congr 1
  rw [Finset.sum_eq_single (⟨k + 1, hk⟩ : Fin 24)]
  · rw [if_pos rfl]
  · intro b _ hb; rw [if_neg hb]
  · intro h; exact absurd (Finset.mem_univ _) h

/-- At the first field the accumulator, set from zero, is the partial sum over field 0. -/
theorem lin_first (t : Fin cfg0.N) (hx : ∀ j : S16384x24.Idx, ((aX m c) j).toNat < 10000) (h0 : t.val % 24 = 0) :
    k0_pay335 (F := Ideal) (xblk m c t) (wblk m c t) (k0_pay332 (F := Ideal)) = lAt m c t.val := by
  funext y
  obtain ⟨r, u, rfl⟩ : ∃ (r : Fin 128) (u : Fin 1), y = ix2 r u := ⟨y 0, y 1, eq_ix2 y⟩
  obtain rfl : u = 0 := Subsingleton.elim _ _
  rw [lin_entry m c t hx _ r (0 : Fin 24) (by rw [h0]; rfl), Pay.zeroPay_apply, zero_add]
  show _ = ∑ i : Fin 24, if i.val ≤ t.val % 24 then aWlin m c (ix2 i (Cert.Spec.rowOf (aX m c) (rowAt t.val r) i)) else 0
  rw [h0, sum_le_zero]

/-- At a later field the accumulator grows by the field's term. -/
theorem lin_next (t : Fin cfg0.N) (hx : ∀ j : S16384x24.Idx, ((aX m c) j).toNat < 10000) (h0 : ¬ t.val % 24 = 0) :
    k0_pay335 (F := Ideal) (xblk m c t) (wblk m c t) (lAt m c (t.val - 1)) = lAt m c t.val := by
  funext y
  obtain ⟨r, u, rfl⟩ : ∃ (r : Fin 128) (u : Fin 1), y = ix2 r u := ⟨y 0, y 1, eq_ix2 y⟩
  obtain rfl : u = 0 := Subsingleton.elim _ _
  obtain ⟨k, hk⟩ : ∃ k, t.val % 24 = k + 1 := ⟨t.val % 24 - 1, by omega⟩
  have hk24 : k + 1 < 24 := by have := Blocks.field_lt t; omega
  have hkp : (t.val - 1) % 24 = k := by omega
  rw [lin_entry m c t hx _ r (⟨k + 1, hk24⟩ : Fin 24) hk.symm]
  show (∑ i : Fin 24, if i.val ≤ (t.val - 1) % 24 then aWlin m c (ix2 i (Cert.Spec.rowOf (aX m c) (rowAt (t.val - 1) r) i)) else 0) + _
    = ∑ i : Fin 24, if i.val ≤ t.val % 24 then aWlin m c (ix2 i (Cert.Spec.rowOf (aX m c) (rowAt t.val r) i)) else 0
  rw [hkp, hk, rowAt_pred t h0, sum_le_succ _ k hk24]

end Arith

/-! ## The steps at a grid point, on its own blocks -/

theorem g_step_A (m : (ℓ : Loc nD τ sig) → Buf (Elt Ideal) ℓ) (c : Dev nD) (t : Fin cfg0.N) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hx : ∀ j : S16384x24.Idx, ((aX m c) j).toNat < 10000) (h0 : t.val % 24 = 0) (hc0 : cond0 (grid0.coords t)) (hc1 : ¬cond1 (grid0.coords t)) (xo : Vec Ideal S128x1 .f32) (X : Vec Ideal S24x128x384 .bf16) (xs1 : Vec Ideal S128x1 .f32) :
    GInv m c t.val (arg13.view.read (Elt Ideal) (arg13.view.writes (Elt Ideal) (harg13.unread X) (kernelRun_A (F := Ideal) c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X xs1).1)) :=
  ginv_step m c t hx _ X (fun j r q => by
    refine (gRead_A c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X xs1 j r q).trans ?_
    rw [off_facts t]) (fun h => absurd h0 h)

theorem g_step_B (m : (ℓ : Loc nD τ sig) → Buf (Elt Ideal) ℓ) (c : Dev nD) (t : Fin cfg0.N) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hx : ∀ j : S16384x24.Idx, ((aX m c) j).toNat < 10000) (h0 : ¬ t.val % 24 = 0) (hc0 : ¬cond0 (grid0.coords t)) (hc1 : ¬cond1 (grid0.coords t)) (xo : Vec Ideal S128x1 .f32) (X : Vec Ideal S24x128x384 .bf16) (xs1 : Vec Ideal S128x1 .f32) (hprev : GInv m c (t.val - 1) X) :
    GInv m c t.val (arg13.view.read (Elt Ideal) (arg13.view.writes (Elt Ideal) (harg13.unread X) (kernelRun_B (F := Ideal) c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X xs1).1)) :=
  ginv_step m c t hx _ X (fun j r q => by
    refine (gRead_B c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X xs1 j r q).trans ?_
    rw [off_facts t]) (fun _ => hprev)

theorem g_step_C (m : (ℓ : Loc nD τ sig) → Buf (Elt Ideal) ℓ) (c : Dev nD) (t : Fin cfg0.N) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hx : ∀ j : S16384x24.Idx, ((aX m c) j).toNat < 10000) (h0 : ¬ t.val % 24 = 0) (hc0 : ¬cond0 (grid0.coords t)) (hc1 : cond1 (grid0.coords t)) (xo : Vec Ideal S128x1 .f32) (X : Vec Ideal S24x128x384 .bf16) (xs1 : Vec Ideal S128x1 .f32) (hprev : GInv m c (t.val - 1) X) :
    GInv m c t.val (arg13.view.read (Elt Ideal) (arg13.view.writes (Elt Ideal) (harg13.unread X) (kernelRun_C (F := Ideal) c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X xs1).2.1)) :=
  ginv_step m c t hx _ X (fun j r q => by
    refine (gRead_C c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X xs1 j r q).trans ?_
    rw [off_facts t]) (fun _ => hprev)

theorem l_step_A (m : (ℓ : Loc nD τ sig) → Buf (Elt Ideal) ℓ) (c : Dev nD) (t : Fin cfg0.N) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hx : ∀ j : S16384x24.Idx, ((aX m c) j).toNat < 10000) (h0 : t.val % 24 = 0) (hc0 : cond0 (grid0.coords t)) (hc1 : ¬cond1 (grid0.coords t)) (xo : Vec Ideal S128x1 .f32) (X : Vec Ideal S24x128x384 .bf16) (xs1 : Vec Ideal S128x1 .f32) :
    arg14.view.read (Elt Ideal) (arg14.view.writes (Elt Ideal) (harg14.unread xs1) (kernelRun_A (F := Ideal) c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X xs1).2.1)
      = lAt m c t.val :=
  (lRead_A c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X xs1).trans (lin_first m c t hx h0)

theorem l_step_B (m : (ℓ : Loc nD τ sig) → Buf (Elt Ideal) ℓ) (c : Dev nD) (t : Fin cfg0.N) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hx : ∀ j : S16384x24.Idx, ((aX m c) j).toNat < 10000) (h0 : ¬ t.val % 24 = 0) (hc0 : ¬cond0 (grid0.coords t)) (hc1 : ¬cond1 (grid0.coords t)) (xo : Vec Ideal S128x1 .f32) (X : Vec Ideal S24x128x384 .bf16) :
    arg14.view.read (Elt Ideal) (arg14.view.writes (Elt Ideal) (harg14.unread (lAt m c (t.val - 1))) (kernelRun_B (F := Ideal) c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X (lAt m c (t.val - 1))).2.1)
      = lAt m c t.val :=
  (lRead_B c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X (lAt m c (t.val - 1))).trans (lin_next m c t hx h0)

theorem l_step_C (m : (ℓ : Loc nD τ sig) → Buf (Elt Ideal) ℓ) (c : Dev nD) (t : Fin cfg0.N) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hx : ∀ j : S16384x24.Idx, ((aX m c) j).toNat < 10000) (h0 : ¬ t.val % 24 = 0) (hc0 : ¬cond0 (grid0.coords t)) (hc1 : cond1 (grid0.coords t)) (xo : Vec Ideal S128x1 .f32) (X : Vec Ideal S24x128x384 .bf16) :
    arg14.view.read (Elt Ideal) (arg14.view.writes (Elt Ideal) (harg14.unread (lAt m c (t.val - 1))) (kernelRun_C (F := Ideal) c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X (lAt m c (t.val - 1))).2.2.1)
      = lAt m c t.val :=
  (lRead_C c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X (lAt m c (t.val - 1))).trans (lin_next m c t hx h0)

end Cert.KernelIdeal.Hand.Steps

end
-- ==== Proof.KI.Tail.lean ====
/-
  The last field's output block, read at a row over the extended reals.

  At the last field the gathered-rows scratch holds, for every field i and batch row r of the block, the 384 numbers
  of field i's selected row: the 16 factors with respect to field j sit at columns 16 j … 16 j + 15. Each of the 276
  pair terms multiplies two [1, 128, 16] slabs of the scratch, widened (the identity on extended reals), and sums
  the 16 products along the lanes: the slab of field i at columns 16 j and the slab of field j at columns 16 i, for
  the p-th pair (i, j) of the strict upper triangle in row-major order. The 276 columns are laid side by side and fed
  to the three layers: each a plain product (a sum over the contracted index) plus a bias row, the first two followed
  by the maximum with 0; the format changes are the identity. The block's result adds the linear accumulator, its
  bias, and the perceptron's output.
-/
import proofs.«405942_j90769838833781_3_alg».proof.Proof.KI.RunC
import proofs.«405942_j90769838833781_3_alg».proof.Proof.KI.Pay
import proofs.«405942_j90769838833781_3_alg».proof.Proof.Spec
import Idealize.ShloMosaic.Lib.ValueIdx
import Idealize.ShloMosaic.Lib.Pipeline.Value
import Idealize.ShloMosaic.Lib.Pipeline.FrameBody
import Idealize.ShloMosaic.Lib.ValueLayout
import Idealize.ShloMosaic.PureOps.Ideal.Laws
import Idealize.ShloMosaic.Lib.Tactic

set_option maxRecDepth 16384

noncomputable section

namespace Cert.KernelIdeal.Hand.Tail

open Idealize.ShloMosaic Idealize.ShloMosaic.ValueIdx Idealize.ShloMosaic.Tactic
open Cert.KernelIdeal Cert.KernelIdeal.Facts₀ Cert.KernelIdeal.Facts Cert.KernelIdeal.Hand Cert.KernelIdeal.Hand.Pay

/-! ## The pair terms -/

section Pieces

/-- A slab widened reads, at (r, d), the slab's entry (0, r, d). -/
theorem widen_apply (a : Vec Ideal S1x128x16 .bf16) (r : Fin 128) (d : Fin 16) :
    Gen.k0_pay5 (F := Ideal) a (ix2 r d) = a (ix3 0 r d) := by
  unfold Gen.k0_pay5
  rw [extf_apply]
  exact shapeCast_1ab_ab_apply a shapeCasts_S1x128x16_S128x16 r d

/-- Two widened slabs multiplied and summed along the lanes, at row r. -/
theorem lanes_apply (u v : FVec Ideal S128x16 .f32) (r : Fin 128) :
    Gen.k0_pay7 (F := Ideal) u v (ix2 r 0) = ∑ d : Fin 16, u (ix2 r d) * v (ix2 r d) := by
  unfold Gen.k0_pay7
  refine (shapeCast_a_a1_apply _ shapeCasts_S128_S128x1 r 0).trans ?_
  refine (laneSum_apply _ reduces_S128x16_S128 _ _ r).trans ?_
  refine Finset.sum_congr rfl fun d _ => ?_
  rw [mulf_apply]

/-- Two slabs widened, multiplied and summed along the lanes, at row r. -/
theorem pair_apply (a b : Vec Ideal S1x128x16 .bf16) (r : Fin 128) :
    Gen.k0_pay2 (F := Ideal) a b (ix2 r 0) = ∑ d : Fin 16, a (ix3 0 r d) * b (ix3 0 r d) := by
  show Gen.k0_pay7 (F := Ideal) (Gen.k0_pay5 a) (Gen.k0_pay5 b) (ix2 r 0) = _
  rw [lanes_apply]
  refine Finset.sum_congr rfl fun d _ => ?_
  rw [widen_apply, widen_apply]

/-- A widened slab times a slab, summed along the lanes, at row r. -/
theorem half_apply (u : FVec Ideal S128x16 .f32) (b : Vec Ideal S1x128x16 .bf16) (r : Fin 128) :
    Gen.k0_pay12 (F := Ideal) u b (ix2 r 0) = ∑ d : Fin 16, u (ix2 r d) * b (ix3 0 r d) := by
  show Gen.k0_pay7 (F := Ideal) u (Gen.k0_pay5 b) (ix2 r 0) = _
  rw [lanes_apply]
  refine Finset.sum_congr rfl fun d _ => ?_
  rw [widen_apply]

end Pieces

/-! ## The layers -/

section Layers

/-- A bias vector laid as one row and repeated down the rows reads, at (p, c), its entry c. -/
theorem biasRow_apply {α : Type} {a b : Nat} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The maximum with the zero splat is the maximum with 0. -/
theorem reluK_apply {s : Shape} (v : FVec Ideal s .f32) (j : s.Idx) :
    maximumf v (broadcast s (Scalar.ofBits (F := Ideal) .f32 0x00000000#32)) j = max (v j) 0 := by
  rw [maximumf_apply, broadcast_apply]
  show max (v j) (Ideal.ofBits .f32 0x00000000#32) = _
  rw [Ideal.ofBits_zero_f32]

/-- A rectified layer feeding a plain product: entry (a, j) of the product of max (H + bias row, 0) with W. -/
theorem layer_apply {M K N : Nat} (d : DotDims ⟨2, ![M, K]⟩ ⟨2, ![K, N]⟩ ⟨2, ![M, N]⟩) (hd : d = DotDims.plain M K N)
    (L : FVec Ideal ⟨2, ![M, K]⟩ .f32) (W : Vec Ideal ⟨2, ![K, N]⟩ .f32) (a : Fin M) (j : Fin N)
    (hb : FTy.bits .bf16 < FTy.bits .f32) :
    matmul d none (truncf .bf16 L hb) (truncf .bf16 (W : FVec Ideal ⟨2, ![K, N]⟩ .f32) hb)
        (constant (F := Ideal) ⟨2, ![M, N]⟩ .f32 0x00000000#32) (ix2 a j)
      = ∑ k : Fin K, L (ix2 a k) * W (ix2 k j) := by
  rw [matmul_plain_zero_apply M K N d hd]
  refine Finset.sum_congr rfl fun k _ => ?_
  rw [truncf_apply, truncf_apply]

/-- The last layer and the sum: the block's result at row r. -/
theorem pay1_apply (H : FVec Ideal S128x64 .f32) (b2 : Vec Ideal S64 .f32) (W3 : Vec Ideal S64x1 .f32) (b3 : Vec Ideal S1 .f32)
    (l : Vec Ideal S128x1 .f32) (bl : Vec Ideal S1 .f32) (r : Fin 128) :
    Gen.k0_pay1 (F := Ideal) H b2 W3 b3 l bl (ix2 r 0)
      = (l (ix2 r 0) + bl (ix1 0))
        + ((∑ q : Fin 64, max (H (ix2 r q) + b2 (ix1 q)) 0 * W3 (ix2 q 0)) + b3 (ix1 0)) := by
  unfold Gen.k0_pay1
  rw [addf_apply, addf_apply, addf_apply, biasRow_apply, biasRow_apply,
    layer_apply dot_S128x64_S64x1_S128x1_1_0_0_1_n_n rfl]
  refine congrArg (fun s => (l (ix2 r 0) + bl (ix1 0)) + (s + b3 (ix1 0))) (Finset.sum_congr rfl fun q _ => ?_)
  rw [reluK_apply, addf_apply, biasRow_apply]

/-- The first two layers over the 276 columns laid side by side. -/
def twoLayers (C : FVec Ideal S128x276 .f32) (W1 : Vec Ideal S276x128 .f32) (b1 : Vec Ideal S128 .f32)
    (W2 : Vec Ideal S128x64 .f32) : FVec Ideal S128x64 .f32 :=
  matmul dot_S128x128_S128x64_S128x64_1_0_0_1_n_n none
    (truncf .bf16
      (maximumf
        (addf
          (matmul dot_S128x276_S276x128_S128x128_1_0_0_1_n_n none (truncf .bf16 C bitsLt_bf16_f32)
            (truncf .bf16 W1 bitsLt_bf16_f32) (constant S128x128 .f32 0x00000000#32))
          (broadcastTo S128x128 (shapeCast S1x128 b1 shapeCasts_S128_S1x128) broadcasts_S1x128_S128x128))
        (broadcast S128x128 (Scalar.ofBits .f32 0x00000000#32)))
      bitsLt_bf16_f32)
    (truncf .bf16 W2 bitsLt_bf16_f32) (constant S128x64 .f32 0x00000000#32)

theorem twoLayers_apply (C : FVec Ideal S128x276 .f32) (W1 : Vec Ideal S276x128 .f32) (b1 : Vec Ideal S128 .f32)
    (W2 : Vec Ideal S128x64 .f32) (r : Fin 128) (k : Fin 64) :
    twoLayers C W1 b1 W2 (ix2 r k)
      = ∑ q : Fin 128, max ((∑ p : Fin 276, C (ix2 r p) * W1 (ix2 p q)) + b1 (ix1 q)) 0 * W2 (ix2 q k) := by
  unfold twoLayers
  rw [layer_apply dot_S128x128_S128x64_S128x64_1_0_0_1_n_n rfl]
  refine Finset.sum_congr rfl fun q _ => ?_
  rw [reluK_apply, addf_apply, biasRow_apply, layer_apply dot_S128x276_S276x128_S128x128_1_0_0_1_n_n rfl]

end Layers

/-! ## Columns laid side by side -/

section Columns
variable {α : Type}

/-- Every piece of the list is a column [A, 1], and the k-th piece reads G (k₀ + k) at row r. -/
def Cols {A : Nat} (G : Nat → α) (r : Fin A) : List ((s : Shape) × (s.Idx → α)) → Nat → Prop
  | [], _ => True
  | x :: xs, k =>
    (∃ x₁ : (⟨2, ![A, 1]⟩ : Shape).Idx → α, x = ⟨(⟨2, ![A, 1]⟩ : Shape), x₁⟩ ∧ x₁ (ix2 r (0 : Fin 1)) = G k) ∧ Cols G r xs (k + 1)

theorem Cols.get {A : Nat} (G : Nat → α) (r : Fin A) : ∀ (xs : List ((s : Shape) × (s.Idx → α))) (k₀ : Nat), Cols G r xs k₀ →
    ∀ (k : Nat) (hk : k < xs.length), ∃ x₁ : (⟨2, ![A, 1]⟩ : Shape).Idx → α,
      xs[k] = ⟨(⟨2, ![A, 1]⟩ : Shape), x₁⟩ ∧ x₁ (ix2 r (0 : Fin 1)) = G (k₀ + k)
  | [], _, _, k, hk => absurd hk (by simp)
  | x :: xs, k₀, h, 0, _ => by
    obtain ⟨⟨x₁, hx, hv⟩, _⟩ := h
    exact ⟨x₁, hx, hv⟩
  | x :: xs, k₀, h, k + 1, hk => by
    obtain ⟨_, ht⟩ := h
    obtain ⟨x₁, e, hx⟩ := Cols.get G r xs (k₀ + 1) ht k (by simpa using hk)
    refine ⟨x₁, by simpa using e, ?_⟩
    rw [hx]; congr 1; omega

theorem Cols.pre {A : Nat} (G : Nat → α) (r : Fin A) (f : Shape → Nat) (hf : f ⟨2, ![A, 1]⟩ = 1) :
    ∀ (xs : List ((s : Shape) × (s.Idx → α))) (k₀ : Nat), Cols G r xs k₀ →
      ∀ k : Nat, k ≤ xs.length → (((xs.take k).map (·.1)).map f).sum = k
  | _, _, _, 0, _ => by simp
  | [], _, _, k + 1, hk => absurd hk (by simp)
  | x :: xs, k₀, h, k + 1, hk => by
    obtain ⟨⟨x₁, hx, _⟩, ht⟩ := h
    subst hx
    have ih := Cols.pre G r f hf xs (k₀ + 1) ht k (by simpa using hk)
    simp only [List.take_succ_cons, List.map_cons, List.sum_cons, hf, ih]
    omega

theorem Cols.nil {A : Nat} (G : Nat → α) (r : Fin A) (k : Nat) : Cols G r [] k := trivial

theorem Cols.cons {A : Nat} (G : Nat → α) (r : Fin A) (x₁ : (⟨2, ![A, 1]⟩ : Shape).Idx → α)
    (xs : List ((s : Shape) × (s.Idx → α))) (k : Nat) (h1 : x₁ (ix2 r (0 : Fin 1)) = G k) (h2 : Cols G r xs (k + 1)) :
    Cols G r (⟨(⟨2, ![A, 1]⟩ : Shape), x₁⟩ :: xs) k := ⟨⟨x₁, rfl, h1⟩, h2⟩

/-- Columns laid side by side read, at (r, p), the p-th column at row r. -/
theorem concat_cols {A n : Nat} (G : Nat → α) (r : Fin A) (xs : List ((s : Shape) × (s.Idx → α)))
    (h : Shape.Concatenates (xs.map (·.1)) ⟨2, ![A, n]⟩ 1) (hc : Cols G r xs 0) (p : Fin n) :
    concatenate ⟨2, ![A, n]⟩ 1 xs h (ix2 r p) = G p.val := by
  let f : Shape → Nat := fun s => if h : s.rank = (⟨2, ![A, n]⟩ : Shape).rank then s.size ((1 : Fin 2).cast h.symm) else 0
  have hf : f ⟨2, ![A, 1]⟩ = 1 := rfl
  have hlen : xs.length = n := by
    have e := Cols.pre G r f hf xs 0 hc xs.length (Nat.le_refl _)
    rw [List.take_length] at e
    exact e.symm.trans h.2.2
  have hk : p.val < xs.length := by rw [hlen]; exact p.isLt
  obtain ⟨x₁, hxk, hx⟩ := Cols.get G r xs 0 hc p.val hk
  rw [Nat.zero_add] at hx
  refine (concatenate_apply_piece (1 : Fin 2) xs h (ix2 r p) p.val hk _ x₁ hxk rfl p.val
    (Cols.pre G r f hf xs 0 hc p.val (Nat.le_of_lt hk)) (ix2 r (0 : Fin 1)) (fun b hb => ?_) rfl).trans hx
  match b with
  | ⟨0, _⟩ => rfl
  | ⟨1, _⟩ => exact absurd rfl hb

end Columns

/-! ## Slabs of the scratch -/

section Slabs
variable {κ : Kind} {sp : Space}

/-- The interaction of fields I and J at row r, read off an array X laid out as the scratch. -/
def pairSum (X : Vec Ideal S24x128x384 .bf16) (r : Fin 128) (I J : Fin 24) : EReal :=
  ∑ d : Fin 16, X (ix3 I r ⟨16 * J.val + d.val, by have := J.isLt; have := d.isLt; omega⟩)
    * X (ix3 J r ⟨16 * I.val + d.val, by have := I.isLt; have := d.isLt; omega⟩)

/-- The first and second field of the k-th pair, by position. -/
def pairIN (k : Nat) : Fin 24 := (Cert.Spec.pairList.getD k (0, 0)).1
def pairJN (k : Nat) : Fin 24 := (Cert.Spec.pairList.getD k (0, 0)).2

theorem pairIN_val (p : Fin 276) : pairIN p.val = Cert.Spec.pairI p := by
  have hlt : p.val < Cert.Spec.pairList.length := by rw [Cert.Spec.pairList_length]; exact p.isLt
  unfold pairIN Cert.Spec.pairI
  rw [List.getD_eq_getElem?_getD, List.getElem?_eq_getElem hlt, Option.getD_some]
  rfl
theorem pairJN_val (p : Fin 276) : pairJN p.val = Cert.Spec.pairJ p := by
  have hlt : p.val < Cert.Spec.pairList.length := by rw [Cert.Spec.pairList_length]; exact p.isLt
  unfold pairJN Cert.Spec.pairJ
  rw [List.getD_eq_getElem?_getD, List.getElem?_eq_getElem hlt, Option.getD_some]
  rfl

/-- A [1, 128, 16] slab read through its rectangle, at (0, r, d): the array at (field, r, column + d). -/
theorem slab_apply (v : View sig κ sp S24x128x384 .bf16) (f : v.ty.Contents (Elt Ideal)) (i1 c1 : Nat)
    (inb : ∀ a, (![i1, 0, c1] : Fin 3 → Nat) a + S1x128x16.size a ≤ S24x128x384.size a) (r : Fin 128) (d : Fin 16)
    (I : Fin 24) (c : Fin 384) (e1 : i1 = I.val) (e2 : c1 + d.val = c.val) :
    View.readAt (Elt Ideal) v (Rect.unit (s := S24x128x384) ![i1, 0, c1] S1x128x16.size inb).toLoadRect f (ix3 0 r d)
      = v.read (Elt Ideal) f (ix3 I r c) := by
  show v.read (Elt Ideal) f _ = _
  refine congrArg (v.read (Elt Ideal) f) (funext fun a => Fin.ext ?_)
  match a with
  | ⟨0, _⟩ => show i1 + 1 * 0 = I.val; omega
  | ⟨1, _⟩ => show 0 + 1 * r.val = r.val; omega
  | ⟨2, _⟩ => show c1 + 1 * d.val = c.val; omega

/-- A pair term over two slabs of the array: the interaction of the two fields the slabs name. -/
theorem caseA (v : View sig κ sp S24x128x384 .bf16) (f : v.ty.Contents (Elt Ideal)) (X : Vec Ideal S24x128x384 .bf16)
    (hX : v.read (Elt Ideal) f = X) (i1 c1 i2 c2 : Nat)
    (inb1 : ∀ a, (![i1, 0, c1] : Fin 3 → Nat) a + S1x128x16.size a ≤ S24x128x384.size a)
    (inb2 : ∀ a, (![i2, 0, c2] : Fin 3 → Nat) a + S1x128x16.size a ≤ S24x128x384.size a)
    (r : Fin 128) (I J : Fin 24) (e1 : i1 = I.val) (e2 : c1 = 16 * J.val) (e3 : i2 = J.val) (e4 : c2 = 16 * I.val) :
    Gen.k0_pay2 (F := Ideal)
        (View.readAt (Elt Ideal) v (Rect.unit (s := S24x128x384) ![i1, 0, c1] S1x128x16.size inb1).toLoadRect f)
        (View.readAt (Elt Ideal) v (Rect.unit (s := S24x128x384) ![i2, 0, c2] S1x128x16.size inb2).toLoadRect f) (ix2 r 0)
      = pairSum X r I J := by
  subst hX
  rw [pair_apply]
  unfold pairSum
  refine Finset.sum_congr rfl fun d _ => ?_
  rw [slab_apply v f i1 c1 inb1 r d I ⟨16 * J.val + d.val, _⟩ e1 (by show c1 + d.val = 16 * J.val + d.val; omega),
    slab_apply v f i2 c2 inb2 r d J ⟨16 * I.val + d.val, _⟩ e3 (by show c2 + d.val = 16 * I.val + d.val; omega)]

/-- The same with both slabs widened first. -/
theorem caseB (v : View sig κ sp S24x128x384 .bf16) (f : v.ty.Contents (Elt Ideal)) (X : Vec Ideal S24x128x384 .bf16)
    (hX : v.read (Elt Ideal) f = X) (i1 c1 i2 c2 : Nat)
    (inb1 : ∀ a, (![i1, 0, c1] : Fin 3 → Nat) a + S1x128x16.size a ≤ S24x128x384.size a)
    (inb2 : ∀ a, (![i2, 0, c2] : Fin 3 → Nat) a + S1x128x16.size a ≤ S24x128x384.size a)
    (r : Fin 128) (I J : Fin 24) (e1 : i1 = I.val) (e2 : c1 = 16 * J.val) (e3 : i2 = J.val) (e4 : c2 = 16 * I.val) :
    Gen.k0_pay7 (F := Ideal)
        (Gen.k0_pay5 (View.readAt (Elt Ideal) v (Rect.unit (s := S24x128x384) ![i1, 0, c1] S1x128x16.size inb1).toLoadRect f))
        (Gen.k0_pay5 (View.readAt (Elt Ideal) v (Rect.unit (s := S24x128x384) ![i2, 0, c2] S1x128x16.size inb2).toLoadRect f))
        (ix2 r 0)
      = pairSum X r I J :=
  caseA v f X hX i1 c1 i2 c2 inb1 inb2 r I J e1 e2 e3 e4

/-- The same with the first slab widened first. -/
theorem caseC (v : View sig κ sp S24x128x384 .bf16) (f : v.ty.Contents (Elt Ideal)) (X : Vec Ideal S24x128x384 .bf16)
    (hX : v.read (Elt Ideal) f = X) (i1 c1 i2 c2 : Nat)
    (inb1 : ∀ a, (![i1, 0, c1] : Fin 3 → Nat) a + S1x128x16.size a ≤ S24x128x384.size a)
    (inb2 : ∀ a, (![i2, 0, c2] : Fin 3 → Nat) a + S1x128x16.size a ≤ S24x128x384.size a)
    (r : Fin 128) (I J : Fin 24) (e1 : i1 = I.val) (e2 : c1 = 16 * J.val) (e3 : i2 = J.val) (e4 : c2 = 16 * I.val) :
    Gen.k0_pay12 (F := Ideal)
        (Gen.k0_pay5 (View.readAt (Elt Ideal) v (Rect.unit (s := S24x128x384) ![i1, 0, c1] S1x128x16.size inb1).toLoadRect f))
        (View.readAt (Elt Ideal) v (Rect.unit (s := S24x128x384) ![i2, 0, c2] S1x128x16.size inb2).toLoadRect f) (ix2 r 0)
      = pairSum X r I J :=
  caseA v f X hX i1 c1 i2 c2 inb1 inb2 r I J e1 e2 e3 e4

end Slabs

/-! ## The run's output block -/

section Run

theorem z1 : (![0] : Fin 1 → Nat) = fun _ => 0 := by funext a; fin_cases a; rfl
theorem z2 : (![0, 0] : Fin 2 → Nat) = fun _ => 0 := by funext a; fin_cases a <;> rfl
theorem z3 : (![0, 0, 0] : Fin 3 → Nat) = fun _ => 0 := by funext a; fin_cases a <;> rfl

/-- A whole buffer read through the whole rectangle reads its contents. -/
theorem readAt_whole_unread {S : Shape} {e : EltTy} (M : Memref sig .tc .vmem S e) (h : M.IsWhole) (x : Vec Ideal S e)
    {off : Fin S.rank → Nat} (hz : off = fun _ => 0) (inb : ∀ a, off a + S.size a ≤ S.size a) :
    View.readAt (Elt Ideal) M.view (Rect.unit off S.size inb).toLoadRect (h.unread x) = x := by
  rw [View.readAt_eq_ld, h.read_unread, View.ld_unit_zero hz]

/-- What a load through the whole rectangle reads after one store through it is what the buffer then holds. -/
theorem readCov_whole_eq_read {κ : Kind} {sp : Space} {S : Shape} {e : EltTy} (v : View sig κ sp S e)
    (f : v.ty.Contents (Elt Ideal)) {off : Fin S.rank → Nat} (hz : off = fun _ => 0) (inb : ∀ a, off a + S.size a ≤ S.size a)
    (w : S.Idx → Elt Ideal e) :
    v.readCov [(⟨Rect.unit off S.size inb, w⟩ : View.Piece (Elt Ideal) S e)] (Rect.unit off S.size inb).toLoadRect
      = v.read (Elt Ideal) (v.writes (Elt Ideal) f [(⟨Rect.unit off S.size inb, w⟩ : View.Piece (Elt Ideal) S e)]) := by
  rw [View.readCov_unit_zero _ hz, View.read_writes_eq_canon _ _ _
    (fun y => ⟨_, List.mem_singleton_self _, View.mem_set_unit_zero hz inb y⟩), View.canon_unit_zero hz]

set_option maxHeartbeats 400000000 in
theorem tail_value (c : Dev nD) (i : grid0.Coords) (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole) (hc0 : ¬cond0 i) (hc1 : cond1 i)
    (x0 : Vec Ideal S1x1x128 .i32) (x1 : Vec Ideal S1x10000x384 .bf16) (x2 : Vec Ideal S1x1x10000 .f32) (x3 : Vec Ideal S1 .f32) (x4 : Vec Ideal S276x128 .f32) (x5 : Vec Ideal S128 .f32) (x6 : Vec Ideal S128x64 .f32) (x7 : Vec Ideal S64 .f32) (x8 : Vec Ideal S64x1 .f32) (x9 : Vec Ideal S1 .f32) (xo : Vec Ideal S128x1 .f32) (xs0 : Vec Ideal S24x128x384 .bf16) (xs1 : Vec Ideal S128x1 .f32) :
    let R := kernelRun_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xo xs0 xs1
    let gs : Vec Ideal S24x128x384 .bf16 := arg13.view.read (Elt Ideal) (arg13.view.writes (Elt Ideal) (harg13.unread xs0) R.2.1)
    let l' : Vec Ideal S128x1 .f32 := arg14.view.read (Elt Ideal) (arg14.view.writes (Elt Ideal) (harg14.unread xs1) R.2.2.1)
    ∃ pay : FVec Ideal S128x1 .f32,
      R.1 = [⟨Rect.unit (s := S128x1) ![0, 0] S128x1.size Gen.inb_S128x1_S128x1_0_0, pay⟩] ∧
      ∀ r : Fin 128, pay (ix2 r 0) = (l' (ix2 r 0) + x3 (ix1 0))
        + Cert.Spec.nnOf x4 x5 x6 x7 x8 x9 (fun p => pairSum gs r (Cert.Spec.pairI p) (Cert.Spec.pairJ p)) := by
  intro R gs l'
  refine ⟨_, rfl, fun r => ?_⟩
  have e9 : View.readAt (Elt Ideal) arg9.view (Rect.unit ![0] ![64] Gen.inb_S64_S64_0).toLoadRect (harg9.unread x7) = x7 :=
    readAt_whole_unread arg9 harg9 x7 z1 _
  have e10 : View.readAt (Elt Ideal) arg10.view (Rect.unit ![0, 0] ![64, 1] Gen.inb_S64x1_S64x1_0_0).toLoadRect (harg10.unread x8) = x8 :=
    readAt_whole_unread arg10 harg10 x8 z2 _
  have e11 : View.readAt (Elt Ideal) arg11.view (Rect.unit ![0] ![1] Gen.inb_S1_S1_0).toLoadRect (harg11.unread x9) = x9 :=
    readAt_whole_unread arg11 harg11 x9 z1 _
  have e5 : View.readAt (Elt Ideal) arg5.view (Rect.unit ![0] ![1] Gen.inb_S1_S1_0).toLoadRect (harg5.unread x3) = x3 :=
    readAt_whole_unread arg5 harg5 x3 z1 _
  have hl : kernelRun_C.sl.v2549 c arg2 harg2 arg4 harg4 arg14 harg14 x0 x2 xs1 = l' :=
    readCov_whole_eq_read arg14.view (harg14.unread xs1) z2 _ _
  rw [e9, e10, e11, e5, hl, pay1_apply]
  have hgs : arg13.view.read (Elt Ideal) (arg13.view.writes (Elt Ideal) (harg13.unread xs0)
      (kernelRun_C.sl.HS0_1 c i arg2 harg2 arg3 harg3 x0 x1)) = gs := rfl
  unfold kernelRun_C.sl.HS0_1 at hgs
  have H : ∀ k : Fin 64, kernelRun_C.sl.r_329 c i arg2 harg2 arg3 harg3 arg6 harg6 arg7 harg7 arg8 harg8 arg13 harg13 x0 x1 x4 x5 x6 xs0 (ix2 r k)
      = ∑ q : Fin 128, Cert.Spec.h1Of x4 x5 (fun p => pairSum gs r (Cert.Spec.pairI p) (Cert.Spec.pairJ p)) q * x6 (ix2 q k) := by
    intro k
    sl_unfold_run_names
    have e6 : View.readAt (Elt Ideal) arg6.view (Rect.unit ![0, 0] ![276, 128] Gen.inb_S276x128_S276x128_0_0).toLoadRect (harg6.unread x4) = x4 :=
      readAt_whole_unread arg6 harg6 x4 z2 _
    have e7 : View.readAt (Elt Ideal) arg7.view (Rect.unit ![0] ![128] Gen.inb_S128_S128_0).toLoadRect (harg7.unread x5) = x5 :=
      readAt_whole_unread arg7 harg7 x5 z1 _
    have e8 : View.readAt (Elt Ideal) arg8.view (Rect.unit ![0, 0] ![128, 64] Gen.inb_S128x64_S128x64_0_0).toLoadRect (harg8.unread x6) = x6 :=
      readAt_whole_unread arg8 harg8 x6 z2 _
    rw [e6, e7, e8]
    unfold Gen.k0_pay331
    refine (twoLayers_apply _ _ _ _ r k).trans ?_
    unfold Cert.Spec.h1Of
    refine Finset.sum_congr rfl fun q _ => congrArg (fun s => max (s + x5 (ix1 q)) 0 * x6 (ix2 q k))
      (Finset.sum_congr rfl fun p _ => congrArg (· * x4 (ix2 p q)) ?_)
    refine (concat_cols (fun k => pairSum gs r (pairIN k) (pairJN k)) r _ _ ?_ p).trans ?_
    · repeat (refine Cols.cons _ _ _ _ _ (by first
        | exact caseA arg13.view _ gs hgs _ _ _ _ _ _ r _ _ (by decide +kernel) (by decide +kernel) (by decide +kernel) (by decide +kernel)
        | exact caseB arg13.view _ gs hgs _ _ _ _ _ _ r _ _ (by decide +kernel) (by decide +kernel) (by decide +kernel) (by decide +kernel)
        | exact caseC arg13.view _ gs hgs _ _ _ _ _ _ r _ _ (by decide +kernel) (by decide +kernel) (by decide +kernel) (by decide +kernel)) ?_)
      exact Cols.nil _ _ _
    · show pairSum gs r (pairIN p.val) (pairJN p.val) = pairSum gs r (Cert.Spec.pairI p) (Cert.Spec.pairJ p)
      rw [pairIN_val, pairJN_val]
  refine congrArg (l' (ix2 r 0) + x3 (ix1 0) + ·) ?_
  unfold Cert.Spec.nnOf Cert.Spec.h2Of
  simp only [H]

end Run

end Cert.KernelIdeal.Hand.Tail

end
-- ==== Proof.KI.OutStep.lean ====
/-
  The output block after a tile's last field.  At the last field the body stores one whole block: at row r the
  linear accumulator plus its bias plus the perceptron of the 276 pair interactions read off the gathered rows.
  After the point's own stores the accumulator is the sum over all 24 fields, which is the specification's linear
  term of batch row 128 * (t / 24) + r; the gathered rows hold, for each field i, the selected table row, whose
  column 16 * j + d is the factor d with respect to field j, so each pair term is the specification's interaction;
  the weights and biases are the whole argument arrays.  So the block is the result's block of the tile.
-/
import proofs.«405942_j90769838833781_3_alg».proof.Proof.KI.Tail
import proofs.«405942_j90769838833781_3_alg».proof.Proof.KI.Steps
import proofs.«405942_j90769838833781_3_alg».proof.Proof.KI.Defs
import proofs.«405942_j90769838833781_3_alg».proof.Proof.KI.Blocks
import proofs.«405942_j90769838833781_3_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

section Entries
variable (m : (ℓ : Loc nD τ sig) → Buf (Elt Ideal) ℓ) (c : Dev nD)

/-- At a last field the gathered rows hold every field's selected row: column 16 * J + d of field i's slab is the
    factor d of field i's selected row with respect to field J. -/
theorem g_entry (t : Fin cfg0.N) (h1 : t.val % 24 = 23) (gs : Vec Ideal S24x128x384 .bf16) (hg : GInv m c t.val gs)
    (i J : Fin 24) (r : Fin 128) (d : Fin 16) (q : Fin 384) (hq : q.val = 16 * J.val + d.val) :
    gs (ix3 i r q) = Cert.Spec.emb (aX m c) (aE m c) (rowAt t.val r) i J d := by
  rw [hg i r q (by have := i.isLt; omega)]
  show aE m c _ = aE m c _
  refine congrArg (aE m c) (funext fun a => Fin.ext ?_)
  have hd := d.isLt
  match a with
  | ⟨0, _⟩ => rfl
  | ⟨1, _⟩ => rfl
  | ⟨2, _⟩ => show q.val / 16 = J.val; omega
  | ⟨3, _⟩ => show q.val % 16 = d.val; omega

/-- At a last field the accumulator's row r is the specification's linear term of the tile's row r. -/
theorem l_entry (t : Fin cfg0.N) (h1 : t.val % 24 = 23) (r : Fin 128) :
    lAt m c t.val (ix2 r (0 : Fin 1)) = Cert.Spec.lin (aX m c) (aWlin m c) (rowAt t.val r) := by
  show (∑ i : Fin 24, if i.val ≤ t.val % 24 then aWlin m c (ix2 i (Cert.Spec.rowOf (aX m c) (rowAt t.val r) i)) else 0)
    = ∑ i : Fin 24, aWlin m c (ix2 i (Cert.Spec.rowOf (aX m c) (rowAt t.val r) i))
  refine Finset.sum_congr rfl fun i _ => ?_
  rw [if_pos (by have := i.isLt; omega)]

/-- The block's entry at row r, from the accumulator, the bias and the perceptron of the pair interactions. -/
theorem out_entry (t : Fin cfg0.N) (h1 : t.val % 24 = 23) (r : Fin 128) (pr : Fin 276 → EReal)
    (hpr : ∀ p, pr p = Cert.Spec.pairs (aX m c) (aE m c) (rowAt t.val r) p) :
    (lAt m c t.val (ix2 r (0 : Fin 1)) + aBlin m c (ix1 (0 : Fin 1)))
        + Cert.Spec.nnOf (aW1 m c) (aB1 m c) (aW2 m c) (aB2 m c) (aW3 m c) (aB3 m c) pr
      = oAt m c t.val (ix2 r (0 : Fin 1)) := by
  obtain rfl : pr = Cert.Spec.pairs (aX m c) (aE m c) (rowAt t.val r) := funext hpr
  rw [l_entry m c t h1 r]
  rfl

end Entries

section Block
variable (m : (ℓ : Loc nD τ sig) → Buf (Elt Ideal) ℓ) (c : Dev nD)

/-- The pair term read off the gathered rows at a last field is the specification's interaction. -/
theorem pair_entry (t : Fin cfg0.N) (h1 : t.val % 24 = 23) (gs : Vec Ideal S24x128x384 .bf16) (hg : GInv m c t.val gs)
    (r : Fin 128) (p : Fin 276) :
    Tail.pairSum gs r (Cert.Spec.pairI p) (Cert.Spec.pairJ p) = Cert.Spec.pairs (aX m c) (aE m c) (rowAt t.val r) p := by
  unfold Tail.pairSum Cert.Spec.pairs Cert.Spec.inter
  refine Finset.sum_congr rfl fun d _ => ?_
  rw [g_entry m c t h1 gs hg (Cert.Spec.pairI p) (Cert.Spec.pairJ p) r d _ rfl,
    g_entry m c t h1 gs hg (Cert.Spec.pairJ p) (Cert.Spec.pairI p) r d _ rfl]

/-- A block whose row r is the accumulator plus the bias plus the perceptron of the pair terms, over the point's
    input blocks, is the result's block of the tile. -/
theorem pay_eq (t : Fin cfg0.N) (h1 : t.val % 24 = 23) (gs : Vec Ideal S24x128x384 .bf16) (hg : GInv m c t.val gs)
    (l' : Vec Ideal S128x1 .f32) (hl : l' = lAt m c t.val) (pay : FVec Ideal S128x1 .f32)
    (hpay : ∀ r : Fin 128, pay (ix2 r 0) = (l' (ix2 r 0) + (Gen.iblk m c 3 t : Vec Ideal S1 .f32) (ix1 0))
      + Cert.Spec.nnOf (Gen.iblk m c 4 t : Vec Ideal S276x128 .f32) (Gen.iblk m c 5 t : Vec Ideal S128 .f32)
          (Gen.iblk m c 6 t : Vec Ideal S128x64 .f32) (Gen.iblk m c 7 t : Vec Ideal S64 .f32)
          (Gen.iblk m c 8 t : Vec Ideal S64x1 .f32) (Gen.iblk m c 9 t : Vec Ideal S1 .f32)
          (fun p => Tail.pairSum gs r (Cert.Spec.pairI p) (Cert.Spec.pairJ p))) :
    (pay : S128x1.Idx → Elt Ideal .f32) = oAt m c t.val := by
  subst hl
  funext y
  obtain ⟨r, z, rfl⟩ : ∃ (r : Fin 128) (z : Fin 1), y = ix2 r z := ⟨y 0, y 1, eq_ix2 y⟩
  obtain rfl : z = 0 := Subsingleton.elim _ _
  refine (hpay r).trans ?_
  have e3 : (Gen.iblk m c 3 t : S1.Idx → Elt Ideal .f32) = aBlin m c := Blocks.blk3 m c t
  have e4 : (Gen.iblk m c 4 t : S276x128.Idx → Elt Ideal .f32) = aW1 m c := Blocks.blk4 m c t
  have e5 : (Gen.iblk m c 5 t : S128.Idx → Elt Ideal .f32) = aB1 m c := Blocks.blk5 m c t
  have e6 : (Gen.iblk m c 6 t : S128x64.Idx → Elt Ideal .f32) = aW2 m c := Blocks.blk6 m c t
  have e7 : (Gen.iblk m c 7 t : S64.Idx → Elt Ideal .f32) = aB2 m c := Blocks.blk7 m c t
  have e8 : (Gen.iblk m c 8 t : S64x1.Idx → Elt Ideal .f32) = aW3 m c := Blocks.blk8 m c t
  have e9 : (Gen.iblk m c 9 t : S1.Idx → Elt Ideal .f32) = aB3 m c := Blocks.blk9 m c t
  rw [e3, e4, e5, e6, e7, e8, e9]
  exact out_entry m c t h1 r _ (fun p => pair_entry m c t h1 gs hg r p)

end Block

/-- THE OUTPUT BLOCK AFTER A LAST FIELD: the body's one whole store into the output block leaves the result's block
    of the tile. -/
theorem o_step_C (m : (ℓ : Loc nD τ sig) → Buf (Elt Ideal) ℓ) (c : Dev nD)
    (hx : ∀ j : S16384x24.Idx, ((aX m c) j).toNat < 10000) (t : Fin cfg0.N) (h1 : t.val % 24 = 23)
    (arg2 : Memref sig .tc .vmem S1x1x128 .i32) (harg2 : arg2.IsWhole) (arg3 : Memref sig .tc .vmem S1x10000x384 .bf16) (harg3 : arg3.IsWhole) (arg4 : Memref sig .tc .vmem S1x1x10000 .f32) (harg4 : arg4.IsWhole) (arg5 : Memref sig .tc .vmem S1 .f32) (harg5 : arg5.IsWhole) (arg6 : Memref sig .tc .vmem S276x128 .f32) (harg6 : arg6.IsWhole) (arg7 : Memref sig .tc .vmem S128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x1 .f32) (harg10 : arg10.IsWhole) (arg11 : Memref sig .tc .vmem S1 .f32) (harg11 : arg11.IsWhole) (arg12 : Memref sig .tc .vmem S128x1 .f32) (harg12 : arg12.IsWhole) (arg13 : Memref sig .tc .vmem S24x128x384 .bf16) (harg13 : arg13.IsWhole) (arg14 : Memref sig .tc .vmem S128x1 .f32) (harg14 : arg14.IsWhole)
    (hc0 : ¬cond0 (grid0.coords t)) (hc1 : cond1 (grid0.coords t)) (xo : Vec Ideal S128x1 .f32)
    (X : Vec Ideal S24x128x384 .bf16) (hprev : GInv m c (t.val - 1) X) :
    arg12.view.read (Elt Ideal) (arg12.view.writes (Elt Ideal) (harg12.unread xo)
        (kernelRun_C (F := Ideal) c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X (lAt m c (t.val - 1))).1)
      = oAt m c t.val := by
  have h0 : ¬ t.val % 24 = 0 := by omega
  obtain ⟨pay, hR, hpay⟩ := Tail.tail_value c (grid0.coords t) arg2 harg2 arg3 harg3 arg4 harg4 arg5 harg5 arg6 harg6 arg7 harg7 arg8 harg8 arg9 harg9 arg10 harg10 arg11 harg11 arg12 harg12 arg13 harg13 arg14 harg14 hc0 hc1 (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) xo X (lAt m c (t.val - 1))
  rw [hR]
  refine (Steps.whole_read (S := S128x1) arg12.view (harg12.unread xo) ![0, 0] Steps.hz2 _ pay []).trans ?_
  exact pay_eq m c t h1 _
    (Steps.g_step_C m c t arg2 harg2 arg3 harg3 arg4 harg4 arg5 harg5 arg6 harg6 arg7 harg7 arg8 harg8 arg9 harg9 arg10 harg10 arg11 harg11 arg12 harg12 arg13 harg13 arg14 harg14 hx h0 hc0 hc1 xo X (lAt m c (t.val - 1)) hprev) _
    (Steps.l_step_C m c t arg2 harg2 arg3 harg3 arg4 harg4 arg5 harg5 arg6 harg6 arg7 harg7 arg8 harg8 arg9 harg9 arg10 harg10 arg11 harg11 arg12 harg12 arg13 harg13 arg14 harg14 hx h0 hc0 hc1 xo X) pay hpay

end Cert.KernelIdeal.Hand

end
-- ==== Proof.KI.Body.lean ====
/-
  The body obligation of the idealized kernel's pipeline and its run.  At every grid point the case's run of the
  kernel body applies to the scratch contents the invariant hands over, and the step lemmas say that what it
  leaves is the next point's invariant (and, at a last field, the result's block in the output buffer).  The
  launch theorem then gives every array's final contents.
-/
import proofs.«405942_j90769838833781_3_alg».proof.Proof.KI.Data
import proofs.«405942_j90769838833781_3_alg».proof.Proof.KI.Steps
import proofs.«405942_j90769838833781_3_alg».proof.Proof.KI.OutStep

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

variable (hx : ∀ (c : Dev nD) (j : S16384x24.Idx), ((aX m c) j).toNat < 10000)

set_option maxHeartbeats 8000000 in
include hx in
/-- The body at any point: the case's run on the scratch contents the invariant hands over, the step lemmas for what it leaves. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10 m c _ t rfl]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  rw [show (dats m 0 c).leavesExact 6 t = owns (c : Thread nD τ) (stg6 t) fullShare ((dats m 0 c).after 6 t) from by
    unfold Dat.leavesExact; rw [live_6 t], after_6]
  rw [show (dats m 0 c).leavesExact 7 t = owns (c : Thread nD τ) (stg7 t) fullShare ((dats m 0 c).after 7 t) from by
    unfold Dat.leavesExact; rw [live_7 t], after_7]
  rw [show (dats m 0 c).leavesExact 8 t = owns (c : Thread nD τ) (stg8 t) fullShare ((dats m 0 c).after 8 t) from by
    unfold Dat.leavesExact; rw [live_8 t], after_8]
  rw [show (dats m 0 c).leavesExact 9 t = owns (c : Thread nD τ) (stg9 t) fullShare ((dats m 0 c).after 9 t) from by
    unfold Dat.leavesExact; rw [live_9 t], after_9]
  have hN : t.val < 3072 := lt_of_lt_of_eq t.isLt (show cfg0.N = 3072 from N_0)
  by_cases h1 : t.val % 24 = 23
  · have h0 : ¬ t.val % 24 = 0 := by omega
    have hz : t.val ≠ 0 := by omega
    rw [show (dats m 0 c).leavesExact 10 t = owns (c : Thread nD τ) (stg10 t) fullShare ((dats m 0 c).after 10 t) from by
      unfold Dat.leavesExact; rw [show cfg0.idle 10 (cfg0.grid.coords t) = false from by
        rw [Bool.eq_false_iff]; intro h; exact ((idle_out_iff t).mp h) h1], after_10]
    rw [Phi_castSucc m c t, PhiS_pos m c _ _ hz]
    iintro ⟨⟨⟨⟨%X, %hX, HG⟩, HL⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun_C c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (fun h => h0 ((cond0_iff t).mp h)) ((cond1_iff t).mpr h1) (iblk m c 0 t) (iblk m c 1 t) (iblk m c 2 t) (iblk m c 3 t) (iblk m c 4 t) (iblk m c 5 t) (iblk m c 6 t) (iblk m c 7 t) (iblk m c 8 t) (iblk m c 9 t) d10 X (lAt m c (t.val - 1))).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HG]; · iexact HG
    isplitl [HL]; · iexact HL
    iintro ⟨H0, H1, H2, H3, H4, H5, H6, H7, H8, H9, H10, HG, HL⟩
    isplitl [HG HL Hg]
    · isplitl [HG HL]
      · isplitl [HG]
        · iexists _; isplitr; swap
          · unfold owns; iexists _; isplitr; swap; · iexact HG
            ipureintro; rfl
          ipureintro; exact (Steps.g_step_C m c t (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (hx c) h0 (fun h => h0 ((cond0_iff t).mp h)) ((cond1_iff t).mpr h1) d10 X (lAt m c (t.val - 1)) hX)
        unfold owns; iexists _; isplitr; swap; · iexact HL
        ipureintro; exact (Steps.l_step_C m c t (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (hx c) h0 (fun h => h0 ((cond0_iff t).mp h)) ((cond1_iff t).mpr h1) d10 X)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr; swap; · iexact H10
    ipureintro; exact (o_step_C m c (hx c) t h1 (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (fun h => h0 ((cond0_iff t).mp h)) ((cond1_iff t).mpr h1) d10 X hX)
  · rw [(dats m 0 c).leavesExact_idle 10 t ((idle_out_iff t).mpr h1) (by rw [Bool.eq_false_iff]; intro h; exact h1 ((flush0_10 t).mp h))]
    simp only [before_10 m c _ t rfl]
    by_cases h0 : t.val % 24 = 0
    · by_cases hz : t.val = 0
      · rw [Phi_castSucc m c t, PhiS_zero m c _ _ hz, PhiA_eq]
        iintro ⟨⟨⟨⟨%dG, HG⟩, ⟨%dL, HL⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun_A c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) ((cond0_iff t).mpr h0) (fun h => h1 ((cond1_iff t).mp h)) (iblk m c 0 t) (iblk m c 1 t) (iblk m c 2 t) (iblk m c 3 t) (iblk m c 4 t) (iblk m c 5 t) (iblk m c 6 t) (iblk m c 7 t) (iblk m c 8 t) (iblk m c 9 t) d10 dG dL).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HG]; · iexact HG
        isplitl [HL]; · iexact HL
        iintro ⟨H0, H1, H2, H3, H4, H5, H6, H7, H8, H9, H10, HG, HL⟩
        isplitl [HG HL Hg]
        · isplitl [HG HL]
          · isplitl [HG]
            · iexists _; isplitr; swap
              · unfold owns; iexists _; isplitr; swap; · iexact HG
                ipureintro; rfl
              ipureintro; exact (Steps.g_step_A m c t (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (hx c) h0 ((cond0_iff t).mpr h0) (fun h => h1 ((cond1_iff t).mp h)) d10 dG dL)
            unfold owns; iexists _; isplitr; swap; · iexact HL
            ipureintro; exact (Steps.l_step_A m c t (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (hx c) h0 ((cond0_iff t).mpr h0) (fun h => h1 ((cond1_iff t).mp h)) d10 dG dL)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · rw [Phi_castSucc m c t, PhiS_pos m c _ _ hz]
        iintro ⟨⟨⟨⟨%X, %hX, HG⟩, HL⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun_A c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) ((cond0_iff t).mpr h0) (fun h => h1 ((cond1_iff t).mp h)) (iblk m c 0 t) (iblk m c 1 t) (iblk m c 2 t) (iblk m c 3 t) (iblk m c 4 t) (iblk m c 5 t) (iblk m c 6 t) (iblk m c 7 t) (iblk m c 8 t) (iblk m c 9 t) d10 X (lAt m c (t.val - 1))).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HG]; · iexact HG
        isplitl [HL]; · iexact HL
        iintro ⟨H0, H1, H2, H3, H4, H5, H6, H7, H8, H9, H10, HG, HL⟩
        isplitl [HG HL Hg]
        · isplitl [HG HL]
          · isplitl [HG]
            · iexists _; isplitr; swap
              · unfold owns; iexists _; isplitr; swap; · iexact HG
                ipureintro; rfl
              ipureintro; exact (Steps.g_step_A m c t (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (hx c) h0 ((cond0_iff t).mpr h0) (fun h => h1 ((cond1_iff t).mp h)) d10 X (lAt m c (t.val - 1)))
            unfold owns; iexists _; isplitr; swap; · iexact HL
            ipureintro; exact (Steps.l_step_A m c t (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (hx c) h0 ((cond0_iff t).mpr h0) (fun h => h1 ((cond1_iff t).mp h)) d10 X (lAt m c (t.val - 1)))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · have hz : t.val ≠ 0 := by omega
      rw [Phi_castSucc m c t, PhiS_pos m c _ _ hz]
      iintro ⟨⟨⟨⟨%X, %hX, HG⟩, HL⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun_B c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (fun h => h0 ((cond0_iff t).mp h)) (fun h => h1 ((cond1_iff t).mp h)) (iblk m c 0 t) (iblk m c 1 t) (iblk m c 2 t) (iblk m c 3 t) (iblk m c 4 t) (iblk m c 5 t) (iblk m c 6 t) (iblk m c 7 t) (iblk m c 8 t) (iblk m c 9 t) d10 X (lAt m c (t.val - 1))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HG]; · iexact HG
      isplitl [HL]; · iexact HL
      iintro ⟨H0, H1, H2, H3, H4, H5, H6, H7, H8, H9, H10, HG, HL⟩
      isplitl [HG HL Hg]
      · isplitl [HG HL]
        · isplitl [HG]
          · iexists _; isplitr; swap
            · unfold owns; iexists _; isplitr; swap; · iexact HG
              ipureintro; rfl
            ipureintro; exact (Steps.g_step_B m c t (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (hx c) h0 (fun h => h0 ((cond0_iff t).mp h)) (fun h => h1 ((cond1_iff t).mp h)) d10 X (lAt m c (t.val - 1)) hX)
          unfold owns; iexists _; isplitr; swap; · iexact HL
          ipureintro; exact (Steps.l_step_B m c t (stg0 t) (hstg0 t) (stg1 t) (hstg1 t) (stg2 t) (hstg2 t) (stg3 t) (hstg3 t) (stg4 t) (hstg4 t) (stg5 t) (hstg5 t) (stg6 t) (hstg6 t) (stg7 t) (hstg7 t) (stg8 t) (hstg8 t) (stg9 t) (hstg9 t) (stg10 t) (hstg10 t) scG (Memref.isWhole_whole _) scL (Memref.isWhole_whole _) (hx c) h0 (fun h => h0 ((cond0_iff t).mp h)) (fun h => h1 ((cond1_iff t).mp h)) d10 X)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

include hx in
/-- The library's body obligation, at every point. -/
theorem body_obligation (c : Dev nD) : BodyObligation (dats m 0 c) (defs₀ (F := Ideal)) Variants.none () Set.univ := fun t => by
  rw [bigSep_W0, bigSep_W0]
  exact sound_body m hx c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 3072 := N_0; omega), PhiA_eq]
  iintro ⟨⟨⟨%X, %hX, HG⟩, HL⟩, Hg⟩
  isplitl [HG HL]
  · isplitl [HG]
    · iexists _; iexact HG
    iexists _; iexact HL
  iexact Hg

set_option backward.isDefEq.respectTransparency.types false in
include hx in
/-- Every weakly fair execution of @main terminates, every array of the pipeline at what the proof data computes,
    every other unscoped buffer at its region-entry contents. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m hx c).loose) (hshare := fun c => (dats m 0 c).share_full fun _ => rfl)
    (howed := fun _ _ => rfl) (V := V m) (hmain := hmain m Variants.none) (hA := A_eq m) (hin := hin m) (hout := hout m)

end Cert.KernelIdeal.Hand

end
-- ==== Proof.KI.Final.lean ====
/-
  The output array after the whole grid.  The output's blocks are the 128 batch tiles' rows, written back after
  each tile's last field (point t with t % 24 = 23).  At such a point the output block holds the result's rows
  128 * (t / 24) + r, which is the tile's block of the result array read back; and every batch row b lies in the
  block of the point 24 * (b / 128) + 23.  So the array ends holding the specification's result.
-/
import proofs.«405942_j90769838833781_3_alg».proof.Proof.KI.Data
import proofs.«405942_j90769838833781_3_alg».proof.Proof.KI.Blocks
import proofs.«405942_j90769838833781_3_alg».proof.Proof.Gen.KernelIdeal.Points
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- For a point of the grid the batch row of row r of its tile is 128 * (t / 24) + r itself. -/
theorem rowAt_point (t : Fin cfg0.N) (r : Fin 128) :
    rowAt t.val r = ⟨128 * (t.val / 24) + r.val, Blocks.row_lt t r⟩ := by
  apply Fin.ext
  show (128 * (t.val / 24) + r.val) % 16384 = 128 * (t.val / 24) + r.val
  exact Nat.mod_eq_of_lt (Blocks.row_lt t r)

/-- What a point writes back is its tile's block of the result array. -/
theorem flushed_eq (c : Dev nD) (t : Fin cfg0.N) (hf : (cfg0.win 10).flush t = true) :
    (dats m 0 c).flushed 10 t = ((cfg0.win 10).blk t).view.read (Elt Ideal) (aG m c) := by
  show (cfg0.win 10).cut (grid0.coords t) ((dats m 0 c).after 10 t) = _
  rw [after_10]
  show (oAt m c t.val : S128x1.Idx → Elt Ideal .f32) = _
  funext y
  obtain ⟨r, z, rfl⟩ : ∃ (r : Fin 128) (z : Fin 1), y = ix2 r z := ⟨y 0, y 1, eq_ix2 y⟩
  obtain rfl : z = 0 := Subsingleton.elim _ _
  refine Eq.trans ?_ (Blocks.out_read (aG m c) t r).symm
  show aG m c (ix2 (rowAt t.val r) (0 : Fin 1)) = aG m c (ix2 ⟨128 * (t.val / 24) + r.val, Blocks.row_lt t r⟩ (0 : Fin 1))
  rw [rowAt_point]

/-- Every batch row lies in the block of its tile's last field. -/
theorem cover (i : S16384x1.Idx) :
    ∃ t : Fin cfg0.N, (cfg0.win 10).flush t = true ∧ i ∈ ((cfg0.win 10).blk t).view.set := by
  obtain ⟨b, z, rfl⟩ : ∃ (b : Fin 16384) (z : Fin 1), i = ix2 b z := ⟨i 0, i 1, eq_ix2 i⟩
  obtain rfl : z = 0 := Subsingleton.elim _ _
  have hb := b.isLt
  have hN : cfg0.N = 3072 := N_0
  have hlt : 24 * (b.val / 128) + 23 < cfg0.N := by rw [hN]; omega
  refine ⟨⟨24 * (b.val / 128) + 23, hlt⟩, (flush0_10 _).mpr ?_, (Blocks.out_mem _ b).mpr ?_⟩
  · show (24 * (b.val / 128) + 23) % 24 = 23
    omega
  · show b.val / 128 = (24 * (b.val / 128) + 23) / 24
    omega

/-- The output array ends holding the specification's result. -/
theorem final (c : Dev nD) : (dats m 0 c).arrAt 10 cfg0.N = aG m c :=
  (dats m 0 c).arrAt_eq_of_cover 10 (aG m c) (flushed_eq m c) cover

end Cert.KernelIdeal.Hand

end
-- ==== Proof.KI.Value.lean ====
/-
  The idealized kernel program's run read at its result: every weakly fair execution of @main terminates with the
  output array holding the specification's result of the launched arguments — the last-field points' blocks tile
  the array and each is the result's block — and with the argument arrays unchanged.
-/
import proofs.«405942_j90769838833781_3_alg».proof.Proof.KI.Body
import proofs.«405942_j90769838833781_3_alg».proof.Proof.KI.Final

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)
variable (hx : ∀ (c : Dev nD) (j : S16384x24.Idx), ((aX m c) j).toNat < 10000)

include hx in
theorem run_value :
    θ_run defs (onTc (τ := τ) (main (F := Ideal))) ⟨m, fun _ => 0, ρ⟩ (fun r => ∀ c : Dev nD,
      r.2.mem ((c.tc : Thread nD τ).loc main_v5) = aG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 10).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ hx)

end Cert.KernelIdeal.Hand

end
-- ==== Proof.RefTables.lean ====
/-
  The index tables of the strict upper triangle of a 24 × 24 matrix.

  The reference computes the row and column tables of the 276 pairs (i, j), i < j, with integer operations on no
  input: the triangle's indicator over the 576 flat positions, its running count, the number of flat positions at each
  count (a scatter of ones), the running sum of those numbers (the flat position of the p-th pair), and that position's
  quotient and remainder by 24. This module transcribes those operations and proves that the two tables they end in
  hold the first and the second field of the p-th pair in row-major order.
-/
import proofs.«405942_j90769838833781_3_alg».proof.ReferenceIdeal
import proofs.«405942_j90769838833781_3_alg».proof.Proof.Gen.ReferenceIdeal
import proofs.«405942_j90769838833781_3_alg».proof.Proof.Spec
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws

noncomputable section

namespace Cert.ReferenceIdeal.Hand

open Idealize.ShloMosaic Idealize.ShloMosaic.ValueIdx Cert.ReferenceIdeal
open Cert.ReferenceIdeal.Facts₀ Cert.ReferenceIdeal.Facts

-- every side condition below is the hypothesis hF
attribute [-instance] Cert.ReferenceIdeal.Gen.facts₀ Cert.ReferenceIdeal.Gen.facts

section Defs
variable [hF : Cert.ReferenceIdeal.Facts]

/-! ## The operations, in the program's order -/

/-- The all-ones matrix. -/
def ones24 : FVec Ideal S24x24 .f32 := broadcastInDim S24x24 ![] bcast_S_S24x24 (constant S_ .f32 0x3F800000#32)

/-- The row coordinate (plus the diagonal offset zero) and the column coordinate. -/
def triRow : IVec S24x24 32 := addi (iotaInDim S24x24 32 0) (broadcastInDim S24x24 ![] bcast_S_S24x24 (constantI S_ 32 0#32))
def triCol : IVec S24x24 32 := iotaInDim S24x24 32 1
/-- On or below the diagonal. -/
def triLow : IVec S24x24 1 := cmpi .sge triRow triCol
/-- The matrix with its lower triangle and diagonal cleared. -/
def triu : FVec Ideal S24x24 .f32 :=
  select triLow (broadcastInDim S24x24 ![] bcast_S_S24x24 (constant S_ .f32 0x00000000#32)) ones24
/-- The indicator of the strict upper triangle. -/
def mask : IVec S24x24 1 :=
  cmpf .une triu (broadcastInDim S24x24 ![] bcast_S_S24x24 (constant S_ .f32 0x00000000#32))

/-- The indicator over the 576 flat positions, widened. -/
def maskFlat : IVec S576 32 := extui 32 (shapeCast S576 mask shapeCasts_S24x24_S576) natLt_1_32
/-- The running count of the indicator. -/
def count : IVec S576 32 :=
  Host.reduceWindow IntOp.addi ![576] ![1] ![575] ![0] maskFlat
    (broadcastInDim S_ ![] bcast_S_S_ (constantI S_ 32 0#32)) reduceWindows_S576_S576_w576s1p575_0 h_S_
/-- The count clipped below at zero. -/
def countClip : IVec S576 32 := maxsi (broadcastInDim S576 ![] bcast_S_S576 (id (constantI S_ 32 0#32))) count
/-- A negative count wrapped by 276. -/
def countWrap : IVec S576 32 :=
  select (cmpi .slt countClip (broadcastInDim S576 ![] bcast_S_S576 (constantI S_ 32 0#32)))
    (addi countClip (broadcastInDim S576 ![] bcast_S_S576 (constantI S_ 32 276#32))) countClip
/-- The number of flat positions at each count. -/
def hist : IVec S276 32 :=
  Host.scatter scatter_S276_S576x1_S576_n_0_0_1 IntOp.addi (broadcastInDim S276 ![] bcast_S_S276 (constantI S_ 32 0#32))
    (broadcastInDim S576x1 ![0] bcast_S576_S576x1_0 countWrap) (broadcastInDim S576 ![] bcast_S_S576 (constantI S_ 32 1#32))
/-- The flat position of the p-th pair. -/
def pos : IVec S276 32 :=
  Host.reduceWindow IntOp.addi ![276] ![1] ![275] ![0] hist
    (broadcastInDim S_ ![] bcast_S_S_ (constantI S_ 32 0#32)) reduceWindows_S276_S276_w276s1p275_0 h_S_

/-- The floor division of a table by a word. -/
def floorDiv (x : IVec S276 32) (y : IVec S_ 32) : IVec S276 32 :=
  let q := Host.divsi x (broadcastInDim S276 ![] bcast_S_S276 y)
  let sx := signi x
  let sy := broadcastInDim S276 ![] bcast_S_S276 (signi y)
  let r := Host.remsi x (broadcastInDim S276 ![] bcast_S_S276 y)
  let adj := andi (cmpi .ne sx sy) (cmpi .ne r (broadcastInDim S276 ![] bcast_S_S276 (constantI S_ 32 0#32)))
  select adj (subi q (broadcastInDim S276 ![] bcast_S_S276 (constantI S_ 32 1#32))) q

/-- The remainder of a table by a word, of the divisor's sign. -/
def floorMod (x : IVec S276 32) (y : IVec S_ 32) : IVec S276 32 :=
  let y0 : IVec S_ 32 := id y
  let d : IVec S_ 32 := select (cmpi .eq y0 (constantI S_ 32 0#32)) (constantI S_ 32 1#32) y0
  let r := Host.remsi x (broadcastInDim S276 ![] bcast_S_S276 d)
  let nz := cmpi .ne r (broadcastInDim S276 ![] bcast_S_S276 (constantI S_ 32 0#32))
  let rneg := cmpi .slt r (broadcastInDim S276 ![] bcast_S_S276 (constantI S_ 32 0#32))
  let dneg := broadcastInDim S276 ![] bcast_S_S276 (cmpi .slt d (constantI S_ 32 0#32))
  let adj := andi (cmpi .ne rneg dneg) nz
  select adj (addi r (broadcastInDim S276 ![] bcast_S_S276 d)) r

/-- The row and the column of the p-th pair before the wrap of a negative index. -/
def rowRaw : IVec S276 32 := floorMod (floorDiv pos (constantI S_ 32 24#32)) (constantI S_ 32 24#32)
def colRaw : IVec S276 32 := floorMod (floorDiv pos (constantI S_ 32 1#32)) (constantI S_ 32 24#32)

/-- A negative index wrapped by 24. -/
def wrap24 (x : IVec S276 32) : IVec S276 32 :=
  select (cmpi .slt x (broadcastInDim S276 ![] bcast_S_S276 (constantI S_ 32 0#32)))
    (addi x (broadcastInDim S276 ![] bcast_S_S276 (constantI S_ 32 24#32))) x

/-- The table of first fields and the table of second fields. -/
def iuTab : IVec S276 32 := wrap24 rowRaw
def juTab : IVec S276 32 := wrap24 colRaw

end Defs

/-! ## The numbers the stages hold -/

/-- The indicator of the strict upper triangle: one exactly where the row is below the column. -/
def maskC : IVec S24x24 1 := fun i => if (i 0).val < (i 1).val then 1#1 else 0#1

/-- The indicator at the flat position q = 24 · row + col, as a number. -/
def maskN (q : Nat) : Nat := if q / 24 < q % 24 then 1 else 0

/-- The number of pairs at the flat positions up to q = 24 · row + col: the rows above hold 23, 22, … pairs each. -/
def countN (q : Nat) : Nat := (q / 24) * (47 - q / 24) / 2 + (q % 24 - q / 24)

/-- The number of flat positions whose count is p. -/
def histN (p : Nat) : Nat := ((List.range 576).filter fun n => countN n == p).length

/-- The flat position of the p-th pair. -/
def posN (p : Nat) : Nat :=
  if h : p < 276 then 24 * (Cert.Spec.pairI ⟨p, h⟩).val + (Cert.Spec.pairJ ⟨p, h⟩).val else 0

/-- The sum over a window of n positions ending at j, the positions before the array counting zero. -/
def winN (f : Nat → Nat) (n lo j : Nat) : Nat := ((List.range n).map fun k => if lo ≤ j + k then f (j + k - lo) else 0).sum

/-- The sum of the first j + 1 values. -/
def preN (f : Nat → Nat) (j : Nat) : Nat := ((List.range (j + 1)).map f).sum

/-- The scatter's index column, as numbers. -/
def idxC : IVec S576x1 32 := fun k => BitVec.ofNat 32 (countN (k 0).val)

/-- The clip at zero and the wrap of a negative word by 276, on one word. -/
def wrapW (w : BitVec 32) : BitVec 32 :=
  Scalar.select (IntOp.cmpi .slt (IntOp.maxsi 0#32 w) 0#32) (IntOp.addi (IntOp.maxsi 0#32 w) 276#32) (IntOp.maxsi 0#32 w)

/-- The floor division, the remainder of the divisor's sign and the wrap of a negative word by 24, on one word. -/
def sgW (a : BitVec 32) : BitVec 32 := if a = 0 then 0 else if a.msb then -1 else 1
def fdW (a b : BitVec 32) : BitVec 32 :=
  Scalar.select
    (IntOp.andi (IntOp.cmpi .ne (sgW a) (sgW b))
      (IntOp.cmpi .ne (IntOp.remsi .host a b) 0#32))
    (IntOp.subi (IntOp.divsi .host a b) 1#32) (IntOp.divsi .host a b)
def fmW (a b : BitVec 32) : BitVec 32 :=
  Scalar.select
    (IntOp.andi
      (IntOp.cmpi .ne (IntOp.cmpi .slt (IntOp.remsi .host a (Scalar.select (IntOp.cmpi .eq b 0#32) 1#32 b)) 0#32)
        (IntOp.cmpi .slt (Scalar.select (IntOp.cmpi .eq b 0#32) 1#32 b) 0#32))
      (IntOp.cmpi .ne (IntOp.remsi .host a (Scalar.select (IntOp.cmpi .eq b 0#32) 1#32 b)) 0#32))
    (IntOp.addi (IntOp.remsi .host a (Scalar.select (IntOp.cmpi .eq b 0#32) 1#32 b)) (Scalar.select (IntOp.cmpi .eq b 0#32) 1#32 b))
    (IntOp.remsi .host a (Scalar.select (IntOp.cmpi .eq b 0#32) 1#32 b))
def wrW (a : BitVec 32) : BitVec 32 := Scalar.select (IntOp.cmpi .slt a 0#32) (IntOp.addi a 24#32) a

/-! ## Closed forms, stage by stage -/

section Stages
variable [hF : Cert.ReferenceIdeal.Facts]

open Idealize.ShloMosaic.Ideal Idealize.ShloMosaic.StableHlo.Predicate

/-- The comparison of a row with a column as words is their comparison as numbers. -/
theorem cmp_row_col : ∀ r c : Fin 24,
    IntOp.cmpi .sge (IntOp.addi (BitVec.ofNat 32 r.val) 0#32) (BitVec.ofNat 32 c.val) = if r.val < c.val then 0#1 else 1#1 := by
  decide

theorem triLow_apply (i : S24x24.Idx) : triLow i = if (i 0).val < (i 1).val then 0#1 else 1#1 :=
  cmp_row_col (i 0) (i 1)

theorem mask_eq : mask = maskC := by
  funext i
  show Ideal.cmp .une (Scalar.select (triLow i) (Ideal.ofBits .f32 0x00000000#32) (Ideal.ofBits .f32 0x3F800000#32))
    (Ideal.ofBits .f32 0x00000000#32) = maskC i
  rw [triLow_apply, ofBits_zero_f32, ofBits_one_f32]
  unfold maskC
  by_cases h : (i 0).val < (i 1).val
  · rw [if_pos h, if_pos h, select_zero]; simp [Ideal.cmp]
  · rw [if_neg h, if_neg h, select_one]; simp [Ideal.cmp]

theorem maskFlat_apply (q : Fin 576) : maskFlat (ix1 q) = BitVec.ofNat 32 (maskN q.val) := by
  unfold maskFlat
  rw [extui_apply, mask_eq]
  rw [shapeCast_apply maskC shapeCasts_S24x24_S576 (ix1 q)
    (ix2 (⟨q.val / 24, by have := q.isLt; omega⟩ : Fin 24) (⟨q.val % 24, Nat.mod_lt _ (by decide)⟩ : Fin 24)) (by
      rw [Shape.rowMajor_val_two, Shape.rowMajor_val_one]
      show q.val / 24 * 24 + q.val % 24 = q.val
      omega)]
  unfold maskC maskN
  show (if q.val / 24 < q.val % 24 then 1#1 else 0#1 : BitVec 1).setWidth 32 = _
  by_cases h : q.val / 24 < q.val % 24
  · rw [if_pos h, if_pos h]; rfl
  · rw [if_neg h, if_neg h]; rfl

end Stages

/-! ## A running sum by a padded window -/

section Window

theorem rowMajor_symm_one {n : Nat} (m : Fin (⟨1, ![n]⟩ : Shape).numel) :
    (((⟨1, ![n]⟩ : Shape).rowMajor.symm m) 0).val = m.val := by
  have h := Shape.rowMajor_val_one ((⟨1, ![n]⟩ : Shape).rowMajor.symm m)
  rw [Equiv.apply_symm_apply] at h
  exact h.symm

/-- A left fold of word additions of numbers is the word of the numbers' sum. -/
theorem foldl_addi_ofNat {N : Nat} (F : BitVec 32 → Fin N → BitVec 32) (g : Nat → Nat)
    (hF : ∀ r m, F r m = r + BitVec.ofNat 32 (g m.val)) (l : List (Fin N)) (a : Nat) :
    l.foldl F (BitVec.ofNat 32 a) = BitVec.ofNat 32 (a + (l.map fun m => g m.val).sum) := by
  induction l generalizing a with
  | nil => simp
  | cons m l ih =>
    rw [List.foldl_cons, hF, ← BitVec.ofNat_add, ih, List.map_cons, List.sum_cons, Nat.add_assoc]

theorem map_val_finRange {N n : Nat} (h : N = n) (g : Nat → Nat) :
    ((List.finRange N).map fun m => g m.val) = (List.range n).map g := by
  subst h
  rw [← List.map_coe_finRange_eq_range, List.map_map]
  rfl

theorem numel_one (n : Nat) : (⟨1, ![n]⟩ : Shape).numel = n := by simp [Shape.numel]

theorem cumsum_apply {n lo : Nat} (hlo : lo + 1 = n) (x : IVec ⟨1, ![n]⟩ 32) (f : Nat → Nat)
    (hx : ∀ q : Fin n, x (ix1 q) = BitVec.ofNat 32 (f q.val))
    (init : (⟨0, ![]⟩ : Shape).Idx → BitVec 32) (hinit : ∀ i, init i = 0#32)
    (h : (⟨1, ![n]⟩ : Shape).ReduceWindows ![n] ![1] ![lo] ![0] ⟨1, ![n]⟩) (hu : 0 < (⟨0, ![]⟩ : Shape).numel) (j : Fin n) :
    Host.reduceWindow IntOp.addi ![n] ![1] ![lo] ![0] x init h hu (ix1 j) = BitVec.ofNat 32 (winN f n lo j.val) := by
  unfold Host.reduceWindow
  simp only [hinit]
  refine (foldl_addi_ofNat _ (fun k => if lo ≤ j.val + k then f (j.val + k - lo) else 0) ?_ _ 0).trans ?_
  · intro r m
    show r + _ = _
    congr 1
    have hm : (((⟨1, ![n]⟩ : Shape).rowMajor.symm m) 0).val = m.val := rowMajor_symm_one m
    have hmlt : m.val < n := by have h1 := m.isLt; have h2 := numel_one n; omega
    split
    · rename_i hin
      have h0 := hin 0
      rw [hm] at h0
      have h0' : lo ≤ j.val * 1 + m.val ∧ j.val * 1 + m.val - lo < n := h0
      have hlt : j.val + m.val - lo < n := by omega
      rw [if_pos (by omega : lo ≤ j.val + m.val), ← hx ⟨j.val + m.val - lo, hlt⟩]
      refine congrArg x (funext fun a => ?_)
      have ha : a = 0 := Subsingleton.elim _ _
      subst ha
      apply Fin.ext
      show j.val * 1 + (((⟨1, ![n]⟩ : Shape).rowMajor.symm m) 0).val - lo = j.val + m.val - lo
      rw [hm]; omega
    · rename_i hin
      have hc : ¬ lo ≤ j.val + m.val := by
        intro hc
        apply hin
        intro a
        have ha : a = 0 := Subsingleton.elim _ _
        subst ha
        show lo ≤ j.val * 1 + (((⟨1, ![n]⟩ : Shape).rowMajor.symm m) 0).val ∧ j.val * 1 + (((⟨1, ![n]⟩ : Shape).rowMajor.symm m) 0).val - lo < n
        rw [hm]
        have := j.isLt
        omega
      rw [if_neg hc]
  · rw [Nat.zero_add, map_val_finRange (numel_one n) (fun k => if lo ≤ j.val + k then f (j.val + k - lo) else 0)]
    rfl

end Window

section Prefix

/-- With the window as long as the array and its end at j, the window sum is the sum of the first j + 1 values. -/
theorem winN_eq_preN (f : Nat → Nat) {n lo j : Nat} (hlo : lo + 1 = n) (hj : j < n) : winN f n lo j = preN f j := by
  subst hlo
  unfold winN preN
  have hn : lo + 1 = (lo - j) + (j + 1) := by omega
  rw [hn, List.range_add, List.map_append, List.sum_append, List.map_map]
  have h1 : ((List.range (lo - j)).map fun k => if lo ≤ j + k then f (j + k - lo) else 0).sum = 0 := by
    apply List.sum_eq_zero
    intro x hx
    obtain ⟨k, hk, rfl⟩ := List.mem_map.1 hx
    have := List.mem_range.1 hk
    rw [if_neg (by omega)]
  rw [h1, Nat.zero_add]
  congr 1
  apply List.map_congr_left
  intro i hi
  have := List.mem_range.1 hi
  show (if lo ≤ j + (lo - j + i) then f (j + (lo - j + i) - lo) else 0) = f i
  rw [if_pos (by omega)]
  congr 1; omega

theorem preN_succ (f : Nat → Nat) (j : Nat) : preN f (j + 1) = preN f j + f (j + 1) := by
  unfold preN
  rw [List.range_succ, List.map_append, List.sum_append]
  simp

/-- A sequence with the running sum's start and step is the running sum. -/
theorem preN_eq (f g : Nat → Nat) (n : Nat) (h0 : g 0 = f 0) (hs : ∀ j, j + 1 < n → g (j + 1) = g j + f (j + 1)) :
    ∀ j, j < n → preN f j = g j := by
  intro j
  induction j with
  | zero => intro _; rw [h0]; simp [preN]
  | succ j ih => intro h; rw [preN_succ, ih (by omega), hs j h]

end Prefix

section Stages2
variable [hF : Cert.ReferenceIdeal.Facts]

theorem count_step : ∀ j : Fin 575, countN (j.val + 1) = countN j.val + maskN (j.val + 1) := by decide

theorem count_apply (q : Fin 576) : count (ix1 q) = BitVec.ofNat 32 (countN q.val) := by
  have h := cumsum_apply (by decide) maskFlat maskN maskFlat_apply
    (broadcastInDim S_ ![] bcast_S_S_ (constantI S_ 32 0#32)) (fun _ => rfl) reduceWindows_S576_S576_w576s1p575_0 h_S_ q
  rw [winN_eq_preN maskN (by decide) q.isLt,
    preN_eq maskN countN 576 (by decide) (fun j hj => count_step ⟨j, by omega⟩) q.val q.isLt] at h
  exact h

theorem wrapW_count : ∀ q : Fin 576, wrapW (BitVec.ofNat 32 (countN q.val)) = BitVec.ofNat 32 (countN q.val) := by decide

theorem countWrap_apply (q : Fin 576) : countWrap (ix1 q) = BitVec.ofNat 32 (countN q.val) := by
  have h : countWrap (ix1 q) = wrapW (count (ix1 q)) := rfl
  rw [h, count_apply, wrapW_count]

theorem idx_eq : broadcastInDim S576x1 ![0] bcast_S576_S576x1_0 countWrap = idxC := by
  funext k
  rw [broadcastInDim_apply ![0] bcast_S576_S576x1_0 countWrap k (ix1 (k 0)) (by
    intro a
    have ha : a = 0 := Subsingleton.elim _ _
    subst ha
    rfl)]
  exact countWrap_apply (k 0)

end Stages2

/-! ## A scatter of ones counts the updates at each target -/

section Scatter

theorem foldl_scatter_count {ι : Type} [DecidableEq ι] {N : Nat} (F : (ι → BitVec 32) → Fin N → (ι → BitVec 32))
    (tgt : Fin N → Option ι)
    (hsome : ∀ r n i, tgt n = some i → F r n = fun i' => if i' = i then r i + 1#32 else r i')
    (hnone : ∀ r n, tgt n = none → F r n = r)
    (l : List (Fin N)) (r0 : ι → BitVec 32) (a : ι → Nat) (hr0 : ∀ p, r0 p = BitVec.ofNat 32 (a p)) (p : ι) :
    l.foldl F r0 p = BitVec.ofNat 32 (a p + (l.filter fun n => tgt n = some p).length) := by
  induction l generalizing r0 a with
  | nil => simp [hr0]
  | cons m l ih =>
    rw [List.foldl_cons]
    cases hm : tgt m with
    | none =>
      rw [hnone _ _ hm, ih r0 a hr0, List.filter_cons]
      simp [hm]
    | some i =>
      rw [hsome _ _ _ hm, ih _ (fun p' => if p' = i then a i + 1 else a p') (by
        intro p'
        by_cases h : p' = i
        · rw [if_pos h, if_pos h, hr0, BitVec.ofNat_add]
        · rw [if_neg h, if_neg h, hr0]), List.filter_cons]
      by_cases h : p = i
      · subst h
        simp only [hm, if_true, decide_true, List.length_cons]
        congr 1
        omega
      · have h' : ¬ i = p := fun e => h e.symm
        simp [hm, h, h']

theorem countP_val_finRange {N n : Nat} (h : N = n) (P : Nat → Bool) :
    (List.finRange N).countP (fun m => P m.val) = (List.range n).countP P := by
  subst h
  rw [← List.map_coe_finRange_eq_range, List.countP_map]
  rfl

end Scatter

section Stages3

/-- Each update's target: the position its count names, when the count is inside the table. -/
theorem resultIdx_count : ∀ n : Fin S576.numel,
    (@scatter_S276_S576x1_S576_n_0_0_1 Cert.ReferenceIdeal.Gen.facts₀).resultIdx? (S576.rowMajor.symm n) idxC
      = if h : countN n.val < 276 then some (ix1 (⟨countN n.val, h⟩ : Fin 276)) else none := by
  decide +kernel

end Stages3

section Stages4
variable [hF : Cert.ReferenceIdeal.Facts]

theorem tgt_iff (c : Nat) (p : Fin 276) :
    ((if h : c < 276 then some (ix1 (⟨c, h⟩ : Fin 276)) else none) = some (ix1 p)) ↔ c = p.val := by
  constructor
  · intro e
    split at e
    · have e' := Option.some.inj e
      exact congrArg Fin.val (congrFun e' 0)
    · cases e
  · intro e
    subst e
    rw [dif_pos p.isLt]

theorem hist_apply (p : Fin 276) : hist (ix1 p) = BitVec.ofNat 32 (histN p.val) := by
  unfold hist Host.scatter
  rw [idx_eq]
  refine (foldl_scatter_count _ (fun n => if h : countN n.val < 276 then some (ix1 (⟨countN n.val, h⟩ : Fin 276)) else none)
    ?_ ?_ _ _ (fun _ => 0) (fun _ => rfl) (ix1 p)).trans ?_
  · intro r n i hn
    simp only [resultIdx_count n, hn]
    rfl
  · intro r n hn
    simp only [resultIdx_count n, hn]
  · rw [Nat.zero_add]
    congr 1
    unfold histN
    rw [← List.countP_eq_length_filter, ← List.countP_eq_length_filter,
      ← countP_val_finRange (numel_one 576) (fun n => countN n == p.val)]
    apply List.countP_congr
    intro n _
    simp only [tgt_iff, decide_eq_true_eq, beq_iff_eq]

end Stages4

section Stages5

theorem pos_zero : histN 0 = posN 0 := by decide +kernel
theorem pos_step_0 : ∀ p : Fin 55, posN (0 + p.val + 1) = posN (0 + p.val) + histN (0 + p.val + 1) := by decide +kernel
theorem pos_step_1 : ∀ p : Fin 55, posN (55 + p.val + 1) = posN (55 + p.val) + histN (55 + p.val + 1) := by decide +kernel
theorem pos_step_2 : ∀ p : Fin 55, posN (110 + p.val + 1) = posN (110 + p.val) + histN (110 + p.val + 1) := by decide +kernel
theorem pos_step_3 : ∀ p : Fin 55, posN (165 + p.val + 1) = posN (165 + p.val) + histN (165 + p.val + 1) := by decide +kernel
theorem pos_step_4 : ∀ p : Fin 55, posN (220 + p.val + 1) = posN (220 + p.val) + histN (220 + p.val + 1) := by decide +kernel
theorem pos_step (p : Nat) (hp : p + 1 < 276) : posN (p + 1) = posN p + histN (p + 1) := by
  by_cases h1 : p < 55
  · have h := pos_step_0 ⟨p, h1⟩
    rwa [show 0 + (⟨p, h1⟩ : Fin 55).val = p from Nat.zero_add p] at h
  by_cases h2 : p < 110
  · have h := pos_step_1 ⟨p - 55, by omega⟩
    rwa [show 55 + (⟨p - 55, by omega⟩ : Fin 55).val = p from by show 55 + (p - 55) = p; omega] at h
  by_cases h3 : p < 165
  · have h := pos_step_2 ⟨p - 110, by omega⟩
    rwa [show 110 + (⟨p - 110, by omega⟩ : Fin 55).val = p from by show 110 + (p - 110) = p; omega] at h
  by_cases h4 : p < 220
  · have h := pos_step_3 ⟨p - 165, by omega⟩
    rwa [show 165 + (⟨p - 165, by omega⟩ : Fin 55).val = p from by show 165 + (p - 165) = p; omega] at h
  · have h := pos_step_4 ⟨p - 220, by omega⟩
    rwa [show 220 + (⟨p - 220, by omega⟩ : Fin 55).val = p from by show 220 + (p - 220) = p; omega] at h

end Stages5

section Stages6
variable [hF : Cert.ReferenceIdeal.Facts]

theorem pos_apply (p : Fin 276) : pos (ix1 p) = BitVec.ofNat 32 (posN p.val) := by
  have h := cumsum_apply (by decide) hist histN hist_apply
    (broadcastInDim S_ ![] bcast_S_S_ (constantI S_ 32 0#32)) (fun _ => rfl) reduceWindows_S276_S276_w276s1p275_0 h_S_ p
  rw [winN_eq_preN histN (by decide) p.isLt,
    preN_eq histN posN 276 pos_zero.symm (fun j hj => pos_step j hj) p.val p.isLt] at h
  exact h

/-- The position's quotient by 24, reduced by 24, is the pair's first field; its remainder by 24 the second. -/
theorem row_word : ∀ p : Fin 276,
    wrW (fmW (fdW (BitVec.ofNat 32 (posN p.val)) 24#32) 24#32) = BitVec.ofNat 32 (Cert.Spec.pairI p).val := by
  decide +kernel
theorem col_word : ∀ p : Fin 276,
    wrW (fmW (fdW (BitVec.ofNat 32 (posN p.val)) 1#32) 24#32) = BitVec.ofNat 32 (Cert.Spec.pairJ p).val := by
  decide +kernel

theorem iuTab_apply (p : Fin 276) : iuTab (ix1 p) = BitVec.ofNat 32 (Cert.Spec.pairI p).val := by
  have h : iuTab (ix1 p) = wrW (fmW (fdW (pos (ix1 p)) 24#32) 24#32) := rfl
  rw [h, pos_apply, row_word]

theorem juTab_apply (p : Fin 276) : juTab (ix1 p) = BitVec.ofNat 32 (Cert.Spec.pairJ p).val := by
  have h : juTab (ix1 p) = wrW (fmW (fdW (pos (ix1 p)) 1#32) 24#32) := rfl
  rw [h, pos_apply, col_word]

/-- The table of first fields holds the first field of the p-th pair. -/
theorem iuTab_eq : (iuTab : IVec S276 32) = fun p => BitVec.ofNat 32 (Cert.Spec.pairI (p 0)).val := by
  funext p
  rw [eq_ix1 p]
  exact iuTab_apply (p 0)

/-- The table of second fields holds the second field of the p-th pair. -/
theorem juTab_eq : (juTab : IVec S276 32) = fun p => BitVec.ofNat 32 (Cert.Spec.pairJ (p 0)).val := by
  funext p
  rw [eq_ix1 p]
  exact juTab_apply (p 0)

end Stages6

end Cert.ReferenceIdeal.Hand

end
-- ==== Proof.RefStages.lean ====
/-
  The reference program's float side as named pure stages: each stage is the printed operation of one
  line of @main applied to earlier stages, a function of exactly the argument contents it depends on.
  The two index tables of the strict upper triangle (the contents of main_v44 and main_v49) depend on no input.
-/
import proofs.«405942_j90769838833781_3_alg».proof.ReferenceIdeal
import proofs.«405942_j90769838833781_3_alg».proof.Proof.Gen.ReferenceIdeal
import proofs.«405942_j90769838833781_3_alg».proof.Proof.RefTables

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F]
variable [hF : Cert.ReferenceIdeal.Facts]

/-! ## The embedding lookup and the pairwise interactions -/

/-- main_v1: the field numbers 0 … 23 as a row. -/
def fieldRow : IVec S1x24 32 :=
  broadcastInDim S1x24 ![1] bcast_S24_S1x24_1 (iotaInDim S24 32 0)

/-- main_v6 (and main_v72, the same operations): a negative field number wrapped by 24. -/
def fieldWrap : IVec S1x24 32 :=
  select (cmpi .slt fieldRow (broadcastInDim S1x24 ![] bcast_S_S1x24 (constantI S_ 32 0#32)))
    (addi fieldRow (broadcastInDim S1x24 ![] bcast_S_S1x24 (constantI S_ 32 24#32))) fieldRow

/-- main_v11 (and main_v77, the same operations): a negative feature index wrapped by 10000. -/
def xWrap (x : IVec S16384x24 32) : IVec S16384x24 32 :=
  select (cmpi .slt x (broadcastInDim S16384x24 ![] bcast_S_S16384x24 (constantI S_ 32 0#32)))
    (addi x (broadcastInDim S16384x24 ![] bcast_S_S16384x24 (constantI S_ 32 10000#32))) x

/-- main_v13 (and main_v79): the wrapped field number at every (example, field), as a last axis of one. -/
def fieldCol : IVec S16384x24x1 32 :=
  broadcastInDim S16384x24x1 ![0, 1] bcast_S16384x24_S16384x24x1_0_1
    (broadcastInDim S16384x24 ![0, 1] bcast_S1x24_S16384x24_0_1 fieldWrap)

/-- main_v14 (and main_v80): the wrapped feature index, as a last axis of one. -/
def xCol (x : IVec S16384x24 32) : IVec S16384x24x1 32 :=
  broadcastInDim S16384x24x1 ![0, 1] bcast_S16384x24_S16384x24x1_0_1 (xWrap x)

/-- main_v15: the index pairs (field, feature) of the embedding lookup. -/
def idxE (x : IVec S16384x24 32) : IVec S16384x24x2 32 :=
  concatenate S16384x24x2 2 [⟨S16384x24x1, fieldCol⟩, ⟨S16384x24x1, xCol x⟩]
    concatenates_S16384x24x1_S16384x24x1_S16384x24x2_d2

/-- main_v16: the looked-up embeddings, [example, field, field, 16]. -/
def gathE (x : IVec S16384x24 32) (E : FVec F S24x10000x24x16 .f32) : FVec F S16384x24x24x16 .f32 :=
  Host.gather gather_S24x10000x24x16_S16384x24x2_S16384x24x24x16_23_01_n_n_01_2_112416 E (idxE x)

/-- main_v18: the embeddings times their transpose in the two field axes. -/
def prodE (x : IVec S16384x24 32) (E : FVec F S24x10000x24x16 .f32) : FVec F S16384x24x24x16 .f32 :=
  mulf (gathE x E) (transpose S16384x24x24x16 [0, 2, 1, 3] (gathE x E) transposes_S16384x24x24x16_S16384x24x24x16_0_2_1_3)

/-- main_v19: the pairwise interactions, the products summed over the embedding axis. -/
def inter (x : IVec S16384x24 32) (E : FVec F S24x10000x24x16 .f32) : FVec F S16384x24x24 .f32 :=
  Host.reduceAdd (prodE x E) (constant S_ .f32 0x00000000#32) reducesTo_S16384x24x24x16_S16384x24x24_d3 h_S_

/-- main_v52: the 276 index pairs of the strict upper triangle. -/
def pairIdx : IVec S276x2 32 :=
  concatenate S276x2 1 [⟨S276x1, broadcastInDim S276x1 ![0] bcast_S276_S276x1_0 iuTab⟩,
    ⟨S276x1, broadcastInDim S276x1 ![0] bcast_S276_S276x1_0 juTab⟩] concatenates_S276x1_S276x1_S276x2_d1

/-- main_v53: the interactions at the pairs of the strict upper triangle. -/
def pairsR (x : IVec S16384x24 32) (E : FVec F S24x10000x24x16 .f32) : FVec F S16384x276 .f32 :=
  Host.gather gather_S16384x24x24_S276x2_S16384x276_0_12_n_n_12_1_1638411 (inter x E) pairIdx

/-! ## The three dense layers -/

/-- main_v58: the first layer, rectified. -/
def h1R (x : IVec S16384x24 32) (E : FVec F S24x10000x24x16 .f32) (W1 : FVec F S276x128 .f32) (b1 : FVec F S128 .f32) :
    FVec F S16384x128 .f32 :=
  maximumf
    (addf (Host.dotGeneral dot_S16384x276_S276x128_S16384x128_1_0_0_1_n_n none (pairsR x E) W1)
      (broadcastInDim S16384x128 ![0, 1] bcast_S1x128_S16384x128_0_1 (broadcastInDim S1x128 ![1] bcast_S128_S1x128_1 b1)))
    (broadcastInDim S16384x128 ![] bcast_S_S16384x128 (constant S_ .f32 0x00000000#32))

/-- main_v63: the second layer, rectified. -/
def h2R (x : IVec S16384x24 32) (E : FVec F S24x10000x24x16 .f32) (W1 : FVec F S276x128 .f32) (b1 : FVec F S128 .f32)
    (W2 : FVec F S128x64 .f32) (b2 : FVec F S64 .f32) : FVec F S16384x64 .f32 :=
  maximumf
    (addf (Host.dotGeneral dot_S16384x128_S128x64_S16384x64_1_0_0_1_n_n none (h1R x E W1 b1) W2)
      (broadcastInDim S16384x64 ![0, 1] bcast_S1x64_S16384x64_0_1 (broadcastInDim S1x64 ![1] bcast_S64_S1x64_1 b2)))
    (broadcastInDim S16384x64 ![] bcast_S_S16384x64 (constant S_ .f32 0x00000000#32))

/-- main_v67: the third layer. -/
def nnR (x : IVec S16384x24 32) (E : FVec F S24x10000x24x16 .f32) (W1 : FVec F S276x128 .f32) (b1 : FVec F S128 .f32)
    (W2 : FVec F S128x64 .f32) (b2 : FVec F S64 .f32) (W3 : FVec F S64x1 .f32) (b3 : FVec F S1 .f32) : FVec F S16384x1 .f32 :=
  addf (Host.dotGeneral dot_S16384x64_S64x1_S16384x1_1_0_0_1_n_n none (h2R x E W1 b1 W2 b2) W3)
    (broadcastInDim S16384x1 ![0, 1] bcast_S1x1_S16384x1_0_1 (broadcastInDim S1x1 ![1] bcast_S1_S1x1_1 b3))

/-! ## The linear term and the sum -/

/-- main_v81: the index pairs (field, feature) of the linear weights' lookup. -/
def idxW (x : IVec S16384x24 32) : IVec S16384x24x2 32 :=
  concatenate S16384x24x2 2 [⟨S16384x24x1, fieldCol⟩, ⟨S16384x24x1, xCol x⟩]
    concatenates_S16384x24x1_S16384x24x1_S16384x24x2_d2

/-- main_v87: the linear term, the looked-up weights summed over the fields, plus the bias. -/
def linR (x : IVec S16384x24 32) (Wlin : FVec F S24x10000 .f32) (blin : FVec F S1 .f32) : FVec F S16384x1 .f32 :=
  addf
    (broadcastInDim S16384x1 ![0] bcast_S16384_S16384x1_0
      (Host.reduceAdd (Host.gather gather_S24x10000_S16384x24x2_S16384x24_n_01_n_n_01_2_11 Wlin (idxW x))
        (constant S_ .f32 0x00000000#32) reducesTo_S16384x24_S16384_d1 h_S_))
    (broadcastInDim S16384x1 ![0, 1] bcast_S1x1_S16384x1_0_1 (broadcastInDim S1x1 ![1] bcast_S1_S1x1_1 blin))

/-- main_v88: the reference's result, the linear term plus the network's output. -/
def refOut (x : IVec S16384x24 32) (E : FVec F S24x10000x24x16 .f32) (Wlin : FVec F S24x10000 .f32) (blin : FVec F S1 .f32)
    (W1 : FVec F S276x128 .f32) (b1 : FVec F S128 .f32) (W2 : FVec F S128x64 .f32) (b2 : FVec F S64 .f32)
    (W3 : FVec F S64x1 .f32) (b3 : FVec F S1 .f32) : FVec F S16384x1 .f32 :=
  addf (linR x Wlin blin) (nnR x E W1 b1 W2 b2 W3 b3)

end Cert.ReferenceIdeal.Hand

end
-- ==== Proof.RefRun.lean ====
/-
  The reference's run. @main is a straight line of 204 host operations once the bodies of the module-local functions
  are listed at their calls over the calls' buffer records; the line is cut into stretches, each with the account of
  what it leaves in the buffers that later stretches read, stated over the named stages of the float side and the
  tables of the integer side. The whole statement, at the ideal instance: every weakly fair execution of @main
  terminates with the result buffer at the stages' composed term of the arguments' launch contents, the arguments
  unchanged.
-/
import proofs.«405942_j90769838833781_3_alg».proof.Proof.RefStages
import Idealize.ShloMosaic.Lib.StableHlo.Run
import Idealize.ShloMosaic.Lib.Pipeline.Frame

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]
variable [hF : Cert.ReferenceIdeal.Facts]

/-! ## The operations, stretch by stretch -/

/-- The field numbers and the feature indices, each wrapped where negative and given a last axis of one (main_v0 … main_v14). -/
abbrev opsA1 : List (HloOp τ sig (Elt F)) :=
  [ StableHlo.nullary main_v0 (iotaInDim S24 32 0),
    StableHlo.unary main_v0 main_v1 (broadcastInDim S1x24 ![1] bcast_S24_S1x24_1 : (⟨S24, .i32⟩ : BufTy).Contents (Elt F) → (⟨S1x24, .i32⟩ : BufTy).Contents (Elt F)),
    StableHlo.nullary main_c (constantI S_ 32 0#32),
    StableHlo.unary main_c main_v2 (broadcastInDim S1x24 ![] bcast_S_S1x24 : (⟨S_, .i32⟩ : BufTy).Contents (Elt F) → (⟨S1x24, .i32⟩ : BufTy).Contents (Elt F)),
    StableHlo.binary main_v1 main_v2 main_v3 (cmpi .slt : (⟨S1x24, .i32⟩ : BufTy).Contents (Elt F) → (⟨S1x24, .i32⟩ : BufTy).Contents (Elt F) → (⟨S1x24, .i1⟩ : BufTy).Contents (Elt F)),
    StableHlo.nullary main_c_0 (constantI S_ 32 24#32),
    StableHlo.unary main_c_0 main_v4 (broadcastInDim S1x24 ![] bcast_S_S1x24 : (⟨S_, .i32⟩ : BufTy).Contents (Elt F) → (⟨S1x24, .i32⟩ : BufTy).Contents (Elt F)),
    StableHlo.binary main_v1 main_v4 main_v5 (addi : (⟨S1x24, .i32⟩ : BufTy).Contents (Elt F) → (⟨S1x24, .i32⟩ : BufTy).Contents (Elt F) → (⟨S1x24, .i32⟩ : BufTy).Contents (Elt F)),
    StableHlo.ternary main_v3 main_v5 main_v1 main_v6 (select : (⟨S1x24, .i1⟩ : BufTy).Contents (Elt F) → (⟨S1x24, .i32⟩ : BufTy).Contents (Elt F) → (⟨S1x24, .i32⟩ : BufTy).Contents (Elt F) → (⟨S1x24, .i32⟩ : BufTy).Contents (Elt F)),
    StableHlo.nullary main_c_1 (constantI S_ 32 0#32),
    StableHlo.unary main_c_1 main_v7 (broadcastInDim S16384x24 ![] bcast_S_S16384x24 : (⟨S_, .i32⟩ : BufTy).Contents (Elt F) → (⟨S16384x24, .i32⟩ : BufTy).Contents (Elt F)),
    StableHlo.binary main_arg0 main_v7 main_v8 (cmpi .slt : (⟨S16384x24, .i32⟩ : BufTy).Contents (Elt F) → (⟨S16384x24, .i32⟩ : BufTy).Contents (Elt F) → (⟨S16384x24, .i1⟩ : BufTy).Contents (Elt F)),
    StableHlo.nullary main_c_2 (constantI S_ 32 10000#32),
    StableHlo.unary main_c_2 main_v9 (broadcastInDim S16384x24 ![] bcast_S_S16384x24 : (⟨S_, .i32⟩ : BufTy).Contents (Elt F) → (⟨S16384x24, .i32⟩ : BufTy).Contents (Elt F)),
    StableHlo.binary main_arg0 main_v9 main_v10 (addi : (⟨S16384x24, .i32⟩ : BufTy).Contents (Elt F) → (⟨S16384x24, .i32⟩ : BufTy).Contents (Elt F) → (⟨S16384x24, .i32⟩ : BufTy).Contents (Elt F)),
    StableHlo.ternary main_v8 main_v10 main_arg0 main_v11 (select : (⟨S16384x24, .i1⟩ : BufTy).Contents (Elt F) → (⟨S16384x24, .i32⟩ : BufTy).Contents (Elt F) → (⟨S16384x24, .i32⟩ : BufTy).Contents (Elt F) → (⟨S16384x24, .i32⟩ : BufTy).Contents (Elt F)),
    StableHlo.unary main_v6 main_v12 (broadcastInDim S16384x24 ![0, 1] bcast_S1x24_S16384x24_0_1 : (⟨S1x24, .i32⟩ : BufTy).Contents (Elt F) → (⟨S16384x24, .i32⟩ : BufTy).Contents (Elt F)),
    StableHlo.unary main_v12 main_v13 (broadcastInDim S16384x24x1 ![0, 1] bcast_S16384x24_S16384x24x1_0_1 : (⟨S16384x24, .i32⟩ : BufTy).Contents (Elt F) → (⟨S16384x24x1, .i32⟩ : BufTy).Contents (Elt F)),
    StableHlo.unary main_v11 main_v14 (broadcastInDim S16384x24x1 ![0, 1] bcast_S16384x24_S16384x24x1_0_1 : (⟨S16384x24, .i32⟩ : BufTy).Contents (Elt F) → (⟨S16384x24x1, .i32⟩ : BufTy).Contents (Elt F)) ]

/-- The embedding lookup, its product with its transpose in the two field axes, and the sum over the embedding axis (main_v15 … main_v19). -/
abbrev opsA2 : List (HloOp τ sig (Elt F)) :=
  [ StableHlo.binary main_v13 main_v14 main_v15 ((fun a b => concatenate S16384x24x2 2 [⟨S16384x24x1, a⟩, ⟨S16384x24x1, b⟩] concatenates_S16384x24x1_S16384x24x1_S16384x24x2_d2) : (⟨S16384x24x1, .i32⟩ : BufTy).Contents (Elt F) → (⟨S16384x24x1, .i32⟩ : BufTy).Contents (Elt F) → (⟨S16384x24x2, .i32⟩ : BufTy).Contents (Elt F)),
    StableHlo.binary main_arg1 main_v15 main_v16 ((fun x i => Host.gather gather_S24x10000x24x16_S16384x24x2_S16384x24x24x16_23_01_n_n_01_2_112416 x i) : (⟨S24x10000x24x16, .f32⟩ : BufTy).Contents (Elt F) → (⟨S16384x24x2, .i32⟩ : BufTy).Contents (Elt F) → (⟨S16384x24x24x16, .f32⟩ : BufTy).Contents (Elt F)),
    StableHlo.unary main_v16 main_v17 ((transpose S16384x24x24x16 [0, 2, 1, 3] · transposes_S16384x24x24x16_S16384x24x24x16_0_2_1_3) : (⟨S16384x24x24x16, .f32⟩ : BufTy).Contents (Elt F) → (⟨S16384x24x24x16, .f32⟩ : BufTy).Contents (Elt F)),
    StableHlo.binary main_v16 main_v17 main_v18 (mulf : (⟨S16384x24x24x16, .f32⟩ : BufTy).Contents (Elt F) → (⟨S16384x24x24x16, .f32⟩ : BufTy).Contents (Elt F) → (⟨S16384x24x24x16, .f32⟩ : BufTy).Contents (Elt F)),
    StableHlo.nullary main_cst (constant S_ .f32 0x00000000#32),
    StableHlo.binary main_v18 main_cst main_v19 ((fun x v => Host.reduceAdd x v reducesTo_S16384x24x24x16_S16384x24x24_d3 h_S_) : (⟨S16384x24x24x16, .f32⟩ : BufTy).Contents (Elt F) → (⟨S_, .f32⟩ : BufTy).Contents (Elt F) → (⟨S16384x24x24, .f32⟩ : BufTy).Contents (Elt F)) ]

/-- The all-ones matrix with its lower triangle and diagonal cleared, and the indicator of what is left (main_cst_3 … main_v23). -/
abbrev opsB1a : List (HloOp τ sig (Elt F)) :=
  [ StableHlo.nullary main_cst_3 (constant S_ .f32 0x3F800000#32),
    StableHlo.unary main_cst_3 main_v20 (broadcastInDim S24x24 ![] bcast_S_S24x24 : (⟨S_, .f32⟩ : BufTy).Contents (Elt F) → (⟨S24x24, .f32⟩ : BufTy).Contents (Elt F)),
    StableHlo.TRef.nullary main_call0.v0 (iotaInDim S24x24 32 0),
    StableHlo.TRef.nullary main_call0.c (constantI S_ 32 0#32),
    StableHlo.TRef.unary main_call0.c main_call0.v1 (broadcastInDim S24x24 ![] bcast_S_S24x24),
    StableHlo.TRef.binary main_call0.v0 main_call0.v1 main_call0.v2 addi,
    StableHlo.TRef.nullary main_call0.v3 (iotaInDim S24x24 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S24x24 ![] bcast_S_S24x24),
    StableHlo.TRef.ternary main_call0.v4 main_call0.v5 (.of main_v20 : StableHlo.TRef sig ⟨S24x24, .f32⟩) main_call0.v6 select,
    StableHlo.nullary main_cst_4 (constant S_ .f32 0x00000000#32),
    StableHlo.unary main_cst_4 main_v22 (broadcastInDim S24x24 ![] bcast_S_S24x24 : (⟨S_, .f32⟩ : BufTy).Contents (Elt F) → (⟨S24x24, .f32⟩ : BufTy).Contents (Elt F)),
    StableHlo.binary main_v21 main_v22 main_v23 (cmpf .une : (⟨S24x24, .f32⟩ : BufTy).Contents (Elt F) → (⟨S24x24, .f32⟩ : BufTy).Contents (Elt F) → (⟨S24x24, .i1⟩ : BufTy).Contents (Elt F)) ]

/-- The indicator over the 576 flat positions, widened to words (the first two operations of the running count's function). -/
abbrev opsB1b : List (HloOp τ sig (Elt F)) :=
  [ StableHlo.TRef.reshape (.of main_v23 : StableHlo.TRef sig ⟨S24x24, .i1⟩) main_call1.v0 rfl shapeCasts_S24x24_S576,
    StableHlo.TRef.unary main_call1.v0 main_call1.v1 (extui 32 · natLt_1_32) ]

/-- The running count of the indicator: a window of 576 positions padded 575 low (… main_v24). -/
abbrev opsB1c1 : List (HloOp τ sig (Elt F)) :=
  [ StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![576] ![1] ![575] ![0] x v reduceWindows_S576_S576_w576s1p575_0 h_S_) ]

/-- The zero table of 276 words, and the count clipped below at zero (main_c_5 … main_v26). -/
abbrev opsB1c2 : List (HloOp τ sig (Elt F)) :=
  [ StableHlo.nullary main_c_5 (constantI S_ 32 0#32),
    StableHlo.unary main_c_5 main_v25 (broadcastInDim S276 ![] bcast_S_S276 : (⟨S_, .i32⟩ : BufTy).Contents (Elt F) → (⟨S276, .i32⟩ : BufTy).Contents (Elt F)),
    StableHlo.nullary main_c_6 (constantI S_ 32 0#32),
    StableHlo.TRef.unary (.of main_c_6 : StableHlo.TRef sig ⟨S_, .i32⟩) main_call2.v0 id,
    StableHlo.TRef.unary main_call2.v0 main_call2.v1 (broadcastInDim S576 ![] bcast_S_S576),
    StableHlo.TRef.binary main_call2.v1 (.of main_v24 : StableHlo.TRef sig ⟨S576, .i32⟩) main_call2.v2 maxsi ]

/-- The clipped count wrapped by 276 where negative, and the number of flat positions at each count: ones scattered and added into the zero table (main_c_7 … main_v34). -/
abbrev opsB1c3 : List (HloOp τ sig (Elt F)) :=
  [ StableHlo.nullary main_c_7 (constantI S_ 32 0#32),
    StableHlo.unary main_c_7 main_v27 (broadcastInDim S576 ![] bcast_S_S576 : (⟨S_, .i32⟩ : BufTy).Contents (Elt F) → (⟨S576, .i32⟩ : BufTy).Contents (Elt F)),
    StableHlo.binary main_v26 main_v27 main_v28 (cmpi .slt : (⟨S576, .i32⟩ : BufTy).Contents (Elt F) → (⟨S576, .i32⟩ : BufTy).Contents (Elt F) → (⟨S576, .i1⟩ : BufTy).Contents (Elt F)),
    StableHlo.nullary main_c_8 (constantI S_ 32 276#32),
    StableHlo.unary main_c_8 main_v29 (broadcastInDim S576 ![] bcast_S_S576 : (⟨S_, .i32⟩ : BufTy).Contents (Elt F) → (⟨S576, .i32⟩ : BufTy).Contents (Elt F)),
    StableHlo.binary main_v26 main_v29 main_v30 (addi : (⟨S576, .i32⟩ : BufTy).Contents (Elt F) → (⟨S576, .i32⟩ : BufTy).Contents (Elt F) → (⟨S576, .i32⟩ : BufTy).Contents (Elt F)),
    StableHlo.ternary main_v28 main_v30 main_v26 main_v31 (select : (⟨S576, .i1⟩ : BufTy).Contents (Elt F) → (⟨S576, .i32⟩ : BufTy).Contents (Elt F) → (⟨S576, .i32⟩ : BufTy).Contents (Elt F) → (⟨S576, .i32⟩ : BufTy).Contents (Elt F)),
    StableHlo.unary main_v31 main_v32 (broadcastInDim S576x1 ![0] bcast_S576_S576x1_0 : (⟨S576, .i32⟩ : BufTy).Contents (Elt F) → (⟨S576x1, .i32⟩ : BufTy).Contents (Elt F)),
    StableHlo.nullary main_c_9 (constantI S_ 32 1#32),
    StableHlo.unary main_c_9 main_v33 (broadcastInDim S576 ![] bcast_S_S576 : (⟨S_, .i32⟩ : BufTy).Contents (Elt F) → (⟨S576, .i32⟩ : BufTy).Contents (Elt F)),
    StableHlo.ternary main_v25 main_v32 main_v33 main_v34 ((fun x i u => Host.scatter scatter_S276_S576x1_S576_n_0_0_1 IntOp.addi x i u) : (⟨S276, .i32⟩ : BufTy).Contents (Elt F) → (⟨S576x1, .i32⟩ : BufTy).Contents (Elt F) → (⟨S576, .i32⟩ : BufTy).Contents (Elt F) → (⟨S276, .i32⟩ : BufTy).Contents (Elt F)) ]

/-- The running sum of those numbers, the flat position of each pair: a window of 276 positions padded 275 low (… main_v35). -/
abbrev opsB1c4 : List (HloOp τ sig (Elt F)) :=
  [ StableHlo.TRef.nullary main_call3.call0.c (constantI S_ 32 0#32),
    StableHlo.TRef.unary main_call3.call0.c main_call3.call0.v0 (broadcastInDim S_ ![] bcast_S_S_),
    StableHlo.TRef.binary (.of main_v34 : StableHlo.TRef sig ⟨S276, .i32⟩) main_call3.call0.v0 main_call3.call0.v1 (fun x v => Host.reduceWindow IntOp.addi ![276] ![1] ![275] ![0] x v reduceWindows_S276_S276_w276s1p275_0 h_S_) ]

/-- The flat position's floor quotient by 24 and that quotient's remainder by 24: the row before the wrap (main_c_10 … main_v37). -/
abbrev opsB2 : List (HloOp τ sig (Elt F)) :=
  [ StableHlo.nullary main_c_10 (constantI S_ 32 24#32),
    StableHlo.TRef.unary (.of main_c_10 : StableHlo.TRef sig ⟨S_, .i32⟩) main_call4.v0 (broadcastInDim S276 ![] bcast_S_S276),
    StableHlo.TRef.binary (.of main_v35 : StableHlo.TRef sig ⟨S276, .i32⟩) main_call4.v0 main_call4.v1 Host.divsi,
    StableHlo.TRef.unary (.of main_v35 : StableHlo.TRef sig ⟨S276, .i32⟩) main_call4.v2 signi,
    StableHlo.TRef.unary (.of main_c_10 : StableHlo.TRef sig ⟨S_, .i32⟩) main_call4.v3 signi,
    StableHlo.TRef.unary main_call4.v3 main_call4.v4 (broadcastInDim S276 ![] bcast_S_S276),
    StableHlo.TRef.binary main_call4.v2 main_call4.v4 main_call4.v5 (cmpi .ne),
    StableHlo.TRef.unary (.of main_c_10 : StableHlo.TRef sig ⟨S_, .i32⟩) main_call4.v6 (broadcastInDim S276 ![] bcast_S_S276),
    StableHlo.TRef.binary (.of main_v35 : StableHlo.TRef sig ⟨S276, .i32⟩) main_call4.v6 main_call4.v7 Host.remsi,
    StableHlo.TRef.nullary main_call4.c (constantI S_ 32 0#32),
    StableHlo.TRef.unary main_call4.c main_call4.v8 (broadcastInDim S276 ![] bcast_S_S276),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S276 ![] bcast_S_S276),
    StableHlo.TRef.binary main_call4.v1 main_call4.v11 main_call4.v12 subi,
    StableHlo.TRef.ternary main_call4.v10 main_call4.v12 main_call4.v1 main_call4.call0.v0 select,
    StableHlo.nullary main_c_11 (constantI S_ 32 24#32),
    StableHlo.TRef.unary (.of main_c_11 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S276 ![] bcast_S_S276),
    StableHlo.TRef.binary (.of main_v36 : StableHlo.TRef sig ⟨S276, .i32⟩) main_call5.v3 main_call5.v4 Host.remsi,
    StableHlo.TRef.nullary main_call5.c_1 (constantI S_ 32 0#32),
    StableHlo.TRef.unary main_call5.c_1 main_call5.v5 (broadcastInDim S276 ![] bcast_S_S276),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S276 ![] bcast_S_S276),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S276 ![] bcast_S_S276),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S276 ![] bcast_S_S276),
    StableHlo.TRef.binary main_call5.v4 main_call5.v13 main_call5.v14 addi,
    StableHlo.TRef.ternary main_call5.v12 main_call5.v14 main_call5.v4 main_call5.v15 select ]

/-- The flat position's floor quotient by 1 and its remainder by 24: the column before the wrap (main_c_12 … main_v39). -/
abbrev opsB3 : List (HloOp τ sig (Elt F)) :=
  [ StableHlo.nullary main_c_12 (constantI S_ 32 1#32),
    StableHlo.TRef.unary (.of main_c_12 : StableHlo.TRef sig ⟨S_, .i32⟩) main_call6.v0 (broadcastInDim S276 ![] bcast_S_S276),
    StableHlo.TRef.binary (.of main_v35 : StableHlo.TRef sig ⟨S276, .i32⟩) main_call6.v0 main_call6.v1 Host.divsi,
    StableHlo.TRef.unary (.of main_v35 : StableHlo.TRef sig ⟨S276, .i32⟩) main_call6.v2 signi,
    StableHlo.TRef.unary (.of main_c_12 : StableHlo.TRef sig ⟨S_, .i32⟩) main_call6.v3 signi,
    StableHlo.TRef.unary main_call6.v3 main_call6.v4 (broadcastInDim S276 ![] bcast_S_S276),
    StableHlo.TRef.binary main_call6.v2 main_call6.v4 main_call6.v5 (cmpi .ne),
    StableHlo.TRef.unary (.of main_c_12 : StableHlo.TRef sig ⟨S_, .i32⟩) main_call6.v6 (broadcastInDim S276 ![] bcast_S_S276),
    StableHlo.TRef.binary (.of main_v35 : StableHlo.TRef sig ⟨S276, .i32⟩) main_call6.v6 main_call6.v7 Host.remsi,
    StableHlo.TRef.nullary main_call6.c (constantI S_ 32 0#32),
    StableHlo.TRef.unary main_call6.c main_call6.v8 (broadcastInDim S276 ![] bcast_S_S276),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S276 ![] bcast_S_S276),
    StableHlo.TRef.binary main_call6.v1 main_call6.v11 main_call6.v12 subi,
    StableHlo.TRef.ternary main_call6.v10 main_call6.v12 main_call6.v1 main_call6.call0.v0 select,
    StableHlo.nullary main_c_13 (constantI S_ 32 24#32),
    StableHlo.TRef.unary (.of main_c_13 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S276 ![] bcast_S_S276),
    StableHlo.TRef.binary (.of main_v38 : StableHlo.TRef sig ⟨S276, .i32⟩) main_call7.v3 main_call7.v4 Host.remsi,
    StableHlo.TRef.nullary main_call7.c_1 (constantI S_ 32 0#32),
    StableHlo.TRef.unary main_call7.c_1 main_call7.v5 (broadcastInDim S276 ![] bcast_S_S276),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S276 ![] bcast_S_S276),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S276 ![] bcast_S_S276),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S276 ![] bcast_S_S276),
    StableHlo.TRef.binary main_call7.v4 main_call7.v13 main_call7.v14 addi,
    StableHlo.TRef.ternary main_call7.v12 main_call7.v14 main_call7.v4 main_call7.v15 select ]

/-- The sign test of the row (main_c_14 … main_c_15; the last operations of the first window). -/
abbrev opsB4a : List (HloOp τ sig (Elt F)) :=
  [ StableHlo.nullary main_c_14 (constantI S_ 32 0#32),
    StableHlo.unary main_c_14 main_v40 (broadcastInDim S276 ![] bcast_S_S276 : (⟨S_, .i32⟩ : BufTy).Contents (Elt F) → (⟨S276, .i32⟩ : BufTy).Contents (Elt F)),
    StableHlo.binary main_v37 main_v40 main_v41 (cmpi .slt : (⟨S276, .i32⟩ : BufTy).Contents (Elt F) → (⟨S276, .i32⟩ : BufTy).Contents (Elt F) → (⟨S276, .i1⟩ : BufTy).Contents (Elt F)),
    StableHlo.nullary main_c_15 (constantI S_ 32 24#32) ]

/-- The row and the column, each wrapped by 24 where negative: the two tables (main_v42 … main_v49). -/
abbrev opsB4b : List (HloOp τ sig (Elt F)) :=
  [ StableHlo.unary main_c_15 main_v42 (broadcastInDim S276 ![] bcast_S_S276 : (⟨S_, .i32⟩ : BufTy).Contents (Elt F) → (⟨S276, .i32⟩ : BufTy).Contents (Elt F)),
    StableHlo.binary main_v37 main_v42 main_v43 (addi : (⟨S276, .i32⟩ : BufTy).Contents (Elt F) → (⟨S276, .i32⟩ : BufTy).Contents (Elt F) → (⟨S276, .i32⟩ : BufTy).Contents (Elt F)),
    StableHlo.ternary main_v41 main_v43 main_v37 main_v44 (select : (⟨S276, .i1⟩ : BufTy).Contents (Elt F) → (⟨S276, .i32⟩ : BufTy).Contents (Elt F) → (⟨S276, .i32⟩ : BufTy).Contents (Elt F) → (⟨S276, .i32⟩ : BufTy).Contents (Elt F)),
    StableHlo.nullary main_c_16 (constantI S_ 32 0#32),
    StableHlo.unary main_c_16 main_v45 (broadcastInDim S276 ![] bcast_S_S276 : (⟨S_, .i32⟩ : BufTy).Contents (Elt F) → (⟨S276, .i32⟩ : BufTy).Contents (Elt F)),
    StableHlo.binary main_v39 main_v45 main_v46 (cmpi .slt : (⟨S276, .i32⟩ : BufTy).Contents (Elt F) → (⟨S276, .i32⟩ : BufTy).Contents (Elt F) → (⟨S276, .i1⟩ : BufTy).Contents (Elt F)),
    StableHlo.nullary main_c_17 (constantI S_ 32 24#32),
    StableHlo.unary main_c_17 main_v47 (broadcastInDim S276 ![] bcast_S_S276 : (⟨S_, .i32⟩ : BufTy).Contents (Elt F) → (⟨S276, .i32⟩ : BufTy).Contents (Elt F)),
    StableHlo.binary main_v39 main_v47 main_v48 (addi : (⟨S276, .i32⟩ : BufTy).Contents (Elt F) → (⟨S276, .i32⟩ : BufTy).Contents (Elt F) → (⟨S276, .i32⟩ : BufTy).Contents (Elt F)),
    StableHlo.ternary main_v46 main_v48 main_v39 main_v49 (select : (⟨S276, .i1⟩ : BufTy).Contents (Elt F) → (⟨S276, .i32⟩ : BufTy).Contents (Elt F) → (⟨S276, .i32⟩ : BufTy).Contents (Elt F) → (⟨S276, .i32⟩ : BufTy).Contents (Elt F)) ]

/-- The two tables, each given a last axis of one (main_v50, main_v51). -/
abbrev opsC1 : List (HloOp τ sig (Elt F)) :=
  [ StableHlo.unary main_v44 main_v50 (broadcastInDim S276x1 ![0] bcast_S276_S276x1_0 : (⟨S276, .i32⟩ : BufTy).Contents (Elt F) → (⟨S276x1, .i32⟩ : BufTy).Contents (Elt F)),
    StableHlo.unary main_v49 main_v51 (broadcastInDim S276x1 ![0] bcast_S276_S276x1_0 : (⟨S276, .i32⟩ : BufTy).Contents (Elt F) → (⟨S276x1, .i32⟩ : BufTy).Contents (Elt F)) ]

/-- The interactions at the pairs of the strict upper triangle and the three dense layers (main_v52 … main_v67). -/
abbrev opsC2 : List (HloOp τ sig (Elt F)) :=
  [ StableHlo.binary main_v50 main_v51 main_v52 ((fun a b => concatenate S276x2 1 [⟨S276x1, a⟩, ⟨S276x1, b⟩] concatenates_S276x1_S276x1_S276x2_d1) : (⟨S276x1, .i32⟩ : BufTy).Contents (Elt F) → (⟨S276x1, .i32⟩ : BufTy).Contents (Elt F) → (⟨S276x2, .i32⟩ : BufTy).Contents (Elt F)),
    StableHlo.binary main_v19 main_v52 main_v53 ((fun x i => Host.gather gather_S16384x24x24_S276x2_S16384x276_0_12_n_n_12_1_1638411 x i) : (⟨S16384x24x24, .f32⟩ : BufTy).Contents (Elt F) → (⟨S276x2, .i32⟩ : BufTy).Contents (Elt F) → (⟨S16384x276, .f32⟩ : BufTy).Contents (Elt F)),
    StableHlo.binary main_v53 main_arg4 main_v54 ((fun l r => Host.dotGeneral dot_S16384x276_S276x128_S16384x128_1_0_0_1_n_n none l r) : (⟨S16384x276, .f32⟩ : BufTy).Contents (Elt F) → (⟨S276x128, .f32⟩ : BufTy).Contents (Elt F) → (⟨S16384x128, .f32⟩ : BufTy).Contents (Elt F)),
    StableHlo.unary main_arg5 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S16384x128 ![0, 1] bcast_S1x128_S16384x128_0_1 : (⟨S1x128, .f32⟩ : BufTy).Contents (Elt F) → (⟨S16384x128, .f32⟩ : BufTy).Contents (Elt F)),
    StableHlo.binary main_v54 main_v56 main_v57 (addf : (⟨S16384x128, .f32⟩ : BufTy).Contents (Elt F) → (⟨S16384x128, .f32⟩ : BufTy).Contents (Elt F) → (⟨S16384x128, .f32⟩ : BufTy).Contents (Elt F)),
    StableHlo.TRef.nullary main_call8.cst (constant S_ .f32 0x00000000#32),
    StableHlo.TRef.unary main_call8.cst main_call8.v0 (broadcastInDim S16384x128 ![] bcast_S_S16384x128),
    StableHlo.TRef.binary (.of main_v57 : StableHlo.TRef sig ⟨S16384x128, .f32⟩) main_call8.v0 main_call8.v1 maximumf,
    StableHlo.binary main_v58 main_arg6 main_v59 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    StableHlo.unary main_arg7 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S16384x64 ![0, 1] bcast_S1x64_S16384x64_0_1 : (⟨S1x64, .f32⟩ : BufTy).Contents (Elt F) → (⟨S16384x64, .f32⟩ : BufTy).Contents (Elt F)),
    StableHlo.binary main_v59 main_v61 main_v62 (addf : (⟨S16384x64, .f32⟩ : BufTy).Contents (Elt F) → (⟨S16384x64, .f32⟩ : BufTy).Contents (Elt F) → (⟨S16384x64, .f32⟩ : BufTy).Contents (Elt F)),
    StableHlo.TRef.nullary main_call9.cst (constant S_ .f32 0x00000000#32),
    StableHlo.TRef.unary main_call9.cst main_call9.v0 (broadcastInDim S16384x64 ![] bcast_S_S16384x64),
    StableHlo.TRef.binary (.of main_v62 : StableHlo.TRef sig ⟨S16384x64, .f32⟩) main_call9.v0 main_call9.v1 maximumf,
    StableHlo.binary main_v63 main_arg8 main_v64 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    StableHlo.unary main_arg9 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S16384x1 ![0, 1] bcast_S1x1_S16384x1_0_1 : (⟨S1x1, .f32⟩ : BufTy).Contents (Elt F) → (⟨S16384x1, .f32⟩ : BufTy).Contents (Elt F)),
    StableHlo.binary main_v64 main_v66 main_v67 (addf : (⟨S16384x1, .f32⟩ : BufTy).Contents (Elt F) → (⟨S16384x1, .f32⟩ : BufTy).Contents (Elt F) → (⟨S16384x1, .f32⟩ : BufTy).Contents (Elt F)) ]

/-- The field numbers and the feature indices again, wrapped and given a last axis of one (main_c_18 … main_v80). -/
abbrev opsD1 : List (HloOp τ sig (Elt F)) :=
  [ StableHlo.nullary main_c_18 (constantI S_ 32 0#32),
    StableHlo.unary main_c_18 main_v68 (broadcastInDim S1x24 ![] bcast_S_S1x24 : (⟨S_, .i32⟩ : BufTy).Contents (Elt F) → (⟨S1x24, .i32⟩ : BufTy).Contents (Elt F)),
    StableHlo.binary main_v1 main_v68 main_v69 (cmpi .slt : (⟨S1x24, .i32⟩ : BufTy).Contents (Elt F) → (⟨S1x24, .i32⟩ : BufTy).Contents (Elt F) → (⟨S1x24, .i1⟩ : BufTy).Contents (Elt F)),
    StableHlo.nullary main_c_19 (constantI S_ 32 24#32),
    StableHlo.unary main_c_19 main_v70 (broadcastInDim S1x24 ![] bcast_S_S1x24 : (⟨S_, .i32⟩ : BufTy).Contents (Elt F) → (⟨S1x24, .i32⟩ : BufTy).Contents (Elt F)),
    StableHlo.binary main_v1 main_v70 main_v71 (addi : (⟨S1x24, .i32⟩ : BufTy).Contents (Elt F) → (⟨S1x24, .i32⟩ : BufTy).Contents (Elt F) → (⟨S1x24, .i32⟩ : BufTy).Contents (Elt F)),
    StableHlo.ternary main_v69 main_v71 main_v1 main_v72 (select : (⟨S1x24, .i1⟩ : BufTy).Contents (Elt F) → (⟨S1x24, .i32⟩ : BufTy).Contents (Elt F) → (⟨S1x24, .i32⟩ : BufTy).Contents (Elt F) → (⟨S1x24, .i32⟩ : BufTy).Contents (Elt F)),
    StableHlo.nullary main_c_20 (constantI S_ 32 0#32),
    StableHlo.unary main_c_20 main_v73 (broadcastInDim S16384x24 ![] bcast_S_S16384x24 : (⟨S_, .i32⟩ : BufTy).Contents (Elt F) → (⟨S16384x24, .i32⟩ : BufTy).Contents (Elt F)),
    StableHlo.binary main_arg0 main_v73 main_v74 (cmpi .slt : (⟨S16384x24, .i32⟩ : BufTy).Contents (Elt F) → (⟨S16384x24, .i32⟩ : BufTy).Contents (Elt F) → (⟨S16384x24, .i1⟩ : BufTy).Contents (Elt F)),
    StableHlo.nullary main_c_21 (constantI S_ 32 10000#32),
    StableHlo.unary main_c_21 main_v75 (broadcastInDim S16384x24 ![] bcast_S_S16384x24 : (⟨S_, .i32⟩ : BufTy).Contents (Elt F) → (⟨S16384x24, .i32⟩ : BufTy).Contents (Elt F)),
    StableHlo.binary main_arg0 main_v75 main_v76 (addi : (⟨S16384x24, .i32⟩ : BufTy).Contents (Elt F) → (⟨S16384x24, .i32⟩ : BufTy).Contents (Elt F) → (⟨S16384x24, .i32⟩ : BufTy).Contents (Elt F)),
    StableHlo.ternary main_v74 main_v76 main_arg0 main_v77 (select : (⟨S16384x24, .i1⟩ : BufTy).Contents (Elt F) → (⟨S16384x24, .i32⟩ : BufTy).Contents (Elt F) → (⟨S16384x24, .i32⟩ : BufTy).Contents (Elt F) → (⟨S16384x24, .i32⟩ : BufTy).Contents (Elt F)),
    StableHlo.unary main_v72 main_v78 (broadcastInDim S16384x24 ![0, 1] bcast_S1x24_S16384x24_0_1 : (⟨S1x24, .i32⟩ : BufTy).Contents (Elt F) → (⟨S16384x24, .i32⟩ : BufTy).Contents (Elt F)),
    StableHlo.unary main_v78 main_v79 (broadcastInDim S16384x24x1 ![0, 1] bcast_S16384x24_S16384x24x1_0_1 : (⟨S16384x24, .i32⟩ : BufTy).Contents (Elt F) → (⟨S16384x24x1, .i32⟩ : BufTy).Contents (Elt F)),
    StableHlo.unary main_v77 main_v80 (broadcastInDim S16384x24x1 ![0, 1] bcast_S16384x24_S16384x24x1_0_1 : (⟨S16384x24, .i32⟩ : BufTy).Contents (Elt F) → (⟨S16384x24x1, .i32⟩ : BufTy).Contents (Elt F)) ]

/-- The lookup of the linear weights, their sum over the fields plus the bias, and the sum with the network's output (main_v81 … main_v88). -/
abbrev opsD2 : List (HloOp τ sig (Elt F)) :=
  [ StableHlo.binary main_v79 main_v80 main_v81 ((fun a b => concatenate S16384x24x2 2 [⟨S16384x24x1, a⟩, ⟨S16384x24x1, b⟩] concatenates_S16384x24x1_S16384x24x1_S16384x24x2_d2) : (⟨S16384x24x1, .i32⟩ : BufTy).Contents (Elt F) → (⟨S16384x24x1, .i32⟩ : BufTy).Contents (Elt F) → (⟨S16384x24x2, .i32⟩ : BufTy).Contents (Elt F)),
    StableHlo.binary main_arg2 main_v81 main_v82 ((fun x i => Host.gather gather_S24x10000_S16384x24x2_S16384x24_n_01_n_n_01_2_11 x i) : (⟨S24x10000, .f32⟩ : BufTy).Contents (Elt F) → (⟨S16384x24x2, .i32⟩ : BufTy).Contents (Elt F) → (⟨S16384x24, .f32⟩ : BufTy).Contents (Elt F)),
    StableHlo.nullary main_cst_22 (constant S_ .f32 0x00000000#32),
    StableHlo.binary main_v82 main_cst_22 main_v83 ((fun x v => Host.reduceAdd x v reducesTo_S16384x24_S16384_d1 h_S_) : (⟨S16384x24, .f32⟩ : BufTy).Contents (Elt F) → (⟨S_, .f32⟩ : BufTy).Contents (Elt F) → (⟨S16384, .f32⟩ : BufTy).Contents (Elt F)),
    StableHlo.unary main_v83 main_v84 (broadcastInDim S16384x1 ![0] bcast_S16384_S16384x1_0 : (⟨S16384, .f32⟩ : BufTy).Contents (Elt F) → (⟨S16384x1, .f32⟩ : BufTy).Contents (Elt F)),
    StableHlo.unary main_arg3 main_v85 (broadcastInDim S1x1 ![1] bcast_S1_S1x1_1 : (⟨S1, .f32⟩ : BufTy).Contents (Elt F) → (⟨S1x1, .f32⟩ : BufTy).Contents (Elt F)),
    StableHlo.unary main_v85 main_v86 (broadcastInDim S16384x1 ![0, 1] bcast_S1x1_S16384x1_0_1 : (⟨S1x1, .f32⟩ : BufTy).Contents (Elt F) → (⟨S16384x1, .f32⟩ : BufTy).Contents (Elt F)),
    StableHlo.binary main_v84 main_v86 main_v87 (addf : (⟨S16384x1, .f32⟩ : BufTy).Contents (Elt F) → (⟨S16384x1, .f32⟩ : BufTy).Contents (Elt F) → (⟨S16384x1, .f32⟩ : BufTy).Contents (Elt F)),
    StableHlo.binary main_v87 main_v67 main_v88 (addf : (⟨S16384x1, .f32⟩ : BufTy).Contents (Elt F) → (⟨S16384x1, .f32⟩ : BufTy).Contents (Elt F) → (⟨S16384x1, .f32⟩ : BufTy).Contents (Elt F)) ]

/-- The operations of @main's first window. -/
abbrev ops0 : List (HloOp τ sig (Elt F)) := opsA1 ++ opsA2 ++ opsB1a ++ opsB1b ++ opsB1c1 ++ opsB1c2 ++ opsB1c3 ++ opsB1c4 ++ opsB2 ++ opsB3 ++ opsB4a
/-- The operations of @main's second window. -/
abbrev ops1 : List (HloOp τ sig (Elt F)) := opsB4b ++ opsC1 ++ opsC2 ++ opsD1 ++ opsD2
/-- @main's 204 operations, in order, the calls unfolded. -/
abbrev ops : List (HloOp τ sig (Elt F)) := ops0 ++ ops1

/-! ## @main is that straight line -/

set_option maxRecDepth 8192 in
theorem part0_eq (c : Dev nD) : main_part0 (F := F) c = seq ops0 := rfl
set_option maxRecDepth 8192 in
theorem part1_eq (c : Dev nD) : main_part1 (F := F) c = seq ops1 := rfl
theorem main_eq (c : Dev nD) : main (F := F) c = seq ops := by
  show (main_part0 c >>= fun _ => main_part1 c) = _
  rw [part0_eq, part1_eq, ← seq_append]

theorem scopedRefs_eq : (Finset.univ.filter fun b : Ref sig .tc => b.isScoped) = ∅ := by decide
theorem scopedSems_eq : (Finset.univ.filter fun sm : SemLoc sig => sm.isScoped .tc) = ∅ := by decide

theorem subA1 : (opsA1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
theorem freshA1 : ∀ op ∈ (opsA1 : List (HloOp τ sig (Elt F))), op.fresh = ∅ := by
  intro _ h; (repeat (cases h with | head => rfl | tail _ h => ?_)); exact nomatch h

theorem subA2 : (opsA2 : List (HloOp τ sig (Elt F))).Forall fun op => op.bufs ⊆ tcRefs τ sig :=
  ⟨binary_bufs_sub .., binary_bufs_sub .., unary_bufs_sub .., binary_bufs_sub .., nullary_bufs_sub .., binary_bufs_sub ..⟩
theorem freshA2 : ∀ op ∈ (opsA2 : List (HloOp τ sig (Elt F))), op.fresh = ∅ := by
  intro _ h; (repeat (cases h with | head => rfl | tail _ h => ?_)); exact nomatch h

theorem subB1a : (opsB1a : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub ..⟩
theorem freshB1a : ∀ op ∈ (opsB1a : List (HloOp τ sig (Elt F))), op.fresh = ∅ := by
  intro _ h; (repeat (cases h with | head => rfl | tail _ h => ?_)); exact nomatch h

theorem subB1b : (opsB1b : List (HloOp τ sig (Elt F))).Forall fun op => op.bufs ⊆ tcRefs τ sig :=
  ⟨reshape_bufs_sub .., unary_bufs_sub ..⟩
theorem freshB1b : ∀ op ∈ (opsB1b : List (HloOp τ sig (Elt F))), op.fresh = ∅ := by
  intro _ h; (repeat (cases h with | head => rfl | tail _ h => ?_)); exact nomatch h

theorem subB1c1 : (opsB1c1 : List (HloOp τ sig (Elt F))).Forall fun op => op.bufs ⊆ tcRefs τ sig :=
  ⟨nullary_bufs_sub .., unary_bufs_sub .., binary_bufs_sub ..⟩
theorem freshB1c1 : ∀ op ∈ (opsB1c1 : List (HloOp τ sig (Elt F))), op.fresh = ∅ := by
  intro _ h; (repeat (cases h with | head => rfl | tail _ h => ?_)); exact nomatch h

theorem subB1c2 : (opsB1c2 : List (HloOp τ sig (Elt F))).Forall fun op => op.bufs ⊆ tcRefs τ sig :=
  ⟨nullary_bufs_sub .., unary_bufs_sub .., nullary_bufs_sub .., unary_bufs_sub .., unary_bufs_sub .., binary_bufs_sub ..⟩
theorem freshB1c2 : ∀ op ∈ (opsB1c2 : List (HloOp τ sig (Elt F))), op.fresh = ∅ := by
  intro _ h; (repeat (cases h with | head => rfl | tail _ h => ?_)); exact nomatch h

theorem subB1c3 : (opsB1c3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem freshB1c3 : ∀ op ∈ (opsB1c3 : List (HloOp τ sig (Elt F))), op.fresh = ∅ := by
  intro _ h; (repeat (cases h with | head => rfl | tail _ h => ?_)); exact nomatch h

theorem subB1c4 : (opsB1c4 : List (HloOp τ sig (Elt F))).Forall fun op => op.bufs ⊆ tcRefs τ sig :=
  ⟨nullary_bufs_sub .., unary_bufs_sub .., binary_bufs_sub ..⟩
theorem freshB1c4 : ∀ op ∈ (opsB1c4 : List (HloOp τ sig (Elt F))), op.fresh = ∅ := by
  intro _ h; (repeat (cases h with | head => rfl | tail _ h => ?_)); exact nomatch h

theorem subB2 : (opsB2 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem freshB2 : ∀ op ∈ (opsB2 : List (HloOp τ sig (Elt F))), op.fresh = ∅ := by
  intro _ h; (repeat (cases h with | head => rfl | tail _ h => ?_)); exact nomatch h

theorem subB3 : (opsB3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem freshB3 : ∀ op ∈ (opsB3 : List (HloOp τ sig (Elt F))), op.fresh = ∅ := by
  intro _ h; (repeat (cases h with | head => rfl | tail _ h => ?_)); exact nomatch h

theorem subB4a : (opsB4a : List (HloOp τ sig (Elt F))).Forall fun op => op.bufs ⊆ tcRefs τ sig :=
  ⟨nullary_bufs_sub .., unary_bufs_sub .., binary_bufs_sub .., nullary_bufs_sub ..⟩
theorem freshB4a : ∀ op ∈ (opsB4a : List (HloOp τ sig (Elt F))), op.fresh = ∅ := by
  intro _ h; (repeat (cases h with | head => rfl | tail _ h => ?_)); exact nomatch h

theorem subB4b : (opsB4b : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub ..⟩
theorem freshB4b : ∀ op ∈ (opsB4b : List (HloOp τ sig (Elt F))), op.fresh = ∅ := by
  intro _ h; (repeat (cases h with | head => rfl | tail _ h => ?_)); exact nomatch h

theorem subC1 : (opsC1 : List (HloOp τ sig (Elt F))).Forall fun op => op.bufs ⊆ tcRefs τ sig :=
  ⟨unary_bufs_sub .., unary_bufs_sub ..⟩
theorem freshC1 : ∀ op ∈ (opsC1 : List (HloOp τ sig (Elt F))), op.fresh = ∅ := by
  intro _ h; (repeat (cases h with | head => rfl | tail _ h => ?_)); exact nomatch h

theorem subC2 : (opsC2 : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem freshC2 : ∀ op ∈ (opsC2 : List (HloOp τ sig (Elt F))), op.fresh = ∅ := by
  intro _ h; (repeat (cases h with | head => rfl | tail _ h => ?_)); exact nomatch h

theorem subD1 : (opsD1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
theorem freshD1 : ∀ op ∈ (opsD1 : List (HloOp τ sig (Elt F))), op.fresh = ∅ := by
  intro _ h; (repeat (cases h with | head => rfl | tail _ h => ?_)); exact nomatch h

theorem subD2 : (opsD2 : List (HloOp τ sig (Elt F))).Forall fun op => op.bufs ⊆ tcRefs τ sig :=
  ⟨binary_bufs_sub .., binary_bufs_sub .., nullary_bufs_sub .., binary_bufs_sub .., unary_bufs_sub .., unary_bufs_sub .., unary_bufs_sub .., binary_bufs_sub .., binary_bufs_sub ..⟩
theorem freshD2 : ∀ op ∈ (opsD2 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig := by
  simp only [ops, ops0, ops1, List.forall_append]
  exact ⟨⟨⟨⟨⟨⟨⟨⟨⟨⟨⟨subA1, subA2⟩, subB1a⟩, subB1b⟩, subB1c1⟩, subB1c2⟩, subB1c3⟩, subB1c4⟩, subB2⟩, subB3⟩, subB4a⟩, ⟨⟨⟨⟨subB4b, subC1⟩, subC2⟩, subD1⟩, subD2⟩⟩

theorem ops_fresh : ∀ op ∈ (ops : List (HloOp τ sig (Elt F))), op.fresh = ∅ := by
  intro op h
  simp only [ops, ops0, ops1, List.mem_append] at h
  rcases h with ((((((((((h | h) | h) | h) | h) | h) | h) | h) | h) | h) | h) | ((((h | h) | h) | h) | h)
  exacts [freshA1 op h, freshA2 op h, freshB1a op h, freshB1b op h, freshB1c1 op h, freshB1c2 op h, freshB1c3 op h, freshB1c4 op h, freshB2 op h, freshB3 op h, freshB4a op h, freshB4b op h, freshC1 op h, freshC2 op h, freshD1 op h, freshD2 op h]

/-! ## What each stretch leaves in the buffers the later stretches read -/

section ValueFloat
variable (W : Valuation τ sig (Elt F))
variable {x : IVec S16384x24 32} {E : FVec F S24x10000x24x16 .f32} {Wlin : FVec F S24x10000 .f32} {blin : FVec F S1 .f32}
    {W1 : FVec F S276x128 .f32} {b1 : FVec F S128 .f32} {W2 : FVec F S128x64 .f32} {b2 : FVec F S64 .f32}
    {W3 : FVec F S64x1 .f32} {b3 : FVec F S1 .f32}

theorem A1_v1 : after opsA1 W (main_v1 : DevRef τ sig) = (fieldRow : IVec S1x24 32) := by
  unfold fieldRow
  after_results_simp

theorem A1_v13 : after opsA1 W (main_v13 : DevRef τ sig) = (fieldCol : IVec S16384x24x1 32) := by
  unfold fieldCol fieldWrap fieldRow
  after_results_simp

theorem A1_v14 (ha0 : W (main_arg0 : DevRef τ sig) = x) : after opsA1 W (main_v14 : DevRef τ sig) = xCol x := by
  unfold xCol xWrap
  after_results_simp
  rw [ha0]

theorem A2_v19 (h13 : W (main_v13 : DevRef τ sig) = (fieldCol : IVec S16384x24x1 32)) (h14 : W (main_v14 : DevRef τ sig) = xCol x)
    (ha1 : W (main_arg1 : DevRef τ sig) = E) : after opsA2 W (main_v19 : DevRef τ sig) = inter x E := by
  unfold inter prodE gathE idxE
  after_results_simp
  rw [h13, h14, ha1]

theorem C1_v50 (h44 : W (main_v44 : DevRef τ sig) = (iuTab : IVec S276 32)) :
    after opsC1 W (main_v50 : DevRef τ sig) = (broadcastInDim S276x1 ![0] bcast_S276_S276x1_0 iuTab : IVec S276x1 32) := by
  after_results_simp
  rw [h44]

theorem C1_v51 (h49 : W (main_v49 : DevRef τ sig) = (juTab : IVec S276 32)) :
    after opsC1 W (main_v51 : DevRef τ sig) = (broadcastInDim S276x1 ![0] bcast_S276_S276x1_0 juTab : IVec S276x1 32) := by
  after_results_simp
  rw [h49]

theorem C2_v67 (h50 : W (main_v50 : DevRef τ sig) = (broadcastInDim S276x1 ![0] bcast_S276_S276x1_0 iuTab : IVec S276x1 32))
    (h51 : W (main_v51 : DevRef τ sig) = (broadcastInDim S276x1 ![0] bcast_S276_S276x1_0 juTab : IVec S276x1 32))
    (h19 : W (main_v19 : DevRef τ sig) = inter x E)
    (ha4 : W (main_arg4 : DevRef τ sig) = W1) (ha5 : W (main_arg5 : DevRef τ sig) = b1) (ha6 : W (main_arg6 : DevRef τ sig) = W2)
    (ha7 : W (main_arg7 : DevRef τ sig) = b2) (ha8 : W (main_arg8 : DevRef τ sig) = W3) (ha9 : W (main_arg9 : DevRef τ sig) = b3) :
    after opsC2 W (main_v67 : DevRef τ sig) = nnR x E W1 b1 W2 b2 W3 b3 := by
  unfold nnR h2R h1R pairsR pairIdx
  after_results_simp
  simp only [TRef.ofBuf, TRef.toBuf, cast_eq]
  rw [h50, h51, h19, ha4, ha5, ha6, ha7, ha8, ha9]

theorem D1_v79 (h1 : W (main_v1 : DevRef τ sig) = (fieldRow : IVec S1x24 32)) :
    after opsD1 W (main_v79 : DevRef τ sig) = (fieldCol : IVec S16384x24x1 32) := by
  unfold fieldCol fieldWrap
  after_results_simp
  rw [h1]

theorem D1_v80 (ha0 : W (main_arg0 : DevRef τ sig) = x) : after opsD1 W (main_v80 : DevRef τ sig) = xCol x := by
  unfold xCol xWrap
  after_results_simp
  rw [ha0]

theorem D2_v88 (h79 : W (main_v79 : DevRef τ sig) = (fieldCol : IVec S16384x24x1 32)) (h80 : W (main_v80 : DevRef τ sig) = xCol x)
    (h67 : W (main_v67 : DevRef τ sig) = nnR x E W1 b1 W2 b2 W3 b3)
    (ha2 : W (main_arg2 : DevRef τ sig) = Wlin) (ha3 : W (main_arg3 : DevRef τ sig) = blin) :
    after opsD2 W (main_v88 : DevRef τ sig) = refOut x E Wlin blin W1 b1 W2 b2 W3 b3 := by
  unfold refOut linR idxW
  after_results_simp
  rw [h79, h80, h67, ha2, ha3]

end ValueFloat

/-! ## The integer side: the two tables, which depend on no input -/

section ValueInt
variable (W : Valuation τ sig (Elt Ideal))

theorem B1a_v23 : after (opsB1a (F := Ideal)) W (main_v23 : DevRef τ sig) = (mask : IVec S24x24 1) := by
  unfold mask triu triLow triCol triRow ones24
  after_results_simp <;> (try simp only [TRef.ofBuf, TRef.toBuf, cast_eq])

theorem B1b_v1 (h23 : W (main_v23 : DevRef τ sig) = (mask : IVec S24x24 1)) :
    after (opsB1b (F := Ideal)) W (main_call1_v1 : DevRef τ sig) = (maskFlat : IVec S576 32) := by
  after_results_simp
  simp only [TRef.ofBuf, TRef.toBuf, cast_eq]
  rw [h23]
  unfold maskFlat
  rfl

theorem B1c1_v24 (h : W (main_call1_v1 : DevRef τ sig) = (maskFlat : IVec S576 32)) :
    after (opsB1c1 (F := Ideal)) W (main_v24 : DevRef τ sig) = (count : IVec S576 32) := by
  unfold count
  after_results_simp
  simp only [TRef.ofBuf, TRef.toBuf, cast_eq]
  rw [h]

theorem B1c2_v25 : after (opsB1c2 (F := Ideal)) W (main_v25 : DevRef τ sig)
    = (broadcastInDim S276 ![] bcast_S_S276 (constantI S_ 32 0#32) : IVec S276 32) := by
  after_results_simp

theorem B1c2_v26 (h : W (main_v24 : DevRef τ sig) = (count : IVec S576 32)) :
    after (opsB1c2 (F := Ideal)) W (main_v26 : DevRef τ sig) = (countClip : IVec S576 32) := by
  unfold countClip
  after_results_simp
  simp only [TRef.ofBuf, TRef.toBuf, cast_eq]
  rw [h]

theorem B1c3_v34 (h25 : W (main_v25 : DevRef τ sig) = (broadcastInDim S276 ![] bcast_S_S276 (constantI S_ 32 0#32) : IVec S276 32))
    (h26 : W (main_v26 : DevRef τ sig) = (countClip : IVec S576 32)) :
    after (opsB1c3 (F := Ideal)) W (main_v34 : DevRef τ sig) = (hist : IVec S276 32) := by
  unfold hist countWrap
  after_results_simp
  rw [h25, h26]

theorem B1c4_v35 (h : W (main_v34 : DevRef τ sig) = (hist : IVec S276 32)) :
    after (opsB1c4 (F := Ideal)) W (main_v35 : DevRef τ sig) = (pos : IVec S276 32) := by
  unfold pos
  after_results_simp
  simp only [TRef.ofBuf, TRef.toBuf, cast_eq]
  rw [h]

theorem B2_v37 (h35 : W (main_v35 : DevRef τ sig) = (pos : IVec S276 32)) :
    after (opsB2 (F := Ideal)) W (main_v37 : DevRef τ sig) = (rowRaw : IVec S276 32) := by
  unfold rowRaw floorMod floorDiv
  after_results_simp
  simp only [TRef.ofBuf, TRef.toBuf, cast_eq]
  rw [h35]

theorem B3_v39 (h35 : W (main_v35 : DevRef τ sig) = (pos : IVec S276 32)) :
    after (opsB3 (F := Ideal)) W (main_v39 : DevRef τ sig) = (colRaw : IVec S276 32) := by
  unfold colRaw floorMod floorDiv
  after_results_simp
  simp only [TRef.ofBuf, TRef.toBuf, cast_eq]
  rw [h35]

theorem B4a_v41 (h37 : W (main_v37 : DevRef τ sig) = (rowRaw : IVec S276 32)) :
    after (opsB4a (F := Ideal)) W (main_v41 : DevRef τ sig)
      = (cmpi .slt rowRaw (broadcastInDim S276 ![] bcast_S_S276 (constantI S_ 32 0#32)) : IVec S276 1) := by
  after_results_simp
  rw [h37]

theorem B4a_c15 : after (opsB4a (F := Ideal)) W (main_c_15 : DevRef τ sig) = (constantI S_ 32 24#32 : IVec S_ 32) := by
  after_results_simp

theorem B4b_v44 (h37 : W (main_v37 : DevRef τ sig) = (rowRaw : IVec S276 32))
    (h41 : W (main_v41 : DevRef τ sig) = (cmpi .slt rowRaw (broadcastInDim S276 ![] bcast_S_S276 (constantI S_ 32 0#32)) : IVec S276 1))
    (hc : W (main_c_15 : DevRef τ sig) = (constantI S_ 32 24#32 : IVec S_ 32)) :
    after (opsB4b (F := Ideal)) W (main_v44 : DevRef τ sig) = (iuTab : IVec S276 32) := by
  unfold iuTab wrap24
  after_results_simp
  rw [h37, h41, hc]

theorem B4b_v49 (h39 : W (main_v39 : DevRef τ sig) = (colRaw : IVec S276 32)) :
    after (opsB4b (F := Ideal)) W (main_v49 : DevRef τ sig) = (juTab : IVec S276 32) := by
  unfold juTab wrap24
  after_results_simp
  rw [h39]

end ValueInt

/-! ## A stretch leaves alone every buffer it does not write -/

section Pass
variable (W : Valuation τ sig (Elt F))
theorem P_A1_main_arg0 : after opsA1 W (main_arg0 : DevRef τ sig) = W (main_arg0 : DevRef τ sig) := by after_results_simp
theorem P_A1_main_arg1 : after opsA1 W (main_arg1 : DevRef τ sig) = W (main_arg1 : DevRef τ sig) := by after_results_simp
theorem P_A1_main_arg2 : after opsA1 W (main_arg2 : DevRef τ sig) = W (main_arg2 : DevRef τ sig) := by after_results_simp
theorem P_A1_main_arg3 : after opsA1 W (main_arg3 : DevRef τ sig) = W (main_arg3 : DevRef τ sig) := by after_results_simp
theorem P_A1_main_arg4 : after opsA1 W (main_arg4 : DevRef τ sig) = W (main_arg4 : DevRef τ sig) := by after_results_simp
theorem P_A1_main_arg5 : after opsA1 W (main_arg5 : DevRef τ sig) = W (main_arg5 : DevRef τ sig) := by after_results_simp
theorem P_A1_main_arg6 : after opsA1 W (main_arg6 : DevRef τ sig) = W (main_arg6 : DevRef τ sig) := by after_results_simp
theorem P_A1_main_arg7 : after opsA1 W (main_arg7 : DevRef τ sig) = W (main_arg7 : DevRef τ sig) := by after_results_simp
theorem P_A1_main_arg8 : after opsA1 W (main_arg8 : DevRef τ sig) = W (main_arg8 : DevRef τ sig) := by after_results_simp
theorem P_A1_main_arg9 : after opsA1 W (main_arg9 : DevRef τ sig) = W (main_arg9 : DevRef τ sig) := by after_results_simp
theorem P_A2_main_arg0 : after opsA2 W (main_arg0 : DevRef τ sig) = W (main_arg0 : DevRef τ sig) := by after_results_simp
theorem P_A2_main_arg1 : after opsA2 W (main_arg1 : DevRef τ sig) = W (main_arg1 : DevRef τ sig) := by after_results_simp
theorem P_A2_main_arg2 : after opsA2 W (main_arg2 : DevRef τ sig) = W (main_arg2 : DevRef τ sig) := by after_results_simp
theorem P_A2_main_arg3 : after opsA2 W (main_arg3 : DevRef τ sig) = W (main_arg3 : DevRef τ sig) := by after_results_simp
theorem P_A2_main_arg4 : after opsA2 W (main_arg4 : DevRef τ sig) = W (main_arg4 : DevRef τ sig) := by after_results_simp
theorem P_A2_main_arg5 : after opsA2 W (main_arg5 : DevRef τ sig) = W (main_arg5 : DevRef τ sig) := by after_results_simp
theorem P_A2_main_arg6 : after opsA2 W (main_arg6 : DevRef τ sig) = W (main_arg6 : DevRef τ sig) := by after_results_simp
theorem P_A2_main_arg7 : after opsA2 W (main_arg7 : DevRef τ sig) = W (main_arg7 : DevRef τ sig) := by after_results_simp
theorem P_A2_main_arg8 : after opsA2 W (main_arg8 : DevRef τ sig) = W (main_arg8 : DevRef τ sig) := by after_results_simp
theorem P_A2_main_arg9 : after opsA2 W (main_arg9 : DevRef τ sig) = W (main_arg9 : DevRef τ sig) := by after_results_simp
theorem P_A2_main_v1 : after opsA2 W (main_v1 : DevRef τ sig) = W (main_v1 : DevRef τ sig) := by after_results_simp
theorem P_B1a_main_arg0 : after opsB1a W (main_arg0 : DevRef τ sig) = W (main_arg0 : DevRef τ sig) := by after_results_simp
theorem P_B1a_main_arg1 : after opsB1a W (main_arg1 : DevRef τ sig) = W (main_arg1 : DevRef τ sig) := by after_results_simp
theorem P_B1a_main_arg2 : after opsB1a W (main_arg2 : DevRef τ sig) = W (main_arg2 : DevRef τ sig) := by after_results_simp
theorem P_B1a_main_arg3 : after opsB1a W (main_arg3 : DevRef τ sig) = W (main_arg3 : DevRef τ sig) := by after_results_simp
theorem P_B1a_main_arg4 : after opsB1a W (main_arg4 : DevRef τ sig) = W (main_arg4 : DevRef τ sig) := by after_results_simp
theorem P_B1a_main_arg5 : after opsB1a W (main_arg5 : DevRef τ sig) = W (main_arg5 : DevRef τ sig) := by after_results_simp
theorem P_B1a_main_arg6 : after opsB1a W (main_arg6 : DevRef τ sig) = W (main_arg6 : DevRef τ sig) := by after_results_simp
theorem P_B1a_main_arg7 : after opsB1a W (main_arg7 : DevRef τ sig) = W (main_arg7 : DevRef τ sig) := by after_results_simp
theorem P_B1a_main_arg8 : after opsB1a W (main_arg8 : DevRef τ sig) = W (main_arg8 : DevRef τ sig) := by after_results_simp
theorem P_B1a_main_arg9 : after opsB1a W (main_arg9 : DevRef τ sig) = W (main_arg9 : DevRef τ sig) := by after_results_simp
theorem P_B1a_main_v19 : after opsB1a W (main_v19 : DevRef τ sig) = W (main_v19 : DevRef τ sig) := by after_results_simp
theorem P_B1a_main_v1 : after opsB1a W (main_v1 : DevRef τ sig) = W (main_v1 : DevRef τ sig) := by after_results_simp
theorem P_B1b_main_arg0 : after opsB1b W (main_arg0 : DevRef τ sig) = W (main_arg0 : DevRef τ sig) := by after_results_simp
theorem P_B1b_main_arg1 : after opsB1b W (main_arg1 : DevRef τ sig) = W (main_arg1 : DevRef τ sig) := by after_results_simp
theorem P_B1b_main_arg2 : after opsB1b W (main_arg2 : DevRef τ sig) = W (main_arg2 : DevRef τ sig) := by after_results_simp
theorem P_B1b_main_arg3 : after opsB1b W (main_arg3 : DevRef τ sig) = W (main_arg3 : DevRef τ sig) := by after_results_simp
theorem P_B1b_main_arg4 : after opsB1b W (main_arg4 : DevRef τ sig) = W (main_arg4 : DevRef τ sig) := by after_results_simp
theorem P_B1b_main_arg5 : after opsB1b W (main_arg5 : DevRef τ sig) = W (main_arg5 : DevRef τ sig) := by after_results_simp
theorem P_B1b_main_arg6 : after opsB1b W (main_arg6 : DevRef τ sig) = W (main_arg6 : DevRef τ sig) := by after_results_simp
theorem P_B1b_main_arg7 : after opsB1b W (main_arg7 : DevRef τ sig) = W (main_arg7 : DevRef τ sig) := by after_results_simp
theorem P_B1b_main_arg8 : after opsB1b W (main_arg8 : DevRef τ sig) = W (main_arg8 : DevRef τ sig) := by after_results_simp
theorem P_B1b_main_arg9 : after opsB1b W (main_arg9 : DevRef τ sig) = W (main_arg9 : DevRef τ sig) := by after_results_simp
theorem P_B1b_main_v19 : after opsB1b W (main_v19 : DevRef τ sig) = W (main_v19 : DevRef τ sig) := by after_results_simp
theorem P_B1b_main_v1 : after opsB1b W (main_v1 : DevRef τ sig) = W (main_v1 : DevRef τ sig) := by after_results_simp
theorem P_B1c1_main_arg0 : after opsB1c1 W (main_arg0 : DevRef τ sig) = W (main_arg0 : DevRef τ sig) := by after_results_simp
theorem P_B1c1_main_arg1 : after opsB1c1 W (main_arg1 : DevRef τ sig) = W (main_arg1 : DevRef τ sig) := by after_results_simp
theorem P_B1c1_main_arg2 : after opsB1c1 W (main_arg2 : DevRef τ sig) = W (main_arg2 : DevRef τ sig) := by after_results_simp
theorem P_B1c1_main_arg3 : after opsB1c1 W (main_arg3 : DevRef τ sig) = W (main_arg3 : DevRef τ sig) := by after_results_simp
theorem P_B1c1_main_arg4 : after opsB1c1 W (main_arg4 : DevRef τ sig) = W (main_arg4 : DevRef τ sig) := by after_results_simp
theorem P_B1c1_main_arg5 : after opsB1c1 W (main_arg5 : DevRef τ sig) = W (main_arg5 : DevRef τ sig) := by after_results_simp
theorem P_B1c1_main_arg6 : after opsB1c1 W (main_arg6 : DevRef τ sig) = W (main_arg6 : DevRef τ sig) := by after_results_simp
theorem P_B1c1_main_arg7 : after opsB1c1 W (main_arg7 : DevRef τ sig) = W (main_arg7 : DevRef τ sig) := by after_results_simp
theorem P_B1c1_main_arg8 : after opsB1c1 W (main_arg8 : DevRef τ sig) = W (main_arg8 : DevRef τ sig) := by after_results_simp
theorem P_B1c1_main_arg9 : after opsB1c1 W (main_arg9 : DevRef τ sig) = W (main_arg9 : DevRef τ sig) := by after_results_simp
theorem P_B1c1_main_v19 : after opsB1c1 W (main_v19 : DevRef τ sig) = W (main_v19 : DevRef τ sig) := by after_results_simp
theorem P_B1c1_main_v1 : after opsB1c1 W (main_v1 : DevRef τ sig) = W (main_v1 : DevRef τ sig) := by after_results_simp
theorem P_B1c2_main_arg0 : after opsB1c2 W (main_arg0 : DevRef τ sig) = W (main_arg0 : DevRef τ sig) := by after_results_simp
theorem P_B1c2_main_arg1 : after opsB1c2 W (main_arg1 : DevRef τ sig) = W (main_arg1 : DevRef τ sig) := by after_results_simp
theorem P_B1c2_main_arg2 : after opsB1c2 W (main_arg2 : DevRef τ sig) = W (main_arg2 : DevRef τ sig) := by after_results_simp
theorem P_B1c2_main_arg3 : after opsB1c2 W (main_arg3 : DevRef τ sig) = W (main_arg3 : DevRef τ sig) := by after_results_simp
theorem P_B1c2_main_arg4 : after opsB1c2 W (main_arg4 : DevRef τ sig) = W (main_arg4 : DevRef τ sig) := by after_results_simp
theorem P_B1c2_main_arg5 : after opsB1c2 W (main_arg5 : DevRef τ sig) = W (main_arg5 : DevRef τ sig) := by after_results_simp
theorem P_B1c2_main_arg6 : after opsB1c2 W (main_arg6 : DevRef τ sig) = W (main_arg6 : DevRef τ sig) := by after_results_simp
theorem P_B1c2_main_arg7 : after opsB1c2 W (main_arg7 : DevRef τ sig) = W (main_arg7 : DevRef τ sig) := by after_results_simp
theorem P_B1c2_main_arg8 : after opsB1c2 W (main_arg8 : DevRef τ sig) = W (main_arg8 : DevRef τ sig) := by after_results_simp
theorem P_B1c2_main_arg9 : after opsB1c2 W (main_arg9 : DevRef τ sig) = W (main_arg9 : DevRef τ sig) := by after_results_simp
theorem P_B1c2_main_v19 : after opsB1c2 W (main_v19 : DevRef τ sig) = W (main_v19 : DevRef τ sig) := by after_results_simp
theorem P_B1c2_main_v1 : after opsB1c2 W (main_v1 : DevRef τ sig) = W (main_v1 : DevRef τ sig) := by after_results_simp
theorem P_B1c3_main_arg0 : after opsB1c3 W (main_arg0 : DevRef τ sig) = W (main_arg0 : DevRef τ sig) := by after_results_simp
theorem P_B1c3_main_arg1 : after opsB1c3 W (main_arg1 : DevRef τ sig) = W (main_arg1 : DevRef τ sig) := by after_results_simp
theorem P_B1c3_main_arg2 : after opsB1c3 W (main_arg2 : DevRef τ sig) = W (main_arg2 : DevRef τ sig) := by after_results_simp
theorem P_B1c3_main_arg3 : after opsB1c3 W (main_arg3 : DevRef τ sig) = W (main_arg3 : DevRef τ sig) := by after_results_simp
theorem P_B1c3_main_arg4 : after opsB1c3 W (main_arg4 : DevRef τ sig) = W (main_arg4 : DevRef τ sig) := by after_results_simp
theorem P_B1c3_main_arg5 : after opsB1c3 W (main_arg5 : DevRef τ sig) = W (main_arg5 : DevRef τ sig) := by after_results_simp
theorem P_B1c3_main_arg6 : after opsB1c3 W (main_arg6 : DevRef τ sig) = W (main_arg6 : DevRef τ sig) := by after_results_simp
theorem P_B1c3_main_arg7 : after opsB1c3 W (main_arg7 : DevRef τ sig) = W (main_arg7 : DevRef τ sig) := by after_results_simp
theorem P_B1c3_main_arg8 : after opsB1c3 W (main_arg8 : DevRef τ sig) = W (main_arg8 : DevRef τ sig) := by after_results_simp
theorem P_B1c3_main_arg9 : after opsB1c3 W (main_arg9 : DevRef τ sig) = W (main_arg9 : DevRef τ sig) := by after_results_simp
theorem P_B1c3_main_v19 : after opsB1c3 W (main_v19 : DevRef τ sig) = W (main_v19 : DevRef τ sig) := by after_results_simp
theorem P_B1c3_main_v1 : after opsB1c3 W (main_v1 : DevRef τ sig) = W (main_v1 : DevRef τ sig) := by after_results_simp
theorem P_B1c4_main_arg0 : after opsB1c4 W (main_arg0 : DevRef τ sig) = W (main_arg0 : DevRef τ sig) := by after_results_simp
theorem P_B1c4_main_arg1 : after opsB1c4 W (main_arg1 : DevRef τ sig) = W (main_arg1 : DevRef τ sig) := by after_results_simp
theorem P_B1c4_main_arg2 : after opsB1c4 W (main_arg2 : DevRef τ sig) = W (main_arg2 : DevRef τ sig) := by after_results_simp
theorem P_B1c4_main_arg3 : after opsB1c4 W (main_arg3 : DevRef τ sig) = W (main_arg3 : DevRef τ sig) := by after_results_simp
theorem P_B1c4_main_arg4 : after opsB1c4 W (main_arg4 : DevRef τ sig) = W (main_arg4 : DevRef τ sig) := by after_results_simp
theorem P_B1c4_main_arg5 : after opsB1c4 W (main_arg5 : DevRef τ sig) = W (main_arg5 : DevRef τ sig) := by after_results_simp
theorem P_B1c4_main_arg6 : after opsB1c4 W (main_arg6 : DevRef τ sig) = W (main_arg6 : DevRef τ sig) := by after_results_simp
theorem P_B1c4_main_arg7 : after opsB1c4 W (main_arg7 : DevRef τ sig) = W (main_arg7 : DevRef τ sig) := by after_results_simp
theorem P_B1c4_main_arg8 : after opsB1c4 W (main_arg8 : DevRef τ sig) = W (main_arg8 : DevRef τ sig) := by after_results_simp
theorem P_B1c4_main_arg9 : after opsB1c4 W (main_arg9 : DevRef τ sig) = W (main_arg9 : DevRef τ sig) := by after_results_simp
theorem P_B1c4_main_v19 : after opsB1c4 W (main_v19 : DevRef τ sig) = W (main_v19 : DevRef τ sig) := by after_results_simp
theorem P_B1c4_main_v1 : after opsB1c4 W (main_v1 : DevRef τ sig) = W (main_v1 : DevRef τ sig) := by after_results_simp
theorem P_B2_main_arg0 : after opsB2 W (main_arg0 : DevRef τ sig) = W (main_arg0 : DevRef τ sig) := by after_results_simp
theorem P_B2_main_arg1 : after opsB2 W (main_arg1 : DevRef τ sig) = W (main_arg1 : DevRef τ sig) := by after_results_simp
theorem P_B2_main_arg2 : after opsB2 W (main_arg2 : DevRef τ sig) = W (main_arg2 : DevRef τ sig) := by after_results_simp
theorem P_B2_main_arg3 : after opsB2 W (main_arg3 : DevRef τ sig) = W (main_arg3 : DevRef τ sig) := by after_results_simp
theorem P_B2_main_arg4 : after opsB2 W (main_arg4 : DevRef τ sig) = W (main_arg4 : DevRef τ sig) := by after_results_simp
theorem P_B2_main_arg5 : after opsB2 W (main_arg5 : DevRef τ sig) = W (main_arg5 : DevRef τ sig) := by after_results_simp
theorem P_B2_main_arg6 : after opsB2 W (main_arg6 : DevRef τ sig) = W (main_arg6 : DevRef τ sig) := by after_results_simp
theorem P_B2_main_arg7 : after opsB2 W (main_arg7 : DevRef τ sig) = W (main_arg7 : DevRef τ sig) := by after_results_simp
theorem P_B2_main_arg8 : after opsB2 W (main_arg8 : DevRef τ sig) = W (main_arg8 : DevRef τ sig) := by after_results_simp
theorem P_B2_main_arg9 : after opsB2 W (main_arg9 : DevRef τ sig) = W (main_arg9 : DevRef τ sig) := by after_results_simp
theorem P_B2_main_v35 : after opsB2 W (main_v35 : DevRef τ sig) = W (main_v35 : DevRef τ sig) := by after_results_simp
theorem P_B2_main_v19 : after opsB2 W (main_v19 : DevRef τ sig) = W (main_v19 : DevRef τ sig) := by after_results_simp
theorem P_B2_main_v1 : after opsB2 W (main_v1 : DevRef τ sig) = W (main_v1 : DevRef τ sig) := by after_results_simp
theorem P_B3_main_arg0 : after opsB3 W (main_arg0 : DevRef τ sig) = W (main_arg0 : DevRef τ sig) := by after_results_simp
theorem P_B3_main_arg1 : after opsB3 W (main_arg1 : DevRef τ sig) = W (main_arg1 : DevRef τ sig) := by after_results_simp
theorem P_B3_main_arg2 : after opsB3 W (main_arg2 : DevRef τ sig) = W (main_arg2 : DevRef τ sig) := by after_results_simp
theorem P_B3_main_arg3 : after opsB3 W (main_arg3 : DevRef τ sig) = W (main_arg3 : DevRef τ sig) := by after_results_simp
theorem P_B3_main_arg4 : after opsB3 W (main_arg4 : DevRef τ sig) = W (main_arg4 : DevRef τ sig) := by after_results_simp
theorem P_B3_main_arg5 : after opsB3 W (main_arg5 : DevRef τ sig) = W (main_arg5 : DevRef τ sig) := by after_results_simp
theorem P_B3_main_arg6 : after opsB3 W (main_arg6 : DevRef τ sig) = W (main_arg6 : DevRef τ sig) := by after_results_simp
theorem P_B3_main_arg7 : after opsB3 W (main_arg7 : DevRef τ sig) = W (main_arg7 : DevRef τ sig) := by after_results_simp
theorem P_B3_main_arg8 : after opsB3 W (main_arg8 : DevRef τ sig) = W (main_arg8 : DevRef τ sig) := by after_results_simp
theorem P_B3_main_arg9 : after opsB3 W (main_arg9 : DevRef τ sig) = W (main_arg9 : DevRef τ sig) := by after_results_simp
theorem P_B3_main_v37 : after opsB3 W (main_v37 : DevRef τ sig) = W (main_v37 : DevRef τ sig) := by after_results_simp
theorem P_B3_main_v19 : after opsB3 W (main_v19 : DevRef τ sig) = W (main_v19 : DevRef τ sig) := by after_results_simp
theorem P_B3_main_v1 : after opsB3 W (main_v1 : DevRef τ sig) = W (main_v1 : DevRef τ sig) := by after_results_simp
theorem P_B4a_main_arg0 : after opsB4a W (main_arg0 : DevRef τ sig) = W (main_arg0 : DevRef τ sig) := by after_results_simp
theorem P_B4a_main_arg1 : after opsB4a W (main_arg1 : DevRef τ sig) = W (main_arg1 : DevRef τ sig) := by after_results_simp
theorem P_B4a_main_arg2 : after opsB4a W (main_arg2 : DevRef τ sig) = W (main_arg2 : DevRef τ sig) := by after_results_simp
theorem P_B4a_main_arg3 : after opsB4a W (main_arg3 : DevRef τ sig) = W (main_arg3 : DevRef τ sig) := by after_results_simp
theorem P_B4a_main_arg4 : after opsB4a W (main_arg4 : DevRef τ sig) = W (main_arg4 : DevRef τ sig) := by after_results_simp
theorem P_B4a_main_arg5 : after opsB4a W (main_arg5 : DevRef τ sig) = W (main_arg5 : DevRef τ sig) := by after_results_simp
theorem P_B4a_main_arg6 : after opsB4a W (main_arg6 : DevRef τ sig) = W (main_arg6 : DevRef τ sig) := by after_results_simp
theorem P_B4a_main_arg7 : after opsB4a W (main_arg7 : DevRef τ sig) = W (main_arg7 : DevRef τ sig) := by after_results_simp
theorem P_B4a_main_arg8 : after opsB4a W (main_arg8 : DevRef τ sig) = W (main_arg8 : DevRef τ sig) := by after_results_simp
theorem P_B4a_main_arg9 : after opsB4a W (main_arg9 : DevRef τ sig) = W (main_arg9 : DevRef τ sig) := by after_results_simp
theorem P_B4a_main_v37 : after opsB4a W (main_v37 : DevRef τ sig) = W (main_v37 : DevRef τ sig) := by after_results_simp
theorem P_B4a_main_v39 : after opsB4a W (main_v39 : DevRef τ sig) = W (main_v39 : DevRef τ sig) := by after_results_simp
theorem P_B4a_main_v19 : after opsB4a W (main_v19 : DevRef τ sig) = W (main_v19 : DevRef τ sig) := by after_results_simp
theorem P_B4a_main_v1 : after opsB4a W (main_v1 : DevRef τ sig) = W (main_v1 : DevRef τ sig) := by after_results_simp
theorem P_B4b_main_arg0 : after opsB4b W (main_arg0 : DevRef τ sig) = W (main_arg0 : DevRef τ sig) := by after_results_simp
theorem P_B4b_main_arg1 : after opsB4b W (main_arg1 : DevRef τ sig) = W (main_arg1 : DevRef τ sig) := by after_results_simp
theorem P_B4b_main_arg2 : after opsB4b W (main_arg2 : DevRef τ sig) = W (main_arg2 : DevRef τ sig) := by after_results_simp
theorem P_B4b_main_arg3 : after opsB4b W (main_arg3 : DevRef τ sig) = W (main_arg3 : DevRef τ sig) := by after_results_simp
theorem P_B4b_main_arg4 : after opsB4b W (main_arg4 : DevRef τ sig) = W (main_arg4 : DevRef τ sig) := by after_results_simp
theorem P_B4b_main_arg5 : after opsB4b W (main_arg5 : DevRef τ sig) = W (main_arg5 : DevRef τ sig) := by after_results_simp
theorem P_B4b_main_arg6 : after opsB4b W (main_arg6 : DevRef τ sig) = W (main_arg6 : DevRef τ sig) := by after_results_simp
theorem P_B4b_main_arg7 : after opsB4b W (main_arg7 : DevRef τ sig) = W (main_arg7 : DevRef τ sig) := by after_results_simp
theorem P_B4b_main_arg8 : after opsB4b W (main_arg8 : DevRef τ sig) = W (main_arg8 : DevRef τ sig) := by after_results_simp
theorem P_B4b_main_arg9 : after opsB4b W (main_arg9 : DevRef τ sig) = W (main_arg9 : DevRef τ sig) := by after_results_simp
theorem P_B4b_main_v19 : after opsB4b W (main_v19 : DevRef τ sig) = W (main_v19 : DevRef τ sig) := by after_results_simp
theorem P_B4b_main_v1 : after opsB4b W (main_v1 : DevRef τ sig) = W (main_v1 : DevRef τ sig) := by after_results_simp
theorem P_C1_main_arg0 : after opsC1 W (main_arg0 : DevRef τ sig) = W (main_arg0 : DevRef τ sig) := by after_results_simp
theorem P_C1_main_arg1 : after opsC1 W (main_arg1 : DevRef τ sig) = W (main_arg1 : DevRef τ sig) := by after_results_simp
theorem P_C1_main_arg2 : after opsC1 W (main_arg2 : DevRef τ sig) = W (main_arg2 : DevRef τ sig) := by after_results_simp
theorem P_C1_main_arg3 : after opsC1 W (main_arg3 : DevRef τ sig) = W (main_arg3 : DevRef τ sig) := by after_results_simp
theorem P_C1_main_arg4 : after opsC1 W (main_arg4 : DevRef τ sig) = W (main_arg4 : DevRef τ sig) := by after_results_simp
theorem P_C1_main_arg5 : after opsC1 W (main_arg5 : DevRef τ sig) = W (main_arg5 : DevRef τ sig) := by after_results_simp
theorem P_C1_main_arg6 : after opsC1 W (main_arg6 : DevRef τ sig) = W (main_arg6 : DevRef τ sig) := by after_results_simp
theorem P_C1_main_arg7 : after opsC1 W (main_arg7 : DevRef τ sig) = W (main_arg7 : DevRef τ sig) := by after_results_simp
theorem P_C1_main_arg8 : after opsC1 W (main_arg8 : DevRef τ sig) = W (main_arg8 : DevRef τ sig) := by after_results_simp
theorem P_C1_main_arg9 : after opsC1 W (main_arg9 : DevRef τ sig) = W (main_arg9 : DevRef τ sig) := by after_results_simp
theorem P_C1_main_v19 : after opsC1 W (main_v19 : DevRef τ sig) = W (main_v19 : DevRef τ sig) := by after_results_simp
theorem P_C1_main_v1 : after opsC1 W (main_v1 : DevRef τ sig) = W (main_v1 : DevRef τ sig) := by after_results_simp
theorem P_C2_main_arg0 : after opsC2 W (main_arg0 : DevRef τ sig) = W (main_arg0 : DevRef τ sig) := by after_results_simp
theorem P_C2_main_arg1 : after opsC2 W (main_arg1 : DevRef τ sig) = W (main_arg1 : DevRef τ sig) := by after_results_simp
theorem P_C2_main_arg2 : after opsC2 W (main_arg2 : DevRef τ sig) = W (main_arg2 : DevRef τ sig) := by after_results_simp
theorem P_C2_main_arg3 : after opsC2 W (main_arg3 : DevRef τ sig) = W (main_arg3 : DevRef τ sig) := by after_results_simp
theorem P_C2_main_arg4 : after opsC2 W (main_arg4 : DevRef τ sig) = W (main_arg4 : DevRef τ sig) := by after_results_simp
theorem P_C2_main_arg5 : after opsC2 W (main_arg5 : DevRef τ sig) = W (main_arg5 : DevRef τ sig) := by after_results_simp
theorem P_C2_main_arg6 : after opsC2 W (main_arg6 : DevRef τ sig) = W (main_arg6 : DevRef τ sig) := by after_results_simp
theorem P_C2_main_arg7 : after opsC2 W (main_arg7 : DevRef τ sig) = W (main_arg7 : DevRef τ sig) := by after_results_simp
theorem P_C2_main_arg8 : after opsC2 W (main_arg8 : DevRef τ sig) = W (main_arg8 : DevRef τ sig) := by after_results_simp
theorem P_C2_main_arg9 : after opsC2 W (main_arg9 : DevRef τ sig) = W (main_arg9 : DevRef τ sig) := by after_results_simp
theorem P_C2_main_v1 : after opsC2 W (main_v1 : DevRef τ sig) = W (main_v1 : DevRef τ sig) := by after_results_simp
theorem P_D1_main_arg0 : after opsD1 W (main_arg0 : DevRef τ sig) = W (main_arg0 : DevRef τ sig) := by after_results_simp
theorem P_D1_main_arg1 : after opsD1 W (main_arg1 : DevRef τ sig) = W (main_arg1 : DevRef τ sig) := by after_results_simp
theorem P_D1_main_arg2 : after opsD1 W (main_arg2 : DevRef τ sig) = W (main_arg2 : DevRef τ sig) := by after_results_simp
theorem P_D1_main_arg3 : after opsD1 W (main_arg3 : DevRef τ sig) = W (main_arg3 : DevRef τ sig) := by after_results_simp
theorem P_D1_main_arg4 : after opsD1 W (main_arg4 : DevRef τ sig) = W (main_arg4 : DevRef τ sig) := by after_results_simp
theorem P_D1_main_arg5 : after opsD1 W (main_arg5 : DevRef τ sig) = W (main_arg5 : DevRef τ sig) := by after_results_simp
theorem P_D1_main_arg6 : after opsD1 W (main_arg6 : DevRef τ sig) = W (main_arg6 : DevRef τ sig) := by after_results_simp
theorem P_D1_main_arg7 : after opsD1 W (main_arg7 : DevRef τ sig) = W (main_arg7 : DevRef τ sig) := by after_results_simp
theorem P_D1_main_arg8 : after opsD1 W (main_arg8 : DevRef τ sig) = W (main_arg8 : DevRef τ sig) := by after_results_simp
theorem P_D1_main_arg9 : after opsD1 W (main_arg9 : DevRef τ sig) = W (main_arg9 : DevRef τ sig) := by after_results_simp
theorem P_D1_main_v67 : after opsD1 W (main_v67 : DevRef τ sig) = W (main_v67 : DevRef τ sig) := by after_results_simp
theorem P_D2_main_arg0 : after opsD2 W (main_arg0 : DevRef τ sig) = W (main_arg0 : DevRef τ sig) := by after_results_simp
theorem P_D2_main_arg1 : after opsD2 W (main_arg1 : DevRef τ sig) = W (main_arg1 : DevRef τ sig) := by after_results_simp
theorem P_D2_main_arg2 : after opsD2 W (main_arg2 : DevRef τ sig) = W (main_arg2 : DevRef τ sig) := by after_results_simp
theorem P_D2_main_arg3 : after opsD2 W (main_arg3 : DevRef τ sig) = W (main_arg3 : DevRef τ sig) := by after_results_simp
theorem P_D2_main_arg4 : after opsD2 W (main_arg4 : DevRef τ sig) = W (main_arg4 : DevRef τ sig) := by after_results_simp
theorem P_D2_main_arg5 : after opsD2 W (main_arg5 : DevRef τ sig) = W (main_arg5 : DevRef τ sig) := by after_results_simp
theorem P_D2_main_arg6 : after opsD2 W (main_arg6 : DevRef τ sig) = W (main_arg6 : DevRef τ sig) := by after_results_simp
theorem P_D2_main_arg7 : after opsD2 W (main_arg7 : DevRef τ sig) = W (main_arg7 : DevRef τ sig) := by after_results_simp
theorem P_D2_main_arg8 : after opsD2 W (main_arg8 : DevRef τ sig) = W (main_arg8 : DevRef τ sig) := by after_results_simp
theorem P_D2_main_arg9 : after opsD2 W (main_arg9 : DevRef τ sig) = W (main_arg9 : DevRef τ sig) := by after_results_simp
end Pass

/-! ## The whole line -/

section Whole
variable (V : Valuation τ sig (Elt Ideal))

theorem after_ops : after (ops (F := Ideal)) V = (after opsD2 (after opsD1 (after opsC2 (after opsC1 (after opsB4b (after opsB4a (after opsB3 (after opsB2 (after opsB1c4 (after opsB1c3 (after opsB1c2 (after opsB1c1 (after opsB1b (after opsB1a (after opsA2 (after opsA1 V)))))))))))))))) := by
  simp only [ops, ops0, ops1, StableHlo.after_append]

theorem out_eq : after (ops (F := Ideal)) V (main_v88 : DevRef τ sig)
    = refOut (F := Ideal) (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) (V (main_arg7 : DevRef τ sig))
        (V (main_arg8 : DevRef τ sig)) (V (main_arg9 : DevRef τ sig)) := by
  rw [after_ops]
  exact (D2_v88 (after opsD1 (after opsC2 (after opsC1 (after opsB4b (after opsB4a (after opsB3 (after opsB2 (after opsB1c4 (after opsB1c3 (after opsB1c2 (after opsB1c1 (after opsB1b (after opsB1a (after opsA2 (after opsA1 V))))))))))))))) (D1_v79 (after opsC2 (after opsC1 (after opsB4b (after opsB4a (after opsB3 (after opsB2 (after opsB1c4 (after opsB1c3 (after opsB1c2 (after opsB1c1 (after opsB1b (after opsB1a (after opsA2 (after opsA1 V)))))))))))))) ((P_C2_main_v1 (after opsC1 (after opsB4b (after opsB4a (after opsB3 (after opsB2 (after opsB1c4 (after opsB1c3 (after opsB1c2 (after opsB1c1 (after opsB1b (after opsB1a (after opsA2 (after opsA1 V)))))))))))))).trans ((P_C1_main_v1 (after opsB4b (after opsB4a (after opsB3 (after opsB2 (after opsB1c4 (after opsB1c3 (after opsB1c2 (after opsB1c1 (after opsB1b (after opsB1a (after opsA2 (after opsA1 V))))))))))))).trans ((P_B4b_main_v1 (after opsB4a (after opsB3 (after opsB2 (after opsB1c4 (after opsB1c3 (after opsB1c2 (after opsB1c1 (after opsB1b (after opsB1a (after opsA2 (after opsA1 V)))))))))))).trans ((P_B4a_main_v1 (after opsB3 (after opsB2 (after opsB1c4 (after opsB1c3 (after opsB1c2 (after opsB1c1 (after opsB1b (after opsB1a (after opsA2 (after opsA1 V))))))))))).trans ((P_B3_main_v1 (after opsB2 (after opsB1c4 (after opsB1c3 (after opsB1c2 (after opsB1c1 (after opsB1b (after opsB1a (after opsA2 (after opsA1 V)))))))))).trans ((P_B2_main_v1 (after opsB1c4 (after opsB1c3 (after opsB1c2 (after opsB1c1 (after opsB1b (after opsB1a (after opsA2 (after opsA1 V))))))))).trans ((P_B1c4_main_v1 (after opsB1c3 (after opsB1c2 (after opsB1c1 (after opsB1b (after opsB1a (after opsA2 (after opsA1 V)))))))).trans ((P_B1c3_main_v1 (after opsB1c2 (after opsB1c1 (after opsB1b (after opsB1a (after opsA2 (after opsA1 V))))))).trans ((P_B1c2_main_v1 (after opsB1c1 (after opsB1b (after opsB1a (after opsA2 (after opsA1 V)))))).trans ((P_B1c1_main_v1 (after opsB1b (after opsB1a (after opsA2 (after opsA1 V))))).trans ((P_B1b_main_v1 (after opsB1a (after opsA2 (after opsA1 V)))).trans ((P_B1a_main_v1 (after opsA2 (after opsA1 V))).trans ((P_A2_main_v1 (after opsA1 V)).trans (A1_v1 V))))))))))))))) (D1_v80 (after opsC2 (after opsC1 (after opsB4b (after opsB4a (after opsB3 (after opsB2 (after opsB1c4 (after opsB1c3 (after opsB1c2 (after opsB1c1 (after opsB1b (after opsB1a (after opsA2 (after opsA1 V)))))))))))))) ((P_C2_main_arg0 (after opsC1 (after opsB4b (after opsB4a (after opsB3 (after opsB2 (after opsB1c4 (after opsB1c3 (after opsB1c2 (after opsB1c1 (after opsB1b (after opsB1a (after opsA2 (after opsA1 V)))))))))))))).trans ((P_C1_main_arg0 (after opsB4b (after opsB4a (after opsB3 (after opsB2 (after opsB1c4 (after opsB1c3 (after opsB1c2 (after opsB1c1 (after opsB1b (after opsB1a (after opsA2 (after opsA1 V))))))))))))).trans ((P_B4b_main_arg0 (after opsB4a (after opsB3 (after opsB2 (after opsB1c4 (after opsB1c3 (after opsB1c2 (after opsB1c1 (after opsB1b (after opsB1a (after opsA2 (after opsA1 V)))))))))))).trans ((P_B4a_main_arg0 (after opsB3 (after opsB2 (after opsB1c4 (after opsB1c3 (after opsB1c2 (after opsB1c1 (after opsB1b (after opsB1a (after opsA2 (after opsA1 V))))))))))).trans ((P_B3_main_arg0 (after opsB2 (after opsB1c4 (after opsB1c3 (after opsB1c2 (after opsB1c1 (after opsB1b (after opsB1a (after opsA2 (after opsA1 V)))))))))).trans ((P_B2_main_arg0 (after opsB1c4 (after opsB1c3 (after opsB1c2 (after opsB1c1 (after opsB1b (after opsB1a (after opsA2 (after opsA1 V))))))))).trans ((P_B1c4_main_arg0 (after opsB1c3 (after opsB1c2 (after opsB1c1 (after opsB1b (after opsB1a (after opsA2 (after opsA1 V)))))))).trans ((P_B1c3_main_arg0 (after opsB1c2 (after opsB1c1 (after opsB1b (after opsB1a (after opsA2 (after opsA1 V))))))).trans ((P_B1c2_main_arg0 (after opsB1c1 (after opsB1b (after opsB1a (after opsA2 (after opsA1 V)))))).trans ((P_B1c1_main_arg0 (after opsB1b (after opsB1a (after opsA2 (after opsA1 V))))).trans ((P_B1b_main_arg0 (after opsB1a (after opsA2 (after opsA1 V)))).trans ((P_B1a_main_arg0 (after opsA2 (after opsA1 V))).trans ((P_A2_main_arg0 (after opsA1 V)).trans ((P_A1_main_arg0 V).trans rfl))))))))))))))) ((P_D1_main_v67 (after opsC2 (after opsC1 (after opsB4b (after opsB4a (after opsB3 (after opsB2 (after opsB1c4 (after opsB1c3 (after opsB1c2 (after opsB1c1 (after opsB1b (after opsB1a (after opsA2 (after opsA1 V))))))))))))))).trans (C2_v67 (after opsC1 (after opsB4b (after opsB4a (after opsB3 (after opsB2 (after opsB1c4 (after opsB1c3 (after opsB1c2 (after opsB1c1 (after opsB1b (after opsB1a (after opsA2 (after opsA1 V))))))))))))) (C1_v50 (after opsB4b (after opsB4a (after opsB3 (after opsB2 (after opsB1c4 (after opsB1c3 (after opsB1c2 (after opsB1c1 (after opsB1b (after opsB1a (after opsA2 (after opsA1 V)))))))))))) (B4b_v44 (after opsB4a (after opsB3 (after opsB2 (after opsB1c4 (after opsB1c3 (after opsB1c2 (after opsB1c1 (after opsB1b (after opsB1a (after opsA2 (after opsA1 V))))))))))) ((P_B4a_main_v37 (after opsB3 (after opsB2 (after opsB1c4 (after opsB1c3 (after opsB1c2 (after opsB1c1 (after opsB1b (after opsB1a (after opsA2 (after opsA1 V))))))))))).trans ((P_B3_main_v37 (after opsB2 (after opsB1c4 (after opsB1c3 (after opsB1c2 (after opsB1c1 (after opsB1b (after opsB1a (after opsA2 (after opsA1 V)))))))))).trans (B2_v37 (after opsB1c4 (after opsB1c3 (after opsB1c2 (after opsB1c1 (after opsB1b (after opsB1a (after opsA2 (after opsA1 V)))))))) (B1c4_v35 (after opsB1c3 (after opsB1c2 (after opsB1c1 (after opsB1b (after opsB1a (after opsA2 (after opsA1 V))))))) (B1c3_v34 (after opsB1c2 (after opsB1c1 (after opsB1b (after opsB1a (after opsA2 (after opsA1 V)))))) (B1c2_v25 (after opsB1c1 (after opsB1b (after opsB1a (after opsA2 (after opsA1 V)))))) (B1c2_v26 (after opsB1c1 (after opsB1b (after opsB1a (after opsA2 (after opsA1 V))))) (B1c1_v24 (after opsB1b (after opsB1a (after opsA2 (after opsA1 V)))) (B1b_v1 (after opsB1a (after opsA2 (after opsA1 V))) (B1a_v23 (after opsA2 (after opsA1 V))))))))))) (B4a_v41 (after opsB3 (after opsB2 (after opsB1c4 (after opsB1c3 (after opsB1c2 (after opsB1c1 (after opsB1b (after opsB1a (after opsA2 (after opsA1 V)))))))))) ((P_B3_main_v37 (after opsB2 (after opsB1c4 (after opsB1c3 (after opsB1c2 (after opsB1c1 (after opsB1b (after opsB1a (after opsA2 (after opsA1 V)))))))))).trans (B2_v37 (after opsB1c4 (after opsB1c3 (after opsB1c2 (after opsB1c1 (after opsB1b (after opsB1a (after opsA2 (after opsA1 V)))))))) (B1c4_v35 (after opsB1c3 (after opsB1c2 (after opsB1c1 (after opsB1b (after opsB1a (after opsA2 (after opsA1 V))))))) (B1c3_v34 (after opsB1c2 (after opsB1c1 (after opsB1b (after opsB1a (after opsA2 (after opsA1 V)))))) (B1c2_v25 (after opsB1c1 (after opsB1b (after opsB1a (after opsA2 (after opsA1 V)))))) (B1c2_v26 (after opsB1c1 (after opsB1b (after opsB1a (after opsA2 (after opsA1 V))))) (B1c1_v24 (after opsB1b (after opsB1a (after opsA2 (after opsA1 V)))) (B1b_v1 (after opsB1a (after opsA2 (after opsA1 V))) (B1a_v23 (after opsA2 (after opsA1 V))))))))))) (B4a_c15 (after opsB3 (after opsB2 (after opsB1c4 (after opsB1c3 (after opsB1c2 (after opsB1c1 (after opsB1b (after opsB1a (after opsA2 (after opsA1 V))))))))))))) (C1_v51 (after opsB4b (after opsB4a (after opsB3 (after opsB2 (after opsB1c4 (after opsB1c3 (after opsB1c2 (after opsB1c1 (after opsB1b (after opsB1a (after opsA2 (after opsA1 V)))))))))))) (B4b_v49 (after opsB4a (after opsB3 (after opsB2 (after opsB1c4 (after opsB1c3 (after opsB1c2 (after opsB1c1 (after opsB1b (after opsB1a (after opsA2 (after opsA1 V))))))))))) ((P_B4a_main_v39 (after opsB3 (after opsB2 (after opsB1c4 (after opsB1c3 (after opsB1c2 (after opsB1c1 (after opsB1b (after opsB1a (after opsA2 (after opsA1 V))))))))))).trans (B3_v39 (after opsB2 (after opsB1c4 (after opsB1c3 (after opsB1c2 (after opsB1c1 (after opsB1b (after opsB1a (after opsA2 (after opsA1 V))))))))) ((P_B2_main_v35 (after opsB1c4 (after opsB1c3 (after opsB1c2 (after opsB1c1 (after opsB1b (after opsB1a (after opsA2 (after opsA1 V))))))))).trans (B1c4_v35 (after opsB1c3 (after opsB1c2 (after opsB1c1 (after opsB1b (after opsB1a (after opsA2 (after opsA1 V))))))) (B1c3_v34 (after opsB1c2 (after opsB1c1 (after opsB1b (after opsB1a (after opsA2 (after opsA1 V)))))) (B1c2_v25 (after opsB1c1 (after opsB1b (after opsB1a (after opsA2 (after opsA1 V)))))) (B1c2_v26 (after opsB1c1 (after opsB1b (after opsB1a (after opsA2 (after opsA1 V))))) (B1c1_v24 (after opsB1b (after opsB1a (after opsA2 (after opsA1 V)))) (B1b_v1 (after opsB1a (after opsA2 (after opsA1 V))) (B1a_v23 (after opsA2 (after opsA1 V))))))))))))) ((P_C1_main_v19 (after opsB4b (after opsB4a (after opsB3 (after opsB2 (after opsB1c4 (after opsB1c3 (after opsB1c2 (after opsB1c1 (after opsB1b (after opsB1a (after opsA2 (after opsA1 V))))))))))))).trans ((P_B4b_main_v19 (after opsB4a (after opsB3 (after opsB2 (after opsB1c4 (after opsB1c3 (after opsB1c2 (after opsB1c1 (after opsB1b (after opsB1a (after opsA2 (after opsA1 V)))))))))))).trans ((P_B4a_main_v19 (after opsB3 (after opsB2 (after opsB1c4 (after opsB1c3 (after opsB1c2 (after opsB1c1 (after opsB1b (after opsB1a (after opsA2 (after opsA1 V))))))))))).trans ((P_B3_main_v19 (after opsB2 (after opsB1c4 (after opsB1c3 (after opsB1c2 (after opsB1c1 (after opsB1b (after opsB1a (after opsA2 (after opsA1 V)))))))))).trans ((P_B2_main_v19 (after opsB1c4 (after opsB1c3 (after opsB1c2 (after opsB1c1 (after opsB1b (after opsB1a (after opsA2 (after opsA1 V))))))))).trans ((P_B1c4_main_v19 (after opsB1c3 (after opsB1c2 (after opsB1c1 (after opsB1b (after opsB1a (after opsA2 (after opsA1 V)))))))).trans ((P_B1c3_main_v19 (after opsB1c2 (after opsB1c1 (after opsB1b (after opsB1a (after opsA2 (after opsA1 V))))))).trans ((P_B1c2_main_v19 (after opsB1c1 (after opsB1b (after opsB1a (after opsA2 (after opsA1 V)))))).trans ((P_B1c1_main_v19 (after opsB1b (after opsB1a (after opsA2 (after opsA1 V))))).trans ((P_B1b_main_v19 (after opsB1a (after opsA2 (after opsA1 V)))).trans ((P_B1a_main_v19 (after opsA2 (after opsA1 V))).trans (A2_v19 (after opsA1 V) (A1_v13 V) (A1_v14 V rfl) ((P_A1_main_arg1 V).trans rfl))))))))))))) ((P_C1_main_arg4 (after opsB4b (after opsB4a (after opsB3 (after opsB2 (after opsB1c4 (after opsB1c3 (after opsB1c2 (after opsB1c1 (after opsB1b (after opsB1a (after opsA2 (after opsA1 V))))))))))))).trans ((P_B4b_main_arg4 (after opsB4a (after opsB3 (after opsB2 (after opsB1c4 (after opsB1c3 (after opsB1c2 (after opsB1c1 (after opsB1b (after opsB1a (after opsA2 (after opsA1 V)))))))))))).trans ((P_B4a_main_arg4 (after opsB3 (after opsB2 (after opsB1c4 (after opsB1c3 (after opsB1c2 (after opsB1c1 (after opsB1b (after opsB1a (after opsA2 (after opsA1 V))))))))))).trans ((P_B3_main_arg4 (after opsB2 (after opsB1c4 (after opsB1c3 (after opsB1c2 (after opsB1c1 (after opsB1b (after opsB1a (after opsA2 (after opsA1 V)))))))))).trans ((P_B2_main_arg4 (after opsB1c4 (after opsB1c3 (after opsB1c2 (after opsB1c1 (after opsB1b (after opsB1a (after opsA2 (after opsA1 V))))))))).trans ((P_B1c4_main_arg4 (after opsB1c3 (after opsB1c2 (after opsB1c1 (after opsB1b (after opsB1a (after opsA2 (after opsA1 V)))))))).trans ((P_B1c3_main_arg4 (after opsB1c2 (after opsB1c1 (after opsB1b (after opsB1a (after opsA2 (after opsA1 V))))))).trans ((P_B1c2_main_arg4 (after opsB1c1 (after opsB1b (after opsB1a (after opsA2 (after opsA1 V)))))).trans ((P_B1c1_main_arg4 (after opsB1b (after opsB1a (after opsA2 (after opsA1 V))))).trans ((P_B1b_main_arg4 (after opsB1a (after opsA2 (after opsA1 V)))).trans ((P_B1a_main_arg4 (after opsA2 (after opsA1 V))).trans ((P_A2_main_arg4 (after opsA1 V)).trans ((P_A1_main_arg4 V).trans rfl))))))))))))) ((P_C1_main_arg5 (after opsB4b (after opsB4a (after opsB3 (after opsB2 (after opsB1c4 (after opsB1c3 (after opsB1c2 (after opsB1c1 (after opsB1b (after opsB1a (after opsA2 (after opsA1 V))))))))))))).trans ((P_B4b_main_arg5 (after opsB4a (after opsB3 (after opsB2 (after opsB1c4 (after opsB1c3 (after opsB1c2 (after opsB1c1 (after opsB1b (after opsB1a (after opsA2 (after opsA1 V)))))))))))).trans ((P_B4a_main_arg5 (after opsB3 (after opsB2 (after opsB1c4 (after opsB1c3 (after opsB1c2 (after opsB1c1 (after opsB1b (after opsB1a (after opsA2 (after opsA1 V))))))))))).trans ((P_B3_main_arg5 (after opsB2 (after opsB1c4 (after opsB1c3 (after opsB1c2 (after opsB1c1 (after opsB1b (after opsB1a (after opsA2 (after opsA1 V)))))))))).trans ((P_B2_main_arg5 (after opsB1c4 (after opsB1c3 (after opsB1c2 (after opsB1c1 (after opsB1b (after opsB1a (after opsA2 (after opsA1 V))))))))).trans ((P_B1c4_main_arg5 (after opsB1c3 (after opsB1c2 (after opsB1c1 (after opsB1b (after opsB1a (after opsA2 (after opsA1 V)))))))).trans ((P_B1c3_main_arg5 (after opsB1c2 (after opsB1c1 (after opsB1b (after opsB1a (after opsA2 (after opsA1 V))))))).trans ((P_B1c2_main_arg5 (after opsB1c1 (after opsB1b (after opsB1a (after opsA2 (after opsA1 V)))))).trans ((P_B1c1_main_arg5 (after opsB1b (after opsB1a (after opsA2 (after opsA1 V))))).trans ((P_B1b_main_arg5 (after opsB1a (after opsA2 (after opsA1 V)))).trans ((P_B1a_main_arg5 (after opsA2 (after opsA1 V))).trans ((P_A2_main_arg5 (after opsA1 V)).trans ((P_A1_main_arg5 V).trans rfl))))))))))))) ((P_C1_main_arg6 (after opsB4b (after opsB4a (after opsB3 (after opsB2 (after opsB1c4 (after opsB1c3 (after opsB1c2 (after opsB1c1 (after opsB1b (after opsB1a (after opsA2 (after opsA1 V))))))))))))).trans ((P_B4b_main_arg6 (after opsB4a (after opsB3 (after opsB2 (after opsB1c4 (after opsB1c3 (after opsB1c2 (after opsB1c1 (after opsB1b (after opsB1a (after opsA2 (after opsA1 V)))))))))))).trans ((P_B4a_main_arg6 (after opsB3 (after opsB2 (after opsB1c4 (after opsB1c3 (after opsB1c2 (after opsB1c1 (after opsB1b (after opsB1a (after opsA2 (after opsA1 V))))))))))).trans ((P_B3_main_arg6 (after opsB2 (after opsB1c4 (after opsB1c3 (after opsB1c2 (after opsB1c1 (after opsB1b (after opsB1a (after opsA2 (after opsA1 V)))))))))).trans ((P_B2_main_arg6 (after opsB1c4 (after opsB1c3 (after opsB1c2 (after opsB1c1 (after opsB1b (after opsB1a (after opsA2 (after opsA1 V))))))))).trans ((P_B1c4_main_arg6 (after opsB1c3 (after opsB1c2 (after opsB1c1 (after opsB1b (after opsB1a (after opsA2 (after opsA1 V)))))))).trans ((P_B1c3_main_arg6 (after opsB1c2 (after opsB1c1 (after opsB1b (after opsB1a (after opsA2 (after opsA1 V))))))).trans ((P_B1c2_main_arg6 (after opsB1c1 (after opsB1b (after opsB1a (after opsA2 (after opsA1 V)))))).trans ((P_B1c1_main_arg6 (after opsB1b (after opsB1a (after opsA2 (after opsA1 V))))).trans ((P_B1b_main_arg6 (after opsB1a (after opsA2 (after opsA1 V)))).trans ((P_B1a_main_arg6 (after opsA2 (after opsA1 V))).trans ((P_A2_main_arg6 (after opsA1 V)).trans ((P_A1_main_arg6 V).trans rfl))))))))))))) ((P_C1_main_arg7 (after opsB4b (after opsB4a (after opsB3 (after opsB2 (after opsB1c4 (after opsB1c3 (after opsB1c2 (after opsB1c1 (after opsB1b (after opsB1a (after opsA2 (after opsA1 V))))))))))))).trans ((P_B4b_main_arg7 (after opsB4a (after opsB3 (after opsB2 (after opsB1c4 (after opsB1c3 (after opsB1c2 (after opsB1c1 (after opsB1b (after opsB1a (after opsA2 (after opsA1 V)))))))))))).trans ((P_B4a_main_arg7 (after opsB3 (after opsB2 (after opsB1c4 (after opsB1c3 (after opsB1c2 (after opsB1c1 (after opsB1b (after opsB1a (after opsA2 (after opsA1 V))))))))))).trans ((P_B3_main_arg7 (after opsB2 (after opsB1c4 (after opsB1c3 (after opsB1c2 (after opsB1c1 (after opsB1b (after opsB1a (after opsA2 (after opsA1 V)))))))))).trans ((P_B2_main_arg7 (after opsB1c4 (after opsB1c3 (after opsB1c2 (after opsB1c1 (after opsB1b (after opsB1a (after opsA2 (after opsA1 V))))))))).trans ((P_B1c4_main_arg7 (after opsB1c3 (after opsB1c2 (after opsB1c1 (after opsB1b (after opsB1a (after opsA2 (after opsA1 V)))))))).trans ((P_B1c3_main_arg7 (after opsB1c2 (after opsB1c1 (after opsB1b (after opsB1a (after opsA2 (after opsA1 V))))))).trans ((P_B1c2_main_arg7 (after opsB1c1 (after opsB1b (after opsB1a (after opsA2 (after opsA1 V)))))).trans ((P_B1c1_main_arg7 (after opsB1b (after opsB1a (after opsA2 (after opsA1 V))))).trans ((P_B1b_main_arg7 (after opsB1a (after opsA2 (after opsA1 V)))).trans ((P_B1a_main_arg7 (after opsA2 (after opsA1 V))).trans ((P_A2_main_arg7 (after opsA1 V)).trans ((P_A1_main_arg7 V).trans rfl))))))))))))) ((P_C1_main_arg8 (after opsB4b (after opsB4a (after opsB3 (after opsB2 (after opsB1c4 (after opsB1c3 (after opsB1c2 (after opsB1c1 (after opsB1b (after opsB1a (after opsA2 (after opsA1 V))))))))))))).trans ((P_B4b_main_arg8 (after opsB4a (after opsB3 (after opsB2 (after opsB1c4 (after opsB1c3 (after opsB1c2 (after opsB1c1 (after opsB1b (after opsB1a (after opsA2 (after opsA1 V)))))))))))).trans ((P_B4a_main_arg8 (after opsB3 (after opsB2 (after opsB1c4 (after opsB1c3 (after opsB1c2 (after opsB1c1 (after opsB1b (after opsB1a (after opsA2 (after opsA1 V))))))))))).trans ((P_B3_main_arg8 (after opsB2 (after opsB1c4 (after opsB1c3 (after opsB1c2 (after opsB1c1 (after opsB1b (after opsB1a (after opsA2 (after opsA1 V)))))))))).trans ((P_B2_main_arg8 (after opsB1c4 (after opsB1c3 (after opsB1c2 (after opsB1c1 (after opsB1b (after opsB1a (after opsA2 (after opsA1 V))))))))).trans ((P_B1c4_main_arg8 (after opsB1c3 (after opsB1c2 (after opsB1c1 (after opsB1b (after opsB1a (after opsA2 (after opsA1 V)))))))).trans ((P_B1c3_main_arg8 (after opsB1c2 (after opsB1c1 (after opsB1b (after opsB1a (after opsA2 (after opsA1 V))))))).trans ((P_B1c2_main_arg8 (after opsB1c1 (after opsB1b (after opsB1a (after opsA2 (after opsA1 V)))))).trans ((P_B1c1_main_arg8 (after opsB1b (after opsB1a (after opsA2 (after opsA1 V))))).trans ((P_B1b_main_arg8 (after opsB1a (after opsA2 (after opsA1 V)))).trans ((P_B1a_main_arg8 (after opsA2 (after opsA1 V))).trans ((P_A2_main_arg8 (after opsA1 V)).trans ((P_A1_main_arg8 V).trans rfl))))))))))))) ((P_C1_main_arg9 (after opsB4b (after opsB4a (after opsB3 (after opsB2 (after opsB1c4 (after opsB1c3 (after opsB1c2 (after opsB1c1 (after opsB1b (after opsB1a (after opsA2 (after opsA1 V))))))))))))).trans ((P_B4b_main_arg9 (after opsB4a (after opsB3 (after opsB2 (after opsB1c4 (after opsB1c3 (after opsB1c2 (after opsB1c1 (after opsB1b (after opsB1a (after opsA2 (after opsA1 V)))))))))))).trans ((P_B4a_main_arg9 (after opsB3 (after opsB2 (after opsB1c4 (after opsB1c3 (after opsB1c2 (after opsB1c1 (after opsB1b (after opsB1a (after opsA2 (after opsA1 V))))))))))).trans ((P_B3_main_arg9 (after opsB2 (after opsB1c4 (after opsB1c3 (after opsB1c2 (after opsB1c1 (after opsB1b (after opsB1a (after opsA2 (after opsA1 V)))))))))).trans ((P_B2_main_arg9 (after opsB1c4 (after opsB1c3 (after opsB1c2 (after opsB1c1 (after opsB1b (after opsB1a (after opsA2 (after opsA1 V))))))))).trans ((P_B1c4_main_arg9 (after opsB1c3 (after opsB1c2 (after opsB1c1 (after opsB1b (after opsB1a (after opsA2 (after opsA1 V)))))))).trans ((P_B1c3_main_arg9 (after opsB1c2 (after opsB1c1 (after opsB1b (after opsB1a (after opsA2 (after opsA1 V))))))).trans ((P_B1c2_main_arg9 (after opsB1c1 (after opsB1b (after opsB1a (after opsA2 (after opsA1 V)))))).trans ((P_B1c1_main_arg9 (after opsB1b (after opsB1a (after opsA2 (after opsA1 V))))).trans ((P_B1b_main_arg9 (after opsB1a (after opsA2 (after opsA1 V)))).trans ((P_B1a_main_arg9 (after opsA2 (after opsA1 V))).trans ((P_A2_main_arg9 (after opsA1 V)).trans ((P_A1_main_arg9 V).trans rfl))))))))))))))) ((P_D1_main_arg2 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg2 (after opsC1 (after opsB4b (after opsB4a (after opsB3 (after opsB2 (after opsB1c4 (after opsB1c3 (after opsB1c2 (after opsB1c1 (after opsB1b (after opsB1a (after opsA2 (after opsA1 V)))))))))))))).trans ((P_C1_main_arg2 (after opsB4b (after opsB4a (after opsB3 (after opsB2 (after opsB1c4 (after opsB1c3 (after opsB1c2 (after opsB1c1 (after opsB1b (after opsB1a (after opsA2 (after opsA1 V))))))))))))).trans ((P_B4b_main_arg2 (after opsB4a (after opsB3 (after opsB2 (after opsB1c4 (after opsB1c3 (after opsB1c2 (after opsB1c1 (after opsB1b (after opsB1a (after opsA2 (after opsA1 V)))))))))))).trans ((P_B4a_main_arg2 (after opsB3 (after opsB2 (after opsB1c4 (after opsB1c3 (after opsB1c2 (after opsB1c1 (after opsB1b (after opsB1a (after opsA2 (after opsA1 V))))))))))).trans ((P_B3_main_arg2 (after opsB2 (after opsB1c4 (after opsB1c3 (after opsB1c2 (after opsB1c1 (after opsB1b (after opsB1a (after opsA2 (after opsA1 V)))))))))).trans ((P_B2_main_arg2 (after opsB1c4 (after opsB1c3 (after opsB1c2 (after opsB1c1 (after opsB1b (after opsB1a (after opsA2 (after opsA1 V))))))))).trans ((P_B1c4_main_arg2 (after opsB1c3 (after opsB1c2 (after opsB1c1 (after opsB1b (after opsB1a (after opsA2 (after opsA1 V)))))))).trans ((P_B1c3_main_arg2 (after opsB1c2 (after opsB1c1 (after opsB1b (after opsB1a (after opsA2 (after opsA1 V))))))).trans ((P_B1c2_main_arg2 (after opsB1c1 (after opsB1b (after opsB1a (after opsA2 (after opsA1 V)))))).trans ((P_B1c1_main_arg2 (after opsB1b (after opsB1a (after opsA2 (after opsA1 V))))).trans ((P_B1b_main_arg2 (after opsB1a (after opsA2 (after opsA1 V)))).trans ((P_B1a_main_arg2 (after opsA2 (after opsA1 V))).trans ((P_A2_main_arg2 (after opsA1 V)).trans ((P_A1_main_arg2 V).trans rfl))))))))))))))) ((P_D1_main_arg3 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg3 (after opsC1 (after opsB4b (after opsB4a (after opsB3 (after opsB2 (after opsB1c4 (after opsB1c3 (after opsB1c2 (after opsB1c1 (after opsB1b (after opsB1a (after opsA2 (after opsA1 V)))))))))))))).trans ((P_C1_main_arg3 (after opsB4b (after opsB4a (after opsB3 (after opsB2 (after opsB1c4 (after opsB1c3 (after opsB1c2 (after opsB1c1 (after opsB1b (after opsB1a (after opsA2 (after opsA1 V))))))))))))).trans ((P_B4b_main_arg3 (after opsB4a (after opsB3 (after opsB2 (after opsB1c4 (after opsB1c3 (after opsB1c2 (after opsB1c1 (after opsB1b (after opsB1a (after opsA2 (after opsA1 V)))))))))))).trans ((P_B4a_main_arg3 (after opsB3 (after opsB2 (after opsB1c4 (after opsB1c3 (after opsB1c2 (after opsB1c1 (after opsB1b (after opsB1a (after opsA2 (after opsA1 V))))))))))).trans ((P_B3_main_arg3 (after opsB2 (after opsB1c4 (after opsB1c3 (after opsB1c2 (after opsB1c1 (after opsB1b (after opsB1a (after opsA2 (after opsA1 V)))))))))).trans ((P_B2_main_arg3 (after opsB1c4 (after opsB1c3 (after opsB1c2 (after opsB1c1 (after opsB1b (after opsB1a (after opsA2 (after opsA1 V))))))))).trans ((P_B1c4_main_arg3 (after opsB1c3 (after opsB1c2 (after opsB1c1 (after opsB1b (after opsB1a (after opsA2 (after opsA1 V)))))))).trans ((P_B1c3_main_arg3 (after opsB1c2 (after opsB1c1 (after opsB1b (after opsB1a (after opsA2 (after opsA1 V))))))).trans ((P_B1c2_main_arg3 (after opsB1c1 (after opsB1b (after opsB1a (after opsA2 (after opsA1 V)))))).trans ((P_B1c1_main_arg3 (after opsB1b (after opsB1a (after opsA2 (after opsA1 V))))).trans ((P_B1b_main_arg3 (after opsB1a (after opsA2 (after opsA1 V)))).trans ((P_B1a_main_arg3 (after opsA2 (after opsA1 V))).trans ((P_A2_main_arg3 (after opsA1 V)).trans ((P_A1_main_arg3 V).trans rfl))))))))))))))))

theorem arg0_eq : after (ops (F := Ideal)) V (main_arg0 : DevRef τ sig) = V (main_arg0 : DevRef τ sig) := by
  rw [after_ops]
  exact ((P_D2_main_arg0 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg0 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg0 (after opsC1 (after opsB4b (after opsB4a (after opsB3 (after opsB2 (after opsB1c4 (after opsB1c3 (after opsB1c2 (after opsB1c1 (after opsB1b (after opsB1a (after opsA2 (after opsA1 V)))))))))))))).trans ((P_C1_main_arg0 (after opsB4b (after opsB4a (after opsB3 (after opsB2 (after opsB1c4 (after opsB1c3 (after opsB1c2 (after opsB1c1 (after opsB1b (after opsB1a (after opsA2 (after opsA1 V))))))))))))).trans ((P_B4b_main_arg0 (after opsB4a (after opsB3 (after opsB2 (after opsB1c4 (after opsB1c3 (after opsB1c2 (after opsB1c1 (after opsB1b (after opsB1a (after opsA2 (after opsA1 V)))))))))))).trans ((P_B4a_main_arg0 (after opsB3 (after opsB2 (after opsB1c4 (after opsB1c3 (after opsB1c2 (after opsB1c1 (after opsB1b (after opsB1a (after opsA2 (after opsA1 V))))))))))).trans ((P_B3_main_arg0 (after opsB2 (after opsB1c4 (after opsB1c3 (after opsB1c2 (after opsB1c1 (after opsB1b (after opsB1a (after opsA2 (after opsA1 V)))))))))).trans ((P_B2_main_arg0 (after opsB1c4 (after opsB1c3 (after opsB1c2 (after opsB1c1 (after opsB1b (after opsB1a (after opsA2 (after opsA1 V))))))))).trans ((P_B1c4_main_arg0 (after opsB1c3 (after opsB1c2 (after opsB1c1 (after opsB1b (after opsB1a (after opsA2 (after opsA1 V)))))))).trans ((P_B1c3_main_arg0 (after opsB1c2 (after opsB1c1 (after opsB1b (after opsB1a (after opsA2 (after opsA1 V))))))).trans ((P_B1c2_main_arg0 (after opsB1c1 (after opsB1b (after opsB1a (after opsA2 (after opsA1 V)))))).trans ((P_B1c1_main_arg0 (after opsB1b (after opsB1a (after opsA2 (after opsA1 V))))).trans ((P_B1b_main_arg0 (after opsB1a (after opsA2 (after opsA1 V)))).trans ((P_B1a_main_arg0 (after opsA2 (after opsA1 V))).trans ((P_A2_main_arg0 (after opsA1 V)).trans ((P_A1_main_arg0 V).trans rfl))))))))))))))))
theorem arg1_eq : after (ops (F := Ideal)) V (main_arg1 : DevRef τ sig) = V (main_arg1 : DevRef τ sig) := by
  rw [after_ops]
  exact ((P_D2_main_arg1 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg1 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg1 (after opsC1 (after opsB4b (after opsB4a (after opsB3 (after opsB2 (after opsB1c4 (after opsB1c3 (after opsB1c2 (after opsB1c1 (after opsB1b (after opsB1a (after opsA2 (after opsA1 V)))))))))))))).trans ((P_C1_main_arg1 (after opsB4b (after opsB4a (after opsB3 (after opsB2 (after opsB1c4 (after opsB1c3 (after opsB1c2 (after opsB1c1 (after opsB1b (after opsB1a (after opsA2 (after opsA1 V))))))))))))).trans ((P_B4b_main_arg1 (after opsB4a (after opsB3 (after opsB2 (after opsB1c4 (after opsB1c3 (after opsB1c2 (after opsB1c1 (after opsB1b (after opsB1a (after opsA2 (after opsA1 V)))))))))))).trans ((P_B4a_main_arg1 (after opsB3 (after opsB2 (after opsB1c4 (after opsB1c3 (after opsB1c2 (after opsB1c1 (after opsB1b (after opsB1a (after opsA2 (after opsA1 V))))))))))).trans ((P_B3_main_arg1 (after opsB2 (after opsB1c4 (after opsB1c3 (after opsB1c2 (after opsB1c1 (after opsB1b (after opsB1a (after opsA2 (after opsA1 V)))))))))).trans ((P_B2_main_arg1 (after opsB1c4 (after opsB1c3 (after opsB1c2 (after opsB1c1 (after opsB1b (after opsB1a (after opsA2 (after opsA1 V))))))))).trans ((P_B1c4_main_arg1 (after opsB1c3 (after opsB1c2 (after opsB1c1 (after opsB1b (after opsB1a (after opsA2 (after opsA1 V)))))))).trans ((P_B1c3_main_arg1 (after opsB1c2 (after opsB1c1 (after opsB1b (after opsB1a (after opsA2 (after opsA1 V))))))).trans ((P_B1c2_main_arg1 (after opsB1c1 (after opsB1b (after opsB1a (after opsA2 (after opsA1 V)))))).trans ((P_B1c1_main_arg1 (after opsB1b (after opsB1a (after opsA2 (after opsA1 V))))).trans ((P_B1b_main_arg1 (after opsB1a (after opsA2 (after opsA1 V)))).trans ((P_B1a_main_arg1 (after opsA2 (after opsA1 V))).trans ((P_A2_main_arg1 (after opsA1 V)).trans ((P_A1_main_arg1 V).trans rfl))))))))))))))))
theorem arg2_eq : after (ops (F := Ideal)) V (main_arg2 : DevRef τ sig) = V (main_arg2 : DevRef τ sig) := by
  rw [after_ops]
  exact ((P_D2_main_arg2 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg2 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg2 (after opsC1 (after opsB4b (after opsB4a (after opsB3 (after opsB2 (after opsB1c4 (after opsB1c3 (after opsB1c2 (after opsB1c1 (after opsB1b (after opsB1a (after opsA2 (after opsA1 V)))))))))))))).trans ((P_C1_main_arg2 (after opsB4b (after opsB4a (after opsB3 (after opsB2 (after opsB1c4 (after opsB1c3 (after opsB1c2 (after opsB1c1 (after opsB1b (after opsB1a (after opsA2 (after opsA1 V))))))))))))).trans ((P_B4b_main_arg2 (after opsB4a (after opsB3 (after opsB2 (after opsB1c4 (after opsB1c3 (after opsB1c2 (after opsB1c1 (after opsB1b (after opsB1a (after opsA2 (after opsA1 V)))))))))))).trans ((P_B4a_main_arg2 (after opsB3 (after opsB2 (after opsB1c4 (after opsB1c3 (after opsB1c2 (after opsB1c1 (after opsB1b (after opsB1a (after opsA2 (after opsA1 V))))))))))).trans ((P_B3_main_arg2 (after opsB2 (after opsB1c4 (after opsB1c3 (after opsB1c2 (after opsB1c1 (after opsB1b (after opsB1a (after opsA2 (after opsA1 V)))))))))).trans ((P_B2_main_arg2 (after opsB1c4 (after opsB1c3 (after opsB1c2 (after opsB1c1 (after opsB1b (after opsB1a (after opsA2 (after opsA1 V))))))))).trans ((P_B1c4_main_arg2 (after opsB1c3 (after opsB1c2 (after opsB1c1 (after opsB1b (after opsB1a (after opsA2 (after opsA1 V)))))))).trans ((P_B1c3_main_arg2 (after opsB1c2 (after opsB1c1 (after opsB1b (after opsB1a (after opsA2 (after opsA1 V))))))).trans ((P_B1c2_main_arg2 (after opsB1c1 (after opsB1b (after opsB1a (after opsA2 (after opsA1 V)))))).trans ((P_B1c1_main_arg2 (after opsB1b (after opsB1a (after opsA2 (after opsA1 V))))).trans ((P_B1b_main_arg2 (after opsB1a (after opsA2 (after opsA1 V)))).trans ((P_B1a_main_arg2 (after opsA2 (after opsA1 V))).trans ((P_A2_main_arg2 (after opsA1 V)).trans ((P_A1_main_arg2 V).trans rfl))))))))))))))))
theorem arg3_eq : after (ops (F := Ideal)) V (main_arg3 : DevRef τ sig) = V (main_arg3 : DevRef τ sig) := by
  rw [after_ops]
  exact ((P_D2_main_arg3 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg3 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg3 (after opsC1 (after opsB4b (after opsB4a (after opsB3 (after opsB2 (after opsB1c4 (after opsB1c3 (after opsB1c2 (after opsB1c1 (after opsB1b (after opsB1a (after opsA2 (after opsA1 V)))))))))))))).trans ((P_C1_main_arg3 (after opsB4b (after opsB4a (after opsB3 (after opsB2 (after opsB1c4 (after opsB1c3 (after opsB1c2 (after opsB1c1 (after opsB1b (after opsB1a (after opsA2 (after opsA1 V))))))))))))).trans ((P_B4b_main_arg3 (after opsB4a (after opsB3 (after opsB2 (after opsB1c4 (after opsB1c3 (after opsB1c2 (after opsB1c1 (after opsB1b (after opsB1a (after opsA2 (after opsA1 V)))))))))))).trans ((P_B4a_main_arg3 (after opsB3 (after opsB2 (after opsB1c4 (after opsB1c3 (after opsB1c2 (after opsB1c1 (after opsB1b (after opsB1a (after opsA2 (after opsA1 V))))))))))).trans ((P_B3_main_arg3 (after opsB2 (after opsB1c4 (after opsB1c3 (after opsB1c2 (after opsB1c1 (after opsB1b (after opsB1a (after opsA2 (after opsA1 V)))))))))).trans ((P_B2_main_arg3 (after opsB1c4 (after opsB1c3 (after opsB1c2 (after opsB1c1 (after opsB1b (after opsB1a (after opsA2 (after opsA1 V))))))))).trans ((P_B1c4_main_arg3 (after opsB1c3 (after opsB1c2 (after opsB1c1 (after opsB1b (after opsB1a (after opsA2 (after opsA1 V)))))))).trans ((P_B1c3_main_arg3 (after opsB1c2 (after opsB1c1 (after opsB1b (after opsB1a (after opsA2 (after opsA1 V))))))).trans ((P_B1c2_main_arg3 (after opsB1c1 (after opsB1b (after opsB1a (after opsA2 (after opsA1 V)))))).trans ((P_B1c1_main_arg3 (after opsB1b (after opsB1a (after opsA2 (after opsA1 V))))).trans ((P_B1b_main_arg3 (after opsB1a (after opsA2 (after opsA1 V)))).trans ((P_B1a_main_arg3 (after opsA2 (after opsA1 V))).trans ((P_A2_main_arg3 (after opsA1 V)).trans ((P_A1_main_arg3 V).trans rfl))))))))))))))))
theorem arg4_eq : after (ops (F := Ideal)) V (main_arg4 : DevRef τ sig) = V (main_arg4 : DevRef τ sig) := by
  rw [after_ops]
  exact ((P_D2_main_arg4 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg4 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg4 (after opsC1 (after opsB4b (after opsB4a (after opsB3 (after opsB2 (after opsB1c4 (after opsB1c3 (after opsB1c2 (after opsB1c1 (after opsB1b (after opsB1a (after opsA2 (after opsA1 V)))))))))))))).trans ((P_C1_main_arg4 (after opsB4b (after opsB4a (after opsB3 (after opsB2 (after opsB1c4 (after opsB1c3 (after opsB1c2 (after opsB1c1 (after opsB1b (after opsB1a (after opsA2 (after opsA1 V))))))))))))).trans ((P_B4b_main_arg4 (after opsB4a (after opsB3 (after opsB2 (after opsB1c4 (after opsB1c3 (after opsB1c2 (after opsB1c1 (after opsB1b (after opsB1a (after opsA2 (after opsA1 V)))))))))))).trans ((P_B4a_main_arg4 (after opsB3 (after opsB2 (after opsB1c4 (after opsB1c3 (after opsB1c2 (after opsB1c1 (after opsB1b (after opsB1a (after opsA2 (after opsA1 V))))))))))).trans ((P_B3_main_arg4 (after opsB2 (after opsB1c4 (after opsB1c3 (after opsB1c2 (after opsB1c1 (after opsB1b (after opsB1a (after opsA2 (after opsA1 V)))))))))).trans ((P_B2_main_arg4 (after opsB1c4 (after opsB1c3 (after opsB1c2 (after opsB1c1 (after opsB1b (after opsB1a (after opsA2 (after opsA1 V))))))))).trans ((P_B1c4_main_arg4 (after opsB1c3 (after opsB1c2 (after opsB1c1 (after opsB1b (after opsB1a (after opsA2 (after opsA1 V)))))))).trans ((P_B1c3_main_arg4 (after opsB1c2 (after opsB1c1 (after opsB1b (after opsB1a (after opsA2 (after opsA1 V))))))).trans ((P_B1c2_main_arg4 (after opsB1c1 (after opsB1b (after opsB1a (after opsA2 (after opsA1 V)))))).trans ((P_B1c1_main_arg4 (after opsB1b (after opsB1a (after opsA2 (after opsA1 V))))).trans ((P_B1b_main_arg4 (after opsB1a (after opsA2 (after opsA1 V)))).trans ((P_B1a_main_arg4 (after opsA2 (after opsA1 V))).trans ((P_A2_main_arg4 (after opsA1 V)).trans ((P_A1_main_arg4 V).trans rfl))))))))))))))))
theorem arg5_eq : after (ops (F := Ideal)) V (main_arg5 : DevRef τ sig) = V (main_arg5 : DevRef τ sig) := by
  rw [after_ops]
  exact ((P_D2_main_arg5 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg5 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg5 (after opsC1 (after opsB4b (after opsB4a (after opsB3 (after opsB2 (after opsB1c4 (after opsB1c3 (after opsB1c2 (after opsB1c1 (after opsB1b (after opsB1a (after opsA2 (after opsA1 V)))))))))))))).trans ((P_C1_main_arg5 (after opsB4b (after opsB4a (after opsB3 (after opsB2 (after opsB1c4 (after opsB1c3 (after opsB1c2 (after opsB1c1 (after opsB1b (after opsB1a (after opsA2 (after opsA1 V))))))))))))).trans ((P_B4b_main_arg5 (after opsB4a (after opsB3 (after opsB2 (after opsB1c4 (after opsB1c3 (after opsB1c2 (after opsB1c1 (after opsB1b (after opsB1a (after opsA2 (after opsA1 V)))))))))))).trans ((P_B4a_main_arg5 (after opsB3 (after opsB2 (after opsB1c4 (after opsB1c3 (after opsB1c2 (after opsB1c1 (after opsB1b (after opsB1a (after opsA2 (after opsA1 V))))))))))).trans ((P_B3_main_arg5 (after opsB2 (after opsB1c4 (after opsB1c3 (after opsB1c2 (after opsB1c1 (after opsB1b (after opsB1a (after opsA2 (after opsA1 V)))))))))).trans ((P_B2_main_arg5 (after opsB1c4 (after opsB1c3 (after opsB1c2 (after opsB1c1 (after opsB1b (after opsB1a (after opsA2 (after opsA1 V))))))))).trans ((P_B1c4_main_arg5 (after opsB1c3 (after opsB1c2 (after opsB1c1 (after opsB1b (after opsB1a (after opsA2 (after opsA1 V)))))))).trans ((P_B1c3_main_arg5 (after opsB1c2 (after opsB1c1 (after opsB1b (after opsB1a (after opsA2 (after opsA1 V))))))).trans ((P_B1c2_main_arg5 (after opsB1c1 (after opsB1b (after opsB1a (after opsA2 (after opsA1 V)))))).trans ((P_B1c1_main_arg5 (after opsB1b (after opsB1a (after opsA2 (after opsA1 V))))).trans ((P_B1b_main_arg5 (after opsB1a (after opsA2 (after opsA1 V)))).trans ((P_B1a_main_arg5 (after opsA2 (after opsA1 V))).trans ((P_A2_main_arg5 (after opsA1 V)).trans ((P_A1_main_arg5 V).trans rfl))))))))))))))))
theorem arg6_eq : after (ops (F := Ideal)) V (main_arg6 : DevRef τ sig) = V (main_arg6 : DevRef τ sig) := by
  rw [after_ops]
  exact ((P_D2_main_arg6 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg6 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg6 (after opsC1 (after opsB4b (after opsB4a (after opsB3 (after opsB2 (after opsB1c4 (after opsB1c3 (after opsB1c2 (after opsB1c1 (after opsB1b (after opsB1a (after opsA2 (after opsA1 V)))))))))))))).trans ((P_C1_main_arg6 (after opsB4b (after opsB4a (after opsB3 (after opsB2 (after opsB1c4 (after opsB1c3 (after opsB1c2 (after opsB1c1 (after opsB1b (after opsB1a (after opsA2 (after opsA1 V))))))))))))).trans ((P_B4b_main_arg6 (after opsB4a (after opsB3 (after opsB2 (after opsB1c4 (after opsB1c3 (after opsB1c2 (after opsB1c1 (after opsB1b (after opsB1a (after opsA2 (after opsA1 V)))))))))))).trans ((P_B4a_main_arg6 (after opsB3 (after opsB2 (after opsB1c4 (after opsB1c3 (after opsB1c2 (after opsB1c1 (after opsB1b (after opsB1a (after opsA2 (after opsA1 V))))))))))).trans ((P_B3_main_arg6 (after opsB2 (after opsB1c4 (after opsB1c3 (after opsB1c2 (after opsB1c1 (after opsB1b (after opsB1a (after opsA2 (after opsA1 V)))))))))).trans ((P_B2_main_arg6 (after opsB1c4 (after opsB1c3 (after opsB1c2 (after opsB1c1 (after opsB1b (after opsB1a (after opsA2 (after opsA1 V))))))))).trans ((P_B1c4_main_arg6 (after opsB1c3 (after opsB1c2 (after opsB1c1 (after opsB1b (after opsB1a (after opsA2 (after opsA1 V)))))))).trans ((P_B1c3_main_arg6 (after opsB1c2 (after opsB1c1 (after opsB1b (after opsB1a (after opsA2 (after opsA1 V))))))).trans ((P_B1c2_main_arg6 (after opsB1c1 (after opsB1b (after opsB1a (after opsA2 (after opsA1 V)))))).trans ((P_B1c1_main_arg6 (after opsB1b (after opsB1a (after opsA2 (after opsA1 V))))).trans ((P_B1b_main_arg6 (after opsB1a (after opsA2 (after opsA1 V)))).trans ((P_B1a_main_arg6 (after opsA2 (after opsA1 V))).trans ((P_A2_main_arg6 (after opsA1 V)).trans ((P_A1_main_arg6 V).trans rfl))))))))))))))))
theorem arg7_eq : after (ops (F := Ideal)) V (main_arg7 : DevRef τ sig) = V (main_arg7 : DevRef τ sig) := by
  rw [after_ops]
  exact ((P_D2_main_arg7 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg7 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg7 (after opsC1 (after opsB4b (after opsB4a (after opsB3 (after opsB2 (after opsB1c4 (after opsB1c3 (after opsB1c2 (after opsB1c1 (after opsB1b (after opsB1a (after opsA2 (after opsA1 V)))))))))))))).trans ((P_C1_main_arg7 (after opsB4b (after opsB4a (after opsB3 (after opsB2 (after opsB1c4 (after opsB1c3 (after opsB1c2 (after opsB1c1 (after opsB1b (after opsB1a (after opsA2 (after opsA1 V))))))))))))).trans ((P_B4b_main_arg7 (after opsB4a (after opsB3 (after opsB2 (after opsB1c4 (after opsB1c3 (after opsB1c2 (after opsB1c1 (after opsB1b (after opsB1a (after opsA2 (after opsA1 V)))))))))))).trans ((P_B4a_main_arg7 (after opsB3 (after opsB2 (after opsB1c4 (after opsB1c3 (after opsB1c2 (after opsB1c1 (after opsB1b (after opsB1a (after opsA2 (after opsA1 V))))))))))).trans ((P_B3_main_arg7 (after opsB2 (after opsB1c4 (after opsB1c3 (after opsB1c2 (after opsB1c1 (after opsB1b (after opsB1a (after opsA2 (after opsA1 V)))))))))).trans ((P_B2_main_arg7 (after opsB1c4 (after opsB1c3 (after opsB1c2 (after opsB1c1 (after opsB1b (after opsB1a (after opsA2 (after opsA1 V))))))))).trans ((P_B1c4_main_arg7 (after opsB1c3 (after opsB1c2 (after opsB1c1 (after opsB1b (after opsB1a (after opsA2 (after opsA1 V)))))))).trans ((P_B1c3_main_arg7 (after opsB1c2 (after opsB1c1 (after opsB1b (after opsB1a (after opsA2 (after opsA1 V))))))).trans ((P_B1c2_main_arg7 (after opsB1c1 (after opsB1b (after opsB1a (after opsA2 (after opsA1 V)))))).trans ((P_B1c1_main_arg7 (after opsB1b (after opsB1a (after opsA2 (after opsA1 V))))).trans ((P_B1b_main_arg7 (after opsB1a (after opsA2 (after opsA1 V)))).trans ((P_B1a_main_arg7 (after opsA2 (after opsA1 V))).trans ((P_A2_main_arg7 (after opsA1 V)).trans ((P_A1_main_arg7 V).trans rfl))))))))))))))))
theorem arg8_eq : after (ops (F := Ideal)) V (main_arg8 : DevRef τ sig) = V (main_arg8 : DevRef τ sig) := by
  rw [after_ops]
  exact ((P_D2_main_arg8 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg8 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg8 (after opsC1 (after opsB4b (after opsB4a (after opsB3 (after opsB2 (after opsB1c4 (after opsB1c3 (after opsB1c2 (after opsB1c1 (after opsB1b (after opsB1a (after opsA2 (after opsA1 V)))))))))))))).trans ((P_C1_main_arg8 (after opsB4b (after opsB4a (after opsB3 (after opsB2 (after opsB1c4 (after opsB1c3 (after opsB1c2 (after opsB1c1 (after opsB1b (after opsB1a (after opsA2 (after opsA1 V))))))))))))).trans ((P_B4b_main_arg8 (after opsB4a (after opsB3 (after opsB2 (after opsB1c4 (after opsB1c3 (after opsB1c2 (after opsB1c1 (after opsB1b (after opsB1a (after opsA2 (after opsA1 V)))))))))))).trans ((P_B4a_main_arg8 (after opsB3 (after opsB2 (after opsB1c4 (after opsB1c3 (after opsB1c2 (after opsB1c1 (after opsB1b (after opsB1a (after opsA2 (after opsA1 V))))))))))).trans ((P_B3_main_arg8 (after opsB2 (after opsB1c4 (after opsB1c3 (after opsB1c2 (after opsB1c1 (after opsB1b (after opsB1a (after opsA2 (after opsA1 V)))))))))).trans ((P_B2_main_arg8 (after opsB1c4 (after opsB1c3 (after opsB1c2 (after opsB1c1 (after opsB1b (after opsB1a (after opsA2 (after opsA1 V))))))))).trans ((P_B1c4_main_arg8 (after opsB1c3 (after opsB1c2 (after opsB1c1 (after opsB1b (after opsB1a (after opsA2 (after opsA1 V)))))))).trans ((P_B1c3_main_arg8 (after opsB1c2 (after opsB1c1 (after opsB1b (after opsB1a (after opsA2 (after opsA1 V))))))).trans ((P_B1c2_main_arg8 (after opsB1c1 (after opsB1b (after opsB1a (after opsA2 (after opsA1 V)))))).trans ((P_B1c1_main_arg8 (after opsB1b (after opsB1a (after opsA2 (after opsA1 V))))).trans ((P_B1b_main_arg8 (after opsB1a (after opsA2 (after opsA1 V)))).trans ((P_B1a_main_arg8 (after opsA2 (after opsA1 V))).trans ((P_A2_main_arg8 (after opsA1 V)).trans ((P_A1_main_arg8 V).trans rfl))))))))))))))))
theorem arg9_eq : after (ops (F := Ideal)) V (main_arg9 : DevRef τ sig) = V (main_arg9 : DevRef τ sig) := by
  rw [after_ops]
  exact ((P_D2_main_arg9 (after opsD1 (after opsC2 (after opsC1 (after opsB4b (after opsB4a (after opsB3 (after opsB2 (after opsB1c4 (after opsB1c3 (after opsB1c2 (after opsB1c1 (after opsB1b (after opsB1a (after opsA2 (after opsA1 V)))))))))))))))).trans ((P_D1_main_arg9 (after opsC2 (after opsC1 (after opsB4b (after opsB4a (after opsB3 (after opsB2 (after opsB1c4 (after opsB1c3 (after opsB1c2 (after opsB1c1 (after opsB1b (after opsB1a (after opsA2 (after opsA1 V))))))))))))))).trans ((P_C2_main_arg9 (after opsC1 (after opsB4b (after opsB4a (after opsB3 (after opsB2 (after opsB1c4 (after opsB1c3 (after opsB1c2 (after opsB1c1 (after opsB1b (after opsB1a (after opsA2 (after opsA1 V)))))))))))))).trans ((P_C1_main_arg9 (after opsB4b (after opsB4a (after opsB3 (after opsB2 (after opsB1c4 (after opsB1c3 (after opsB1c2 (after opsB1c1 (after opsB1b (after opsB1a (after opsA2 (after opsA1 V))))))))))))).trans ((P_B4b_main_arg9 (after opsB4a (after opsB3 (after opsB2 (after opsB1c4 (after opsB1c3 (after opsB1c2 (after opsB1c1 (after opsB1b (after opsB1a (after opsA2 (after opsA1 V)))))))))))).trans ((P_B4a_main_arg9 (after opsB3 (after opsB2 (after opsB1c4 (after opsB1c3 (after opsB1c2 (after opsB1c1 (after opsB1b (after opsB1a (after opsA2 (after opsA1 V))))))))))).trans ((P_B3_main_arg9 (after opsB2 (after opsB1c4 (after opsB1c3 (after opsB1c2 (after opsB1c1 (after opsB1b (after opsB1a (after opsA2 (after opsA1 V)))))))))).trans ((P_B2_main_arg9 (after opsB1c4 (after opsB1c3 (after opsB1c2 (after opsB1c1 (after opsB1b (after opsB1a (after opsA2 (after opsA1 V))))))))).trans ((P_B1c4_main_arg9 (after opsB1c3 (after opsB1c2 (after opsB1c1 (after opsB1b (after opsB1a (after opsA2 (after opsA1 V)))))))).trans ((P_B1c3_main_arg9 (after opsB1c2 (after opsB1c1 (after opsB1b (after opsB1a (after opsA2 (after opsA1 V))))))).trans ((P_B1c2_main_arg9 (after opsB1c1 (after opsB1b (after opsB1a (after opsA2 (after opsA1 V)))))).trans ((P_B1c1_main_arg9 (after opsB1b (after opsB1a (after opsA2 (after opsA1 V))))).trans ((P_B1b_main_arg9 (after opsB1a (after opsA2 (after opsA1 V)))).trans ((P_B1a_main_arg9 (after opsA2 (after opsA1 V))).trans ((P_A2_main_arg9 (after opsA1 V)).trans ((P_A1_main_arg9 V).trans rfl))))))))))))))))
end Whole

/-- On every device, at the ideal instance, from any memory with zero counters: every weakly fair execution of @main
    terminates with the result buffer at the stages' composed term of the arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88)
        = refOut (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v88).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c))⟩)
    (run_seq scopedRefs_eq scopedSems_eq defs main (fun _ => ops) main_eq (fun _ => ops_sub) m ρ (fun _ => ops_fresh))

end Cert.ReferenceIdeal.Hand

end
-- ==== Proof.RefValue.lean ====
/-
  The reference's result is the specification's array, entry by entry over the extended reals.

  Under the range hypothesis on the integer array (every entry below 10000) the negative-index wrap (compare below zero
  signed, add the extent, select) leaves every index alone, and a gather, which clamps each start index so that the
  slice fits, reads exactly the row the integer names. The field number is the position 0 … 23, never negative. So the
  looked-up embeddings at (b, i, j, d) are field i's selected row, factor d with respect to field j; their product with
  the transpose in the two field axes, summed over d onto a zero initial value, is the pairwise interaction; the second
  gather reads the interactions at the 276 pairs of the strict upper triangle through the two index tables; each of the
  three products is a plain sum over the contracted index, its bias a row repeated down the batch, the rectifier the
  maximum with 0; the linear term is the sum over the fields of the selected weights plus its bias. No finiteness is
  needed: every step is an identity of extended reals.

  The two index tables enter as hypotheses (what they hold, as words), so that the statement does not depend on how
  the tables are computed.
-/
import proofs.«405942_j90769838833781_3_alg».proof.Proof.RefStages
import proofs.«405942_j90769838833781_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.ReferenceIdeal.Hand.Value

open Idealize.ShloMosaic Idealize.ShloMosaic.ValueIdx Idealize.ShloMosaic.StableHlo.Predicate
open Cert.ReferenceIdeal Cert.ReferenceIdeal.Facts₀ Cert.ReferenceIdeal.Facts Cert.ReferenceIdeal.Hand

section Gathers
variable {α : Type}

/-- Dimension numbers of a gather of whole [n2, n3] rows out of an [n0, n1, n2, n3] operand at an [R, C, 2] array of
    start pairs. -/
abbrev rowsDims (n0 n1 n2 n3 R C : Nat)
    (wf : GatherDims.WF ⟨4, ![n0, n1, n2, n3]⟩ ⟨3, ![R, C, 2]⟩ ⟨4, ![R, C, n2, n3]⟩ [2, 3] [0, 1] [] [0, 1] [] 2 ![1, 1, n2, n3]) :
    GatherDims ⟨4, ![n0, n1, n2, n3]⟩ ⟨3, ![R, C, 2]⟩ ⟨4, ![R, C, n2, n3]⟩ where
  offsetDims := [2, 3]
  collapsedSliceDims := [0, 1]
  operandBatchingDims := []
  startIndicesBatchingDims := []
  startIndexMap := [0, 1]
  indexVectorDim := 2
  sliceSizes := ![1, 1, n2, n3]
  wf := wf

theorem gather_rows_apply {n0 n1 n2 n3 R C w : Nat} (h0 : 0 < n0) (h1 : 0 < n1)
    (wf : GatherDims.WF ⟨4, ![n0, n1, n2, n3]⟩ ⟨3, ![R, C, 2]⟩ ⟨4, ![R, C, n2, n3]⟩ [2, 3] [0, 1] [] [0, 1] [] 2 ![1, 1, n2, n3])
    (x : (⟨4, ![n0, n1, n2, n3]⟩ : Shape).Idx → α) (idx : IVec ⟨3, ![R, C, 2]⟩ w)
    (b : Fin R) (i : Fin C) (j : Fin n2) (d : Fin n3) :
    Host.gather (rowsDims n0 n1 n2 n3 R C wf) x idx (ix4 b i j d)
      = x (ix4 ⟨min (idx (ix3 b i (0 : Fin 2))).toInt.toNat (n0 - 1), by omega⟩
            ⟨min (idx (ix3 b i (1 : Fin 2))).toInt.toNat (n1 - 1), by omega⟩ j d) := by
  have m0 : (0 : Fin 4) ∈ ([0, 1] : List (Fin 4)) := by decide
  have m1 : (1 : Fin 4) ∈ ([0, 1] : List (Fin 4)) := by decide
  have m2 : (2 : Fin 4) ∉ ([0, 1] : List (Fin 4)) := by decide
  have m3 : (3 : Fin 4) ∉ ([0, 1] : List (Fin 4)) := by decide
  have k2 : (2 : Fin 4) ∈ (rowsDims n0 n1 n2 n3 R C wf).sKept := (GatherDims.mem_sKept _ _).2 ⟨m2, List.not_mem_nil⟩
  have k3 : (3 : Fin 4) ∈ (rowsDims n0 n1 n2 n3 R C wf).sKept := (GatherDims.mem_sKept _ _).2 ⟨m3, List.not_mem_nil⟩
  have A0 : (rowsDims n0 n1 n2 n3 R C wf).start (ix4 b i j d) idx (0 : Fin 4) + (rowsDims n0 n1 n2 n3 R C wf).batchCoord (ix4 b i j d) (0 : Fin 4)
      + (rowsDims n0 n1 n2 n3 R C wf).offCoord (ix4 b i j d) (0 : Fin 4) = min (idx (ix3 b i (0 : Fin 2))).toInt.toNat (n0 - 1) := by
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 4) ∈ (rowsDims n0 n1 n2 n3 R C wf).startIndexMap from m0)]
    have hsi : (rowsDims n0 n1 n2 n3 R C wf).siIdx (ix4 b i j d) ⟨List.idxOf (0 : Fin 4) (rowsDims n0 n1 n2 n3 R C wf).startIndexMap,
        List.idxOf_lt_length_iff.2 m0⟩ = ix3 b i (0 : Fin 2) := by
      funext c; refine Fin.ext ?_
      match c with
      | ⟨0, _⟩ => rfl
      | ⟨1, _⟩ => rfl
      | ⟨2, _⟩ => rfl
    rw [hsi]
    rfl
  have A1 : (rowsDims n0 n1 n2 n3 R C wf).start (ix4 b i j d) idx (1 : Fin 4) + (rowsDims n0 n1 n2 n3 R C wf).batchCoord (ix4 b i j d) (1 : Fin 4)
      + (rowsDims n0 n1 n2 n3 R C wf).offCoord (ix4 b i j d) (1 : Fin 4) = min (idx (ix3 b i (1 : Fin 2))).toInt.toNat (n1 - 1) := by
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 4) ∈ (rowsDims n0 n1 n2 n3 R C wf).startIndexMap from m1)]
    have hsi : (rowsDims n0 n1 n2 n3 R C wf).siIdx (ix4 b i j d) ⟨List.idxOf (1 : Fin 4) (rowsDims n0 n1 n2 n3 R C wf).startIndexMap,
        List.idxOf_lt_length_iff.2 m1⟩ = ix3 b i (1 : Fin 2) := by
      funext c; refine Fin.ext ?_
      match c with
      | ⟨0, _⟩ => rfl
      | ⟨1, _⟩ => rfl
      | ⟨2, _⟩ => rfl
    rw [hsi]
    rfl
  have A2 : (rowsDims n0 n1 n2 n3 R C wf).start (ix4 b i j d) idx (2 : Fin 4) + (rowsDims n0 n1 n2 n3 R C wf).batchCoord (ix4 b i j d) (2 : Fin 4)
      + (rowsDims n0 n1 n2 n3 R C wf).offCoord (ix4 b i j d) (2 : Fin 4) = j.val := by
    rw [GatherDims.batchCoord_eq_zero _ _ _ List.not_mem_nil]
    unfold GatherDims.start
    rw [dif_neg (show (2 : Fin 4) ∉ (rowsDims n0 n1 n2 n3 R C wf).startIndexMap from m2)]
    unfold GatherDims.offCoord
    rw [dif_pos k2]
    simp only [Nat.add_zero, Nat.zero_add]
    rfl
  have A3 : (rowsDims n0 n1 n2 n3 R C wf).start (ix4 b i j d) idx (3 : Fin 4) + (rowsDims n0 n1 n2 n3 R C wf).batchCoord (ix4 b i j d) (3 : Fin 4)
      + (rowsDims n0 n1 n2 n3 R C wf).offCoord (ix4 b i j d) (3 : Fin 4) = d.val := by
    rw [GatherDims.batchCoord_eq_zero _ _ _ List.not_mem_nil]
    unfold GatherDims.start
    rw [dif_neg (show (3 : Fin 4) ∉ (rowsDims n0 n1 n2 n3 R C wf).startIndexMap from m3)]
    unfold GatherDims.offCoord
    rw [dif_pos k3]
    simp only [Nat.add_zero, Nat.zero_add]
    rfl
  unfold Host.gather
  congr 1
  funext a
  refine Fin.ext ?_
  match a with
  | ⟨0, _⟩ => exact A0
  | ⟨1, _⟩ => exact A1
  | ⟨2, _⟩ => exact A2
  | ⟨3, _⟩ => exact A3

end Gathers

section Gathers2
variable {α : Type}

/-- Dimension numbers of a gather of single entries out of an [n0, n1] operand at an [R, C, 2] array of start pairs. -/
abbrev entryDims (n0 n1 R C : Nat)
    (wf : GatherDims.WF ⟨2, ![n0, n1]⟩ ⟨3, ![R, C, 2]⟩ ⟨2, ![R, C]⟩ [] [0, 1] [] [0, 1] [] 2 ![1, 1]) :
    GatherDims ⟨2, ![n0, n1]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

/-- Such a gather at (b, i) reads the operand at the start pair (b, i) names, each component read signed and clamped. -/
theorem gather_entry_apply {n0 n1 R C w : Nat} (h0 : 0 < n0) (h1 : 0 < n1)
    (wf : GatherDims.WF ⟨2, ![n0, n1]⟩ ⟨3, ![R, C, 2]⟩ ⟨2, ![R, C]⟩ [] [0, 1] [] [0, 1] [] 2 ![1, 1])
    (x : (⟨2, ![n0, n1]⟩ : Shape).Idx → α) (idx : IVec ⟨3, ![R, C, 2]⟩ w) (b : Fin R) (i : Fin C) :
    Host.gather (entryDims n0 n1 R C wf) x idx (ix2 b i)
      = x (ix2 ⟨min (idx (ix3 b i (0 : Fin 2))).toInt.toNat (n0 - 1), by omega⟩
            ⟨min (idx (ix3 b i (1 : Fin 2))).toInt.toNat (n1 - 1), by omega⟩) := by
  have m0 : (0 : Fin 2) ∈ ([0, 1] : List (Fin 2)) := by decide
  have m1 : (1 : Fin 2) ∈ ([0, 1] : List (Fin 2)) := by decide
  have A0 : (entryDims n0 n1 R C wf).start (ix2 b i) idx (0 : Fin 2) + (entryDims n0 n1 R C wf).batchCoord (ix2 b i) (0 : Fin 2)
      + (entryDims n0 n1 R C wf).offCoord (ix2 b i) (0 : Fin 2) = min (idx (ix3 b i (0 : Fin 2))).toInt.toNat (n0 - 1) := by
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 2) ∈ (entryDims n0 n1 R C wf).startIndexMap from m0)]
    have hsi : (entryDims n0 n1 R C wf).siIdx (ix2 b i) ⟨List.idxOf (0 : Fin 2) (entryDims n0 n1 R C wf).startIndexMap,
        List.idxOf_lt_length_iff.2 m0⟩ = ix3 b i (0 : Fin 2) := by
      funext c; refine Fin.ext ?_
      match c with
      | ⟨0, _⟩ => rfl
      | ⟨1, _⟩ => rfl
      | ⟨2, _⟩ => rfl
    rw [hsi]
    rfl
  have A1 : (entryDims n0 n1 R C wf).start (ix2 b i) idx (1 : Fin 2) + (entryDims n0 n1 R C wf).batchCoord (ix2 b i) (1 : Fin 2)
      + (entryDims n0 n1 R C wf).offCoord (ix2 b i) (1 : Fin 2) = min (idx (ix3 b i (1 : Fin 2))).toInt.toNat (n1 - 1) := by
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 2) ∈ (entryDims n0 n1 R C wf).startIndexMap from m1)]
    have hsi : (entryDims n0 n1 R C wf).siIdx (ix2 b i) ⟨List.idxOf (1 : Fin 2) (entryDims n0 n1 R C wf).startIndexMap,
        List.idxOf_lt_length_iff.2 m1⟩ = ix3 b i (1 : Fin 2) := by
      funext c; refine Fin.ext ?_
      match c with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact A0
  | ⟨1, _⟩ => exact A1

/-- Dimension numbers of a gather of whole columns [B] out of a [B, n1, n2] operand at a [P, 2] table of start pairs. -/
abbrev pairDims (B n1 n2 P : Nat)
    (wf : GatherDims.WF ⟨3, ![B, n1, n2]⟩ ⟨2, ![P, 2]⟩ ⟨2, ![B, P]⟩ [0] [1, 2] [] [1, 2] [] 1 ![B, 1, 1]) :
    GatherDims ⟨3, ![B, n1, n2]⟩ ⟨2, ![P, 2]⟩ ⟨2, ![B, P]⟩ where
  offsetDims := [0]
  collapsedSliceDims := [1, 2]
  operandBatchingDims := []
  startIndicesBatchingDims := []
  startIndexMap := [1, 2]
  indexVectorDim := 1
  sliceSizes := ![B, 1, 1]
  wf := wf

/-- Such a gather at (b, p) reads the operand at (b, ·, ·), the two coordinates the p-th start pair, read signed and clamped. -/
theorem gather_pair_apply {B n1 n2 P w : Nat} (h1 : 0 < n1) (h2 : 0 < n2)
    (wf : GatherDims.WF ⟨3, ![B, n1, n2]⟩ ⟨2, ![P, 2]⟩ ⟨2, ![B, P]⟩ [0] [1, 2] [] [1, 2] [] 1 ![B, 1, 1])
    (x : (⟨3, ![B, n1, n2]⟩ : Shape).Idx → α) (idx : IVec ⟨2, ![P, 2]⟩ w) (b : Fin B) (p : Fin P) :
    Host.gather (pairDims B n1 n2 P wf) x idx (ix2 b p)
      = x (ix3 b ⟨min (idx (ix2 p (0 : Fin 2))).toInt.toNat (n1 - 1), by omega⟩
            ⟨min (idx (ix2 p (1 : Fin 2))).toInt.toNat (n2 - 1), by omega⟩) := by
  have m0 : (0 : Fin 3) ∉ ([1, 2] : List (Fin 3)) := by decide
  have m1 : (1 : Fin 3) ∈ ([1, 2] : List (Fin 3)) := by decide
  have m2 : (2 : Fin 3) ∈ ([1, 2] : List (Fin 3)) := by decide
  have k0 : (0 : Fin 3) ∈ (pairDims B n1 n2 P wf).sKept := (GatherDims.mem_sKept _ _).2 ⟨m0, List.not_mem_nil⟩
  have A0 : (pairDims B n1 n2 P wf).start (ix2 b p) idx (0 : Fin 3) + (pairDims B n1 n2 P wf).batchCoord (ix2 b p) (0 : Fin 3)
      + (pairDims B n1 n2 P wf).offCoord (ix2 b p) (0 : Fin 3) = b.val := by
    rw [GatherDims.batchCoord_eq_zero _ _ _ List.not_mem_nil]
    unfold GatherDims.start
    rw [dif_neg (show (0 : Fin 3) ∉ (pairDims B n1 n2 P wf).startIndexMap from m0)]
    unfold GatherDims.offCoord
    rw [dif_pos k0]
    simp only [Nat.add_zero, Nat.zero_add]
    rfl
  have A1 : (pairDims B n1 n2 P wf).start (ix2 b p) idx (1 : Fin 3) + (pairDims B n1 n2 P wf).batchCoord (ix2 b p) (1 : Fin 3)
      + (pairDims B n1 n2 P wf).offCoord (ix2 b p) (1 : Fin 3) = min (idx (ix2 p (0 : Fin 2))).toInt.toNat (n1 - 1) := by
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (pairDims B n1 n2 P wf).startIndexMap from m1)]
    have hsi : (pairDims B n1 n2 P wf).siIdx (ix2 b p) ⟨List.idxOf (1 : Fin 3) (pairDims B n1 n2 P wf).startIndexMap,
        List.idxOf_lt_length_iff.2 m1⟩ = ix2 p (0 : Fin 2) := by
      funext c; refine Fin.ext ?_
      match c with
      | ⟨0, _⟩ => rfl
      | ⟨1, _⟩ => rfl
    rw [hsi]
    rfl
  have A2 : (pairDims B n1 n2 P wf).start (ix2 b p) idx (2 : Fin 3) + (pairDims B n1 n2 P wf).batchCoord (ix2 b p) (2 : Fin 3)
      + (pairDims B n1 n2 P wf).offCoord (ix2 b p) (2 : Fin 3) = min (idx (ix2 p (1 : Fin 2))).toInt.toNat (n2 - 1) := by
    rw [GatherDims.batchCoord_eq_zero _ _ _ List.not_mem_nil,
      GatherDims.offCoord_eq_zero _ _ _ (fun h => ((GatherDims.mem_sKept _ _).mp h).1 m2)]
    simp only [Nat.add_zero]
    unfold GatherDims.start
    rw [dif_pos (show (2 : Fin 3) ∈ (pairDims B n1 n2 P wf).startIndexMap from m2)]
    have hsi : (pairDims B n1 n2 P wf).siIdx (ix2 b p) ⟨List.idxOf (2 : Fin 3) (pairDims B n1 n2 P wf).startIndexMap,
        List.idxOf_lt_length_iff.2 m2⟩ = ix2 p (1 : Fin 2) := by
      funext c; refine Fin.ext ?_
      match c with
      | ⟨0, _⟩ => rfl
      | ⟨1, _⟩ => rfl
    rw [hsi]
    rfl
  unfold Host.gather
  congr 1
  funext a
  refine Fin.ext ?_
  match a with
  | ⟨0, _⟩ => exact A0
  | ⟨1, _⟩ => exact A1
  | ⟨2, _⟩ => exact A2

end Gathers2

/-! ## Words -/

/-- A word whose unsigned value is below 2³¹ is not negative read signed. -/
theorem slt_zero_of_small (w : BitVec 32) (h : w.toNat < 2 ^ 31) : IntOp.cmpi .slt w 0#32 = 0#1 :=
  eq_zero_of_ne_one fun h1 => by
    have := (slt_iff_toNat h (by decide)).1 h1
    simp at this

/-- The negative-index wrap leaves a word below 2³¹ alone. -/
theorem wrap_small (w k : BitVec 32) (h : w.toNat < 2 ^ 31) :
    Scalar.select (IntOp.cmpi .slt w 0#32) (IntOp.addi w k) w = w := by
  rw [slt_zero_of_small w h, select_zero]

/-- A word below 2³¹, read signed and clamped to [0, n], is its unsigned value when that is at most n. -/
theorem clamp_small (w : BitVec 32) (n : Nat) (h : w.toNat ≤ n) (hn : n < 2 ^ 31) : min w.toInt.toNat n = w.toNat := by
  rw [toInt_eq_toNat_of_lt (by omega)]
  simp only [Int.toNat_natCast]
  omega

theorem toNat_ofNat_small (a : Nat) (h : a < 2 ^ 32) : (BitVec.ofNat 32 a).toNat = a := by
  simp [BitVec.toNat_ofNat]; omega

/-! ## The index arrays -/

section Index
variable [hF : Cert.ReferenceIdeal.Facts]

/-- The row of field numbers reads i at (0, i). -/
theorem fieldRow_apply (u : Fin 1) (i : Fin 24) : fieldRow (ix2 u i) = BitVec.ofNat 32 i.val := by
  unfold fieldRow
  refine (broadcastInDim_apply ![1] bcast_S24_S1x24_1 _ (ix2 u i) (ix1 i) fun a => ?_).trans rfl
  match a with
  | ⟨0, _⟩ => rfl

/-- The wrapped row of field numbers still reads i. -/
theorem fieldWrap_apply (u : Fin 1) (i : Fin 24) : fieldWrap (ix2 u i) = BitVec.ofNat 32 i.val := by
  unfold fieldWrap
  show Scalar.select (IntOp.cmpi .slt (fieldRow (ix2 u i)) 0#32) (IntOp.addi (fieldRow (ix2 u i)) 24#32) (fieldRow (ix2 u i)) = _
  rw [fieldRow_apply]
  exact wrap_small _ _ (by rw [toNat_ofNat_small _ (by omega)]; omega)

/-- Under the range hypothesis the wrapped feature index is the feature index. -/
theorem xWrap_apply (x : IVec S16384x24 32) (hx : ∀ j : S16384x24.Idx, (x j).toNat < 10000) (j : S16384x24.Idx) :
    xWrap x j = x j := by
  unfold xWrap
  show Scalar.select (IntOp.cmpi .slt (x j) 0#32) (IntOp.addi (x j) 10000#32) (x j) = _
  exact wrap_small _ _ (by have := hx j; omega)

/-- The field-number column reads i at (b, i, 0). -/
theorem fieldCol_apply (b : Fin 16384) (i : Fin 24) (u : Fin 1) : fieldCol (ix3 b i u) = BitVec.ofNat 32 i.val := by
  unfold fieldCol
  refine (broadcastInDim_apply ![0, 1] bcast_S16384x24_S16384x24x1_0_1 _ (ix3 b i u) (ix2 b i) fun a => ?_).trans ?_
  · match a with
    | ⟨0, _⟩ => rfl
    | ⟨1, _⟩ => rfl
  refine (broadcastInDim_apply ![0, 1] bcast_S1x24_S16384x24_0_1 _ (ix2 b i) (ix2 (0 : Fin 1) i) fun a => ?_).trans ?_
  · match a with
    | ⟨0, _⟩ => rfl
    | ⟨1, _⟩ => rfl
  exact fieldWrap_apply 0 i

/-- The feature-index column reads x at (b, i). -/
theorem xCol_apply (x : IVec S16384x24 32) (hx : ∀ j : S16384x24.Idx, (x j).toNat < 10000) (b : Fin 16384) (i : Fin 24) (u : Fin 1) :
    xCol x (ix3 b i u) = x (ix2 b i) := by
  unfold xCol
  refine (broadcastInDim_apply ![0, 1] bcast_S16384x24_S16384x24x1_0_1 _ (ix3 b i u) (ix2 b i) fun a => ?_).trans ?_
  · match a with
    | ⟨0, _⟩ => rfl
    | ⟨1, _⟩ => rfl
  exact xWrap_apply x hx _

/-- The lookup's index pairs: first the field number … -/
theorem idxE_apply0 (x : IVec S16384x24 32) (b : Fin 16384) (i : Fin 24) :
    idxE x (ix3 b i (0 : Fin 2)) = BitVec.ofNat 32 i.val := by
  unfold idxE
  refine (concatenate_pair_apply_left (2 : Fin 3) fieldCol (xCol x) concatenates_S16384x24x1_S16384x24x1_S16384x24x2_d2
    (ix3 b i (0 : Fin 2)) rfl (ix3 b i (0 : Fin 1)) fun a => ?_).trans (fieldCol_apply b i 0)
  match a with
  | ⟨0, _⟩ => rfl
  | ⟨1, _⟩ => rfl
  | ⟨2, _⟩ => rfl

/-- … then the feature index. -/
theorem idxE_apply1 (x : IVec S16384x24 32) (hx : ∀ j : S16384x24.Idx, (x j).toNat < 10000) (b : Fin 16384) (i : Fin 24) :
    idxE x (ix3 b i (1 : Fin 2)) = x (ix2 b i) := by
  unfold idxE
  refine (concatenate_pair_apply_right (2 : Fin 3) fieldCol (xCol x) concatenates_S16384x24x1_S16384x24x1_S16384x24x2_d2
    (ix3 b i (1 : Fin 2)) rfl rfl (ix3 b i (0 : Fin 1)) (fun a ha => ?_) rfl).trans (xCol_apply x hx b i 0)
  match a with
  | ⟨0, _⟩ => rfl
  | ⟨1, _⟩ => rfl
  | ⟨2, _⟩ => exact absurd rfl ha

end Index

/-! ## The lookups -/

section Lookups
variable [hF : Cert.ReferenceIdeal.Facts]

/-- The looked-up embeddings: entry (b, i, j, d) is field i's selected row, factor d with respect to field j. -/
theorem gathE_apply (x : IVec S16384x24 32) (hx : ∀ j : S16384x24.Idx, (x j).toNat < 10000) (E : FVec Ideal S24x10000x24x16 .f32)
    (b : Fin 16384) (i j : Fin 24) (d : Fin 16) :
    gathE x E (ix4 b i j d) = Cert.Spec.emb x E b i j d := by
  unfold gathE
  refine (gather_rows_apply (by decide) (by decide) gather_S24x10000x24x16_S16384x24x2_S16384x24x24x16_23_01_n_n_01_2_112416_wf
    E (idxE x) b i j d).trans ?_
  have e0 : min (idxE x (ix3 b i (0 : Fin 2))).toInt.toNat (24 - 1) = i.val := by
    rw [idxE_apply0, clamp_small _ _ (by rw [toNat_ofNat_small _ (by omega)]; omega) (by decide), toNat_ofNat_small _ (by omega)]
  have e1 : min (idxE x (ix3 b i (1 : Fin 2))).toInt.toNat (10000 - 1) = (Cert.Spec.rowOf x b i).val := by
    rw [idxE_apply1 x hx, clamp_small _ _ (by have := hx (ix2 b i); omega) (by decide)]
    show _ = (x (ix2 b i)).toNat % 10000
    rw [Nat.mod_eq_of_lt (hx _)]
  unfold Cert.Spec.emb
  exact congrArg E (funext fun a => Fin.ext (by
    match a with
    | ⟨0, _⟩ => exact e0
    | ⟨1, _⟩ => exact e1
    | ⟨2, _⟩ => rfl
    | ⟨3, _⟩ => rfl))

/-- The looked-up linear weights: entry (b, i) is field i's selected weight. -/
theorem gathW_apply (x : IVec S16384x24 32) (hx : ∀ j : S16384x24.Idx, (x j).toNat < 10000) (Wlin : FVec Ideal S24x10000 .f32)
    (b : Fin 16384) (i : Fin 24) :
    Host.gather gather_S24x10000_S16384x24x2_S16384x24_n_01_n_n_01_2_11 Wlin (idxW x) (ix2 b i)
      = Wlin (ix2 i (Cert.Spec.rowOf x b i)) := by
  refine (gather_entry_apply (by decide) (by decide) gather_S24x10000_S16384x24x2_S16384x24_n_01_n_n_01_2_11_wf
    Wlin (idxW x) b i).trans ?_
  have e0 : min (idxW x (ix3 b i (0 : Fin 2))).toInt.toNat (24 - 1) = i.val := by
    show min (idxE x (ix3 b i (0 : Fin 2))).toInt.toNat (24 - 1) = i.val
    rw [idxE_apply0, clamp_small _ _ (by rw [toNat_ofNat_small _ (by omega)]; omega) (by decide), toNat_ofNat_small _ (by omega)]
  have e1 : min (idxW x (ix3 b i (1 : Fin 2))).toInt.toNat (10000 - 1) = (Cert.Spec.rowOf x b i).val := by
    show min (idxE x (ix3 b i (1 : Fin 2))).toInt.toNat (10000 - 1) = _
    rw [idxE_apply1 x hx, clamp_small _ _ (by have := hx (ix2 b i); omega) (by decide)]
    show _ = (x (ix2 b i)).toNat % 10000
    rw [Nat.mod_eq_of_lt (hx _)]
  exact congrArg Wlin (funext fun a => Fin.ext (by
    match a with
    | ⟨0, _⟩ => exact e0
    | ⟨1, _⟩ => exact e1))

end Lookups

/-! ## The interactions -/

section Interactions
variable [hF : Cert.ReferenceIdeal.Facts]

/-- The pairwise interactions: entry (b, i, j) is the inner product over d of the two selected rows' cross factors. -/
theorem inter_apply (x : IVec S16384x24 32) (hx : ∀ j : S16384x24.Idx, (x j).toNat < 10000) (E : FVec Ideal S24x10000x24x16 .f32)
    (b : Fin 16384) (i j : Fin 24) :
    inter x E (ix3 b i j) = Cert.Spec.inter x E b i j := by
  unfold inter
  have hR : S16384x24x24x16.Reduces [3] S16384x24x24 := by decide
  show Ideal.hostReduceAdd reducesTo_S16384x24x24x16_S16384x24x24_d3 (prodE x E) (Ideal.ofBits .f32 0x00000000#32) (ix3 b i j) = _
  rw [Ideal.hostReduceAdd_single _ hR, Ideal.ofBits_zero_f32, zero_add]
  unfold Cert.Spec.inter
  refine Finset.sum_congr rfl fun (d : Fin 16) _ => ?_
  have hl : hR.lift (ix3 b i j) d = (ix4 b i j d : S16384x24x24x16.Idx) := funext fun c => Fin.ext (by
    match c with
    | ⟨0, _⟩ => rfl
    | ⟨1, _⟩ => rfl
    | ⟨2, _⟩ => rfl
    | ⟨3, _⟩ => rfl)
  rw [hl]
  unfold prodE
  rw [mulf_apply, gathE_apply x hx,
    transpose_apply [0, 2, 1, 3] (gathE x E) transposes_S16384x24x24x16_S16384x24x24x16_0_2_1_3 (ix4 b i j d) (ix4 b j i d) (fun c => by
      match c with
      | ⟨0, _⟩ => rfl
      | ⟨1, _⟩ => rfl
      | ⟨2, _⟩ => rfl
      | ⟨3, _⟩ => rfl),
    gathE_apply x hx]

/-- The table of start pairs: first the pair's first field … -/
theorem pairIdx_apply0 (p : Fin 276) : pairIdx (ix2 p (0 : Fin 2)) = iuTab (ix1 p) := by
  unfold pairIdx
  generalize iuTab = iu
  generalize juTab = ju
  refine (concatenate_pair_apply_left (1 : Fin 2) (broadcastInDim S276x1 ![0] bcast_S276_S276x1_0 iu)
    (broadcastInDim S276x1 ![0] bcast_S276_S276x1_0 ju) concatenates_S276x1_S276x1_S276x2_d1
    (ix2 p (0 : Fin 2)) rfl (ix2 p (0 : Fin 1)) fun a => ?_).trans ?_
  · match a with
    | ⟨0, _⟩ => rfl
    | ⟨1, _⟩ => rfl
  refine broadcastInDim_apply ![0] bcast_S276_S276x1_0 iu (ix2 p (0 : Fin 1)) (ix1 p) fun a => ?_
  match a with
  | ⟨0, _⟩ => rfl

/-- … then its second field. -/
theorem pairIdx_apply1 (p : Fin 276) : pairIdx (ix2 p (1 : Fin 2)) = juTab (ix1 p) := by
  unfold pairIdx
  generalize iuTab = iu
  generalize juTab = ju
  refine (concatenate_pair_apply_right (1 : Fin 2) (broadcastInDim S276x1 ![0] bcast_S276_S276x1_0 iu)
    (broadcastInDim S276x1 ![0] bcast_S276_S276x1_0 ju) concatenates_S276x1_S276x1_S276x2_d1
    (ix2 p (1 : Fin 2)) rfl rfl (ix2 p (0 : Fin 1)) (fun a ha => ?_) rfl).trans ?_
  · match a with
    | ⟨0, _⟩ => rfl
    | ⟨1, _⟩ => exact absurd rfl ha
  refine broadcastInDim_apply ![0] bcast_S276_S276x1_0 ju (ix2 p (0 : Fin 1)) (ix1 p) fun a => ?_
  match a with
  | ⟨0, _⟩ => rfl

/-- The interactions at the pairs of the strict upper triangle. -/
theorem pairsR_apply (x : IVec S16384x24 32) (hx : ∀ j : S16384x24.Idx, (x j).toNat < 10000) (E : FVec Ideal S24x10000x24x16 .f32)
    (hiu : iuTab = fun p => BitVec.ofNat 32 (Cert.Spec.pairI (p 0)).val)
    (hju : juTab = fun p => BitVec.ofNat 32 (Cert.Spec.pairJ (p 0)).val)
    (b : Fin 16384) (p : Fin 276) :
    pairsR x E (ix2 b p) = Cert.Spec.pairs x E b p := by
  unfold pairsR
  refine (gather_pair_apply (by decide) (by decide) gather_S16384x24x24_S276x2_S16384x276_0_12_n_n_12_1_1638411_wf
    (inter x E) pairIdx b p).trans ?_
  have hI : iuTab (ix1 p) = BitVec.ofNat 32 (Cert.Spec.pairI p).val := congrFun hiu (ix1 p)
  have hJ : juTab (ix1 p) = BitVec.ofNat 32 (Cert.Spec.pairJ p).val := congrFun hju (ix1 p)
  have e0 : min (pairIdx (ix2 p (0 : Fin 2))).toInt.toNat (24 - 1) = (Cert.Spec.pairI p).val := by
    rw [pairIdx_apply0, hI, clamp_small _ _ (by rw [toNat_ofNat_small _ (by omega)]; omega) (by decide), toNat_ofNat_small _ (by omega)]
  have e1 : min (pairIdx (ix2 p (1 : Fin 2))).toInt.toNat (24 - 1) = (Cert.Spec.pairJ p).val := by
    rw [pairIdx_apply1, hJ, clamp_small _ _ (by rw [toNat_ofNat_small _ (by omega)]; omega) (by decide), toNat_ofNat_small _ (by omega)]
  unfold Cert.Spec.pairs
  refine Eq.trans (congrArg (inter x E) (funext fun a => Fin.ext ?_)) (inter_apply x hx E b (Cert.Spec.pairI p) (Cert.Spec.pairJ p))
  match a with
  | ⟨0, _⟩ => rfl
  | ⟨1, _⟩ => exact e0
  | ⟨2, _⟩ => exact e1

end Interactions

/-! ## A plain product, a bias row and a rectifier read at an entry -/

section Dense

/-- The product of an [M, K] left operand with a [K, N] right operand at entry (a, j): the sum over k. -/
theorem dotGeneral_plain_apply (M K N : Nat) (P : FVec Ideal ⟨2, ![M, K]⟩ .f32) (W : FVec Ideal ⟨2, ![K, N]⟩ .f32)
    (a : Fin M) (j : Fin N) :
    Host.dotGeneral (DotDims.plain M K N) none P W (ix2 a j) = ∑ k : Fin K, P (ix2 a k) * W (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun c => Fin.ext (by
      match c with
      | ⟨0, _⟩ => rfl
      | ⟨1, _⟩ => exact ((DotDims.plain M K N).lhsIdx_val_of_single rfl _ _).trans hk)
  have er : (DotDims.plain M K N).rhsIdx (ix2 a j) ((contrEquiv1 (DotDims.plain M K N) K rfl rfl).symm k) = ix2 k j :=
    funext fun c => Fin.ext (by
      match c with
      | ⟨0, _⟩ => exact ((DotDims.plain M K N).rhsIdx_val_of_single rfl _ _).trans hk
      | ⟨1, _⟩ => rfl)
  rw [el, er]

/-- A bias vector laid as one row and repeated down the rows reads, at (a, j), its entry j. -/
theorem bias_row_apply {α : Type} {M N : Nat} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (j : Fin N) :
    broadcastInDim ⟨2, ![M, N]⟩ ![0, 1] h2 (broadcastInDim ⟨2, ![1, N]⟩ ![1] h1 v) (ix2 a j) = v (ix1 j) := by
  refine (broadcastInDim_apply ![0, 1] h2 _ (ix2 a j) (ix2 (0 : Fin 1) j) fun c => ?_).trans ?_
  · match c with
    | ⟨0, _⟩ => rfl
    | ⟨1, _⟩ =>
      show j.val = if N = 1 then 0 else j.val
      split
      · have := j.isLt; omega
      · rfl
  refine broadcastInDim_apply ![1] h1 v (ix2 (0 : Fin 1) j) (ix1 j) fun c => ?_
  match c with
  | ⟨0, _⟩ =>
    show j.val = if N = 1 then 0 else j.val
    split
    · have := j.isLt; omega
    · rfl

/-- A vector laid as one column reads, at (p, 0), its entry p. -/
theorem col_apply {α : Type} {n : Nat} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  refine broadcastInDim_apply ![0] h v (ix2 p u) (ix1 p) fun c => ?_
  match c with
  | ⟨0, _⟩ =>
    show p.val = if n = 1 then 0 else p.val
    split
    · have := p.isLt; omega
    · rfl

/-- A plain product plus a bias row, at entry (a, j). -/
theorem dense_apply {M K N : Nat} (d : DotDims ⟨2, ![M, K]⟩ ⟨2, ![K, N]⟩ ⟨2, ![M, N]⟩) (hd : d = DotDims.plain M K N)
    (P : FVec Ideal ⟨2, ![M, K]⟩ .f32) (W : FVec Ideal ⟨2, ![K, N]⟩ .f32) (v : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (j : Fin N) :
    addf (Host.dotGeneral d none P W) (broadcastInDim ⟨2, ![M, N]⟩ ![0, 1] h2 (broadcastInDim ⟨2, ![1, N]⟩ ![1] h1 v)) (ix2 a j)
      = (∑ k : Fin K, P (ix2 a k) * W (ix2 k j)) + v (ix1 j) := by
  subst hd
  rw [addf_apply, dotGeneral_plain_apply, bias_row_apply]

/-- The rectifier: the maximum with the zero splat is the maximum with 0. -/
theorem relu_apply {s : Shape} (h : (⟨0, ![]⟩ : Shape).BroadcastsInDim s ![]) (v : FVec Ideal s .f32) (j : s.Idx) :
    maximumf v (broadcastInDim s ![] h (constant (F := Ideal) ⟨0, ![]⟩ .f32 0x00000000#32)) j = max (v j) 0 := by
  rw [maximumf_apply]
  show max (v j) (Ideal.ofBits .f32 0x00000000#32) = _
  rw [Ideal.ofBits_zero_f32]

end Dense

/-! ## The three layers -/

section Layers
variable [hF : Cert.ReferenceIdeal.Facts]

theorem h1R_apply (x : IVec S16384x24 32) (hx : ∀ j : S16384x24.Idx, (x j).toNat < 10000) (E : FVec Ideal S24x10000x24x16 .f32)
    (W1 : FVec Ideal S276x128 .f32) (b1 : FVec Ideal S128 .f32)
    (hiu : iuTab = fun p => BitVec.ofNat 32 (Cert.Spec.pairI (p 0)).val)
    (hju : juTab = fun p => BitVec.ofNat 32 (Cert.Spec.pairJ (p 0)).val)
    (b : Fin 16384) (k : Fin 128) :
    h1R x E W1 b1 (ix2 b k) = Cert.Spec.h1 x E W1 b1 b k := by
  unfold h1R
  refine (relu_apply _ _ _).trans ?_
  refine (congrArg (max · 0) (dense_apply dot_S16384x276_S276x128_S16384x128_1_0_0_1_n_n rfl (pairsR x E) W1 b1
    bcast_S128_S1x128_1 bcast_S1x128_S16384x128_0_1 b k)).trans ?_
  unfold Cert.Spec.h1
  refine congrArg (fun s => max (s + b1 (ix1 k)) 0) (Finset.sum_congr rfl fun p _ => ?_)
  rw [pairsR_apply x hx E hiu hju]

theorem h2R_apply (x : IVec S16384x24 32) (hx : ∀ j : S16384x24.Idx, (x j).toNat < 10000) (E : FVec Ideal S24x10000x24x16 .f32)
    (W1 : FVec Ideal S276x128 .f32) (b1 : FVec Ideal S128 .f32) (W2 : FVec Ideal S128x64 .f32) (b2 : FVec Ideal S64 .f32)
    (hiu : iuTab = fun p => BitVec.ofNat 32 (Cert.Spec.pairI (p 0)).val)
    (hju : juTab = fun p => BitVec.ofNat 32 (Cert.Spec.pairJ (p 0)).val)
    (b : Fin 16384) (k : Fin 64) :
    h2R x E W1 b1 W2 b2 (ix2 b k) = Cert.Spec.h2 x E W1 b1 W2 b2 b k := by
  unfold h2R
  refine (relu_apply _ _ _).trans ?_
  refine (congrArg (max · 0) (dense_apply dot_S16384x128_S128x64_S16384x64_1_0_0_1_n_n rfl (h1R x E W1 b1) W2 b2
    bcast_S64_S1x64_1 bcast_S1x64_S16384x64_0_1 b k)).trans ?_
  unfold Cert.Spec.h2
  refine congrArg (fun s => max (s + b2 (ix1 k)) 0) (Finset.sum_congr rfl fun q _ => ?_)
  rw [h1R_apply x hx E W1 b1 hiu hju]

theorem nnR_apply (x : IVec S16384x24 32) (hx : ∀ j : S16384x24.Idx, (x j).toNat < 10000) (E : FVec Ideal S24x10000x24x16 .f32)
    (W1 : FVec Ideal S276x128 .f32) (b1 : FVec Ideal S128 .f32) (W2 : FVec Ideal S128x64 .f32) (b2 : FVec Ideal S64 .f32)
    (W3 : FVec Ideal S64x1 .f32) (b3 : FVec Ideal S1 .f32)
    (hiu : iuTab = fun p => BitVec.ofNat 32 (Cert.Spec.pairI (p 0)).val)
    (hju : juTab = fun p => BitVec.ofNat 32 (Cert.Spec.pairJ (p 0)).val)
    (b : Fin 16384) :
    nnR x E W1 b1 W2 b2 W3 b3 (ix2 b (0 : Fin 1)) = Cert.Spec.nn x E W1 b1 W2 b2 W3 b3 b := by
  unfold nnR
  refine (dense_apply dot_S16384x64_S64x1_S16384x1_1_0_0_1_n_n rfl (h2R x E W1 b1 W2 b2) W3 b3
    bcast_S1_S1x1_1 bcast_S1x1_S16384x1_0_1 b 0).trans ?_
  unfold Cert.Spec.nn
  refine congrArg (fun s => s + b3 (ix1 (0 : Fin 1))) (Finset.sum_congr rfl fun q _ => ?_)
  rw [h2R_apply x hx E W1 b1 W2 b2 hiu hju]

end Layers

/-! ## The linear term and the result -/

section Result
variable [hF : Cert.ReferenceIdeal.Facts]

theorem linR_apply (x : IVec S16384x24 32) (hx : ∀ j : S16384x24.Idx, (x j).toNat < 10000) (Wlin : FVec Ideal S24x10000 .f32)
    (blin : FVec Ideal S1 .f32) (b : Fin 16384) :
    linR x Wlin blin (ix2 b (0 : Fin 1)) = Cert.Spec.lin x Wlin b + blin (ix1 (0 : Fin 1)) := by
  unfold linR
  rw [addf_apply, bias_row_apply blin bcast_S1_S1x1_1 bcast_S1x1_S16384x1_0_1 b 0]
  refine congrArg (· + blin (ix1 (0 : Fin 1))) ?_
  refine (col_apply bcast_S16384_S16384x1_0 _ b 0).trans ?_
  have hR : S16384x24.Reduces [1] S16384 := by decide
  show Ideal.hostReduceAdd reducesTo_S16384x24_S16384_d1
    (Host.gather gather_S24x10000_S16384x24x2_S16384x24_n_01_n_n_01_2_11 Wlin (idxW x)) (Ideal.ofBits .f32 0x00000000#32) (ix1 b) = _
  rw [Ideal.hostReduceAdd_single _ hR, Ideal.ofBits_zero_f32, zero_add]
  unfold Cert.Spec.lin
  refine Finset.sum_congr rfl fun (i : Fin 24) _ => ?_
  have hl : hR.lift (ix1 b) i = (ix2 b i : S16384x24.Idx) := funext fun c => Fin.ext (by
    match c with
    | ⟨0, _⟩ => rfl
    | ⟨1, _⟩ => rfl)
  rw [hl, gathW_apply x hx]

/-- The reference's result is the specification's array, given what the two index tables hold. -/
theorem refOut_eq_of_tables (x : IVec S16384x24 32) (E : FVec Ideal S24x10000x24x16 .f32) (Wlin : FVec Ideal S24x10000 .f32)
    (blin : FVec Ideal S1 .f32) (W1 : FVec Ideal S276x128 .f32) (b1 : FVec Ideal S128 .f32) (W2 : FVec Ideal S128x64 .f32)
    (b2 : FVec Ideal S64 .f32) (W3 : FVec Ideal S64x1 .f32) (b3 : FVec Ideal S1 .f32)
    (hx : ∀ j : S16384x24.Idx, (x j).toNat < 10000)
    (hiu : iuTab = fun p => BitVec.ofNat 32 (Cert.Spec.pairI (p 0)).val)
    (hju : juTab = fun p => BitVec.ofNat 32 (Cert.Spec.pairJ (p 0)).val) :
    refOut (F := Ideal) x E Wlin blin W1 b1 W2 b2 W3 b3 = Cert.Spec.G x E Wlin blin W1 b1 W2 b2 W3 b3 := by
  funext j
  obtain ⟨b, u, rfl⟩ : ∃ (b : Fin 16384) (u : Fin 1), j = ix2 b u := ⟨j 0, j 1, eq_ix2 j⟩
  obtain rfl : u = 0 := Subsingleton.elim _ _
  unfold refOut Cert.Spec.G Cert.Spec.out
  rw [addf_apply, linR_apply x hx, nnR_apply x hx E W1 b1 W2 b2 W3 b3 hiu hju]

end Result

end Cert.ReferenceIdeal.Hand.Value

end
-- ==== Proof.PreDecode.lean ====
/-
  The precondition's last conjunct, read back. The printed precondition is one `i1` word: the conjunction of nine
  finiteness tests of the float inputs and, last, the reduction by `and` over both axes of the mask
  (x ≥ 0) ∧ (x < 10000), signed, of the 32-bit index array x. When the word is 1 every conjunct is 1; the last, a
  reduction by `and` into a result of one index, is 1 only if the mask is 1 at every index; there both signed
  comparisons hold, and a word in [0, 10000) signed has unsigned value below 10000.
-/
import proofs.«405942_j90769838833781_3_alg».proof.Pre_finite_inputs
import proofs.«405942_j90769838833781_3_alg».proof.Proof.Gen.Pre_finite_inputs
import Idealize.ShloMosaic.Lib.Affine
import Idealize.ShloMosaic.Lib.ReduceAll
import Idealize.ShloMosaic.Lib.StableHlo.Predicate
import Idealize.ShloMosaic.Lib.ValueIdx

noncomputable section

namespace Cert.PreDecode

open Idealize.ShloMosaic
open Cert.Pre_finite_inputs Cert.Pre_finite_inputs.Gen

/-- The rank-0 shape has one index. -/
instance : Subsingleton S_.Idx := ⟨fun a b => funext fun d => d.elim0⟩

/-- A 32-bit word w with 0 ≤ w and w < 10000, both signed, has unsigned value below 10000. -/
theorem toNat_lt_of_signed_range (w : BitVec 32) (h0 : IntOp.cmpi .sge w (0#32) = 1#1)
    (h1 : IntOp.cmpi .slt w (10000#32) = 1#1) : w.toNat < 10000 := by
  rw [IntOp.cmpi_sge] at h0
  rw [IntOp.cmpi_slt] at h1
  have hz : (0#32).toInt = 0 := by decide
  have hc : (10000#32).toInt = 10000 := by decide
  have hw := BitVec.toInt_eq_toNat_cond w
  rw [hz] at h0
  rw [hc] at h1
  split at hw <;> omega

/-- Every entry of x is below 10000 when the precondition holds. -/
theorem x_range {F : FTy → Type} [FloatOps F] (x : IVec S16384x24 32) (E : FVec F S24x10000x24x16 .f32)
    (Wlin : FVec F S24x10000 .f32) (blin : FVec F S1 .f32) (W1 : FVec F S276x128 .f32) (b1 : FVec F S128 .f32)
    (W2 : FVec F S128x64 .f32) (b2 : FVec F S64 .f32) (W3 : FVec F S64x1 .f32) (b3 : FVec F S1 .f32)
    (h : Cert.Pre_finite_inputs.fn (F := F) x E Wlin blin W1 b1 W2 b2 W3 b3 = fun _ => 1#1) :
    ∀ j : S16384x24.Idx, (x j).toNat < 10000 := by
  intro j
  have e := congrFun h ValueIdx.ix0
  dsimp only [Cert.Pre_finite_inputs.fn, fn_part1, fn_part2] at e
  -- the last conjunct: the reduction of the mask over both axes
  have hr := (IntOp.andi_eq_one.1 e).2
  -- the mask at j
  have hm := Host.reduce_andi_all _ _ _ _ _ hr j
  obtain ⟨hge, hlt⟩ := IntOp.andi_eq_one.1 hm
  exact toNat_lt_of_signed_range (x j) hge hlt

end Cert.PreDecode

end
-- ==== Proof.lean ====
/-
  The five conjuncts of the claim.

  The kernel gathers, field by field, the table row each batch row's integer selects, by multiplying a one-hot
  matrix with the field's table (a sum over the 10000 rows of which one term survives, since zero times any
  extended real is zero), keeps the 24 gathered slabs of a batch tile in a scratch buffer, accumulates the selected
  linear weights, and at the tile's last field forms the 276 pairwise interactions and the three-layer perceptron.
  The reference gathers the rows directly, forms all 24 × 24 interactions and picks the strict upper triangle with
  index tables it computes.  Both end at the specification `Cert.Spec.G` of the argument arrays, entry by entry,
  once every integer lies in `[0, 10000)`, which the precondition states.  The word-level program's frame says
  nothing of values; the idealization's one rewrite is the ledger's rule.
-/
import proofs.«405942_j90769838833781_3_alg».proof.Defs
import proofs.«405942_j90769838833781_3_alg».proof.Proof.Gen.Kernel
import proofs.«405942_j90769838833781_3_alg».proof.Proof.Gen.KernelIdeal
import proofs.«405942_j90769838833781_3_alg».proof.Proof.Gen.ReferenceIdeal
import proofs.«405942_j90769838833781_3_alg».proof.Proof.Gen.Pre_finite_inputs
import proofs.«405942_j90769838833781_3_alg».proof.Proof.KB.Frame
import proofs.«405942_j90769838833781_3_alg».proof.Proof.KI.Value
import proofs.«405942_j90769838833781_3_alg».proof.Proof.RefRun
import proofs.«405942_j90769838833781_3_alg».proof.Proof.RefValue
import proofs.«405942_j90769838833781_3_alg».proof.Proof.RefTables
import proofs.«405942_j90769838833781_3_alg».proof.Proof.PreDecode
import Idealize.ShloMosaic.Adequacy
import Idealize.ShloMosaic.Init

noncomputable section

namespace Cert.Proof

open Idealize.ShloMosaic Idealize.SL.Sem

/-- The precondition bounds every integer of the idealized kernel's first argument. -/
theorem x_in_range (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (j : Cert.KernelIdeal.S16384x24.Idx) : ((Cert.KernelIdeal.Hand.aX m c) j).toNat < 10000 :=
  Cert.PreDecode.x_range _ _ _ _ _ _ _ _ _ _ (h c) j

theorem frame_k : Cert.frame_Kernel (hKernel := Cert.Kernel.Gen.facts) (hPre_finite_inputs := Cert.Pre_finite_inputs.Gen.facts) :=
  fun m ρ _ => Cert.Kernel.Hand.Plain.frame m ρ

theorem frame_ki : Cert.frame_KernelIdeal (hKernelIdeal := Cert.KernelIdeal.Gen.facts) (hPre_finite_inputs := Cert.Pre_finite_inputs.Gen.facts) :=
  fun m ρ hpre => (θ_run Cert.KernelIdeal.defs _ _).mono (fun _ h c => (h c).2)
    (Cert.KernelIdeal.Hand.run_value m ρ (x_in_range m hpre))

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

theorem preserves : Cert.preserves_Kernel_KernelIdeal :=
  IdealRules.truncf_extf.statement Cert.KernelIdeal.S128x10000 .f32 .bf16

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.aG m c, Cert.KernelIdeal.Hand.run_value m ρ (x_in_range m hpre), ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8, e9⟩ := hagree c
  rw [e0, e1, e2, e3, e4, e5, e6, e7, e8, e9]
  exact Cert.ReferenceIdeal.Hand.Value.refOut_eq_of_tables _ _ _ _ _ _ _ _ _ _ (x_in_range m hpre c)
    Cert.ReferenceIdeal.Hand.iuTab_eq Cert.ReferenceIdeal.Hand.juTab_eq

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
